-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v62)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v62) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v99) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S128x256 : Shape := ⟨2, ![128, 256]⟩
abbrev S256 : Shape := ⟨1, ![256]⟩
abbrev S256x128 : Shape := ⟨2, ![256, 128]⟩
abbrev S128x1 : Shape := ⟨2, ![128, 1]⟩
abbrev S1 : Shape := ⟨1, ![1]⟩
abbrev S_ : Shape := ⟨0, ![]⟩
abbrev S1x1600000 : Shape := ⟨2, ![1, 1600000]⟩
abbrev S1600000 : Shape := ⟨1, ![1600000]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_
  slices_S2x1600000_S1x1600000_0_0 : S2x1600000.Slices ![0, 0] S1x1600000
  shapeCasts_S1x1600000_S1600000 : S1x1600000.ShapeCasts S1600000
  bcast_S_S1600000 : S_.BroadcastsInDim S1600000 (![] : Fin 0 → Fin S1600000.rank)
  reducesTo_S1600000_S_d0 : S1600000.ReducesTo [0] S_

variable [Facts]

def fn_part3 {F : FTy → Type} [FloatOps F] (main_arg1 : IVec S2x1600000 32) (main_v48 : IVec S_ 1) (main_v49 : FVec F S1 .f32) (main_v50 : FVec F S1 .f32) : IVec S_ 1 :=
  let main_v51 : IVec S1 1 := cmpf .olt main_v49 main_v50
  let main_c_19 : IVec S_ 1 := constantI S_ 1 1#1
  let main_v52 : IVec S_ 1 := (fun x v => Host.reduce IntOp.andi x v reducesTo_S1_S_d0 h_S_) main_v51 main_c_19
  let main_v53 : IVec S_ 1 := andi main_v48 main_v52
  let main_v54 : IVec S1x1600000 32 := (extractStridedSlice S1x1600000 ![0, 0] · slices_S2x1600000_S1x1600000_0_0) main_arg1
  let main_v55 : IVec S1600000 32 := shapeCast S1600000 main_v54 shapeCasts_S1x1600000_S1600000
  let main_c_20 : IVec S_ 32 := constantI S_ 32 0#32
  let main_v56 : IVec S1600000 32 := broadcastInDim S1600000 ![] bcast_S_S1600000 main_c_20
  let main_v57 : IVec S1600000 1 := cmpi .sge main_v55 main_v56
  let main_v58 : IVec S1x1600000 32 := (extractStridedSlice S1x1600000 ![0, 0] · slices_S2x1600000_S1x1600000_0_0) main_arg1
  let main_v59 : IVec S1600000 32 := shapeCast S1600000 main_v58 shapeCasts_S1x1600000_S1600000
  let main_c_21 : IVec S_ 32 := constantI S_ 32 100000#32
  let main_v60 : IVec S1600000 32 := broadcastInDim S1600000 ![] bcast_S_S1600000 main_c_21
  let main_v61 : IVec S1600000 1 := cmpi .slt main_v59 main_v60
  let main_v62 : IVec S1600000 1 := andi main_v57 main_v61
  let main_c_22 : IVec S_ 1 := constantI S_ 1 1#1
  let main_v63 : IVec S_ 1 := (fun x v => Host.reduce IntOp.andi x v reducesTo_S1600000_S_d0 h_S_) main_v62 main_c_22
  let main_v64 : IVec S_ 1 := andi main_v53 main_v63
  main_v64

def fn_part2 {F : FTy → Type} [FloatOps F] (main_arg1 : IVec S2x1600000 32) (main_arg9 : FVec F S256x128 .f32) (main_arg10 : FVec F S128 .f32) (main_arg11 : FVec F S128x1 .f32) (main_arg12 : FVec F S1 .f32) (main_v33 : IVec S_ 1) : IVec S_ 1 :=
  let main_v34 : FVec F S256x128 .f32 := Host.absf main_arg9
  let main_cst_12 : FVec F S_ .f32 := constant S_ .f32 0x7F800000#32
  let main_v35 : FVec F S256x128 .f32 := broadcastInDim S256x128 ![] bcast_S_S256x128 main_cst_12
  let main_v36 : IVec S256x128 1 := cmpf .olt main_v34 main_v35
  let main_c_13 : IVec S_ 1 := constantI S_ 1 1#1
  let main_v37 : IVec S_ 1 := (fun x v => Host.reduce IntOp.andi x v reducesTo_S256x128_S_d0_1 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x1 .f32 := Host.absf main_arg11
  let main_cst_16 : FVec F S_ .f32 := constant S_ .f32 0x7F800000#32
  let main_v45 : FVec F S128x1 .f32 := broadcastInDim S128x1 ![] bcast_S_S128x1 main_cst_16
  let main_v46 : IVec S128x1 1 := cmpf .olt main_v44 main_v45
  let main_c_17 : IVec S_ 1 := constantI S_ 1 1#1
  let main_v47 : IVec S_ 1 := (fun x v => Host.reduce IntOp.andi x v reducesTo_S128x1_S_d0_1 h_S_) main_v46 main_c_17
  let main_v48 : IVec S_ 1 := andi main_v43 main_v47
  let main_v49 : FVec F S1 .f32 := Host.absf main_arg12
  let main_cst_18 : FVec F S_ .f32 := constant S_ .f32 0x7F800000#32
  let main_v50 : FVec F S1 .f32 := broadcastInDim S1 ![] bcast_S_S1 main_cst_18
  fn_part3 (F := F) main_arg1 main_v48 main_v49 main_v50

def fn_part1 {F : FTy → Type} [FloatOps F] (main_arg1 : IVec S2x1600000 32) (main_arg6 : FVec F S128 .f32) (main_arg7 : FVec F S128x256 .f32) (main_arg8 : FVec F S256 .f32) (main_arg9 : FVec F S256x128 .f32) (main_arg10 : FVec F S128 .f32) (main_arg11 : FVec F S128x1 .f32) (main_arg12 : FVec F S1 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x256 .f32 := Host.absf main_arg7
  let main_cst_8 : FVec F S_ .f32 := constant S_ .f32 0x7F800000#32
  let main_v25 : FVec F S128x256 .f32 := broadcastInDim S128x256 ![] bcast_S_S128x256 main_cst_8
  let main_v26 : IVec S128x256 1 := cmpf .olt main_v24 main_v25
  let main_c_9 : IVec S_ 1 := constantI S_ 1 1#1
  let main_v27 : IVec S_ 1 := (fun x v => Host.reduce IntOp.andi x v reducesTo_S128x256_S_d0_1 h_S_) main_v26 main_c_9
  let main_v28 : IVec S_ 1 := andi main_v23 main_v27
  let main_v29 : FVec F S256 .f32 := Host.absf main_arg8
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg1 main_arg9 main_arg10 main_arg11 main_arg12 main_v33

def fn {F : FTy → Type} [FloatOps F] (main_arg0 : FVec F S100000x128 .f32) (main_arg1 : IVec S2x1600000 32) (main_arg2 : IVec S100000 32) (main_arg3 : FVec F S128x128 .f32) (main_arg4 : FVec F S128 .f32) (main_arg5 : FVec F S128 .f32) (main_arg6 : FVec F S128 .f32) (main_arg7 : FVec F S128x256 .f32) (main_arg8 : FVec F S256 .f32) (main_arg9 : FVec F S256x128 .f32) (main_arg10 : FVec F S128 .f32) (main_arg11 : FVec F S128x1 .f32) (main_arg12 : FVec F S1 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg1 main_arg6 main_arg7 main_arg8 main_arg9 main_arg10 main_arg11 main_arg12 main_v13 main_v16
-- ==== Kernel.lean ====
abbrev S100000x128 : Shape := ⟨2, ![100000, 128]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S128x256 : Shape := ⟨2, ![128, 256]⟩
abbrev S256 : Shape := ⟨1, ![256]⟩
abbrev S256x128 : Shape := ⟨2, ![256, 128]⟩
abbrev S128x1 : Shape := ⟨2, ![128, 1]⟩
abbrev S1 : Shape := ⟨1, ![1]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1x100000 : Shape := ⟨2, ![1, 100000]⟩
abbrev S1x100352 : Shape := ⟨2, ![1, 100352]⟩
abbrev S100352x128 : Shape := ⟨2, ![100352, 128]⟩
abbrev S7168x128 : Shape := ⟨2, ![7168, 128]⟩
abbrev S1x7168 : Shape := ⟨2, ![1, 7168]⟩
abbrev S7168x1 : Shape := ⟨2, ![7168, 1]⟩
abbrev S1600000x128 : Shape := ⟨2, ![1600000, 128]⟩
abbrev S1x128 : Shape := ⟨2, ![1, 128]⟩
abbrev S512x128 : Shape := ⟨2, ![512, 128]⟩
abbrev S512x1 : Shape := ⟨2, ![512, 1]⟩
abbrev S1792x128 : Shape := ⟨2, ![1792, 128]⟩
abbrev S1x1792 : Shape := ⟨2, ![1, 1792]⟩
abbrev S1792x1 : Shape := ⟨2, ![1792, 1]⟩
abbrev S512x1792 : Shape := ⟨2, ![512, 1792]⟩
abbrev S512 : Shape := ⟨1, ![512]⟩
abbrev S1x256 : Shape := ⟨2, ![1, 256]⟩
abbrev S1x1 : Shape := ⟨2, ![1, 1]⟩
abbrev S512x256 : Shape := ⟨2, ![512, 256]⟩

abbrev nBuf : Space → Nat
  | .hbm => 101
  | .vmem => 32
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S100000, .i32⟩
  | .hbm, ⟨3, _⟩ => ⟨S128x128, .f32⟩
  | .hbm, ⟨4, _⟩ => ⟨S128, .f32⟩
  | .hbm, ⟨5, _⟩ => ⟨S128, .f32⟩
  | .hbm, ⟨6, _⟩ => ⟨S128, .f32⟩
  | .hbm, ⟨7, _⟩ => ⟨S128x256, .f32⟩
  | .hbm, ⟨8, _⟩ => ⟨S256, .f32⟩
  | .hbm, ⟨9, _⟩ => ⟨S256x128, .f32⟩
  | .hbm, ⟨10, _⟩ => ⟨S128, .f32⟩
  | .hbm, ⟨11, _⟩ => ⟨S128x1, .f32⟩
  | .hbm, ⟨12, _⟩ => ⟨S1, .f32⟩
  | .hbm, ⟨13, _⟩ => ⟨S1x1600000, .i32⟩
  | .hbm, ⟨14, _⟩ => ⟨S1600000, .i32⟩
  | .hbm, ⟨15, _⟩ => ⟨S1x1600000, .i32⟩
  | .hbm, ⟨16, _⟩ => ⟨S1600000, .i32⟩
  | .hbm, ⟨17, _⟩ => ⟨S1x1600000, .i32⟩
  | .hbm, ⟨18, _⟩ => ⟨S1600000, .i32⟩
  | .hbm, ⟨19, _⟩ => ⟨S_, .f32⟩
  | .hbm, ⟨20, _⟩ => ⟨S1600000, .f32⟩
  | .hbm, ⟨21, _⟩ => ⟨S_, .f32⟩
  | .hbm, ⟨22, _⟩ => ⟨S100000, .f32⟩
  | .hbm, ⟨23, _⟩ => ⟨S1600000x1, .i32⟩
  | .hbm, ⟨24, _⟩ => ⟨S100000, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S100000, .f32⟩
  | .hbm, ⟨29, _⟩ => ⟨S1x100000, .f32⟩
  | .hbm, ⟨30, _⟩ => ⟨S_, .i32⟩
  | .hbm, ⟨31, _⟩ => ⟨S_, .f32⟩
  | .hbm, ⟨32, _⟩ => ⟨S1x100352, .f32⟩
  | .hbm, ⟨33, _⟩ => ⟨S_, .i32⟩
  | .hbm, ⟨34, _⟩ => ⟨S_, .f32⟩
  | .hbm, ⟨35, _⟩ => ⟨S100352x128, .f32⟩
  | .hbm, ⟨36, _⟩ => ⟨S100352x128, .f32⟩
  | .hbm, ⟨37, _⟩ => ⟨S_, .i32⟩
  | .hbm, ⟨38, _⟩ => ⟨S1600000, .i32⟩
  | .hbm, ⟨39, _⟩ => ⟨S1600000, .i1⟩
  | .hbm, ⟨40, _⟩ => ⟨S_, .i32⟩
  | .hbm, ⟨41, _⟩ => ⟨S1600000, .i32⟩
  | .hbm, ⟨42, _⟩ => ⟨S1600000, .i32⟩
  | .hbm, ⟨43, _⟩ => ⟨S1600000, .i32⟩
  | .hbm, ⟨44, _⟩ => ⟨S1600000x1, .i32⟩
  | .hbm, ⟨45, _⟩ => ⟨S1600000x128, .f32⟩
  | .hbm, ⟨46, _⟩ => ⟨S_, .f32⟩
  | .hbm, ⟨47, _⟩ => ⟨S100352x128, .f32⟩
  | .hbm, ⟨48, _⟩ => ⟨S1600000x1, .i32⟩
  | .hbm, ⟨49, _⟩ => ⟨S100352x128, .f32⟩
  | .hbm, ⟨50, _⟩ => ⟨S1x128, .f32⟩
  | .hbm, ⟨51, _⟩ => ⟨S1x100000, .i32⟩
  | .hbm, ⟨52, _⟩ => ⟨S_, .i32⟩
  | .hbm, ⟨53, _⟩ => ⟨S_, .i32⟩
  | .hbm, ⟨54, _⟩ => ⟨S1x100352, .i32⟩
  | .hbm, ⟨55, _⟩ => ⟨S1x128, .f32⟩
  | .hbm, ⟨56, _⟩ => ⟨S1x128, .f32⟩
  | .hbm, ⟨57, _⟩ => ⟨S512x128, .f32⟩
  | .hbm, ⟨58, _⟩ => ⟨S512x1, .f32⟩
  | .hbm, ⟨59, _⟩ => ⟨S_, .f32⟩
  | .hbm, ⟨60, _⟩ => ⟨S1x128, .f32⟩
  | .hbm, ⟨61, _⟩ => ⟨S1x128, .f32⟩
  | .hbm, ⟨62, _⟩ => ⟨S_, .f32⟩
  | .hbm, ⟨63, _⟩ => ⟨S1x128, .f32⟩
  | .hbm, ⟨64, _⟩ => ⟨S1x128, .f32⟩
  | .hbm, ⟨65, _⟩ => ⟨S1x128, .f32⟩
  | .hbm, ⟨66, _⟩ => ⟨S1x128, .f32⟩
  | .hbm, ⟨67, _⟩ => ⟨S_, .f32⟩
  | .hbm, ⟨68, _⟩ => ⟨S1x128, .f32⟩
  | .hbm, ⟨69, _⟩ => ⟨S1x128, .f32⟩
  | .hbm, ⟨70, _⟩ => ⟨S_, .f32⟩
  | .hbm, ⟨71, _⟩ => ⟨S1x128, .f32⟩
  | .hbm, ⟨72, _⟩ => ⟨S1x128, .f32⟩
  | .hbm, ⟨73, _⟩ => ⟨S1x128, .f32⟩
  | .hbm, ⟨74, _⟩ => ⟨S_, .f32⟩
  | .hbm, ⟨75, _⟩ => ⟨S512x1, .f32⟩
  | .hbm, ⟨76, _⟩ => ⟨S512x1, .f32⟩
  | .hbm, ⟨77, _⟩ => ⟨S512x128, .f32⟩
  | .hbm, ⟨78, _⟩ => ⟨S512x128, .f32⟩
  | .hbm, ⟨79, _⟩ => ⟨S1x128, .f32⟩
  | .hbm, ⟨80, _⟩ => ⟨S1x128, .f32⟩
  | .hbm, ⟨81, _⟩ => ⟨S_, .f32⟩
  | .hbm, ⟨82, _⟩ => ⟨S512x1, .f32⟩
  | .hbm, ⟨83, _⟩ => ⟨S512x1, .i1⟩
  | .hbm, ⟨84, _⟩ => ⟨S512x128, .f32⟩
  | .hbm, ⟨85, _⟩ => ⟨S512x128, .f32⟩
  | .hbm, ⟨86, _⟩ => ⟨S512x128, .f32⟩
  | .hbm, ⟨87, _⟩ => ⟨S512x128, .f32⟩
  | .hbm, ⟨88, _⟩ => ⟨S512x128, .f32⟩
  | .hbm, ⟨89, _⟩ => ⟨S512x128, .f32⟩
  | .hbm, ⟨90, _⟩ => ⟨S512x128, .f32⟩
  | .hbm, ⟨91, _⟩ => ⟨S512x128, .f32⟩
  | .hbm, ⟨92, _⟩ => ⟨S_, .f32⟩
  | .hbm, ⟨93, _⟩ => ⟨S_, .f32⟩
  | .hbm, ⟨94, _⟩ => ⟨S512x128, .i1⟩
  | .hbm, ⟨95, _⟩ => ⟨S512x128, .f32⟩
  | .hbm, ⟨96, _⟩ => ⟨S512x128, .f32⟩
  | .hbm, ⟨97, _⟩ => ⟨S1x256, .f32⟩
  | .hbm, ⟨98, _⟩ => ⟨S1x128, .f32⟩
  | .hbm, ⟨99, _⟩ => ⟨S1x1, .f32⟩
  | .hbm, ⟨100, _⟩ => ⟨S512x1, .f32⟩
  | .local _ .vmem, ⟨0, _⟩ => ⟨S7168x128, .f32⟩
  | .local _ .vmem, ⟨1, _⟩ => ⟨S7168x128, .f32⟩
  | .local _ .vmem, ⟨2, _⟩ => ⟨S128x128, .f32⟩
  | .local _ .vmem, ⟨3, _⟩ => ⟨S1x7168, .f32⟩
  | .local _ .vmem, ⟨4, _⟩ => ⟨S1x7168, .f32⟩
  | .local _ .vmem, ⟨5, _⟩ => ⟨S7168x128, .f32⟩
  | .local _ .vmem, ⟨6, _⟩ => ⟨S7168x128, .f32⟩
  | .local _ .vmem, ⟨7, _⟩ => ⟨S1792x128, .f32⟩
  | .local _ .vmem, ⟨8, _⟩ => ⟨S1792x128, .f32⟩
  | .local _ .vmem, ⟨9, _⟩ => ⟨S1792x128, .f32⟩
  | .local _ .vmem, ⟨10, _⟩ => ⟨S1792x128, .f32⟩
  | .local _ .vmem, ⟨11, _⟩ => ⟨S1x1792, .f32⟩
  | .local _ .vmem, ⟨12, _⟩ => ⟨S1x1792, .f32⟩
  | .local _ .vmem, ⟨13, _⟩ => ⟨S1x128, .f32⟩
  | .local _ .vmem, ⟨14, _⟩ => ⟨S1x1792, .i32⟩
  | .local _ .vmem, ⟨15, _⟩ => ⟨S1x1792, .i32⟩
  | .local _ .vmem, ⟨16, _⟩ => ⟨S1x128, .f32⟩
  | .local _ .vmem, ⟨17, _⟩ => ⟨S1x128, .f32⟩
  | .local _ .vmem, ⟨18, _⟩ => ⟨S512x128, .f32⟩
  | .local _ .vmem, ⟨19, _⟩ => ⟨S512x1, .f32⟩
  | .local _ .vmem, ⟨20, _⟩ => ⟨S1x128, .f32⟩
  | .local _ .vmem, ⟨21, _⟩ => ⟨S1x128, .f32⟩
  | .local _ .vmem, ⟨22, _⟩ => ⟨S512x128, .f32⟩
  | .local _ .vmem, ⟨23, _⟩ => ⟨S512x1, .f32⟩
  | .local _ .vmem, ⟨24, _⟩ => ⟨S512x128, .f32⟩
  | .local _ .vmem, ⟨25, _⟩ => ⟨S128x256, .f32⟩
  | .local _ .vmem, ⟨26, _⟩ => ⟨S1x256, .f32⟩
  | .local _ .vmem, ⟨27, _⟩ => ⟨S256x128, .f32⟩
  | .local _ .vmem, ⟨28, _⟩ => ⟨S1x128, .f32⟩
  | .local _ .vmem, ⟨29, _⟩ => ⟨S128x1, .f32⟩
  | .local _ .vmem, ⟨30, _⟩ => ⟨S1x1, .f32⟩
  | .local _ .vmem, ⟨31, _⟩ => ⟨S512x1, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_cst : Ref sig .tc := ⟨.hbm, 19, rfl⟩
abbrev main_v6 : Ref sig .tc := ⟨.hbm, 20, rfl⟩
abbrev main_cst_0 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_cst_1 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_c : Ref sig .tc := ⟨.hbm, 30, rfl⟩
abbrev main_call0_v0 : Ref sig .tc := ⟨.hbm, 31, rfl⟩
abbrev main_v14 : Ref sig .tc := ⟨.hbm, 32, rfl⟩
abbrev main_c_2 : Ref sig .tc := ⟨.hbm, 33, rfl⟩
abbrev main_call1_v0 : Ref sig .tc := ⟨.hbm, 34, rfl⟩
abbrev main_v15 : Ref sig .tc := ⟨.hbm, 35, rfl⟩
abbrev main_v16 : Ref sig .tc := ⟨.hbm, 36, rfl⟩
abbrev main_c_3 : Ref sig .tc := ⟨.hbm, 37, rfl⟩
abbrev main_v17 : Ref sig .tc := ⟨.hbm, 38, rfl⟩
abbrev main_v18 : Ref sig .tc := ⟨.hbm, 39, rfl⟩
abbrev main_c_4 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_cst_5 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_c_6 : Ref sig .tc := ⟨.hbm, 52, rfl⟩
abbrev main_call2_v0 : Ref sig .tc := ⟨.hbm, 53, rfl⟩
abbrev main_v29 : Ref sig .tc := ⟨.hbm, 54, rfl⟩
abbrev main_v30_0 : Ref sig .tc := ⟨.hbm, 55, rfl⟩
abbrev main_v30_1 : Ref sig .tc := ⟨.hbm, 56, rfl⟩
abbrev main_v30_2 : Ref sig .tc := ⟨.hbm, 57, rfl⟩
abbrev main_v30_3 : Ref sig .tc := ⟨.hbm, 58, rfl⟩
abbrev main_cst_7 : Ref sig .tc := ⟨.hbm, 59, rfl⟩
abbrev main_v31 : Ref sig .tc := ⟨.hbm, 60, rfl⟩
abbrev main_v32 : Ref sig .tc := ⟨.hbm, 61, rfl⟩
abbrev main_cst_8 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_cst_9 : Ref sig .tc := ⟨.hbm, 67, rfl⟩
abbrev main_v37 : Ref sig .tc := ⟨.hbm, 68, rfl⟩
abbrev main_v38 : Ref sig .tc := ⟨.hbm, 69, rfl⟩
abbrev main_cst_10 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_cst_11 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_cst_12 : Ref sig .tc := ⟨.hbm, 81, rfl⟩
abbrev main_v48 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_cst_13 : Ref sig .tc := ⟨.hbm, 92, rfl⟩
abbrev main_call3_v0 : Ref sig .tc := ⟨.hbm, 93, rfl⟩
abbrev main_call3_v1 : Ref sig .tc := ⟨.hbm, 94, rfl⟩
abbrev main_call3_v2 : Ref sig .tc := ⟨.hbm, 95, rfl⟩
abbrev main_v58 : Ref sig .tc := ⟨.hbm, 96, rfl⟩
abbrev main_v59 : Ref sig .tc := ⟨.hbm, 97, rfl⟩
abbrev main_v60 : Ref sig .tc := ⟨.hbm, 98, rfl⟩
abbrev main_v61 : Ref sig .tc := ⟨.hbm, 99, rfl⟩
abbrev main_v62 : Ref sig .tc := ⟨.hbm, 100, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg4_1 : Ref sig .tc := ⟨.vmem, 15, rfl⟩
abbrev cc1_stg5_0 : Ref sig .tc := ⟨.vmem, 16, rfl⟩
abbrev cc1_stg6_0 : Ref sig .tc := ⟨.vmem, 17, rfl⟩
abbrev cc1_stg7_0 : Ref sig .tc := ⟨.vmem, 18, rfl⟩
abbrev cc1_stg8_0 : Ref sig .tc := ⟨.vmem, 19, rfl⟩
abbrev cc1_scratch0 : Ref sig .tc := ⟨.vmem, 20, rfl⟩
abbrev cc1_scratch1 : Ref sig .tc := ⟨.vmem, 21, rfl⟩
abbrev cc1_scratch2 : Ref sig .tc := ⟨.vmem, 22, rfl⟩
abbrev cc1_scratch3 : Ref sig .tc := ⟨.vmem, 23, rfl⟩
abbrev cc2_stg0_0 : Ref sig .tc := ⟨.vmem, 24, rfl⟩
abbrev cc2_stg1_0 : Ref sig .tc := ⟨.vmem, 25, rfl⟩
abbrev cc2_stg2_0 : Ref sig .tc := ⟨.vmem, 26, rfl⟩
abbrev cc2_stg3_0 : Ref sig .tc := ⟨.vmem, 27, rfl⟩
abbrev cc2_stg4_0 : Ref sig .tc := ⟨.vmem, 28, rfl⟩
abbrev cc2_stg5_0 : Ref sig .tc := ⟨.vmem, 29, rfl⟩
abbrev cc2_stg6_0 : Ref sig .tc := ⟨.vmem, 30, rfl⟩
abbrev cc2_stg7_0 : Ref sig .tc := ⟨.vmem, 31, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem2_1 : DmaSem sig := 12
abbrev cc1_sem3_0 : DmaSem sig := 13
abbrev cc1_sem4_0 : DmaSem sig := 14
abbrev cc1_sem4_1 : DmaSem sig := 15
abbrev cc1_sem5_0 : DmaSem sig := 16
abbrev cc1_sem6_0 : DmaSem sig := 17
abbrev cc1_sem7_0 : DmaSem sig := 18
abbrev cc1_sem8_0 : DmaSem sig := 19
abbrev cc2_sem0_0 : DmaSem sig := 20
abbrev cc2_sem1_0 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem6_0 : DmaSem sig := 26
abbrev cc2_sem7_0 : DmaSem sig := 27

abbrev nD : Nat := 1
abbrev τ : Topo := Topo.v7x

variable {F : FTy → Type} [FloatOps F]

abbrev grid0 : Pipeline.Grid := ⟨1, ![14], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S7168x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x7168 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S7168x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![56], ![false]⟩

def k1_cond2 (i : grid1.Coords) : BitVec 1 :=
  let arg0 : BitVec 32 := BitVec.ofNat 32 (i 0).val
  let c55_i32 : BitVec 32 := 55#32
  let v67 : BitVec 1 := Scalar.cmpi .eq arg0 c55_i32
  let v68 : BitVec 32 := Scalar.extui v67
  let c0_i32_29 : BitVec 32 := 0#32
  let v69 : BitVec 1 := Scalar.cmpi .ne v68 c0_i32_29
  v69

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S1792x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1792x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x1792 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S1x1792 .i32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S512x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S512x1 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev grid2 : Pipeline.Grid := ⟨1, ![1], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 1 → Memref sig .tc .vmem S512x128 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 1 → Memref sig .tc .vmem S128x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S256x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128x1 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x1 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S512x1 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S1x100000 : S100000.ShapeCasts S1x100000
  pads_S1x100000_S1x100352_000_03520 : S1x100000.Pads (![0, 0] : Fin 2 → Nat) ![0, 352] ![0, 0] S1x100352
  h_S_ : 0 < S_.numel
  pads_S100000x128_S100352x128_03520_000 : S100000x128.Pads (![0, 0] : Fin 2 → Nat) ![352, 0] ![0, 0] S100352x128
  inb_S7168x128_S7168x128_0_0 : ∀ a, (![0, 0] : Fin 2 → Nat) a + S7168x128.size a ≤ S7168x128.size a
  h_S7168x128 : 0 < S7168x128.numel
  shapeCasts_S7168x128_S7168x128 : S7168x128.ShapeCasts S7168x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x7168_S1x7168_0_0 : ∀ a, (![0, 0] : Fin 2 → Nat) a + S1x7168.size a ≤ S1x7168.size a
  h_S1x7168 : 0 < S1x7168.numel
  shapeCasts_S1x7168_S1x7168 : S1x7168.ShapeCasts S1x7168
  transposes_S1x7168_p1_0_S7168x1 : S1x7168.Transposes [1, 0] S7168x1
  broadcasts_S7168x1_S7168x128 : S7168x1.Broadcasts S7168x128
  bcast_S_S100352x128 : S_.BroadcastsInDim S100352x128 (![] : Fin 0 → Fin S100352x128.rank)
  shapeCasts_S128_S1x128 : S128.ShapeCasts S1x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S1x1792_S1x1792_0_0 : ∀ a, (![0, 0] : Fin 2 → Nat) a + S1x1792.size a ≤ S1x1792.size a
  h_S1x1792 : 0 < S1x1792.numel
  shapeCasts_S1x1792_S1x1792 : S1x1792.ShapeCasts S1x1792
  transposes_S1x1792_p1_0_S1792x1 : S1x1792.Transposes [1, 0] S1792x1
  inb_S1792x128_S1792x128_0_0 : ∀ a, (![0, 0] : Fin 2 → Nat) a + S1792x128.size a ≤ S1792x128.size a
  h_S1792x128 : 0 < S1792x128.numel
  shapeCasts_S1792x128_S1792x128 : S1792x128.ShapeCasts S1792x128
  broadcasts_S1792x1_S1792x128 : S1792x1.Broadcasts S1792x128
  broadcasts_S1x128_S1792x128 : S1x128.Broadcasts S1792x128
  iota_S1x1792_d1_w32 : S1x1792.Iotas .tc 32 [1]
  natLt_1_32 : 1 < 32
  reduces_S1792x128_S128 : S1792x128.Reduces [0] S128
  iota_S512x1792_d0_w32 : S512x1792.Iotas .tc 32 [0]
  broadcasts_S1x1792_S512x1792 : S1x1792.Broadcasts S512x1792
  reduces_S512x1792_S512 : S512x1792.Reduces [1] S512
  shapeCasts_S512_S512x1 : S512.ShapeCasts S512x1
  bcast_S_S1x128 : S_.BroadcastsInDim S1x128 (![] : Fin 0 → Fin S1x128.rank)
  bcast_S_S512x1 : S_.BroadcastsInDim S512x1 (![] : Fin 0 → Fin S512x1.rank)
  bcast_S512x1_S512x128_0_1 : S512x1.BroadcastsInDim S512x128 (![0, 1] : Fin 2 → Fin S512x128.rank)
  bcast_S1x128_S512x128_0_1 : S1x128.BroadcastsInDim S512x128 (![0, 1] : Fin 2 → Fin S512x128.rank)
  bcast_S_S512x128 : S_.BroadcastsInDim S512x128 (![] : Fin 0 → Fin S512x128.rank)
  shapeCasts_S256_S1x256 : S256.ShapeCasts S1x256
  shapeCasts_S1_S1x1 : S1.ShapeCasts S1x1
  inb_S128x256_S128x256_0_0 : ∀ a, (![0, 0] : Fin 2 → Nat) a + S128x256.size a ≤ S128x256.size a
  h_S128x256 : 0 < S128x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S512x256 : S1x256.Broadcasts S512x256
  inb_S256x128_S256x128_0_0 : ∀ a, (![0, 0] : Fin 2 → Nat) a + S256x128.size a ≤ S256x128.size a
  h_S256x128 : 0 < S256x128.numel
  broadcasts_S1x128_S512x128 : S1x128.Broadcasts S512x128
  inb_S128x1_S128x1_0_0 : ∀ a, (![0, 0] : Fin 2 → Nat) a + S128x1.size a ≤ S128x1.size a
  h_S128x1 : 0 < S128x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S512x1 : S1x1.Broadcasts S512x1
  scatter_S100000_S1600000x1_S1600000_n_0_0_1_wf : ScatterDims.WF S100000 S1600000x1 S1600000 [] [0] [0] 1
  dot_S7168x128_S128x128_S7168x128_1_0_0_1_n_n_wf : DotDims.WF S7168x128 S128x128 S7168x128 [1] [0] [0] [1] [] []
  gather_S100352x128_S1600000x1_S1600000x128_1_0_n_n_0_1_1128_wf : GatherDims.WF S100352x128 S1600000x1 S1600000x128 [1] [0] [] [0] [] 1 ![1, 128]
  scatter_S100352x128_S1600000x1_S1600000x128_1_0_0_1_wf : ScatterDims.WF S100352x128 S1600000x1 S1600000x128 [1] [0] [0] 1
  dot_S512x1792_S1792x128_S512x128_1_0_0_1_n_n_wf : DotDims.WF S512x1792 S1792x128 S512x128 [1] [0] [0] [1] [] []
  dot_S512x128_S128x256_S512x256_1_0_0_1_n_n_wf : DotDims.WF S512x128 S128x256 S512x256 [1] [0] [0] [1] [] []
  dot_S512x256_S256x128_S512x128_1_0_0_1_n_n_wf : DotDims.WF S512x256 S256x128 S512x128 [1] [0] [0] [1] [] []
  dot_S512x128_S128x1_S512x1_1_0_0_1_n_n_wf : DotDims.WF S512x128 S128x1 S512x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S7168x128.size a ≤ S100352x128.size a
  hwx0_0 : ∀ i : grid0.Coords, EltTy.bits .f32 = 32 ∨ (Rect.block (s := S100352x128) S7168x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x7168.size a ≤ S1x100352.size a
  hwx0_2 : ∀ i : grid0.Coords, EltTy.bits .f32 = 32 ∨ (Rect.block (s := S1x100352) S1x7168.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S7168x128.size a ≤ S100352x128.size a
  hwx0_3 : ∀ i : grid0.Coords, EltTy.bits .f32 = 32 ∨ (Rect.block (s := S100352x128) S7168x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1792x128.size a ≤ S100352x128.size a
  hwx1_0 : ∀ i : grid1.Coords, EltTy.bits .f32 = 32 ∨ (Rect.block (s := S100352x128) S1792x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1792x128.size a ≤ S100352x128.size a
  hwx1_1 : ∀ i : grid1.Coords, EltTy.bits .f32 = 32 ∨ (Rect.block (s := S100352x128) S1792x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1792.size a ≤ S1x100352.size a
  hwx1_2 : ∀ i : grid1.Coords, EltTy.bits .f32 = 32 ∨ (Rect.block (s := S1x100352) S1x1792.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x1792.size a ≤ S1x100352.size a
  hwx1_4 : ∀ i : grid1.Coords, EltTy.bits .i32 = 32 ∨ (Rect.block (s := S1x100352) S1x1792.size (cc1_transform_4 i) (hinb1_4 i)).WholeWords (EltTy.packing .i32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S512x128.size a ≤ S512x128.size a
  hwx1_7 : ∀ i : grid1.Coords, EltTy.bits .f32 = 32 ∨ (Rect.block (s := S512x128) S512x128.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S512x1.size a ≤ S512x1.size a
  hwx1_8 : ∀ i : grid1.Coords, EltTy.bits .f32 = 32 ∨ (Rect.block (s := S512x1) S512x1.size (cc1_transform_8 i) (hinb1_8 i)).WholeWords (EltTy.packing .f32)
  hrank2 : 0 < grid2.rank
  hstage2_0 : ∀ j, (stage2_0 j).IsWhole
  nbuf2_0 : grid2.bufCount reads2_0 true = 1
  hreads2_0 : ∀ i i' : grid2.Coords, (∀ a, reads2_0 a = true → i a = i' a) → cc2_transform_0 i = cc2_transform_0 i'
  hinb2_0 : ∀ (i : grid2.Coords) a, (cc2_transform_0 i a + 1) * S512x128.size a ≤ S512x128.size a
  hwx2_0 : ∀ i : grid2.Coords, EltTy.bits .f32 = 32 ∨ (Rect.block (s := S512x128) S512x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x256.size a ≤ S128x256.size a
  hwx2_1 : ∀ i : grid2.Coords, EltTy.bits .f32 = 32 ∨ (Rect.block (s := S128x256) S128x256.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x256.size a ≤ S1x256.size a
  hwx2_2 : ∀ i : grid2.Coords, EltTy.bits .f32 = 32 ∨ (Rect.block (s := S1x256) S1x256.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S256x128.size a ≤ S256x128.size a
  hwx2_3 : ∀ i : grid2.Coords, EltTy.bits .f32 = 32 ∨ (Rect.block (s := S256x128) S256x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128x1.size a ≤ S128x1.size a
  hwx2_5 : ∀ i : grid2.Coords, EltTy.bits .f32 = 32 ∨ (Rect.block (s := S128x1) S128x1.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x1.size a ≤ S1x1.size a
  hwx2_6 : ∀ i : grid2.Coords, EltTy.bits .f32 = 32 ∨ (Rect.block (s := S1x1) S1x1.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S512x1.size a ≤ S512x1.size a
  hwx2_7 : ∀ i : grid2.Coords, EltTy.bits .f32 = 32 ∨ (Rect.block (s := S512x1) S512x1.size (cc2_transform_7 i) (hinb2_7 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S7168x128_S128x128_S7168x128_1_0_0_1_n_n : DotDims S7168x128 S128x128 S7168x128 where
  lhsContracting := [1]
  rhsContracting := [0]
  lhsNonContracting := [0]
  rhsNonContracting := [1]
  lhsBatch := []
  rhsBatch := []
  wf := dot_S7168x128_S128x128_S7168x128_1_0_0_1_n_n_wf
def gather_S100352x128_S1600000x1_S1600000x128_1_0_n_n_0_1_1128 : GatherDims S100352x128 S1600000x1 S1600000x128 where
  offsetDims := [1]
  collapsedSliceDims := [0]
  operandBatchingDims := []
  startIndicesBatchingDims := []
  startIndexMap := [0]
  indexVectorDim := 1
  sliceSizes := ![1, 128]
  wf := gather_S100352x128_S1600000x1_S1600000x128_1_0_n_n_0_1_1128_wf
def scatter_S100352x128_S1600000x1_S1600000x128_1_0_0_1 : ScatterDims S100352x128 S1600000x1 S1600000x128 where
  updateWindowDims := [1]
  insertedWindowDims := [0]
  scatterDimsToOperandDims := [0]
  indexVectorDim := 1
  wf := scatter_S100352x128_S1600000x1_S1600000x128_1_0_0_1_wf
def dot_S512x1792_S1792x128_S512x128_1_0_0_1_n_n : DotDims S512x1792 S1792x128 S512x128 where
  lhsContracting := [1]
  rhsContracting := [0]
  lhsNonContracting := [0]
  rhsNonContracting := [1]
  lhsBatch := []
  rhsBatch := []
  wf := dot_S512x1792_S1792x128_S512x128_1_0_0_1_n_n_wf
def dot_S512x128_S128x256_S512x256_1_0_0_1_n_n : DotDims S512x128 S128x256 S512x256 where
  lhsContracting := [1]
  rhsContracting := [0]
  lhsNonContracting := [0]
  rhsNonContracting := [1]
  lhsBatch := []
  rhsBatch := []
  wf := dot_S512x128_S128x256_S512x256_1_0_0_1_n_n_wf
def dot_S512x256_S256x128_S512x128_1_0_0_1_n_n : DotDims S512x256 S256x128 S512x128 where
  lhsContracting := [1]
  rhsContracting := [0]
  lhsNonContracting := [0]
  rhsNonContracting := [1]
  lhsBatch := []
  rhsBatch := []
  wf := dot_S512x256_S256x128_S512x128_1_0_0_1_n_n_wf
def dot_S512x128_S128x1_S512x1_1_0_0_1_n_n : DotDims S512x128 S128x1 S512x1 where
  lhsContracting := [1]
  rhsContracting := [0]
  lhsNonContracting := [0]
  rhsNonContracting := [1]
  lhsBatch := []
  rhsBatch := []
  wf := dot_S512x128_S128x1_S512x1_1_0_0_1_n_n_wf

abbrev win0_0 : Pipeline.Window sig grid0 :=
  Pipeline.Window.ofSpec (Memref.whole main_v15) S7168x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v14) S1x7168.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v16) S7168x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v26) S1792x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v16) S1792x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v14) S1x1792.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v27) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v29) S1x1792.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v30_0) S1x128.size cc1_transform_5 reads1_5 true true 1 stage1_5 sem1_5
    hrank1 hreads1_5 hinb1_5 nbuf1_5 (Memref.isWhole_whole _) hwx1_5 hstage1_5

abbrev win1_6 : Pipeline.Window sig grid1 :=
  Pipeline.Window.ofSpec (Memref.whole main_v30_1) S1x128.size cc1_transform_6 reads1_6 true true 1 stage1_6 sem1_6
    hrank1 hreads1_6 hinb1_6 nbuf1_6 (Memref.isWhole_whole _) hwx1_6 hstage1_6

abbrev win1_7 : Pipeline.Window sig grid1 :=
  Pipeline.Window.ofSpec (Memref.whole main_v30_2) S512x128.size cc1_transform_7 reads1_7 true true 1 stage1_7 sem1_7
    hrank1 hreads1_7 hinb1_7 nbuf1_7 (Memref.isWhole_whole _) hwx1_7 hstage1_7

abbrev win1_8 : Pipeline.Window sig grid1 :=
  Pipeline.Window.ofSpec (Memref.whole main_v30_3) S512x1.size cc1_transform_8 reads1_8 true true 1 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

abbrev idle1 : Fin 9 → grid1.Coords → Bool := fun | 0 => fun _ => false | 1 => fun _ => false | 2 => fun _ => false | 3 => fun _ => false | 4 => fun _ => false | 5 => fun i => !(k1_cond2 i == 1#1) | 6 => fun i => !(k1_cond2 i == 1#1) | 7 => fun i => !(k1_cond2 i == 1#1) | 8 => fun i => !(k1_cond2 i == 1#1) | ⟨_ + 9, h⟩ => absurd h (Nat.not_lt.2 (Nat.le_add_left _ _))

abbrev win2_0 : Pipeline.Window sig grid2 :=
  Pipeline.Window.ofSpec (Memref.whole main_v58) S512x128.size cc2_transform_0 reads2_0 false true 1 stage2_0 sem2_0
    hrank2 hreads2_0 hinb2_0 nbuf2_0 (Memref.isWhole_whole _) hwx2_0 hstage2_0

abbrev win2_1 : Pipeline.Window sig grid2 :=
  Pipeline.Window.ofSpec (Memref.whole main_arg7) S128x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v59) S1x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg9) S256x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v60) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg11) S128x1.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v61) S1x1.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v62) S512x1.size cc2_transform_7 reads2_7 true true 1 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S128x256 : Shape := ⟨2, ![128, 256]⟩
abbrev S256 : Shape := ⟨1, ![256]⟩
abbrev S256x128 : Shape := ⟨2, ![256, 128]⟩
abbrev S128x1 : Shape := ⟨2, ![128, 1]⟩
abbrev S1 : Shape := ⟨1, ![1]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S512x128 : Shape := ⟨2, ![512, 128]⟩
abbrev S100000x1 : Shape := ⟨2, ![100000, 1]⟩
abbrev S512 : Shape := ⟨1, ![512]⟩
abbrev S512x1 : Shape := ⟨2, ![512, 1]⟩
abbrev S512x256 : Shape := ⟨2, ![512, 256]⟩
abbrev S1x256 : Shape := ⟨2, ![1, 256]⟩
abbrev S1x1 : Shape := ⟨2, ![1, 1]⟩

abbrev nBuf : Space → Nat
  | .hbm => 140
  | .vmem => 0
  | .smem => 0
  | _ => 0

abbrev hbmTy0_0 (i : Nat) : BufTy := match i % 128 with
  | 0 => ⟨S100000x128, .f32⟩
  | 1 => ⟨S2x1600000, .i32⟩
  | 2 => ⟨S100000, .i32⟩
  | 3 => ⟨S128x128, .f32⟩
  | 4 => ⟨S128, .f32⟩
  | 5 => ⟨S128, .f32⟩
  | 6 => ⟨S128, .f32⟩
  | 7 => ⟨S128x256, .f32⟩
  | 8 => ⟨S256, .f32⟩
  | 9 => ⟨S256x128, .f32⟩
  | 10 => ⟨S128, .f32⟩
  | 11 => ⟨S128x1, .f32⟩
  | 12 => ⟨S1, .f32⟩
  | 13 => ⟨S100000, .i32⟩
  | 14 => ⟨S1x1600000, .i32⟩
  | 15 => ⟨S1600000, .i32⟩
  | 16 => ⟨S1700000, .i32⟩
  | 17 => ⟨S1x1600000, .i32⟩
  | 18 => ⟨S1600000, .i32⟩
  | 19 => ⟨S1700000, .i32⟩
  | 20 => ⟨S_, .f32⟩
  | 21 => ⟨S1700000, .f32⟩
  | 22 => ⟨S_, .f32⟩
  | 23 => ⟨S100000, .f32⟩
  | 24 => ⟨S1700000x1, .i32⟩
  | 25 => ⟨S100000, .f32⟩
  | 26 => ⟨S_, .f32⟩
  | 27 => ⟨S100000, .f32⟩
  | 28 => ⟨S100000, .i1⟩
  | 29 => ⟨S_, .f32⟩
  | 30 => ⟨S100000, .f32⟩
  | 31 => ⟨S100000, .f32⟩
  | 32 => ⟨S100000, .f32⟩
  | 33 => ⟨S_, .f32⟩
  | 34 => ⟨S_, .f32⟩
  | 35 => ⟨S100000, .f32⟩
  | 36 => ⟨S100000, .f32⟩
  | 37 => ⟨S_, .i32⟩
  | 38 => ⟨S1700000, .i32⟩
  | 39 => ⟨S1700000, .i1⟩
  | 40 => ⟨S_, .i32⟩
  | 41 => ⟨S1700000, .i32⟩
  | 42 => ⟨S1700000, .i32⟩
  | 43 => ⟨S1700000, .i32⟩
  | 44 => ⟨S1700000x1, .i32⟩
  | 45 => ⟨S1700000, .f32⟩
  | 46 => ⟨S_, .i32⟩
  | 47 => ⟨S1700000, .i32⟩
  | 48 => ⟨S1700000, .i1⟩
  | 49 => ⟨S_, .i32⟩
  | 50 => ⟨S1700000, .i32⟩
  | 51 => ⟨S1700000, .i32⟩
  | 52 => ⟨S1700000, .i32⟩
  | 53 => ⟨S1700000x1, .i32⟩
  | 54 => ⟨S1700000, .f32⟩
  | 55 => ⟨S1700000, .f32⟩
  | 56 => ⟨S100000x128, .f32⟩
  | 57 => ⟨S_, .i32⟩
  | 58 => ⟨S1700000, .i32⟩
  | 59 => ⟨S1700000, .i1⟩
  | 60 => ⟨S_, .i32⟩
  | 61 => ⟨S1700000, .i32⟩
  | 62 => ⟨S1700000, .i32⟩
  | 63 => ⟨S1700000, .i32⟩
  | 64 => ⟨S1700000x1, .i32⟩
  | 65 => ⟨S1700000x128, .f32⟩
  | 66 => ⟨S1700000x1, .f32⟩
  | 67 => ⟨S1700000x128, .f32⟩
  | 68 => ⟨S1700000x128, .f32⟩
  | 69 => ⟨S_, .f32⟩
  | 70 => ⟨S100000x128, .f32⟩
  | 71 => ⟨S1700000x1, .i32⟩
  | 72 => ⟨S100000x128, .f32⟩
  | 73 => ⟨S1x128, .f32⟩
  | 74 => ⟨S100000x128, .f32⟩
  | 75 => ⟨S100000x128, .f32⟩
  | 76 => ⟨S_, .f32⟩
  | 77 => ⟨S128, .f32⟩
  | 78 => ⟨S_, .f32⟩
  | 79 => ⟨S128, .f32⟩
  | 80 => ⟨S128, .f32⟩
  | 81 => ⟨S1x128, .f32⟩
  | 82 => ⟨S100000x128, .f32⟩
  | 83 => ⟨S100000x128, .f32⟩
  | 84 => ⟨S100000x128, .f32⟩
  | 85 => ⟨S_, .f32⟩
  | 86 => ⟨S128, .f32⟩
  | 87 => ⟨S_, .f32⟩
  | 88 => ⟨S128, .f32⟩
  | 89 => ⟨S128, .f32⟩
  | 90 => ⟨S1x128, .f32⟩
  | 91 => ⟨S100000x128, .f32⟩
  | 92 => ⟨S100000x128, .f32⟩
  | 93 => ⟨S_, .f32⟩
  | 94 => ⟨S128, .f32⟩
  | 95 => ⟨S128, .f32⟩
  | 96 => ⟨S128, .f32⟩
  | 97 => ⟨S1x128, .f32⟩
  | 98 => ⟨S100000x128, .f32⟩
  | 99 => ⟨S100000x128, .f32⟩
  | 100 => ⟨S1x128, .f32⟩
  | 101 => ⟨S100000x128, .f32⟩
  | 102 => ⟨S100000x128, .f32⟩
  | 103 => ⟨S1x128, .f32⟩
  | 104 => ⟨S100000x128, .f32⟩
  | 105 => ⟨S100000x128, .f32⟩
  | 106 => ⟨S_, .f32⟩
  | 107 => ⟨S512x128, .f32⟩
  | 108 => ⟨S100000x1, .i32⟩
  | 109 => ⟨S512x128, .f32⟩
  | 110 => ⟨S_, .f32⟩
  | 111 => ⟨S100000, .f32⟩
  | 112 => ⟨S_, .f32⟩
  | 113 => ⟨S512, .f32⟩
  | 114 => ⟨S100000x1, .i32⟩
  | 115 => ⟨S512, .f32⟩
  | 116 => ⟨S_, .f32⟩
  | 117 => ⟨S512, .f32⟩
  | 118 => ⟨S512, .f32⟩
  | 119 => ⟨S512x1, .f32⟩
  | 120 => ⟨S512x128, .f32⟩
  | 121 => ⟨S512x128, .f32⟩
  | 122 => ⟨S512x256, .f32⟩
  | 123 => ⟨S1x256, .f32⟩
  | 124 => ⟨S512x256, .f32⟩
  | 125 => ⟨S512x256, .f32⟩
  | 126 => ⟨S_, .f32⟩
  | 127 => ⟨S512x256, .f32⟩
  | _ => ⟨S100000x128, .f32⟩

abbrev hbmTy0_1 (i : Nat) : BufTy := match i % 128 with
  | 0 => ⟨S512x256, .f32⟩
  | 1 => ⟨S512x128, .f32⟩
  | 2 => ⟨S1x128, .f32⟩
  | 3 => ⟨S512x128, .f32⟩
  | 4 => ⟨S512x128, .f32⟩
  | 5 => ⟨S_, .f32⟩
  | 6 => ⟨S512x128, .f32⟩
  | 7 => ⟨S512x128, .f32⟩
  | 8 => ⟨S512x1, .f32⟩
  | 9 => ⟨S1x1, .f32⟩
  | 10 => ⟨S512x1, .f32⟩
  | 11 => ⟨S512x1, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst : Ref sig .tc := ⟨.hbm, 20, rfl⟩
abbrev main_v7 : Ref sig .tc := ⟨.hbm, 21, rfl⟩
abbrev main_cst_0 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst_1 : Ref sig .tc := ⟨.hbm, 26, rfl⟩
abbrev main_v11 : Ref sig .tc := ⟨.hbm, 27, rfl⟩
abbrev main_v12 : Ref sig .tc := ⟨.hbm, 28, rfl⟩
abbrev main_cst_2 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_cst_3 : Ref sig .tc := ⟨.hbm, 33, rfl⟩
abbrev main_call0_v0 : Ref sig .tc := ⟨.hbm, 34, rfl⟩
abbrev main_call0_v1 : Ref sig .tc := ⟨.hbm, 35, rfl⟩
abbrev main_v16 : Ref sig .tc := ⟨.hbm, 36, rfl⟩
abbrev main_c : Ref sig .tc := ⟨.hbm, 37, rfl⟩
abbrev main_v17 : Ref sig .tc := ⟨.hbm, 38, rfl⟩
abbrev main_v18 : Ref sig .tc := ⟨.hbm, 39, rfl⟩
abbrev main_c_4 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_c_5 : Ref sig .tc := ⟨.hbm, 46, rfl⟩
abbrev main_v24 : Ref sig .tc := ⟨.hbm, 47, rfl⟩
abbrev main_v25 : Ref sig .tc := ⟨.hbm, 48, rfl⟩
abbrev main_c_6 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_c_7 : Ref sig .tc := ⟨.hbm, 57, rfl⟩
abbrev main_v33 : Ref sig .tc := ⟨.hbm, 58, rfl⟩
abbrev main_v34 : Ref sig .tc := ⟨.hbm, 59, rfl⟩
abbrev main_c_8 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_cst_9 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_cst_10 : Ref sig .tc := ⟨.hbm, 76, rfl⟩
abbrev main_v49 : Ref sig .tc := ⟨.hbm, 77, rfl⟩
abbrev main_cst_11 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_cst_12 : Ref sig .tc := ⟨.hbm, 85, rfl⟩
abbrev main_v56 : Ref sig .tc := ⟨.hbm, 86, rfl⟩
abbrev main_cst_13 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_cst_14 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_cst_15 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_cst_16 : Ref sig .tc := ⟨.hbm, 110, rfl⟩
abbrev main_v77 : Ref sig .tc := ⟨.hbm, 111, rfl⟩
abbrev main_cst_17 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_cst_18 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_call1_cst : Ref sig .tc := ⟨.hbm, 126, rfl⟩
abbrev main_call1_v0 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_call2_cst : Ref sig .tc := ⟨.hbm, 133, rfl⟩
abbrev main_call2_v0 : Ref sig .tc := ⟨.hbm, 134, rfl⟩
abbrev main_v95 : Ref sig .tc := ⟨.hbm, 135, rfl⟩
abbrev main_v96 : Ref sig .tc := ⟨.hbm, 136, rfl⟩
abbrev main_v97 : Ref sig .tc := ⟨.hbm, 137, rfl⟩
abbrev main_v98 : Ref sig .tc := ⟨.hbm, 138, rfl⟩
abbrev main_v99 : Ref sig .tc := ⟨.hbm, 139, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  reducesTo_S100000x128_S128_d0 : S100000x128.ReducesTo [0] S128
  h_S_ : 0 < S_.numel
  bcast_S_S128 : S_.BroadcastsInDim S128 (![] : Fin 0 → Fin S128.rank)
  bcast_S_S512x128 : S_.BroadcastsInDim S512x128 (![] : Fin 0 → Fin S512x128.rank)
  bcast_S100000_S100000x1_0 : S100000.BroadcastsInDim S100000x1 (![0] : Fin 1 → Fin S100000x1.rank)
  bcast_S_S512 : S_.BroadcastsInDim S512 (![] : Fin 0 → Fin S512.rank)
  bcast_S512_S512x1_0 : S512.BroadcastsInDim S512x1 (![0] : Fin 1 → Fin S512x1.rank)
  bcast_S512x1_S512x128_0_1 : S512x1.BroadcastsInDim S512x128 (![0, 1] : Fin 2 → Fin S512x128.rank)
  bcast_S256_S1x256_1 : S256.BroadcastsInDim S1x256 (![1] : Fin 1 → Fin S1x256.rank)
  bcast_S1x256_S512x256_0_1 : S1x256.BroadcastsInDim S512x256 (![0, 1] : Fin 2 → Fin S512x256.rank)
  bcast_S_S512x256 : S_.BroadcastsInDim S512x256 (![] : Fin 0 → Fin S512x256.rank)
  bcast_S1x128_S512x128_0_1 : S1x128.BroadcastsInDim S512x128 (![0, 1] : Fin 2 → Fin S512x128.rank)
  bcast_S1_S1x1_1 : S1.BroadcastsInDim S1x1 (![1] : Fin 1 → Fin S1x1.rank)
  bcast_S1x1_S512x1_0_1 : S1x1.BroadcastsInDim S512x1 (![0, 1] : Fin 2 → Fin S512x1.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x128_S100000x128_1_0_0_1_n_n_wf : DotDims.WF S100000x128 S128x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  scatter_S512x128_S100000x1_S100000x128_1_0_0_1_wf : ScatterDims.WF S512x128 S100000x1 S100000x128 [1] [0] [0] 1
  scatter_S512_S100000x1_S100000_n_0_0_1_wf : ScatterDims.WF S512 S100000x1 S100000 [] [0] [0] 1
  dot_S512x128_S128x256_S512x256_1_0_0_1_n_n_wf : DotDims.WF S512x128 S128x256 S512x256 [1] [0] [0] [1] [] []
  dot_S512x256_S256x128_S512x128_1_0_0_1_n_n_wf : DotDims.WF S512x256 S256x128 S512x128 [1] [0] [0] [1] [] []
  dot_S512x128_S128x1_S512x1_1_0_0_1_n_n_wf : DotDims.WF S512x128 S128x1 S512x1 [1] [0] [0] [1] [] []

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def scatter_S512x128_S100000x1_S100000x128_1_0_0_1 : ScatterDims S512x128 S100000x1 S100000x128 where
  updateWindowDims := [1]
  insertedWindowDims := [0]
  scatterDimsToOperandDims := [0]
  indexVectorDim := 1
  wf := scatter_S512x128_S100000x1_S100000x128_1_0_0_1_wf
def scatter_S512_S100000x1_S100000_n_0_0_1 : ScatterDims S512 S100000x1 S100000 where
  updateWindowDims := []
  insertedWindowDims := [0]
  scatterDimsToOperandDims := [0]
  indexVectorDim := 1
  wf := scatter_S512_S100000x1_S100000_n_0_0_1_wf
def dot_S512x128_S128x256_S512x256_1_0_0_1_n_n : DotDims S512x128 S128x256 S512x256 where
  lhsContracting := [1]
  rhsContracting := [0]
  lhsNonContracting := [0]
  rhsNonContracting := [1]
  lhsBatch := []
  rhsBatch := []
  wf := dot_S512x128_S128x256_S512x256_1_0_0_1_n_n_wf
def dot_S512x256_S256x128_S512x128_1_0_0_1_n_n : DotDims S512x256 S256x128 S512x128 where
  lhsContracting := [1]
  rhsContracting := [0]
  lhsNonContracting := [0]
  rhsNonContracting := [1]
  lhsBatch := []
  rhsBatch := []
  wf := dot_S512x256_S256x128_S512x128_1_0_0_1_n_n_wf
def dot_S512x128_S128x1_S512x1_1_0_0_1_n_n : DotDims S512x128 S128x1 S512x1 where
  lhsContracting := [1]
  rhsContracting := [0]
  lhsNonContracting := [0]
  rhsNonContracting := [1]
  lhsBatch := []
  rhsBatch := []
  wf := dot_S512x128_S128x1_S512x1_1_0_0_1_n_n_wf

class Facts : Prop extends Facts₀ where

variable [Facts]
-- ==== Proof.K.Dat0.lean ====
/- The first pallas region (grid of 14 points, one whole store of the output block per point): each
   window's block at a point, the output block as a function of the three input blocks, the
   pipeline's proof data at the region-entry contents, and the body obligation at every point. -/
import proofs.«417852_j54494545052225_3_alg».proof.Proof.Gen.Kernel.Skeleton
import proofs.«417852_j54494545052225_3_alg».proof.Proof.Gen.Kernel.Launch
import proofs.«417852_j54494545052225_3_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## The body's accesses: each operand is read whole, the output is stored whole -/

abbrev rX0 : Rect S7168x128 := Rect.unit (s := S7168x128) ![0, 0] S7168x128.size inb_S7168x128_S7168x128_0_0
abbrev rW0 : Rect S128x128 := Rect.unit (s := S128x128) ![0, 0] S128x128.size inb_S128x128_S128x128_0_0
abbrev rD0 : Rect S1x7168 := Rect.unit (s := S1x7168) ![0, 0] S1x7168.size inb_S1x7168_S1x7168_0_0

/-! ## What the body leaves in the output window's buffer -/

/-- The output window's buffer after the body, from the three input blocks: one piece, the whole block. -/
def out0_3 (x0 : Vec F S7168x128 .f32) (x1 : Vec F S128x128 .f32) (x2 : Vec F S1x7168 .f32) : Vec F S7168x128 .f32 :=
  View.canon [⟨rX0, k0_pay1 (View.ld x0 rX0) (View.ld x1 rW0) (View.ld x2 rD0)⟩]

/-! ## The pipeline's proof data -/

/-- The proof data on core `c`: the arrays as the region finds them; after the body at point `t` each input's
    buffer at its block and the output's at `out0_3` of the input blocks; the invariant leaves the scoped rest
    untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

/-! ## The inputs' buffers hold their blocks at every point -/

/-- Input window 0's current staging buffer holds its block at every point, fetched there or not, for any proof
    data whose array is `V`'s and whose body leaves the block in place: the window is uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1 is fetched at the first point only; where it is not fetched its block index has not moved, so
    its buffer still holds the block. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2, fetched at every point. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The one store covers the output block -/

theorem cover0_3 (p0 : Vec F S7168x128 .f32) (y : S7168x128.Idx) :
    ∃ pc ∈ ([⟨rX0, p0⟩] : List (View.Piece (Elt F) S7168x128 .f32)), y ∈ pc.1.set :=
  View.cover_of_tiled [⟨rX0, p0⟩] S7168x128.size (by rfl) y

/-! ## The body's triple -/

set_option maxHeartbeats 1000000 in
/-- The kernel body on whole staging memrefs, the inputs' at contents `x0 x1 x2` and the output's at anything, runs
    to the continuation holding the inputs' as they were and the output's at `out0_3` of the inputs'. -/
theorem sound_kernel0 (c : Dev nD) (E : Set ℕ) (i : grid0.Coords)
    (arg1 : Memref sig .tc .vmem S7168x128 .f32) (harg1 : arg1.IsWhole)
    (arg2 : Memref sig .tc .vmem S128x128 .f32) (harg2 : arg2.IsWhole)
    (arg3 : Memref sig .tc .vmem S1x7168 .f32) (harg3 : arg3.IsWhole)
    (arg4 : Memref sig .tc .vmem S7168x128 .f32) (harg4 : arg4.IsWhole)
    (x0 : Vec F S7168x128 .f32) (x1 : Vec F S128x128 .f32) (x2 : Vec F S1x7168 .f32) (K : PUnit → sProp 𝕄) :
    iprop(owns (c : Thread nD τ) arg1 fullShare x0 ∗ owns (c : Thread nD τ) arg2 fullShare x1
        ∗ owns (c : Thread nD τ) arg3 fullShare x2 ∗ (∃ d, owns (c : Thread nD τ) arg4 fullShare d)
        ∗ (iprop(owns (c : Thread nD τ) arg1 fullShare x0 ∗ owns (c : Thread nD τ) arg2 fullShare x1
            ∗ owns (c : Thread nD τ) arg3 fullShare x2 ∗ owns (c : Thread nD τ) arg4 fullShare (out0_3 x0 x1 x2)) -∗ K ⟨⟩))
      ⊢ wp frame (wpE (defs₀ (F := F)) Variants.none c none) E (cc0__gcn_linear_kernel i arg1 harg1 arg2 harg2 arg3 harg3 arg4 harg4) K := by
  simp only [cc0__gcn_linear_kernel_eq_skeleton]; unfold cc0__gcn_linear_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The proof data's inputs hold their blocks -/

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks, so the body's triple applies; the invariant and
    what the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.Dat1.lean ====
/- Region 1 (the statistics-and-pooling kernel, 56 grid points): the four buffers it carries between points stated by
   recursion over the points, the proof data of its pipeline, and the body obligation: the reset at the first point,
   the accumulation at every point, the copy into the output windows at the last point. -/
import proofs.«417852_j54494545052225_3_alg».proof.Proof.Gen.Kernel.Skeleton
import proofs.«417852_j54494545052225_3_alg».proof.Proof.Gen.Kernel.Launch
import proofs.«417852_j54494545052225_3_alg».proof.Proof.Gen.Kernel.Points
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## The carried buffers, point by point -/

/-- the four carried buffers: sum, sum of squares, per-graph sum, per-graph count -/
abbrev Scr1 (F : FTy → Type) [FloatOps F] : Type := Vec F S1x128 .f32 × Vec F S1x128 .f32 × Vec F S512x128 .f32 × Vec F S512x1 .f32

/-- what the reset at the first point stores -/
def zeros1 : Scr1 F := (k1_pay5, k1_pay6, k1_pay7, k1_pay8)

/-- one point's update of the carried buffers from the point's input blocks (a = window 0, h = window 1, d = window 2, b = window 3, bt = window 4) -/
def step1 (i : grid1.Coords) (a h : Vec F S1792x128 .f32) (d : Vec F S1x1792 .f32) (b : Vec F S1x128 .f32) (bt : Vec F S1x1792 .i32) (s : Scr1 F) : Scr1 F :=
  (k1_pay11 i d a h b s.1, k1_pay1 s.2.1 (k1_pay12 i d a h b), k1_pay3 (k1_pay9 i) (k1_pay10 i d a h b) bt s.2.2.1, k1_pay4 (k1_pay9 i) bt s.2.2.2)

/-- the carried buffers after the body at position n: point 0 updates the zeros, point n+1 what point n left -/
def scr1 (c : Dev nD) : (n : ℕ) → n < cfg1.N → Scr1 F
  | 0, hn => step1 (grid1.coords ⟨0, hn⟩) (iblk1 V c 0 ⟨0, hn⟩) (iblk1 V c 1 ⟨0, hn⟩) (iblk1 V c 2 ⟨0, hn⟩) (iblk1 V c 3 ⟨0, hn⟩) (iblk1 V c 4 ⟨0, hn⟩) zeros1
  | n + 1, hn => step1 (grid1.coords ⟨n + 1, hn⟩) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (scr1 c n (Nat.lt_of_succ_lt hn))

/-! ## The region invariant -/

/-- The core's scoped buffers that belong to the other two regions (their staging buffers), each whole at some contents. -/
def others1 (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg2_1), ((c : Thread nD τ).loc cc0_stg2_1) ↦{fullShare} f)
    ∗ (∃ f : Buf (Elt F) ((c : Thread nD τ).loc cc0_stg3_0), ((c : Thread nD τ).loc cc0_stg3_0) ↦{fullShare} f)
    ∗ (∃ f : Buf (Elt F) ((c : Thread nD τ).loc cc0_stg3_1), ((c : Thread nD τ).loc cc0_stg3_1) ↦{fullShare} f)
    ∗ (∃ f : Buf (Elt F) ((c : Thread nD τ).loc cc2_stg0_0), ((c : Thread nD τ).loc cc2_stg0_0) ↦{fullShare} f)
    ∗ (∃ f : Buf (Elt F) ((c : Thread nD τ).loc cc2_stg1_0), ((c : Thread nD τ).loc cc2_stg1_0) ↦{fullShare} f)
    ∗ (∃ f : Buf (Elt F) ((c : Thread nD τ).loc cc2_stg2_0), ((c : Thread nD τ).loc cc2_stg2_0) ↦{fullShare} f)
    ∗ (∃ f : Buf (Elt F) ((c : Thread nD τ).loc cc2_stg3_0), ((c : Thread nD τ).loc cc2_stg3_0) ↦{fullShare} f)
    ∗ (∃ f : Buf (Elt F) ((c : Thread nD τ).loc cc2_stg4_0), ((c : Thread nD τ).loc cc2_stg4_0) ↦{fullShare} f)
    ∗ (∃ f : Buf (Elt F) ((c : Thread nD τ).loc cc2_stg5_0), ((c : Thread nD τ).loc cc2_stg5_0) ↦{fullShare} f)
    ∗ (∃ f : Buf (Elt F) ((c : Thread nD τ).loc cc2_stg6_0), ((c : Thread nD τ).loc cc2_stg6_0) ↦{fullShare} f)
    ∗ (∃ f : Buf (Elt F) ((c : Thread nD τ).loc cc2_stg7_0), ((c : Thread nD τ).loc cc2_stg7_0) ↦{fullShare} f))

/-- The region invariant before position `n`: before the first point the class's (every scoped buffer that is no staging
    buffer of this region at some contents, the generator register at some state); afterwards the four carried buffers
    owned whole at what the point before left in them, beside the other regions' staging buffers and the register. -/
def Phi1 (c : Dev nD) : (n : ℕ) → n ≤ cfg1.N → sProp 𝕄
  | 0, _ => Pipeline.ΦA spec1 c
  | n + 1, hn => iprop(owns (c : Thread nD τ) (Memref.whole cc1_scratch0) fullShare (scr1 V c n hn).1
      ∗ owns (c : Thread nD τ) (Memref.whole cc1_scratch1) fullShare (scr1 V c n hn).2.1
      ∗ owns (c : Thread nD τ) (Memref.whole cc1_scratch2) fullShare (scr1 V c n hn).2.2.1
      ∗ owns (c : Thread nD τ) (Memref.whole cc1_scratch3) fullShare (scr1 V c n hn).2.2.2
      ∗ others1 c ∗ (∃ r, prngReg c r))

/-! ## The pipeline's proof data -/

/-- The proof data of the pipeline on core `c`: the arrays as the region finds them; after the body at point `t` each
    input's buffer at its block and each output's at the matching carried buffer after that point (the outputs are
    written only at the last point); the invariant `Phi1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => (scr1 V c t.val t.isLt).1
    | ⟨6, _⟩ => (scr1 V c t.val t.isLt).2.1
    | ⟨7, _⟩ => (scr1 V c t.val t.isLt).2.2.1
    | ⟨8, _⟩ => (scr1 V c t.val t.isLt).2.2.2
  Φ t := Phi1 V c t.val (Nat.le_of_lt_succ t.isLt)
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = (scr1 V c t.val t.isLt).1 := by dsimp only [dat1]
theorem after1_6 (c : Dev nD) (t : Fin cfg1.N) : (dat1 V c).after 6 t = (scr1 V c t.val t.isLt).2.1 := by dsimp only [dat1]
theorem after1_7 (c : Dev nD) (t : Fin cfg1.N) : (dat1 V c).after 7 t = (scr1 V c t.val t.isLt).2.2.1 := by dsimp only [dat1]
theorem after1_8 (c : Dev nD) (t : Fin cfg1.N) : (dat1 V c).after 8 t = (scr1 V c t.val t.isLt).2.2.2 := by dsimp only [dat1]

end Cert.Kernel.Hand

end
-- ==== Proof.K.Dat1Body.lean ====
/- Region 1 (the statistics-and-pooling kernel, 56 grid points): the body obligation of its pipeline's proof data. The
   three cases of a point (first: reset; middle; last: copy into the output windows) each run the body against the
   carried buffers' contents stated by recursion; then what the invariant is before the first and after the last point. -/
import proofs.«417852_j54494545052225_3_alg».proof.Proof.Gen.Kernel.Skeleton
import proofs.«417852_j54494545052225_3_alg».proof.Proof.Gen.Kernel.Launch
import proofs.«417852_j54494545052225_3_alg».proof.Proof.Gen.Kernel.Points
import proofs.«417852_j54494545052225_3_alg».proof.Proof.K.Dat1
import Idealize.ShloMosaic.Lib.Pipeline.FrameSuffix
import Idealize.ShloMosaic.Lib.Ring
import Idealize.ShloMosaic.Lib.Tactic
import Idealize.ShloMosaic.Lib.Pipeline.FrameBody
import Idealize.ShloMosaic.Lib.Pipeline.Value

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## Whole-buffer loads and stores -/

/-- The zero offsets of a rank-2 rectangle, as the constant function. -/
private theorem hz2 : (![0, 0] : Fin 2 → Nat) = fun _ => 0 := by
  funext a; fin_cases a <;> rfl

/-- A load through the whole-shape rectangle at zero offsets reads the contents. -/
private theorem readAt_unit0 {κ : Kind} {sp : Space} {S : Shape} {e : EltTy} (v : View sig κ sp S e) (f : v.ty.Contents (Elt F))
    {off : Fin S.rank → Nat} (hz : off = fun _ => 0) (inb : ∀ a, off a + S.size a ≤ S.size a) :
    v.readAt (Elt F) (Rect.unit off S.size inb).toLoadRect f = v.read (Elt F) f :=
  View.ld_unit_zero hz inb _

/-- A store through it, the newest, is what the buffer then reads, whatever was stored before. -/
private theorem read_writes_unit0 {κ : Kind} {sp : Space} {S : Shape} {e : EltTy} (v : View sig κ sp S e) (f : v.ty.Contents (Elt F))
    {off : Fin S.rank → Nat} (hz : off = fun _ => 0) (inb : ∀ a, off a + S.size a ≤ S.size a) (w : S.Idx → Elt F e)
    (L : List (View.Piece (Elt F) S e)) :
    v.read (Elt F) (v.writes (Elt F) f ((⟨Rect.unit off S.size inb, w⟩ : View.Piece (Elt F) S e) :: L)) = w := by
  rw [View.read_writes_eq_canon v f _ (fun y => ⟨_, List.Mem.head _, View.mem_set_unit_zero hz inb y⟩),
    View.canon_cons_unit_zero hz]

/-! ## The body's two conditions -/

/-- The condition of the reset (the first `scf.if`), from the grid coordinates. -/
abbrev cond1_0 (i : grid1.Coords) : Prop := (Scalar.cmpi .ne (Scalar.extui (Scalar.cmpi .eq (BitVec.ofNat 32 (i 0).val) 0#32)) 0#32) = 1#1
/-- The condition of the copy into the outputs (the second `scf.if`). -/
abbrev cond1_1 (i : grid1.Coords) : Prop := k1_cond2 i = 1#1

/-- The reset's condition holds at the first point only — decided over the grid. -/
theorem hcond1_0 : ∀ t : Fin cfg1.N, cond1_0 (grid1.coords t) ↔ t.val = 0 :=
  (by decide +kernel : ∀ t : Fin grid1.N, cond1_0 (grid1.coords t) ↔ t.val = 0)
/-- The copy's condition holds at the last point only — decided over the grid. -/
theorem hcond1_1 : ∀ t : Fin cfg1.N, cond1_1 (grid1.coords t) ↔ t.val = 55 :=
  (by decide +kernel : ∀ t : Fin grid1.N, cond1_1 (grid1.coords t) ↔ t.val = 55)

/-! ## Where the windows are idle -/

/-- Window 0 is never idle (an input). -/
theorem liveAt1_0 : ∀ t : Fin cfg1.N, cfg1.idle 0 (grid1.coords t) = false := by decide +kernel
/-- Window 1 is never idle (an input). -/
theorem liveAt1_1 : ∀ t : Fin cfg1.N, cfg1.idle 1 (grid1.coords t) = false := by decide +kernel
/-- Window 2 is never idle (an input). -/
theorem liveAt1_2 : ∀ t : Fin cfg1.N, cfg1.idle 2 (grid1.coords t) = false := by decide +kernel
/-- Window 3 is never idle (an input). -/
theorem liveAt1_3 : ∀ t : Fin cfg1.N, cfg1.idle 3 (grid1.coords t) = false := by decide +kernel
/-- Window 4 is never idle (an input). -/
theorem liveAt1_4 : ∀ t : Fin cfg1.N, cfg1.idle 4 (grid1.coords t) = false := by decide +kernel
/-- Away from the last point output window 5 is idle (nothing is stored into it) and is not written back; at the last point it is live. -/
theorem idleAt1_5 : ∀ t : Fin cfg1.N, ¬cond1_1 (grid1.coords t) → cfg1.idle 5 (grid1.coords t) = true := by decide +kernel
theorem noFlush1_5 : ∀ t : Fin cfg1.N, ¬cond1_1 (grid1.coords t) → (cfg1.win 5).flush t = false := by decide +kernel
theorem liveAt1_5 : ∀ t : Fin cfg1.N, cond1_1 (grid1.coords t) → cfg1.idle 5 (grid1.coords t) = false := by decide +kernel
/-- Away from the last point output window 6 is idle (nothing is stored into it) and is not written back; at the last point it is live. -/
theorem idleAt1_6 : ∀ t : Fin cfg1.N, ¬cond1_1 (grid1.coords t) → cfg1.idle 6 (grid1.coords t) = true := by decide +kernel
theorem noFlush1_6 : ∀ t : Fin cfg1.N, ¬cond1_1 (grid1.coords t) → (cfg1.win 6).flush t = false := by decide +kernel
theorem liveAt1_6 : ∀ t : Fin cfg1.N, cond1_1 (grid1.coords t) → cfg1.idle 6 (grid1.coords t) = false := by decide +kernel
/-- Away from the last point output window 7 is idle (nothing is stored into it) and is not written back; at the last point it is live. -/
theorem idleAt1_7 : ∀ t : Fin cfg1.N, ¬cond1_1 (grid1.coords t) → cfg1.idle 7 (grid1.coords t) = true := by decide +kernel
theorem noFlush1_7 : ∀ t : Fin cfg1.N, ¬cond1_1 (grid1.coords t) → (cfg1.win 7).flush t = false := by decide +kernel
theorem liveAt1_7 : ∀ t : Fin cfg1.N, cond1_1 (grid1.coords t) → cfg1.idle 7 (grid1.coords t) = false := by decide +kernel
/-- Away from the last point output window 8 is idle (nothing is stored into it) and is not written back; at the last point it is live. -/
theorem idleAt1_8 : ∀ t : Fin cfg1.N, ¬cond1_1 (grid1.coords t) → cfg1.idle 8 (grid1.coords t) = true := by decide +kernel
theorem noFlush1_8 : ∀ t : Fin cfg1.N, ¬cond1_1 (grid1.coords t) → (cfg1.win 8).flush t = false := by decide +kernel
theorem liveAt1_8 : ∀ t : Fin cfg1.N, cond1_1 (grid1.coords t) → cfg1.idle 8 (grid1.coords t) = false := by decide +kernel

/-! ## The staging memrefs at a point, spelled as the pipeline passes them -/

abbrev ms1_0 (t : Fin cfg1.N) : Memref sig .tc .vmem S1792x128 .f32 := win1_0.stage (cfg1.slots t 0)
abbrev ms1_1 (t : Fin cfg1.N) : Memref sig .tc .vmem S1792x128 .f32 := win1_1.stage (cfg1.slots t 1)
abbrev ms1_2 (t : Fin cfg1.N) : Memref sig .tc .vmem S1x1792 .f32 := win1_2.stage (cfg1.slots t 2)
abbrev ms1_3 (t : Fin cfg1.N) : Memref sig .tc .vmem S1x128 .f32 := win1_3.stage (cfg1.slots t 3)
abbrev ms1_4 (t : Fin cfg1.N) : Memref sig .tc .vmem S1x1792 .i32 := win1_4.stage (cfg1.slots t 4)
abbrev ms1_5 (t : Fin cfg1.N) : Memref sig .tc .vmem S1x128 .f32 := win1_5.stage (cfg1.slots t 5)
abbrev ms1_6 (t : Fin cfg1.N) : Memref sig .tc .vmem S1x128 .f32 := win1_6.stage (cfg1.slots t 6)
abbrev ms1_7 (t : Fin cfg1.N) : Memref sig .tc .vmem S512x128 .f32 := win1_7.stage (cfg1.slots t 7)
abbrev ms1_8 (t : Fin cfg1.N) : Memref sig .tc .vmem S512x1 .f32 := win1_8.stage (cfg1.slots t 8)

/-- The class's invariant hands out the four carried buffers as memrefs owned at some contents, apart from the other
    regions' staging buffers and the generator register, -/
theorem PhiA1_split (c : Dev nD) :
    (Pipeline.ΦA spec1 c : sProp 𝕄)
      ⊢ iprop((∃ x, owns (c : Thread nD τ) (Memref.whole cc1_scratch0) fullShare x) ∗ (∃ x, owns (c : Thread nD τ) (Memref.whole cc1_scratch1) fullShare x)
          ∗ (∃ x, owns (c : Thread nD τ) (Memref.whole cc1_scratch2) fullShare x) ∗ (∃ x, owns (c : Thread nD τ) (Memref.whole cc1_scratch3) fullShare x)
          ∗ others1 c ∗ (∃ r, prngReg c r)) := by
  unfold Pipeline.ΦA others1; rw [scopedRest1_eq]; simp only [owns_whole]
  iintro ⟨⟨A0, A1, A2, A3, A4, A5, A6, S0, S1, S2, S3, B0, B1, B2, B3, B4, B5, B6, B7⟩, Hg⟩
  isplitl [S0]; · iexact S0
  isplitl [S1]; · iexact S1
  isplitl [S2]; · iexact S2
  isplitl [S3]; · iexact S3
  isplitr [Hg]
  swap; · iexact Hg
  isplitl [A0]; · iexact A0
  isplitl [A1]; · iexact A1
  isplitl [A2]; · iexact A2
  isplitl [A3]; · iexact A3
  isplitl [A4]; · iexact A4
  isplitl [A5]; · iexact A5
  isplitl [A6]; · iexact A6
  isplitl [B0]; · iexact B0
  isplitl [B1]; · iexact B1
  isplitl [B2]; · iexact B2
  isplitl [B3]; · iexact B3
  isplitl [B4]; · iexact B4
  isplitl [B5]; · iexact B5
  isplitl [B6]; · iexact B6
  iexact B7

/-- and takes them back. -/
theorem PhiA1_join (c : Dev nD) :
    iprop((∃ x, owns (c : Thread nD τ) (Memref.whole cc1_scratch0) fullShare x) ∗ (∃ x, owns (c : Thread nD τ) (Memref.whole cc1_scratch1) fullShare x)
          ∗ (∃ x, owns (c : Thread nD τ) (Memref.whole cc1_scratch2) fullShare x) ∗ (∃ x, owns (c : Thread nD τ) (Memref.whole cc1_scratch3) fullShare x)
          ∗ others1 c ∗ (∃ r, prngReg c r))
      ⊢ (Pipeline.ΦA spec1 c : sProp 𝕄) := by
  unfold Pipeline.ΦA others1; rw [scopedRest1_eq]; simp only [owns_whole]
  iintro ⟨S0, S1, S2, S3, ⟨A0, A1, A2, A3, A4, A5, A6, B0, B1, B2, B3, B4, B5, B6, B7⟩, Hg⟩
  isplitr [Hg]
  swap; · iexact Hg
  isplitl [A0]; · iexact A0
  isplitl [A1]; · iexact A1
  isplitl [A2]; · iexact A2
  isplitl [A3]; · iexact A3
  isplitl [A4]; · iexact A4
  isplitl [A5]; · iexact A5
  isplitl [A6]; · iexact A6
  isplitl [S0]; · iexact S0
  isplitl [S1]; · iexact S1
  isplitl [S2]; · iexact S2
  isplitl [S3]; · iexact S3
  isplitl [B0]; · iexact B0
  isplitl [B1]; · iexact B1
  isplitl [B2]; · iexact B2
  isplitl [B3]; · iexact B3
  isplitl [B4]; · iexact B4
  isplitl [B5]; · iexact B5
  isplitl [B6]; · iexact B6
  iexact B7

/-- So the two are one proposition. -/
theorem PhiA1_eq (c : Dev nD) :
    (Pipeline.ΦA spec1 c : sProp 𝕄)
      = iprop((∃ x, owns (c : Thread nD τ) (Memref.whole cc1_scratch0) fullShare x) ∗ (∃ x, owns (c : Thread nD τ) (Memref.whole cc1_scratch1) fullShare x)
          ∗ (∃ x, owns (c : Thread nD τ) (Memref.whole cc1_scratch2) fullShare x) ∗ (∃ x, owns (c : Thread nD τ) (Memref.whole cc1_scratch3) fullShare x)
          ∗ others1 c ∗ (∃ r, prngReg c r)) :=
  BI.equiv_iff.mp ⟨PhiA1_split c, PhiA1_join c⟩

theorem Phi1_zero (c : Dev nD) (n : ℕ) (h : n ≤ cfg1.N) (hz : n = 0) : Phi1 V c n h = Pipeline.ΦA spec1 c := by
  subst hz; rfl

/-- After point `n` (before point `n + 1`): the carried buffers at that point's contents. -/
theorem Phi1_succ (c : Dev nD) (n : ℕ) (hn : n < cfg1.N) :
    Phi1 V c (n + 1) hn = iprop(owns (c : Thread nD τ) (Memref.whole cc1_scratch0) fullShare (scr1 V c n hn).1
      ∗ owns (c : Thread nD τ) (Memref.whole cc1_scratch1) fullShare (scr1 V c n hn).2.1
      ∗ owns (c : Thread nD τ) (Memref.whole cc1_scratch2) fullShare (scr1 V c n hn).2.2.1
      ∗ owns (c : Thread nD τ) (Memref.whole cc1_scratch3) fullShare (scr1 V c n hn).2.2.2
      ∗ others1 c ∗ (∃ r, prngReg c r)) := rfl

/-- Before a point that is not the first: the carried buffers at what the point before left. -/
theorem Phi1_pos (c : Dev nD) (n : ℕ) (h : n ≤ cfg1.N) (hz : n ≠ 0) :
    Phi1 V c n h = iprop(owns (c : Thread nD τ) (Memref.whole cc1_scratch0) fullShare (scr1 V c (n - 1) (by omega)).1
      ∗ owns (c : Thread nD τ) (Memref.whole cc1_scratch1) fullShare (scr1 V c (n - 1) (by omega)).2.1
      ∗ owns (c : Thread nD τ) (Memref.whole cc1_scratch2) fullShare (scr1 V c (n - 1) (by omega)).2.2.1
      ∗ owns (c : Thread nD τ) (Memref.whole cc1_scratch3) fullShare (scr1 V c (n - 1) (by omega)).2.2.2
      ∗ others1 c ∗ (∃ r, prngReg c r)) := by
  cases n with
  | zero => exact absurd rfl hz
  | succ n => rfl

/-- The carried buffers after the first point: one update of the zeros. -/
theorem scr1_zero (c : Dev nD) (t : Fin cfg1.N) (hz : t.val = 0) :
    scr1 V c t.val t.isLt = step1 (grid1.coords t) (iblk1 V c 0 t) (iblk1 V c 1 t) (iblk1 V c 2 t) (iblk1 V c 3 t) (iblk1 V c 4 t) zeros1 := by
  obtain ⟨n, hn⟩ := t
  cases n with
  | zero => rfl
  | succ n => exact absurd hz (Nat.succ_ne_zero n)

/-- After a later point: one update of what the point before left. -/
theorem scr1_pos (c : Dev nD) (t : Fin cfg1.N) (hz : t.val ≠ 0) :
    scr1 V c t.val t.isLt = step1 (grid1.coords t) (iblk1 V c 0 t) (iblk1 V c 1 t) (iblk1 V c 2 t) (iblk1 V c 3 t) (iblk1 V c 4 t)
      (scr1 V c (t.val - 1) (Nat.lt_of_le_of_lt (Nat.sub_le _ _) t.isLt)) := by
  obtain ⟨n, hn⟩ := t
  cases n with
  | zero => exact absurd rfl hz
  | succ n => rfl

/-- The invariant at a point's start, restated at `t.val`. -/
theorem Phi1_castSucc (c : Dev nD) (t : Fin cfg1.N) :
    (dat1 V c).Φ t.castSucc = Phi1 V c t.val (Nat.le_of_lt t.isLt) := by
  dsimp only [dat1]; simp only [Fin.coe_castSucc]

/-- Each input's current staging buffer holds its block at every point, fetched there or not: an input window is uncut
    and never idle, and a point that does not fetch it has not moved its block index. -/
theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl) (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl) (fun t => by rw [after1_3]; unfold Dat.blockOf iblk1; rw [A_eq1]; try rfl) t d).trans
    (by unfold Dat.fetched Dat.blockOf iblk1; rw [A_eq1]; try rfl)
theorem before1_4 (c : Dev nD) (t : Fin cfg1.N) (d) : (dat1 V c).before 4 t d = iblk1 V c 4 t :=
  ((dat1 V c).before_in_eq_fetched 4 rfl (fun _ => rfl) (fun _ _ _ => rfl) (fun t => by rw [after1_4]; unfold Dat.blockOf iblk1; rw [A_eq1]; try rfl) t d).trans
    (by unfold Dat.fetched Dat.blockOf iblk1; rw [A_eq1]; try rfl)

/-! ## The body's triple, case by case -/

set_option maxHeartbeats 4000000 in
/-- The body at the first point (the reset taken, the copy into the outputs not): the carried buffers, whatever they held, end at one update of the zeros by the point's blocks; the inputs are left as found. -/
theorem sound_kernel1_A (c : Dev nD) (E : Set ℕ) (i : grid1.Coords) (hc0 : cond1_0 i) (hc1 : ¬cond1_1 i) (arg1 : Memref sig .tc .vmem S1792x128 .f32) (harg1 : arg1.IsWhole) (arg2 : Memref sig .tc .vmem S1792x128 .f32) (harg2 : arg2.IsWhole) (arg3 : Memref sig .tc .vmem S1x1792 .f32) (harg3 : arg3.IsWhole) (arg4 : Memref sig .tc .vmem S1x128 .f32) (harg4 : arg4.IsWhole) (arg5 : Memref sig .tc .vmem S1x1792 .i32) (harg5 : arg5.IsWhole) (arg6 : Memref sig .tc .vmem S1x128 .f32) (harg6 : arg6.IsWhole) (arg7 : Memref sig .tc .vmem S1x128 .f32) (harg7 : arg7.IsWhole) (arg8 : Memref sig .tc .vmem S512x128 .f32) (harg8 : arg8.IsWhole) (arg9 : Memref sig .tc .vmem S512x1 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S512x128 .f32) (harg12 : arg12.IsWhole) (arg13 : Memref sig .tc .vmem S512x1 .f32) (harg13 : arg13.IsWhole)
    (a h : Vec F S1792x128 .f32) (d : Vec F S1x1792 .f32) (b : Vec F S1x128 .f32) (bt : Vec F S1x1792 .i32) (K : PUnit → sProp 𝕄) :
    iprop(owns (c : Thread nD τ) arg1 fullShare a
        ∗ owns (c : Thread nD τ) arg2 fullShare h
        ∗ owns (c : Thread nD τ) arg3 fullShare d
        ∗ owns (c : Thread nD τ) arg4 fullShare b
        ∗ owns (c : Thread nD τ) arg5 fullShare bt
        ∗ (∃ x, owns (c : Thread nD τ) arg10 fullShare x)
        ∗ (∃ x, owns (c : Thread nD τ) arg11 fullShare x)
        ∗ (∃ x, owns (c : Thread nD τ) arg12 fullShare x)
        ∗ (∃ x, owns (c : Thread nD τ) arg13 fullShare x)
        ∗ (iprop(owns (c : Thread nD τ) arg1 fullShare a
            ∗ owns (c : Thread nD τ) arg2 fullShare h
            ∗ owns (c : Thread nD τ) arg3 fullShare d
            ∗ owns (c : Thread nD τ) arg4 fullShare b
            ∗ owns (c : Thread nD τ) arg5 fullShare bt
            ∗ owns (c : Thread nD τ) arg10 fullShare (step1 i a h d b bt zeros1).1
            ∗ owns (c : Thread nD τ) arg11 fullShare (step1 i a h d b bt zeros1).2.1
            ∗ owns (c : Thread nD τ) arg12 fullShare (step1 i a h d b bt zeros1).2.2.1
            ∗ owns (c : Thread nD τ) arg13 fullShare (step1 i a h d b bt zeros1).2.2.2) -∗ K ⟨⟩))
      ⊢ wp frame (wpE (defs₀ (F := F)) Variants.none c none) E (cc1__stats_pool_kernel i arg1 harg1 arg2 harg2 arg3 harg3 arg4 harg4 arg5 harg5 arg6 harg6 arg7 harg7 arg8 harg8 arg9 harg9 arg10 harg10 arg11 harg11 arg12 harg12 arg13 harg13) K := by
  simp only [cc1__stats_pool_kernel_eq_skeleton]; unfold cc1__stats_pool_kernel_skel
  simp only [k1_part1_eq_skeleton]; unfold k1_part1_skel
  unfold owns
  iintro ⟨⟨%f1, %hf1, H1⟩, ⟨%f2, %hf2, H2⟩, ⟨%f3, %hf3, H3⟩, ⟨%f4, %hf4, H4⟩, ⟨%f5, %hf5, H5⟩, ⟨%x10, %f10, -, H10⟩, ⟨%x11, %f11, -, H11⟩, ⟨%x12, %f12, -, H12⟩, ⟨%x13, %f13, -, H13⟩, Hk⟩
  subst hf1 hf2 hf3 hf4 hf5
  sl_exec (disch := first | exact hc0 | exact hc1)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H10]
  · iexists _; isplitr
    swap; · iexact H10
    ipureintro
    refine (read_writes_unit0 (S := S1x128) _ _ hz2 _ _ _).trans ?_
    sl_unfold_run_names
    dsimp only [step1, zeros1]
    simp only [readAt_unit0 (S := S1x128) _ _ hz2,
        readAt_unit0 (S := S1x1792) _ _ hz2,
        readAt_unit0 (S := S1792x128) _ _ hz2,
        readAt_unit0 (S := S512x128) _ _ hz2,
        readAt_unit0 (S := S512x1) _ _ hz2,
        View.readCov_unit_zero (S := S1x128) _ hz2,
        View.readCov_unit_zero (S := S512x128) _ hz2,
        View.readCov_unit_zero (S := S512x1) _ hz2]
  isplitl [H11]
  · iexists _; isplitr
    swap; · iexact H11
    ipureintro
    refine (read_writes_unit0 (S := S1x128) _ _ hz2 _ _ _).trans ?_
    sl_unfold_run_names
    dsimp only [step1, zeros1]
    simp only [readAt_unit0 (S := S1x128) _ _ hz2,
        readAt_unit0 (S := S1x1792) _ _ hz2,
        readAt_unit0 (S := S1792x128) _ _ hz2,
        readAt_unit0 (S := S512x128) _ _ hz2,
        readAt_unit0 (S := S512x1) _ _ hz2,
        View.readCov_unit_zero (S := S1x128) _ hz2,
        View.readCov_unit_zero (S := S512x128) _ hz2,
        View.readCov_unit_zero (S := S512x1) _ hz2]
  isplitl [H12]
  · iexists _; isplitr
    swap; · iexact H12
    ipureintro
    refine (read_writes_unit0 (S := S512x128) _ _ hz2 _ _ _).trans ?_
    sl_unfold_run_names
    dsimp only [step1, zeros1]
    simp only [readAt_unit0 (S := S1x128) _ _ hz2,
        readAt_unit0 (S := S1x1792) _ _ hz2,
        readAt_unit0 (S := S1792x128) _ _ hz2,
        readAt_unit0 (S := S512x128) _ _ hz2,
        readAt_unit0 (S := S512x1) _ _ hz2,
        View.readCov_unit_zero (S := S1x128) _ hz2,
        View.readCov_unit_zero (S := S512x128) _ hz2,
        View.readCov_unit_zero (S := S512x1) _ hz2]
  iexists _; isplitr
  swap; · iexact H13
  ipureintro
  refine (read_writes_unit0 (S := S512x1) _ _ hz2 _ _ _).trans ?_
  sl_unfold_run_names
  dsimp only [step1, zeros1]
  simp only [readAt_unit0 (S := S1x128) _ _ hz2,
      readAt_unit0 (S := S1x1792) _ _ hz2,
      readAt_unit0 (S := S1792x128) _ _ hz2,
      readAt_unit0 (S := S512x128) _ _ hz2,
      readAt_unit0 (S := S512x1) _ _ hz2,
      View.readCov_unit_zero (S := S1x128) _ hz2,
      View.readCov_unit_zero (S := S512x128) _ hz2,
      View.readCov_unit_zero (S := S512x1) _ hz2]

set_option maxHeartbeats 4000000 in
/-- The body at a point that is neither the first nor the last (neither branch taken): the carried buffers at `s` end at one update of `s` by the point's blocks; the inputs are left as found. -/
theorem sound_kernel1_B (c : Dev nD) (E : Set ℕ) (i : grid1.Coords) (hc0 : ¬cond1_0 i) (hc1 : ¬cond1_1 i) (arg1 : Memref sig .tc .vmem S1792x128 .f32) (harg1 : arg1.IsWhole) (arg2 : Memref sig .tc .vmem S1792x128 .f32) (harg2 : arg2.IsWhole) (arg3 : Memref sig .tc .vmem S1x1792 .f32) (harg3 : arg3.IsWhole) (arg4 : Memref sig .tc .vmem S1x128 .f32) (harg4 : arg4.IsWhole) (arg5 : Memref sig .tc .vmem S1x1792 .i32) (harg5 : arg5.IsWhole) (arg6 : Memref sig .tc .vmem S1x128 .f32) (harg6 : arg6.IsWhole) (arg7 : Memref sig .tc .vmem S1x128 .f32) (harg7 : arg7.IsWhole) (arg8 : Memref sig .tc .vmem S512x128 .f32) (harg8 : arg8.IsWhole) (arg9 : Memref sig .tc .vmem S512x1 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S512x128 .f32) (harg12 : arg12.IsWhole) (arg13 : Memref sig .tc .vmem S512x1 .f32) (harg13 : arg13.IsWhole)
    (a h : Vec F S1792x128 .f32) (d : Vec F S1x1792 .f32) (b : Vec F S1x128 .f32) (bt : Vec F S1x1792 .i32) (s : Scr1 F) (K : PUnit → sProp 𝕄) :
    iprop(owns (c : Thread nD τ) arg1 fullShare a
        ∗ owns (c : Thread nD τ) arg2 fullShare h
        ∗ owns (c : Thread nD τ) arg3 fullShare d
        ∗ owns (c : Thread nD τ) arg4 fullShare b
        ∗ owns (c : Thread nD τ) arg5 fullShare bt
        ∗ owns (c : Thread nD τ) arg10 fullShare s.1
        ∗ owns (c : Thread nD τ) arg11 fullShare s.2.1
        ∗ owns (c : Thread nD τ) arg12 fullShare s.2.2.1
        ∗ owns (c : Thread nD τ) arg13 fullShare s.2.2.2
        ∗ (iprop(owns (c : Thread nD τ) arg1 fullShare a
            ∗ owns (c : Thread nD τ) arg2 fullShare h
            ∗ owns (c : Thread nD τ) arg3 fullShare d
            ∗ owns (c : Thread nD τ) arg4 fullShare b
            ∗ owns (c : Thread nD τ) arg5 fullShare bt
            ∗ owns (c : Thread nD τ) arg10 fullShare (step1 i a h d b bt s).1
            ∗ owns (c : Thread nD τ) arg11 fullShare (step1 i a h d b bt s).2.1
            ∗ owns (c : Thread nD τ) arg12 fullShare (step1 i a h d b bt s).2.2.1
            ∗ owns (c : Thread nD τ) arg13 fullShare (step1 i a h d b bt s).2.2.2) -∗ K ⟨⟩))
      ⊢ wp frame (wpE (defs₀ (F := F)) Variants.none c none) E (cc1__stats_pool_kernel i arg1 harg1 arg2 harg2 arg3 harg3 arg4 harg4 arg5 harg5 arg6 harg6 arg7 harg7 arg8 harg8 arg9 harg9 arg10 harg10 arg11 harg11 arg12 harg12 arg13 harg13) K := by
  simp only [cc1__stats_pool_kernel_eq_skeleton]; unfold cc1__stats_pool_kernel_skel
  simp only [k1_part1_eq_skeleton]; unfold k1_part1_skel
  unfold owns
  iintro ⟨⟨%f1, %hf1, H1⟩, ⟨%f2, %hf2, H2⟩, ⟨%f3, %hf3, H3⟩, ⟨%f4, %hf4, H4⟩, ⟨%f5, %hf5, H5⟩, ⟨%f10, %hf10, H10⟩, ⟨%f11, %hf11, H11⟩, ⟨%f12, %hf12, H12⟩, ⟨%f13, %hf13, H13⟩, Hk⟩
  subst hf1 hf2 hf3 hf4 hf5
  sl_exec (disch := first | exact hc0 | exact hc1)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H10]
  · iexists _; isplitr
    swap; · iexact H10
    ipureintro
    refine (read_writes_unit0 (S := S1x128) _ _ hz2 _ _ _).trans ?_
    sl_unfold_run_names
    dsimp only [step1, zeros1]
    simp only [readAt_unit0 (S := S1x128) _ _ hz2,
        readAt_unit0 (S := S1x1792) _ _ hz2,
        readAt_unit0 (S := S1792x128) _ _ hz2,
        readAt_unit0 (S := S512x128) _ _ hz2,
        readAt_unit0 (S := S512x1) _ _ hz2,
        View.readCov_unit_zero (S := S1x128) _ hz2,
        View.readCov_unit_zero (S := S512x128) _ hz2,
        View.readCov_unit_zero (S := S512x1) _ hz2, hf10]
  isplitl [H11]
  · iexists _; isplitr
    swap; · iexact H11
    ipureintro
    refine (read_writes_unit0 (S := S1x128) _ _ hz2 _ _ _).trans ?_
    sl_unfold_run_names
    dsimp only [step1, zeros1]
    simp only [readAt_unit0 (S := S1x128) _ _ hz2,
        readAt_unit0 (S := S1x1792) _ _ hz2,
        readAt_unit0 (S := S1792x128) _ _ hz2,
        readAt_unit0 (S := S512x128) _ _ hz2,
        readAt_unit0 (S := S512x1) _ _ hz2,
        View.readCov_unit_zero (S := S1x128) _ hz2,
        View.readCov_unit_zero (S := S512x128) _ hz2,
        View.readCov_unit_zero (S := S512x1) _ hz2, hf11]
  isplitl [H12]
  · iexists _; isplitr
    swap; · iexact H12
    ipureintro
    refine (read_writes_unit0 (S := S512x128) _ _ hz2 _ _ _).trans ?_
    sl_unfold_run_names
    dsimp only [step1, zeros1]
    simp only [readAt_unit0 (S := S1x128) _ _ hz2,
        readAt_unit0 (S := S1x1792) _ _ hz2,
        readAt_unit0 (S := S1792x128) _ _ hz2,
        readAt_unit0 (S := S512x128) _ _ hz2,
        readAt_unit0 (S := S512x1) _ _ hz2,
        View.readCov_unit_zero (S := S1x128) _ hz2,
        View.readCov_unit_zero (S := S512x128) _ hz2,
        View.readCov_unit_zero (S := S512x1) _ hz2, hf12]
  iexists _; isplitr
  swap; · iexact H13
  ipureintro
  refine (read_writes_unit0 (S := S512x1) _ _ hz2 _ _ _).trans ?_
  sl_unfold_run_names
  dsimp only [step1, zeros1]
  simp only [readAt_unit0 (S := S1x128) _ _ hz2,
      readAt_unit0 (S := S1x1792) _ _ hz2,
      readAt_unit0 (S := S1792x128) _ _ hz2,
      readAt_unit0 (S := S512x128) _ _ hz2,
      readAt_unit0 (S := S512x1) _ _ hz2,
      View.readCov_unit_zero (S := S1x128) _ hz2,
      View.readCov_unit_zero (S := S512x128) _ hz2,
      View.readCov_unit_zero (S := S512x1) _ hz2, hf13]

set_option maxHeartbeats 4000000 in
/-- The body at the last point (the reset not taken, the copy taken): the carried buffers at `s` end at one update of `s` by the point's blocks, and each output window's buffer, whatever it held, at a copy of the matching carried buffer; the inputs are left as found. -/
theorem sound_kernel1_C (c : Dev nD) (E : Set ℕ) (i : grid1.Coords) (hc0 : ¬cond1_0 i) (hc1 : cond1_1 i) (arg1 : Memref sig .tc .vmem S1792x128 .f32) (harg1 : arg1.IsWhole) (arg2 : Memref sig .tc .vmem S1792x128 .f32) (harg2 : arg2.IsWhole) (arg3 : Memref sig .tc .vmem S1x1792 .f32) (harg3 : arg3.IsWhole) (arg4 : Memref sig .tc .vmem S1x128 .f32) (harg4 : arg4.IsWhole) (arg5 : Memref sig .tc .vmem S1x1792 .i32) (harg5 : arg5.IsWhole) (arg6 : Memref sig .tc .vmem S1x128 .f32) (harg6 : arg6.IsWhole) (arg7 : Memref sig .tc .vmem S1x128 .f32) (harg7 : arg7.IsWhole) (arg8 : Memref sig .tc .vmem S512x128 .f32) (harg8 : arg8.IsWhole) (arg9 : Memref sig .tc .vmem S512x1 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S512x128 .f32) (harg12 : arg12.IsWhole) (arg13 : Memref sig .tc .vmem S512x1 .f32) (harg13 : arg13.IsWhole)
    (a h : Vec F S1792x128 .f32) (d : Vec F S1x1792 .f32) (b : Vec F S1x128 .f32) (bt : Vec F S1x1792 .i32) (s : Scr1 F) (K : PUnit → sProp 𝕄) :
    iprop(owns (c : Thread nD τ) arg1 fullShare a
        ∗ owns (c : Thread nD τ) arg2 fullShare h
        ∗ owns (c : Thread nD τ) arg3 fullShare d
        ∗ owns (c : Thread nD τ) arg4 fullShare b
        ∗ owns (c : Thread nD τ) arg5 fullShare bt
        ∗ owns (c : Thread nD τ) arg10 fullShare s.1
        ∗ owns (c : Thread nD τ) arg11 fullShare s.2.1
        ∗ owns (c : Thread nD τ) arg12 fullShare s.2.2.1
        ∗ owns (c : Thread nD τ) arg13 fullShare s.2.2.2
        ∗ (∃ x, owns (c : Thread nD τ) arg6 fullShare x)
        ∗ (∃ x, owns (c : Thread nD τ) arg7 fullShare x)
        ∗ (∃ x, owns (c : Thread nD τ) arg8 fullShare x)
        ∗ (∃ x, owns (c : Thread nD τ) arg9 fullShare x)
        ∗ (iprop(owns (c : Thread nD τ) arg1 fullShare a
            ∗ owns (c : Thread nD τ) arg2 fullShare h
            ∗ owns (c : Thread nD τ) arg3 fullShare d
            ∗ owns (c : Thread nD τ) arg4 fullShare b
            ∗ owns (c : Thread nD τ) arg5 fullShare bt
            ∗ owns (c : Thread nD τ) arg10 fullShare (step1 i a h d b bt s).1
            ∗ owns (c : Thread nD τ) arg11 fullShare (step1 i a h d b bt s).2.1
            ∗ owns (c : Thread nD τ) arg12 fullShare (step1 i a h d b bt s).2.2.1
            ∗ owns (c : Thread nD τ) arg13 fullShare (step1 i a h d b bt s).2.2.2
            ∗ owns (c : Thread nD τ) arg6 fullShare (step1 i a h d b bt s).1
            ∗ owns (c : Thread nD τ) arg7 fullShare (step1 i a h d b bt s).2.1
            ∗ owns (c : Thread nD τ) arg8 fullShare (step1 i a h d b bt s).2.2.1
            ∗ owns (c : Thread nD τ) arg9 fullShare (step1 i a h d b bt s).2.2.2) -∗ K ⟨⟩))
      ⊢ wp frame (wpE (defs₀ (F := F)) Variants.none c none) E (cc1__stats_pool_kernel i arg1 harg1 arg2 harg2 arg3 harg3 arg4 harg4 arg5 harg5 arg6 harg6 arg7 harg7 arg8 harg8 arg9 harg9 arg10 harg10 arg11 harg11 arg12 harg12 arg13 harg13) K := by
  simp only [cc1__stats_pool_kernel_eq_skeleton]; unfold cc1__stats_pool_kernel_skel
  simp only [k1_part1_eq_skeleton]; unfold k1_part1_skel
  unfold owns
  iintro ⟨⟨%f1, %hf1, H1⟩, ⟨%f2, %hf2, H2⟩, ⟨%f3, %hf3, H3⟩, ⟨%f4, %hf4, H4⟩, ⟨%f5, %hf5, H5⟩, ⟨%f10, %hf10, H10⟩, ⟨%f11, %hf11, H11⟩, ⟨%f12, %hf12, H12⟩, ⟨%f13, %hf13, H13⟩, ⟨%x6, %f6, -, H6⟩, ⟨%x7, %f7, -, H7⟩, ⟨%x8, %f8, -, H8⟩, ⟨%x9, %f9, -, H9⟩, Hk⟩
  subst hf1 hf2 hf3 hf4 hf5
  sl_exec (disch := first | exact hc0 | exact hc1)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H10]
  · iexists _; isplitr
    swap; · iexact H10
    ipureintro
    refine (read_writes_unit0 (S := S1x128) _ _ hz2 _ _ _).trans ?_
    sl_unfold_run_names
    dsimp only [step1, zeros1]
    simp only [readAt_unit0 (S := S1x128) _ _ hz2,
        readAt_unit0 (S := S1x1792) _ _ hz2,
        readAt_unit0 (S := S1792x128) _ _ hz2,
        readAt_unit0 (S := S512x128) _ _ hz2,
        readAt_unit0 (S := S512x1) _ _ hz2,
        View.readCov_unit_zero (S := S1x128) _ hz2,
        View.readCov_unit_zero (S := S512x128) _ hz2,
        View.readCov_unit_zero (S := S512x1) _ hz2, hf10]
  isplitl [H11]
  · iexists _; isplitr
    swap; · iexact H11
    ipureintro
    refine (read_writes_unit0 (S := S1x128) _ _ hz2 _ _ _).trans ?_
    sl_unfold_run_names
    dsimp only [step1, zeros1]
    simp only [readAt_unit0 (S := S1x128) _ _ hz2,
        readAt_unit0 (S := S1x1792) _ _ hz2,
        readAt_unit0 (S := S1792x128) _ _ hz2,
        readAt_unit0 (S := S512x128) _ _ hz2,
        readAt_unit0 (S := S512x1) _ _ hz2,
        View.readCov_unit_zero (S := S1x128) _ hz2,
        View.readCov_unit_zero (S := S512x128) _ hz2,
        View.readCov_unit_zero (S := S512x1) _ hz2, hf11]
  isplitl [H12]
  · iexists _; isplitr
    swap; · iexact H12
    ipureintro
    refine (read_writes_unit0 (S := S512x128) _ _ hz2 _ _ _).trans ?_
    sl_unfold_run_names
    dsimp only [step1, zeros1]
    simp only [readAt_unit0 (S := S1x128) _ _ hz2,
        readAt_unit0 (S := S1x1792) _ _ hz2,
        readAt_unit0 (S := S1792x128) _ _ hz2,
        readAt_unit0 (S := S512x128) _ _ hz2,
        readAt_unit0 (S := S512x1) _ _ hz2,
        View.readCov_unit_zero (S := S1x128) _ hz2,
        View.readCov_unit_zero (S := S512x128) _ hz2,
        View.readCov_unit_zero (S := S512x1) _ hz2, hf12]
  isplitl [H13]
  · iexists _; isplitr
    swap; · iexact H13
    ipureintro
    refine (read_writes_unit0 (S := S512x1) _ _ hz2 _ _ _).trans ?_
    sl_unfold_run_names
    dsimp only [step1, zeros1]
    simp only [readAt_unit0 (S := S1x128) _ _ hz2,
        readAt_unit0 (S := S1x1792) _ _ hz2,
        readAt_unit0 (S := S1792x128) _ _ hz2,
        readAt_unit0 (S := S512x128) _ _ hz2,
        readAt_unit0 (S := S512x1) _ _ hz2,
        View.readCov_unit_zero (S := S1x128) _ hz2,
        View.readCov_unit_zero (S := S512x128) _ hz2,
        View.readCov_unit_zero (S := S512x1) _ hz2, hf13]
  isplitl [H6]
  · iexists _; isplitr
    swap; · iexact H6
    ipureintro
    refine (read_writes_unit0 (S := S1x128) _ _ hz2 _ _ _).trans ?_
    sl_unfold_run_names
    dsimp only [step1, zeros1]
    simp only [readAt_unit0 (S := S1x128) _ _ hz2,
        readAt_unit0 (S := S1x1792) _ _ hz2,
        readAt_unit0 (S := S1792x128) _ _ hz2,
        readAt_unit0 (S := S512x128) _ _ hz2,
        readAt_unit0 (S := S512x1) _ _ hz2,
        View.readCov_unit_zero (S := S1x128) _ hz2,
        View.readCov_unit_zero (S := S512x128) _ hz2,
        View.readCov_unit_zero (S := S512x1) _ hz2, hf10]
  isplitl [H7]
  · iexists _; isplitr
    swap; · iexact H7
    ipureintro
    refine (read_writes_unit0 (S := S1x128) _ _ hz2 _ _ _).trans ?_
    sl_unfold_run_names
    dsimp only [step1, zeros1]
    simp only [readAt_unit0 (S := S1x128) _ _ hz2,
        readAt_unit0 (S := S1x1792) _ _ hz2,
        readAt_unit0 (S := S1792x128) _ _ hz2,
        readAt_unit0 (S := S512x128) _ _ hz2,
        readAt_unit0 (S := S512x1) _ _ hz2,
        View.readCov_unit_zero (S := S1x128) _ hz2,
        View.readCov_unit_zero (S := S512x128) _ hz2,
        View.readCov_unit_zero (S := S512x1) _ hz2, hf11]
  isplitl [H8]
  · iexists _; isplitr
    swap; · iexact H8
    ipureintro
    refine (read_writes_unit0 (S := S512x128) _ _ hz2 _ _ _).trans ?_
    sl_unfold_run_names
    dsimp only [step1, zeros1]
    simp only [readAt_unit0 (S := S1x128) _ _ hz2,
        readAt_unit0 (S := S1x1792) _ _ hz2,
        readAt_unit0 (S := S1792x128) _ _ hz2,
        readAt_unit0 (S := S512x128) _ _ hz2,
        readAt_unit0 (S := S512x1) _ _ hz2,
        View.readCov_unit_zero (S := S1x128) _ hz2,
        View.readCov_unit_zero (S := S512x128) _ hz2,
        View.readCov_unit_zero (S := S512x1) _ hz2, hf12]
  iexists _; isplitr
  swap; · iexact H9
  ipureintro
  refine (read_writes_unit0 (S := S512x1) _ _ hz2 _ _ _).trans ?_
  sl_unfold_run_names
  dsimp only [step1, zeros1]
  simp only [readAt_unit0 (S := S1x128) _ _ hz2,
      readAt_unit0 (S := S1x1792) _ _ hz2,
      readAt_unit0 (S := S1792x128) _ _ hz2,
      readAt_unit0 (S := S512x128) _ _ hz2,
      readAt_unit0 (S := S512x1) _ _ hz2,
      View.readCov_unit_zero (S := S1x128) _ hz2,
      View.readCov_unit_zero (S := S512x128) _ hz2,
      View.readCov_unit_zero (S := S512x1) _ hz2, hf13]

/-! ## The body obligation, at a generic point -/

/-- What the body is called with at point `t` (the windows one by one), -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d))
    ∗ (∃ d, owns (c : Thread nD τ) (ms1_8 t) fullShare ((dat1 V c).before 8 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t
    ∗ (dat1 V c).leavesExact 7 t
    ∗ (dat1 V c).leavesExact 8 t)

set_option maxHeartbeats 4000000 in
/-- The body at any point. The inputs' memrefs hold their blocks; the closed forms say which of the three cases the point
    is in; the invariant hands the body the carried buffers at what the point before left (at anything at the first
    point) and takes them back at this point's contents; an output window is handed back as found except at the last
    point, where it receives the matching carried buffer; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).owesAt () t.succ = (dat1 V c).owesAt () t.castSucc from rfl]
  rw [show (dat1 V c).Φ t.succ = Phi1 V c (t.val + 1) t.isLt from rfl, Phi1_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  rw [show (dat1 V c).leavesExact 4 t = owns (c : Thread nD τ) (ms1_4 t) fullShare ((dat1 V c).after 4 t) from by
    unfold Dat.leavesExact; rw [liveAt1_4 t], after1_4]
  have hN : t.val < 56 := lt_of_lt_of_eq t.isLt (show cfg1.N = 56 from N_1)
  by_cases h0 : t.val = 0
  · have hc0 : cond1_0 (grid1.coords t) := (hcond1_0 t).mpr h0
    have hc1 : ¬cond1_1 (grid1.coords t) := fun h => by have := (hcond1_1 t).mp h; omega
    rw [Dat.leavesExact_idle (dat1 V c) 5 t (idleAt1_5 t hc1) (noFlush1_5 t hc1),
      Dat.leavesExact_idle (dat1 V c) 6 t (idleAt1_6 t hc1) (noFlush1_6 t hc1),
      Dat.leavesExact_idle (dat1 V c) 7 t (idleAt1_7 t hc1) (noFlush1_7 t hc1),
      Dat.leavesExact_idle (dat1 V c) 8 t (idleAt1_8 t hc1) (noFlush1_8 t hc1)]
    rw [scr1_zero V c t h0]
    rw [Phi1_castSucc V c t, Phi1_zero V c _ _ h0, PhiA1_eq]
    iintro ⟨⟨S0, S1, S2, S3, Hoth, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (sound_kernel1_A c Set.univ (grid1.coords t) hc0 hc1 _ _ _ _ _ _ _ _ _ _ _ _ _ _ _ _ _ _ _ _ _ _ _ _ _ _ (iblk1 V c 0 t) (iblk1 V c 1 t) (iblk1 V c 2 t) (iblk1 V c 3 t) (iblk1 V c 4 t) _)
    isplitl [H0]; · iexact H0
    isplitl [H1]; · iexact H1
    isplitl [H2]; · iexact H2
    isplitl [H3]; · iexact H3
    isplitl [H4]; · iexact H4
    isplitl [S0]; · iexact S0
    isplitl [S1]; · iexact S1
    isplitl [S2]; · iexact S2
    isplitl [S3]; · iexact S3
    iintro ⟨H0, H1, H2, H3, H4, S0, S1, S2, S3⟩
    isplitl [S0 S1 S2 S3 Hoth Hg]
    · isplitl [S0]; · iexact S0
      isplitl [S1]; · iexact S1
      isplitl [S2]; · iexact S2
      isplitl [S3]; · iexact S3
      isplitl [Hoth]; · iexact Hoth
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexists _; iexact H7
    iexists _; iexact H8
  · by_cases h1 : t.val = 55
    · have hc0 : ¬cond1_0 (grid1.coords t) := fun h => h0 ((hcond1_0 t).mp h)
      have hc1 : cond1_1 (grid1.coords t) := (hcond1_1 t).mpr h1
      rw [show (dat1 V c).leavesExact 5 t = owns (c : Thread nD τ) (ms1_5 t) fullShare ((dat1 V c).after 5 t) from by
        unfold Dat.leavesExact; rw [liveAt1_5 t hc1], after1_5]
      rw [show (dat1 V c).leavesExact 6 t = owns (c : Thread nD τ) (ms1_6 t) fullShare ((dat1 V c).after 6 t) from by
        unfold Dat.leavesExact; rw [liveAt1_6 t hc1], after1_6]
      rw [show (dat1 V c).leavesExact 7 t = owns (c : Thread nD τ) (ms1_7 t) fullShare ((dat1 V c).after 7 t) from by
        unfold Dat.leavesExact; rw [liveAt1_7 t hc1], after1_7]
      rw [show (dat1 V c).leavesExact 8 t = owns (c : Thread nD τ) (ms1_8 t) fullShare ((dat1 V c).after 8 t) from by
        unfold Dat.leavesExact; rw [liveAt1_8 t hc1], after1_8]
      rw [scr1_pos V c t h0]
      rw [Phi1_castSucc V c t, Phi1_pos V c _ _ h0]
      iintro ⟨⟨S0, S1, S2, S3, Hoth, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply (sound_kernel1_C c Set.univ (grid1.coords t) hc0 hc1 _ _ _ _ _ _ _ _ _ _ _ _ _ _ _ _ _ _ _ _ _ _ _ _ _ _ (iblk1 V c 0 t) (iblk1 V c 1 t) (iblk1 V c 2 t) (iblk1 V c 3 t) (iblk1 V c 4 t) (scr1 V c (t.val - 1) _) _)
      isplitl [H0]; · iexact H0
      isplitl [H1]; · iexact H1
      isplitl [H2]; · iexact H2
      isplitl [H3]; · iexact H3
      isplitl [H4]; · iexact H4
      isplitl [S0]; · iexact S0
      isplitl [S1]; · iexact S1
      isplitl [S2]; · iexact S2
      isplitl [S3]; · iexact S3
      isplitl [H5]; · iexists _; iexact H5
      isplitl [H6]; · iexists _; iexact H6
      isplitl [H7]; · iexists _; iexact H7
      isplitl [H8]; · iexists _; iexact H8
      iintro ⟨H0, H1, H2, H3, H4, S0, S1, S2, S3, H5, H6, H7, H8⟩
      isplitl [S0 S1 S2 S3 Hoth Hg]
      · isplitl [S0]; · iexact S0
        isplitl [S1]; · iexact S1
        isplitl [S2]; · iexact S2
        isplitl [S3]; · iexact S3
        isplitl [Hoth]; · iexact Hoth
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexact H8
    · have hc0 : ¬cond1_0 (grid1.coords t) := fun h => h0 ((hcond1_0 t).mp h)
      have hc1 : ¬cond1_1 (grid1.coords t) := fun h => h1 ((hcond1_1 t).mp h)
      rw [Dat.leavesExact_idle (dat1 V c) 5 t (idleAt1_5 t hc1) (noFlush1_5 t hc1),
        Dat.leavesExact_idle (dat1 V c) 6 t (idleAt1_6 t hc1) (noFlush1_6 t hc1),
        Dat.leavesExact_idle (dat1 V c) 7 t (idleAt1_7 t hc1) (noFlush1_7 t hc1),
        Dat.leavesExact_idle (dat1 V c) 8 t (idleAt1_8 t hc1) (noFlush1_8 t hc1)]
      rw [scr1_pos V c t h0]
      rw [Phi1_castSucc V c t, Phi1_pos V c _ _ h0]
      iintro ⟨⟨S0, S1, S2, S3, Hoth, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply (sound_kernel1_B c Set.univ (grid1.coords t) hc0 hc1 _ _ _ _ _ _ _ _ _ _ _ _ _ _ _ _ _ _ _ _ _ _ _ _ _ _ (iblk1 V c 0 t) (iblk1 V c 1 t) (iblk1 V c 2 t) (iblk1 V c 3 t) (iblk1 V c 4 t) (scr1 V c (t.val - 1) _) _)
      isplitl [H0]; · iexact H0
      isplitl [H1]; · iexact H1
      isplitl [H2]; · iexact H2
      isplitl [H3]; · iexact H3
      isplitl [H4]; · iexact H4
      isplitl [S0]; · iexact S0
      isplitl [S1]; · iexact S1
      isplitl [S2]; · iexact S2
      isplitl [S3]; · iexact S3
      iintro ⟨H0, H1, H2, H3, H4, S0, S1, S2, S3⟩
      isplitl [S0 S1 S2 S3 Hoth Hg]
      · isplitl [S0]; · iexact S0
        isplitl [S1]; · iexact S1
        isplitl [S2]; · iexact S2
        isplitl [S3]; · iexact S3
        isplitl [Hoth]; · iexact Hoth
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [H7]; · iexists _; iexact H7
      iexists _; iexact H8

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = Phi1 V c 0 (Nat.zero_le _) from rfl, Phi1_zero V c 0 _ rfl]
  try exact Idealize.SL.BI.Entails.refl _

/-- After any point but the first the invariant gives the class's back: the carried buffers' named contents are forgotten. -/
theorem Phi1_out (c : Dev nD) (t : Fin (cfg1.N + 1)) (ht : t.val ≠ 0) : (dat1 V c).Φ t ⊢ Pipeline.ΦA spec1 c := by
  rw [show (dat1 V c).Φ t = Phi1 V c t.val (Nat.le_of_lt_succ t.isLt) from rfl, Phi1_pos V c _ _ ht, PhiA1_eq]
  iintro ⟨S0, S1, S2, S3, Hoth, Hg⟩
  isplitl [S0]; · iexists _; iexact S0
  isplitl [S1]; · iexists _; iexact S1
  isplitl [S2]; · iexists _; iexact S2
  isplitl [S3]; · iexists _; iexact S3
  isplitl [Hoth]; · iexact Hoth
  iexact Hg

/-- The same after the last point. -/
theorem hout1 (c : Dev nD) : (dat1 V c).Φ (Fin.last cfg1.N) ⊢ Pipeline.ΦA spec1 c :=
  Phi1_out V c _ (by rw [Fin.val_last]; have : cfg1.N = 56 := N_1; omega)

end Cert.Kernel.Hand

end
-- ==== Proof.K.Dat2.lean ====
/- The third pallas region (a grid of one point, one whole store of the output block): each window's
   block at the point, the output block as a function of the seven input blocks, the pipeline's
   proof data at the region-entry contents, and the body obligation. -/
import proofs.«417852_j54494545052225_3_alg».proof.Proof.Gen.Kernel.Skeleton
import proofs.«417852_j54494545052225_3_alg».proof.Proof.Gen.Kernel.Launch
import proofs.«417852_j54494545052225_3_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-! ## The body's accesses: each operand is read whole, the output is stored whole -/

abbrev r2_0 : Rect S512x128 := Rect.unit (s := S512x128) ![0, 0] S512x128.size inb_S512x128_S512x128_0_0
abbrev r2_1 : Rect S128x256 := Rect.unit (s := S128x256) ![0, 0] S128x256.size inb_S128x256_S128x256_0_0
abbrev r2_2 : Rect S1x256 := Rect.unit (s := S1x256) ![0, 0] S1x256.size inb_S1x256_S1x256_0_0
abbrev r2_3 : Rect S256x128 := Rect.unit (s := S256x128) ![0, 0] S256x128.size inb_S256x128_S256x128_0_0
abbrev r2_4 : Rect S1x128 := Rect.unit (s := S1x128) ![0, 0] S1x128.size inb_S1x128_S1x128_0_0
abbrev r2_5 : Rect S128x1 := Rect.unit (s := S128x1) ![0, 0] S128x1.size inb_S128x1_S128x1_0_0
abbrev r2_6 : Rect S1x1 := Rect.unit (s := S1x1) ![0, 0] S1x1.size inb_S1x1_S1x1_0_0
abbrev r2_7 : Rect S512x1 := Rect.unit (s := S512x1) ![0, 0] S512x1.size inb_S512x1_S512x1_0_0

/-! ## What the body leaves in the output window's buffer -/

/-- The output window's buffer after the body, from the seven input blocks: one piece, the whole block. -/
def out2_7 (x0 : Vec F S512x128 .f32) (x1 : Vec F S128x256 .f32) (x2 : Vec F S1x256 .f32) (x3 : Vec F S256x128 .f32)
    (x4 : Vec F S1x128 .f32) (x5 : Vec F S128x1 .f32) (x6 : Vec F S1x1 .f32) : Vec F S512x1 .f32 :=
  View.canon [⟨r2_7, k2_pay1 (View.ld x0 r2_0) (View.ld x1 r2_1) (View.ld x2 r2_2) (View.ld x3 r2_3)
    (View.ld x4 r2_4) (View.ld x5 r2_5) (View.ld x6 r2_6)⟩]

/-! ## The pipeline's proof data -/

/-- The proof data on core `c`: the arrays as the region finds them; after the body each input's buffer at its
    block and the output's at `out2_7` of the input blocks; the invariant leaves the scoped rest untouched;
    nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => out2_7 (iblk2 V c 0 t) (iblk2 V c 1 t) (iblk2 V c 2 t) (iblk2 V c 3 t) (iblk2 V c 4 t)
        (iblk2 V c 5 t) (iblk2 V c 6 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) :
    (dat2 V c).after 7 t = out2_7 (iblk2 V c 0 t) (iblk2 V c 1 t) (iblk2 V c 2 t) (iblk2 V c 3 t) (iblk2 V c 4 t)
      (iblk2 V c 5 t) (iblk2 V c 6 t) := by dsimp only [dat2]

/-! ## The inputs' buffers hold their blocks at the point -/

/-- Input window 0's current staging buffer holds its block, for any proof data whose array is `V`'s and whose
    body leaves the block in place: the window is uncut and never idle. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block, for any proof data whose array is `V`'s and whose
    body leaves the block in place: the window is uncut and never idle. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block, for any proof data whose array is `V`'s and whose
    body leaves the block in place: the window is uncut and never idle. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current staging buffer holds its block, for any proof data whose array is `V`'s and whose
    body leaves the block in place: the window is uncut and never idle. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's current staging buffer holds its block, for any proof data whose array is `V`'s and whose
    body leaves the block in place: the window is uncut and never idle. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- Input window 5's current staging buffer holds its block, for any proof data whose array is `V`'s and whose
    body leaves the block in place: the window is uncut and never idle. -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-- Input window 6's current staging buffer holds its block, for any proof data whose array is `V`'s and whose
    body leaves the block in place: the window is uncut and never idle. -/
theorem before2_6_of {c : Dev nD} (dat : Dat τ (Elt F) Unit ℕ (UR sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)

/-! ## The one store covers the output block -/

theorem cover2_7 (p0 : Vec F S512x1 .f32) (y : S512x1.Idx) :
    ∃ pc ∈ ([⟨r2_7, p0⟩] : List (View.Piece (Elt F) S512x1 .f32)), y ∈ pc.1.set :=
  View.cover_of_tiled [⟨r2_7, p0⟩] S512x1.size (by rfl) y

/-! ## The body's triple -/

set_option maxHeartbeats 1000000 in
/-- The kernel body on whole staging memrefs, the inputs' at contents `x0 … x6` and the output's at anything, runs
    to the continuation holding the inputs' as they were and the output's at `out2_7` of the inputs'. -/
theorem sound_kernel2 (c : Dev nD) (E : Set ℕ) (i : grid2.Coords)
    (arg1 : Memref sig .tc .vmem S512x128 .f32) (harg1 : arg1.IsWhole)
    (arg2 : Memref sig .tc .vmem S128x256 .f32) (harg2 : arg2.IsWhole)
    (arg3 : Memref sig .tc .vmem S1x256 .f32) (harg3 : arg3.IsWhole)
    (arg4 : Memref sig .tc .vmem S256x128 .f32) (harg4 : arg4.IsWhole)
    (arg5 : Memref sig .tc .vmem S1x128 .f32) (harg5 : arg5.IsWhole)
    (arg6 : Memref sig .tc .vmem S128x1 .f32) (harg6 : arg6.IsWhole)
    (arg7 : Memref sig .tc .vmem S1x1 .f32) (harg7 : arg7.IsWhole)
    (arg8 : Memref sig .tc .vmem S512x1 .f32) (harg8 : arg8.IsWhole)
    (x0 : Vec F S512x128 .f32)
    (x1 : Vec F S128x256 .f32)
    (x2 : Vec F S1x256 .f32)
    (x3 : Vec F S256x128 .f32)
    (x4 : Vec F S1x128 .f32)
    (x5 : Vec F S128x1 .f32)
    (x6 : Vec F S1x1 .f32) (K : PUnit → sProp 𝕄) :
    iprop(owns (c : Thread nD τ) arg1 fullShare x0
        ∗ owns (c : Thread nD τ) arg2 fullShare x1
        ∗ owns (c : Thread nD τ) arg3 fullShare x2
        ∗ owns (c : Thread nD τ) arg4 fullShare x3
        ∗ owns (c : Thread nD τ) arg5 fullShare x4
        ∗ owns (c : Thread nD τ) arg6 fullShare x5
        ∗ owns (c : Thread nD τ) arg7 fullShare x6
        ∗ (∃ d, owns (c : Thread nD τ) arg8 fullShare d)
        ∗ (iprop(owns (c : Thread nD τ) arg1 fullShare x0
            ∗ owns (c : Thread nD τ) arg2 fullShare x1
            ∗ owns (c : Thread nD τ) arg3 fullShare x2
            ∗ owns (c : Thread nD τ) arg4 fullShare x3
            ∗ owns (c : Thread nD τ) arg5 fullShare x4
            ∗ owns (c : Thread nD τ) arg6 fullShare x5
            ∗ owns (c : Thread nD τ) arg7 fullShare x6
            ∗ owns (c : Thread nD τ) arg8 fullShare (out2_7 x0 x1 x2 x3 x4 x5 x6)) -∗ K ⟨⟩))
      ⊢ wp frame (wpE (defs₀ (F := F)) Variants.none c none) E (cc2__mlp_kernel i arg1 harg1 arg2 harg2 arg3 harg3 arg4 harg4 arg5 harg5 arg6 harg6 arg7 harg7 arg8 harg8) K := by
  simp only [cc2__mlp_kernel_eq_skeleton]; unfold cc2__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0; subst hf1; subst hf2; subst hf3; subst hf4; subst hf5; subst hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover2_7 _)

/-! ## The proof data's inputs hold their blocks -/

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d
theorem before2_6 (c : Dev nD) (t : Fin cfg2.N) (d) : (dat2 V c).before 6 t d = iblk2 V c 6 t :=
  before2_6_of V (dat2 V c) (A_eq2 V c 6) (after2_6 V c) t d

/-! ## The body obligation -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t))

/-- The body at the point: the inputs' memrefs hold their blocks, so the body's triple applies; the invariant and
    what the core owes pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel2 c Set.univ _ _ _ _ _ _ _ _ _ _ _ _ _ _ _ _ _ (iblk2 V c 0 t) (iblk2 V c 1 t) (iblk2 V c 2 t) (iblk2 V c 3 t) (iblk2 V c 4 t) (iblk2 V c 5 t) (iblk2 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body obligation, at the one point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.K.Run.lean ====
/- The launch of @main: the contents each of the three pallas regions leaves in its arrays, stage by stage; each
   region as a segment between two thread states "every unscoped buffer at the boundary's contents, the generator
   register at some state, nothing owed"; every weakly fair execution ends with every unscoped buffer at the last
   boundary's contents; the thirteen argument arrays end as launched. -/
import proofs.«417852_j54494545052225_3_alg».proof.Proof.Gen.Kernel.Skeleton
import proofs.«417852_j54494545052225_3_alg».proof.Proof.Gen.Kernel.Launch
import proofs.«417852_j54494545052225_3_alg».proof.Proof.Gen.Kernel.Points
import proofs.«417852_j54494545052225_3_alg».proof.Proof.Gen.Kernel.Regions
import proofs.«417852_j54494545052225_3_alg».proof.Proof.K.Dat0
import proofs.«417852_j54494545052225_3_alg».proof.Proof.K.Dat1
import proofs.«417852_j54494545052225_3_alg».proof.Proof.K.Dat1Body
import proofs.«417852_j54494545052225_3_alg».proof.Proof.K.Dat2
import Idealize.ShloMosaic.Lib.Pipeline.FrameSuffix
import Idealize.ShloMosaic.Lib.Pipeline.Frame
import Idealize.ShloMosaic.Lib.Pipeline.Regions
import Idealize.ShloMosaic.Lib.Pipeline.RegionsLoop
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

variable (m : (ℓ : Loc nD τ sig) → Buf (Elt F) ℓ) (ρ : Dev nD → PrngReg)

/-! ## The contents the regions leave, stage by stage

The buffers' contents between @main's items are written over unknown region results. They are fixed here one region
at a time: the contents before region 0 read no region's result; those before region 1 read only region 0's; those
before region 2 only the first two regions'. Each region leaves, in its arrays, what the write-backs of its proof
data (taken at the region's entry contents) leave, and every other buffer as it found it. -/

/-- The contents region 0 is entered from. -/
abbrev VR0 (c : Dev nD) (b : Ref sig .tc) : Buf (Elt F) ((c : Thread nD τ).loc b) := Gen.V4 m c b

/-- What region 0 leaves on core `c`: its arrays after the write-backs of all its points, the rest as entered. -/
def left0 (c : Dev nD) : Valuation τ sig (Elt F) :=
  Pipeline.withArrays spec0 c (Gen.V4 m c) fun w => (dat0 (VR0 m) c).arrAt w cfg0.N

/-- The regions' results with region 0's fixed. -/
def outs1 : Gen.Outs (F := F) := fun _ r c => left0 m c r

/-- The contents region 1 is entered from, over region 0's result alone. -/
abbrev VS1 (c : Dev nD) (b : Ref sig .tc) : Buf (Elt F) ((c : Thread nD τ).loc b) := Gen.V7 m (outs1 m) c b

/-- What region 1 leaves on core `c`. -/
def left1 (c : Dev nD) : Valuation τ sig (Elt F) :=
  Pipeline.withArrays spec1 c (Gen.V7 m (outs1 m) c) fun w => (dat1 (VS1 m) c).arrAt w cfg1.N

/-- The regions' results with the first two fixed. -/
def outs2 : Gen.Outs (F := F) := fun J r c => if J = 5 then left0 m c r else left1 m c r

/-- The contents region 2 is entered from, over the first two regions' results. -/
abbrev VS2 (c : Dev nD) (b : Ref sig .tc) : Buf (Elt F) ((c : Thread nD τ).loc b) := Gen.V11 m (outs2 m) c b

/-- What region 2 leaves on core `c`. -/
def left2 (c : Dev nD) : Valuation τ sig (Elt F) :=
  Pipeline.withArrays spec2 c (Gen.V11 m (outs2 m) c) fun w => (dat2 (VS2 m) c).arrAt w cfg2.N

/-- The contents the three regions leave: after item 4 region 0's, after item 7 region 1's, after item 11 region 2's. -/
def outsV : Gen.Outs (F := F) := fun J r c =>
  if J = 5 then left0 m c r else if J = 8 then left1 m c r else left2 m c r

/-- The contents region 1 is entered from. -/
abbrev VR1 (c : Dev nD) (b : Ref sig .tc) : Buf (Elt F) ((c : Thread nD τ).loc b) := Gen.V7 m (outsV m) c b
/-- The contents region 2 is entered from. -/
abbrev VR2 (c : Dev nD) (b : Ref sig .tc) : Buf (Elt F) ((c : Thread nD τ).loc b) := Gen.V11 m (outsV m) c b

/-! ## Reading the stages back -/

theorem outsV_at5 (r : Ref sig .tc) (c : Dev nD) : outsV m 5 r c = left0 m c r := by
  unfold outsV; exact if_pos rfl
theorem outsV_at8 (r : Ref sig .tc) (c : Dev nD) : outsV m 8 r c = left1 m c r := by
  unfold outsV; rw [if_neg (by decide), if_pos rfl]
theorem outsV_at12 (r : Ref sig .tc) (c : Dev nD) : outsV m 12 r c = left2 m c r := by
  unfold outsV; rw [if_neg (by decide), if_neg (by decide)]
theorem outs2_at5 (r : Ref sig .tc) (c : Dev nD) : outs2 m 5 r c = left0 m c r := by
  unfold outs2; exact if_pos rfl
theorem outs2_at8 (r : Ref sig .tc) (c : Dev nD) : outs2 m 8 r c = left1 m c r := by
  unfold outs2; exact if_neg (by decide)

/-- The contents before region 1 read the regions' results only at region 0's output. -/
theorem V7_congr (o o' : Gen.Outs (F := F)) (h : ∀ c, o 5 main_v16 c = o' 5 main_v16 c) : Gen.V7 m o = Gen.V7 m o' := by
  funext c
  simp only [Gen.V7, Gen.V6, Gen.V5, h c]

/-- The contents before region 2 read them only at the first two regions' outputs. -/
theorem V11_congr (o o' : Gen.Outs (F := F)) (h5 : ∀ c, o 5 main_v16 c = o' 5 main_v16 c)
    (h80 : ∀ c, o 8 main_v30_0 c = o' 8 main_v30_0 c) (h81 : ∀ c, o 8 main_v30_1 c = o' 8 main_v30_1 c)
    (h82 : ∀ c, o 8 main_v30_2 c = o' 8 main_v30_2 c) (h83 : ∀ c, o 8 main_v30_3 c = o' 8 main_v30_3 c) :
    Gen.V11 m o = Gen.V11 m o' := by
  funext c
  simp only [Gen.V11, Gen.V10, Gen.V9, Gen.V8, h80 c, h81 c, h82 c, h83 c]
  rw [V7_congr m o o' h5]

/-- Region 1 is entered from the contents written over region 0's result alone. -/
theorem VR1_eq : VR1 m = VS1 m := by
  funext c b
  exact congrFun (congrFun (V7_congr m (outsV m) (outs1 m) fun c => outsV_at5 m main_v16 c) c) b

/-- Region 2 is entered from the contents written over the first two regions' results. -/
theorem VR2_eq : VR2 m = VS2 m := by
  funext c b
  exact congrFun (congrFun (V11_congr m (outsV m) (outs2 m)
    (fun c => (outsV_at5 m main_v16 c).trans (outs2_at5 m main_v16 c).symm)
    (fun c => (outsV_at8 m main_v30_0 c).trans (outs2_at8 m main_v30_0 c).symm)
    (fun c => (outsV_at8 m main_v30_1 c).trans (outs2_at8 m main_v30_1 c).symm)
    (fun c => (outsV_at8 m main_v30_2 c).trans (outs2_at8 m main_v30_2 c).symm)
    (fun c => (outsV_at8 m main_v30_3 c).trans (outs2_at8 m main_v30_3 c).symm)) c) b

/-- Each region's arrays hold, in what it leaves, what its write-backs leave. -/
theorem left0_arr (c : Dev nD) (w : Fin cfg0.W) :
    left0 m c (Proc.devRef .tc (Pipeline.arrRef spec0 w)) = (dat0 (VR0 m) c).arrAt w cfg0.N := by
  unfold left0; exact Pipeline.withArrays_arr spec0 winFacts0.arr_inj c _ _ w
theorem left1_arr (c : Dev nD) (w : Fin cfg1.W) :
    left1 m c (Proc.devRef .tc (Pipeline.arrRef spec1 w)) = (dat1 (VR1 m) c).arrAt w cfg1.N := by
  rw [VR1_eq]; unfold left1; exact Pipeline.withArrays_arr spec1 winFacts1.arr_inj c _ _ w
theorem left2_arr (c : Dev nD) (w : Fin cfg2.W) :
    left2 m c (Proc.devRef .tc (Pipeline.arrRef spec2 w)) = (dat2 (VR2 m) c).arrAt w cfg2.N := by
  rw [VR2_eq]; unfold left2; exact Pipeline.withArrays_arr spec2 winFacts2.arr_inj c _ _ w

theorem outsV_5 (c : Dev nD) : outsV m 5 main_v16 c = (dat0 (VR0 m) c).arrAt 3 cfg0.N :=
  (outsV_at5 m main_v16 c).trans (left0_arr m c 3)
theorem outsV_8_0 (c : Dev nD) : outsV m 8 main_v30_0 c = (dat1 (VR1 m) c).arrAt 5 cfg1.N :=
  (outsV_at8 m main_v30_0 c).trans (left1_arr m c 5)
theorem outsV_8_1 (c : Dev nD) : outsV m 8 main_v30_1 c = (dat1 (VR1 m) c).arrAt 6 cfg1.N :=
  (outsV_at8 m main_v30_1 c).trans (left1_arr m c 6)
theorem outsV_8_2 (c : Dev nD) : outsV m 8 main_v30_2 c = (dat1 (VR1 m) c).arrAt 7 cfg1.N :=
  (outsV_at8 m main_v30_2 c).trans (left1_arr m c 7)
theorem outsV_8_3 (c : Dev nD) : outsV m 8 main_v30_3 c = (dat1 (VR1 m) c).arrAt 8 cfg1.N :=
  (outsV_at8 m main_v30_3 c).trans (left1_arr m c 8)
theorem outsV_12 (c : Dev nD) : outsV m 12 main_v62 c = (dat2 (VR2 m) c).arrAt 7 cfg2.N :=
  (outsV_at12 m main_v62 c).trans (left2_arr m c 7)

/-! ## What each region's exit contents hold -/

/-- The contents region 0 leaves the core's buffers at, and likewise the other two. -/
abbrev VX0 (c : Dev nD) (b : Ref sig .tc) : Buf (Elt F) ((c : Thread nD τ).loc b) := Gen.V5 m (outsV m) c b
abbrev VX1 (c : Dev nD) (b : Ref sig .tc) : Buf (Elt F) ((c : Thread nD τ).loc b) := Gen.V8 m (outsV m) c b
abbrev VX2 (c : Dev nD) (b : Ref sig .tc) : Buf (Elt F) ((c : Thread nD τ).loc b) := Gen.V12 m (outsV m) c b

/-- Distinct TensorCore references are distinct buffers. -/
theorem dne {r r' : Ref sig .tc} (h : r ≠ r') : (Proc.devRef .tc r : DevRef τ sig) ≠ Proc.devRef .tc r' :=
  StableHlo.devRef_ne_of_ne h

/-- Region 1's four outputs, read off the contents after it. -/
theorem V8_v30_3 (o : Gen.Outs (F := F)) (c : Dev nD) : Gen.V8 m o c main_v30_3 = o 8 main_v30_3 c := by
  simp only [Gen.V8, Function.update_self]
theorem V8_v30_2 (o : Gen.Outs (F := F)) (c : Dev nD) : Gen.V8 m o c main_v30_2 = o 8 main_v30_2 c := by
  simp only [Gen.V8]
  rw [Function.update_of_ne (dne (by decide : (main_v30_2 : Ref sig .tc) ≠ main_v30_3)), Function.update_self]
theorem V8_v30_1 (o : Gen.Outs (F := F)) (c : Dev nD) : Gen.V8 m o c main_v30_1 = o 8 main_v30_1 c := by
  simp only [Gen.V8]
  rw [Function.update_of_ne (dne (by decide : (main_v30_1 : Ref sig .tc) ≠ main_v30_3)),
    Function.update_of_ne (dne (by decide : (main_v30_1 : Ref sig .tc) ≠ main_v30_2)), Function.update_self]
theorem V8_v30_0 (o : Gen.Outs (F := F)) (c : Dev nD) : Gen.V8 m o c main_v30_0 = o 8 main_v30_0 c := by
  simp only [Gen.V8]
  rw [Function.update_of_ne (dne (by decide : (main_v30_0 : Ref sig .tc) ≠ main_v30_3)),
    Function.update_of_ne (dne (by decide : (main_v30_0 : Ref sig .tc) ≠ main_v30_2)),
    Function.update_of_ne (dne (by decide : (main_v30_0 : Ref sig .tc) ≠ main_v30_1)), Function.update_self]

/-- At region 0's exit each of its arrays holds what the pipeline leaves — an input array is never written back, so it
    holds its entry contents, which no region result replaces; the output array holds the region's result — -/
theorem hF0 (c : Dev nD) : ∀ w : Fin 4, (dat0 (VR0 m) c).arrAt w cfg0.N = VX0 m c (Pipeline.arrRef spec0 w) := fun
  | 0 => ((dat0 (VR0 m) c).arrAt_in 0 rfl _).trans ((A_eq0 (VR0 m) c 0).trans (Gen.V5_of m (outsV m) c (Pipeline.arrRef spec0 0) (by decide)).symm)
  | 1 => ((dat0 (VR0 m) c).arrAt_in 1 rfl _).trans ((A_eq0 (VR0 m) c 1).trans (Gen.V5_of m (outsV m) c (Pipeline.arrRef spec0 1) (by decide)).symm)
  | 2 => ((dat0 (VR0 m) c).arrAt_in 2 rfl _).trans ((A_eq0 (VR0 m) c 2).trans (Gen.V5_of m (outsV m) c (Pipeline.arrRef spec0 2) (by decide)).symm)
  | 3 => ((Function.update_self (Proc.devRef .tc main_v16) (outsV m 5 main_v16 c) (Gen.V4 m c)).trans (outsV_5 m c)).symm
  | ⟨_ + 4, h⟩ => absurd h (Nat.not_lt.2 (Nat.le_add_left _ _))
/-- and every other buffer what it held at entry. -/
theorem hrest0 (c : Dev nD) : ∀ b, b ∉ Finset.univ.image (Pipeline.arrRef spec0) → VX0 m c b = VR0 m c b :=
  fun b hb => Gen.V5_of m (outsV m) c b fun hmem =>
    hb (Finset.mem_image.mpr ⟨3, Finset.mem_univ _, (List.mem_singleton.mp hmem).symm⟩)

/-- An input array of region 1 is never written back and is none of the region's results. -/
theorem hF1_in (c : Dev nD) (w : Fin 9) (hin : (cfg1.win w).isOut = false) (r : Ref sig .tc) (hr : Pipeline.arrRef spec1 w = r)
    (hnot : r ∉ ([main_v30_0, main_v30_1, main_v30_2, main_v30_3] : List (Ref sig .tc))) :
    (dat1 (VR1 m) c).arrAt w cfg1.N = VX1 m c (Pipeline.arrRef spec1 w) := by
  subst hr
  exact ((dat1 (VR1 m) c).arrAt_in w hin _).trans ((A_eq1 (VR1 m) c w).trans (Gen.V8_of m (outsV m) c _ hnot).symm)
theorem hF1 (c : Dev nD) : ∀ w : Fin 9, (dat1 (VR1 m) c).arrAt w cfg1.N = VX1 m c (Pipeline.arrRef spec1 w) := fun
  | 0 => hF1_in m c 0 rfl main_v26 rfl (by decide)
  | 1 => hF1_in m c 1 rfl main_v16 rfl (by decide)
  | 2 => hF1_in m c 2 rfl main_v14 rfl (by decide)
  | 3 => hF1_in m c 3 rfl main_v27 rfl (by decide)
  | 4 => hF1_in m c 4 rfl main_v29 rfl (by decide)
  | 5 => ((V8_v30_0 m (outsV m) c).trans (outsV_8_0 m c)).symm
  | 6 => ((V8_v30_1 m (outsV m) c).trans (outsV_8_1 m c)).symm
  | 7 => ((V8_v30_2 m (outsV m) c).trans (outsV_8_2 m c)).symm
  | 8 => ((V8_v30_3 m (outsV m) c).trans (outsV_8_3 m c)).symm
  | ⟨_ + 9, h⟩ => absurd h (Nat.not_lt.2 (Nat.le_add_left _ _))
theorem hrest1 (c : Dev nD) : ∀ b, b ∉ Finset.univ.image (Pipeline.arrRef spec1) → VX1 m c b = VR1 m c b :=
  fun b hb => Gen.V8_of m (outsV m) c b fun hmem => by
    simp only [List.mem_cons, List.mem_singleton, List.not_mem_nil, or_false] at hmem
    rcases hmem with h | h | h | h
    · exact hb (Finset.mem_image.mpr ⟨5, Finset.mem_univ _, h.symm⟩)
    · exact hb (Finset.mem_image.mpr ⟨6, Finset.mem_univ _, h.symm⟩)
    · exact hb (Finset.mem_image.mpr ⟨7, Finset.mem_univ _, h.symm⟩)
    · exact hb (Finset.mem_image.mpr ⟨8, Finset.mem_univ _, h.symm⟩)

/-- An input array of region 2 is never written back and is not the region's result. -/
theorem hF2_in (c : Dev nD) (w : Fin 8) (hin : (cfg2.win w).isOut = false) (r : Ref sig .tc) (hr : Pipeline.arrRef spec2 w = r)
    (hnot : r ∉ ([main_v62] : List (Ref sig .tc))) :
    (dat2 (VR2 m) c).arrAt w cfg2.N = VX2 m c (Pipeline.arrRef spec2 w) := by
  subst hr
  exact ((dat2 (VR2 m) c).arrAt_in w hin _).trans ((A_eq2 (VR2 m) c w).trans (Gen.V12_of m (outsV m) c _ hnot).symm)
theorem hF2 (c : Dev nD) : ∀ w : Fin 8, (dat2 (VR2 m) c).arrAt w cfg2.N = VX2 m c (Pipeline.arrRef spec2 w) := fun
  | 0 => hF2_in m c 0 rfl main_v58 rfl (by decide)
  | 1 => hF2_in m c 1 rfl main_arg7 rfl (by decide)
  | 2 => hF2_in m c 2 rfl main_v59 rfl (by decide)
  | 3 => hF2_in m c 3 rfl main_arg9 rfl (by decide)
  | 4 => hF2_in m c 4 rfl main_v60 rfl (by decide)
  | 5 => hF2_in m c 5 rfl main_arg11 rfl (by decide)
  | 6 => hF2_in m c 6 rfl main_v61 rfl (by decide)
  | 7 => ((Function.update_self (Proc.devRef .tc main_v62) (outsV m 12 main_v62 c) (Gen.V11 m (outsV m) c)).trans (outsV_12 m c)).symm
  | ⟨_ + 8, h⟩ => absurd h (Nat.not_lt.2 (Nat.le_add_left _ _))
theorem hrest2 (c : Dev nD) : ∀ b, b ∉ Finset.univ.image (Pipeline.arrRef spec2) → VX2 m c b = VR2 m c b :=
  fun b hb => Gen.V12_of m (outsV m) c b fun hmem =>
    hb (Finset.mem_image.mpr ⟨7, Finset.mem_univ _, (List.mem_singleton.mp hmem).symm⟩)

/-! ## The proof data family and the thread state -/

/-- Every pipeline's proof data, each at its region's entry contents. -/
def pdats : (p : Fin 3) → (c : Dev nD) → Dat τ (Elt F) Unit ℕ (UR sig nD τ) ℕ (Pipeline.pin (pcfgs (F := F)) Gen.adm p) c
  | ⟨0, _⟩ => fun c => dat0 (VR0 m) c
  | ⟨1, _⟩ => fun c => dat1 (VR1 m) c
  | ⟨2, _⟩ => fun c => dat2 (VR2 m) c
/-- No core owes another anything: no level is assigned. -/
abbrev noL : GSem nD τ sig → Finset Unit := fun _ => ∅
abbrev noLv : GSem nD τ sig → Unit → ℕ := fun _ _ => 0
/-- What rides beside the buffers through every item: the core's generator register at some state (a region's
    invariant takes it in and gives it back) and what the core owes, which is nothing. -/
abbrev rider (c : Dev nD) : sProp 𝕄 := iprop((∃ r, prngReg c r) ∗ ∃ W, owes (c : Thread nD τ) (0 : CellTallies nD τ sig Unit) W)

/-! ## The regions as segments -/

set_option backward.isDefEq.respectTransparency.types false in
/-- REGION 0 over the thread state: entered from every unscoped buffer at the contents before it, left at the contents
    after it. Its arrays are split out of the unscoped buffers and put back at what the write-backs leave; the generator
    register goes into the region's invariant and comes back; nothing is owed; the kernel has no semaphore of its own. -/
def reg0 : Pipeline.RegionSeg (pcfgs (F := F)) Gen.adm (pdats m) () defs₀ Variants.none noL noLv 0 where
  win := launch0.win.to₀
  block_pos := launch0.block_pos
  stage_whole := launch0.stage_whole
  K := PEmpty
  osem k := k.elim
  ho := Pipeline.OwnSemFacts.none _
  hbody c := (body_obligation0 (VR0 m) c).loose
  hwaits := Pipeline.hwaits_of_owed_zero _ _ _ _ noL noLv 0 fun _ _ => rfl
  pre c := iprop(StableHlo.held (c : Thread nD τ) (Pipeline.ucRefs τ sig) (Gen.V4 m c) ∗ rider c)
  post c := iprop(StableHlo.held (c : Thread nD τ) (Pipeline.ucRefs τ sig) (Gen.V5 m (outsV m) c) ∗ rider c)
  X c := iprop(∃ r, prngReg c r)
  Y c := iprop(∃ r, prngReg c r)
  Z c := Pipeline.unscopedRest (Ix := Unit) (Name := ℕ) (U := UR sig nD τ) (Lvl := ℕ) spec0 c (VR0 m c)
  hentry c := by
    rw [Pipeline.ownSems0_none]
    have hsplit := Pipeline.arrays_of_unscopedBufs (p := 0) (pcfgs (F := F)) Gen.adm (pdats m) launch0.win launch0.arr_whole c
      ((pdats m 0 c).share_full fun _ => rfl) (VR0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) Gen.adm (Ix := Unit) (Name := ℕ) (U := UR sig nD τ) (Lvl := ℕ)
      launch0.win launch0.arr_whole c (pdats m) ((pdats m 0 c).share_full fun _ => rfl)
      (VR0 m c) (VX0 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1 over the thread state: entered from every unscoped buffer at the contents before it, left at the contents
    after it. Its arrays are split out of the unscoped buffers and put back at what the write-backs leave; the generator
    register goes into the region's invariant and comes back; nothing is owed; the kernel has no semaphore of its own. -/
def reg1 : Pipeline.RegionSeg (pcfgs (F := F)) Gen.adm (pdats m) () defs₀ Variants.none noL noLv 1 where
  win := launch1.win.to₀
  block_pos := launch1.block_pos
  stage_whole := launch1.stage_whole
  K := PEmpty
  osem k := k.elim
  ho := Pipeline.OwnSemFacts.none _
  hbody c := (body_obligation1 (VR1 m) c).loose
  hwaits := Pipeline.hwaits_of_owed_zero _ _ _ _ noL noLv 1 fun _ _ => rfl
  pre c := iprop(StableHlo.held (c : Thread nD τ) (Pipeline.ucRefs τ sig) (Gen.V7 m (outsV m) c) ∗ rider c)
  post c := iprop(StableHlo.held (c : Thread nD τ) (Pipeline.ucRefs τ sig) (Gen.V8 m (outsV m) c) ∗ rider c)
  X c := iprop(∃ r, prngReg c r)
  Y c := iprop(∃ r, prngReg c r)
  Z c := Pipeline.unscopedRest (Ix := Unit) (Name := ℕ) (U := UR sig nD τ) (Lvl := ℕ) spec1 c (VR1 m c)
  hentry c := by
    rw [Pipeline.ownSems0_none]
    have hsplit := Pipeline.arrays_of_unscopedBufs (p := 1) (pcfgs (F := F)) Gen.adm (pdats m) launch1.win launch1.arr_whole c
      ((pdats m 1 c).share_full fun _ => rfl) (VR1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (VR1 m) c)
    unfold Pipeline.ΦA
    iintro ⟨Hp, -, Hr⟩
    isplitl [Hr]; · iexact Hr
    iexact Hp
  hout c := by
    rw [Pipeline.ownSems0_none]
    refine BIBase.Entails.trans (hout1 (VR1 m) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) Gen.adm (Ix := Unit) (Name := ℕ) (U := UR sig nD τ) (Lvl := ℕ)
      launch1.win launch1.arr_whole c (pdats m) ((pdats m 1 c).share_full fun _ => rfl)
      (VR1 m c) (VX1 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 2 over the thread state: entered from every unscoped buffer at the contents before it, left at the contents
    after it. Its arrays are split out of the unscoped buffers and put back at what the write-backs leave; the generator
    register goes into the region's invariant and comes back; nothing is owed; the kernel has no semaphore of its own. -/
def reg2 : Pipeline.RegionSeg (pcfgs (F := F)) Gen.adm (pdats m) () defs₀ Variants.none noL noLv 2 where
  win := launch2.win.to₀
  block_pos := launch2.block_pos
  stage_whole := launch2.stage_whole
  K := PEmpty
  osem k := k.elim
  ho := Pipeline.OwnSemFacts.none _
  hbody c := (body_obligation2 (VR2 m) c).loose
  hwaits := Pipeline.hwaits_of_owed_zero _ _ _ _ noL noLv 2 fun _ _ => rfl
  pre c := iprop(StableHlo.held (c : Thread nD τ) (Pipeline.ucRefs τ sig) (Gen.V11 m (outsV m) c) ∗ rider c)
  post c := iprop(StableHlo.held (c : Thread nD τ) (Pipeline.ucRefs τ sig) (Gen.V12 m (outsV m) c) ∗ rider c)
  X c := iprop(∃ r, prngReg c r)
  Y c := iprop(∃ r, prngReg c r)
  Z c := Pipeline.unscopedRest (Ix := Unit) (Name := ℕ) (U := UR sig nD τ) (Lvl := ℕ) spec2 c (VR2 m c)
  hentry c := by
    rw [Pipeline.ownSems0_none]
    have hsplit := Pipeline.arrays_of_unscopedBufs (p := 2) (pcfgs (F := F)) Gen.adm (pdats m) launch2.win launch2.arr_whole c
      ((pdats m 2 c).share_full fun _ => rfl) (VR2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) Gen.adm (Ix := Unit) (Name := ℕ) (U := UR sig nD τ) (Lvl := ℕ)
      launch2.win launch2.arr_whole c (pdats m) ((pdats m 2 c).share_full fun _ => rfl)
      (VR2 m c) (VX2 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- Every weakly fair execution ends, nothing faulting, with every unscoped buffer at the last valuation: @main is the
    run of its twelve items — nine host stretches, each from its boundary's contents, and the three regions —, the thread
    states chain, the launch deals the first one on every core, and the last one is read against the final state. -/
theorem run : θ_run defs (onTc (τ := τ) (main (F := F))) ⟨m, fun _ => 0, ρ⟩
    (fun r => ∀ c : Dev nD, ∀ b ∈ Pipeline.ucRefs τ sig, r.2.mem ((c : Thread nD τ).1, b) = Gen.V12 m (outsV m) c b) := by
  refine Pipeline.θ_run_regions_kit_dev (pcfgs (F := F)) Gen.adm (pdats m) () cellOf_inj emb₁ defs₀ Variants.none noL noLv m ρ main
    (Gen.segs m (outsV m) Variants.none noL noLv (fun _ => rider) () (pdats m) (reg0 m) (reg1 m) (reg2 m))
    (fun c Q => by
      rewrite [main_chain c, Pipeline.Seg.run_eq_chain,
        show (Gen.segs m (outsV m) Variants.none noL noLv (fun _ => rider) () (pdats m) (reg0 m) (reg1 m) (reg2 m) c).map Pipeline.Seg.prog = [
          StableHlo.seq hostOps0,
          StableHlo.seq hostOps0_1,
          StableHlo.seq hostOps0_2,
          StableHlo.seq hostOps0_3,
          Prog.lift (.customCall (Pipeline.entry 0) ()),
          StableHlo.seq hostOps1,
          StableHlo.seq hostOps1_1,
          Prog.lift (.customCall (Pipeline.entry 1) ()),
          StableHlo.seq hostOps2,
          StableHlo.seq hostOps2_1,
          StableHlo.seq hostOps2_2,
          Prog.lift (.customCall (Pipeline.entry 2) ()) ] from rfl]
      exact .rfl)
    (fun c => by simp only [Gen.segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ rider c))
    (Tₙ := fun c => StableHlo.held (c : Thread nD τ) (Pipeline.ucRefs τ sig) (Gen.V12 m (outsV m) c))
    (hch := fun c => ⟨.rfl, .rfl, .rfl, .rfl, .rfl, .rfl, .rfl, .rfl, .rfl, .rfl, .rfl, .rfl,
      sep_mono .rfl (by iintro ⟨-, HO⟩; iexact HO)⟩)
    (hinit := by
      refine Pipeline.initEach noL noLv fun c => ?_
      rw [show unscopedBufs c (fun b => m ((c : Thread nD τ).loc b)) = StableHlo.held (c : Thread nD τ) (Pipeline.ucRefs τ sig) (Gen.V0 m c)
        from Pipeline.unscopedBufs_held c (Gen.V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Gen.V12 m (outsV m) c b)
    (hfin := fun c s' => by
      iintro ⟨Hh, HSI⟩
      unfold StableHlo.held
      imodintro
      iapply (pointsTo_read_all (Pipeline.ucRefs τ sig) (fun b => (((c : Thread nD τ)).1, b)) (Gen.V12 m (outsV m) c) s')
      isplitl [Hh] <;> iassumption)
    (hQ := fun s h => h)

/-- The frame: the thirteen arguments end as launched — each is an unscoped buffer, and the last valuation has it at
    its launch contents, no host stretch writing it and no region changing it. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun _ h c => ⟨(h c _ (mem_uc main_arg0 (by decide))).trans (Gen.V12_main_arg0 m (outsV m) c),
    (h c _ (mem_uc main_arg1 (by decide))).trans (Gen.V12_main_arg1 m (outsV m) c),
    (h c _ (mem_uc main_arg2 (by decide))).trans (Gen.V12_main_arg2 m (outsV m) c),
    (h c _ (mem_uc main_arg3 (by decide))).trans (Gen.V12_main_arg3 m (outsV m) c),
    (h c _ (mem_uc main_arg4 (by decide))).trans (Gen.V12_main_arg4 m (outsV m) c),
    (h c _ (mem_uc main_arg5 (by decide))).trans (Gen.V12_main_arg5 m (outsV m) c),
    (h c _ (mem_uc main_arg6 (by decide))).trans (Gen.V12_main_arg6 m (outsV m) c),
    (h c _ (mem_uc main_arg7 (by decide))).trans (Gen.V12_main_arg7 m (outsV m) c),
    (h c _ (mem_uc main_arg8 (by decide))).trans (Gen.V12_main_arg8 m (outsV m) c),
    (h c _ (mem_uc main_arg9 (by decide))).trans (Gen.V12_main_arg9 m (outsV m) c),
    (h c _ (mem_uc main_arg10 (by decide))).trans (Gen.V12_main_arg10 m (outsV m) c),
    (h c _ (mem_uc main_arg11 (by decide))).trans (Gen.V12_main_arg11 m (outsV m) c),
    (h c _ (mem_uc main_arg12 (by decide))).trans (Gen.V12_main_arg12 m (outsV m) c)⟩) (run m ρ)

end Cert.Kernel.Hand

end
-- ==== Proof.KI.Dat0.lean ====
/- The first pallas region (grid of 14 points, one whole store of the output block per point): each
   window's block at a point, the output block as a function of the three input blocks, the
   pipeline's proof data at the region-entry contents, and the body obligation at every point. -/
import proofs.«417852_j54494545052225_3_alg».proof.Proof.Gen.KernelIdeal.Skeleton
import proofs.«417852_j54494545052225_3_alg».proof.Proof.Gen.KernelIdeal.Launch
import proofs.«417852_j54494545052225_3_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## The body's accesses: each operand is read whole, the output is stored whole -/

abbrev rX0 : Rect S7168x128 := Rect.unit (s := S7168x128) ![0, 0] S7168x128.size inb_S7168x128_S7168x128_0_0
abbrev rW0 : Rect S128x128 := Rect.unit (s := S128x128) ![0, 0] S128x128.size inb_S128x128_S128x128_0_0
abbrev rD0 : Rect S1x7168 := Rect.unit (s := S1x7168) ![0, 0] S1x7168.size inb_S1x7168_S1x7168_0_0

/-! ## What the body leaves in the output window's buffer -/

/-- The output window's buffer after the body, from the three input blocks: one piece, the whole block. -/
def out0_3 (x0 : Vec F S7168x128 .f32) (x1 : Vec F S128x128 .f32) (x2 : Vec F S1x7168 .f32) : Vec F S7168x128 .f32 :=
  View.canon [⟨rX0, k0_pay1 (View.ld x0 rX0) (View.ld x1 rW0) (View.ld x2 rD0)⟩]

/-! ## The pipeline's proof data -/

/-- The proof data on core `c`: the arrays as the region finds them; after the body at point `t` each input's
    buffer at its block and the output's at `out0_3` of the input blocks; the invariant leaves the scoped rest
    untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

/-! ## The inputs' buffers hold their blocks at every point -/

/-- Input window 0's current staging buffer holds its block at every point, fetched there or not, for any proof
    data whose array is `V`'s and whose body leaves the block in place: the window is uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1 is fetched at the first point only; where it is not fetched its block index has not moved, so
    its buffer still holds the block. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2, fetched at every point. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The one store covers the output block -/

theorem cover0_3 (p0 : Vec F S7168x128 .f32) (y : S7168x128.Idx) :
    ∃ pc ∈ ([⟨rX0, p0⟩] : List (View.Piece (Elt F) S7168x128 .f32)), y ∈ pc.1.set :=
  View.cover_of_tiled [⟨rX0, p0⟩] S7168x128.size (by rfl) y

/-! ## The body's triple -/

set_option maxHeartbeats 1000000 in
/-- The kernel body on whole staging memrefs, the inputs' at contents `x0 x1 x2` and the output's at anything, runs
    to the continuation holding the inputs' as they were and the output's at `out0_3` of the inputs'. -/
theorem sound_kernel0 (c : Dev nD) (E : Set ℕ) (i : grid0.Coords)
    (arg1 : Memref sig .tc .vmem S7168x128 .f32) (harg1 : arg1.IsWhole)
    (arg2 : Memref sig .tc .vmem S128x128 .f32) (harg2 : arg2.IsWhole)
    (arg3 : Memref sig .tc .vmem S1x7168 .f32) (harg3 : arg3.IsWhole)
    (arg4 : Memref sig .tc .vmem S7168x128 .f32) (harg4 : arg4.IsWhole)
    (x0 : Vec F S7168x128 .f32) (x1 : Vec F S128x128 .f32) (x2 : Vec F S1x7168 .f32) (K : PUnit → sProp 𝕄) :
    iprop(owns (c : Thread nD τ) arg1 fullShare x0 ∗ owns (c : Thread nD τ) arg2 fullShare x1
        ∗ owns (c : Thread nD τ) arg3 fullShare x2 ∗ (∃ d, owns (c : Thread nD τ) arg4 fullShare d)
        ∗ (iprop(owns (c : Thread nD τ) arg1 fullShare x0 ∗ owns (c : Thread nD τ) arg2 fullShare x1
            ∗ owns (c : Thread nD τ) arg3 fullShare x2 ∗ owns (c : Thread nD τ) arg4 fullShare (out0_3 x0 x1 x2)) -∗ K ⟨⟩))
      ⊢ wp frame (wpE (defs₀ (F := F)) Variants.none c none) E (cc0__gcn_linear_kernel i arg1 harg1 arg2 harg2 arg3 harg3 arg4 harg4) K := by
  simp only [cc0__gcn_linear_kernel_eq_skeleton]; unfold cc0__gcn_linear_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The proof data's inputs hold their blocks -/

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks, so the body's triple applies; the invariant and
    what the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Dat1.lean ====
/- Region 1 (the statistics-and-pooling kernel, 56 grid points): the four buffers it carries between points stated by
   recursion over the points, the proof data of its pipeline, and the body obligation: the reset at the first point,
   the accumulation at every point, the copy into the output windows at the last point. -/
import proofs.«417852_j54494545052225_3_alg».proof.Proof.Gen.KernelIdeal.Skeleton
import proofs.«417852_j54494545052225_3_alg».proof.Proof.Gen.KernelIdeal.Launch
import proofs.«417852_j54494545052225_3_alg».proof.Proof.Gen.KernelIdeal.Points
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## The carried buffers, point by point -/

/-- the four carried buffers: sum, sum of squares, per-graph sum, per-graph count -/
abbrev Scr1 (F : FTy → Type) [FloatOps F] : Type := Vec F S1x128 .f32 × Vec F S1x128 .f32 × Vec F S512x128 .f32 × Vec F S512x1 .f32

/-- what the reset at the first point stores -/
def zeros1 : Scr1 F := (k1_pay5, k1_pay6, k1_pay7, k1_pay8)

/-- one point's update of the carried buffers from the point's input blocks (a = window 0, h = window 1, d = window 2, b = window 3, bt = window 4) -/
def step1 (i : grid1.Coords) (a h : Vec F S1792x128 .f32) (d : Vec F S1x1792 .f32) (b : Vec F S1x128 .f32) (bt : Vec F S1x1792 .i32) (s : Scr1 F) : Scr1 F :=
  (k1_pay11 i d a h b s.1, k1_pay1 s.2.1 (k1_pay12 i d a h b), k1_pay3 (k1_pay9 i) (k1_pay10 i d a h b) bt s.2.2.1, k1_pay4 (k1_pay9 i) bt s.2.2.2)

/-- the carried buffers after the body at position n: point 0 updates the zeros, point n+1 what point n left -/
def scr1 (c : Dev nD) : (n : ℕ) → n < cfg1.N → Scr1 F
  | 0, hn => step1 (grid1.coords ⟨0, hn⟩) (iblk1 V c 0 ⟨0, hn⟩) (iblk1 V c 1 ⟨0, hn⟩) (iblk1 V c 2 ⟨0, hn⟩) (iblk1 V c 3 ⟨0, hn⟩) (iblk1 V c 4 ⟨0, hn⟩) zeros1
  | n + 1, hn => step1 (grid1.coords ⟨n + 1, hn⟩) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (scr1 c n (Nat.lt_of_succ_lt hn))

/-! ## The region invariant -/

/-- The core's scoped buffers that belong to the other two regions (their staging buffers), each whole at some contents. -/
def others1 (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg2_1), ((c : Thread nD τ).loc cc0_stg2_1) ↦{fullShare} f)
    ∗ (∃ f : Buf (Elt F) ((c : Thread nD τ).loc cc0_stg3_0), ((c : Thread nD τ).loc cc0_stg3_0) ↦{fullShare} f)
    ∗ (∃ f : Buf (Elt F) ((c : Thread nD τ).loc cc0_stg3_1), ((c : Thread nD τ).loc cc0_stg3_1) ↦{fullShare} f)
    ∗ (∃ f : Buf (Elt F) ((c : Thread nD τ).loc cc2_stg0_0), ((c : Thread nD τ).loc cc2_stg0_0) ↦{fullShare} f)
    ∗ (∃ f : Buf (Elt F) ((c : Thread nD τ).loc cc2_stg1_0), ((c : Thread nD τ).loc cc2_stg1_0) ↦{fullShare} f)
    ∗ (∃ f : Buf (Elt F) ((c : Thread nD τ).loc cc2_stg2_0), ((c : Thread nD τ).loc cc2_stg2_0) ↦{fullShare} f)
    ∗ (∃ f : Buf (Elt F) ((c : Thread nD τ).loc cc2_stg3_0), ((c : Thread nD τ).loc cc2_stg3_0) ↦{fullShare} f)
    ∗ (∃ f : Buf (Elt F) ((c : Thread nD τ).loc cc2_stg4_0), ((c : Thread nD τ).loc cc2_stg4_0) ↦{fullShare} f)
    ∗ (∃ f : Buf (Elt F) ((c : Thread nD τ).loc cc2_stg5_0), ((c : Thread nD τ).loc cc2_stg5_0) ↦{fullShare} f)
    ∗ (∃ f : Buf (Elt F) ((c : Thread nD τ).loc cc2_stg6_0), ((c : Thread nD τ).loc cc2_stg6_0) ↦{fullShare} f)
    ∗ (∃ f : Buf (Elt F) ((c : Thread nD τ).loc cc2_stg7_0), ((c : Thread nD τ).loc cc2_stg7_0) ↦{fullShare} f))

/-- The region invariant before position `n`: before the first point the class's (every scoped buffer that is no staging
    buffer of this region at some contents, the generator register at some state); afterwards the four carried buffers
    owned whole at what the point before left in them, beside the other regions' staging buffers and the register. -/
def Phi1 (c : Dev nD) : (n : ℕ) → n ≤ cfg1.N → sProp 𝕄
  | 0, _ => Pipeline.ΦA spec1 c
  | n + 1, hn => iprop(owns (c : Thread nD τ) (Memref.whole cc1_scratch0) fullShare (scr1 V c n hn).1
      ∗ owns (c : Thread nD τ) (Memref.whole cc1_scratch1) fullShare (scr1 V c n hn).2.1
      ∗ owns (c : Thread nD τ) (Memref.whole cc1_scratch2) fullShare (scr1 V c n hn).2.2.1
      ∗ owns (c : Thread nD τ) (Memref.whole cc1_scratch3) fullShare (scr1 V c n hn).2.2.2
      ∗ others1 c ∗ (∃ r, prngReg c r))

/-! ## The pipeline's proof data -/

/-- The proof data of the pipeline on core `c`: the arrays as the region finds them; after the body at point `t` each
    input's buffer at its block and each output's at the matching carried buffer after that point (the outputs are
    written only at the last point); the invariant `Phi1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => (scr1 V c t.val t.isLt).1
    | ⟨6, _⟩ => (scr1 V c t.val t.isLt).2.1
    | ⟨7, _⟩ => (scr1 V c t.val t.isLt).2.2.1
    | ⟨8, _⟩ => (scr1 V c t.val t.isLt).2.2.2
  Φ t := Phi1 V c t.val (Nat.le_of_lt_succ t.isLt)
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = (scr1 V c t.val t.isLt).1 := by dsimp only [dat1]
theorem after1_6 (c : Dev nD) (t : Fin cfg1.N) : (dat1 V c).after 6 t = (scr1 V c t.val t.isLt).2.1 := by dsimp only [dat1]
theorem after1_7 (c : Dev nD) (t : Fin cfg1.N) : (dat1 V c).after 7 t = (scr1 V c t.val t.isLt).2.2.1 := by dsimp only [dat1]
theorem after1_8 (c : Dev nD) (t : Fin cfg1.N) : (dat1 V c).after 8 t = (scr1 V c t.val t.isLt).2.2.2 := by dsimp only [dat1]

end Cert.KernelIdeal.Hand

end
-- ==== Proof.KI.Dat1Body.lean ====
/- Region 1 (the statistics-and-pooling kernel, 56 grid points): the body obligation of its pipeline's proof data. The
   three cases of a point (first: reset; middle; last: copy into the output windows) each run the body against the
   carried buffers' contents stated by recursion; then what the invariant is before the first and after the last point. -/
import proofs.«417852_j54494545052225_3_alg».proof.Proof.Gen.KernelIdeal.Skeleton
import proofs.«417852_j54494545052225_3_alg».proof.Proof.Gen.KernelIdeal.Launch
import proofs.«417852_j54494545052225_3_alg».proof.Proof.Gen.KernelIdeal.Points
import proofs.«417852_j54494545052225_3_alg».proof.Proof.KI.Dat1
import Idealize.ShloMosaic.Lib.Pipeline.FrameSuffix
import Idealize.ShloMosaic.Lib.Ring
import Idealize.ShloMosaic.Lib.Tactic
import Idealize.ShloMosaic.Lib.Pipeline.FrameBody
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## Whole-buffer loads and stores -/

/-- The zero offsets of a rank-2 rectangle, as the constant function. -/
private theorem hz2 : (![0, 0] : Fin 2 → Nat) = fun _ => 0 := by
  funext a; fin_cases a <;> rfl

/-- A load through the whole-shape rectangle at zero offsets reads the contents. -/
private theorem readAt_unit0 {κ : Kind} {sp : Space} {S : Shape} {e : EltTy} (v : View sig κ sp S e) (f : v.ty.Contents (Elt F))
    {off : Fin S.rank → Nat} (hz : off = fun _ => 0) (inb : ∀ a, off a + S.size a ≤ S.size a) :
    v.readAt (Elt F) (Rect.unit off S.size inb).toLoadRect f = v.read (Elt F) f :=
  View.ld_unit_zero hz inb _

/-- A store through it, the newest, is what the buffer then reads, whatever was stored before. -/
private theorem read_writes_unit0 {κ : Kind} {sp : Space} {S : Shape} {e : EltTy} (v : View sig κ sp S e) (f : v.ty.Contents (Elt F))
    {off : Fin S.rank → Nat} (hz : off = fun _ => 0) (inb : ∀ a, off a + S.size a ≤ S.size a) (w : S.Idx → Elt F e)
    (L : List (View.Piece (Elt F) S e)) :
    v.read (Elt F) (v.writes (Elt F) f ((⟨Rect.unit off S.size inb, w⟩ : View.Piece (Elt F) S e) :: L)) = w := by
  rw [View.read_writes_eq_canon v f _ (fun y => ⟨_, List.Mem.head _, View.mem_set_unit_zero hz inb y⟩),
    View.canon_cons_unit_zero hz]

/-! ## The body's two conditions -/

/-- The condition of the reset (the first `scf.if`), from the grid coordinates. -/
abbrev cond1_0 (i : grid1.Coords) : Prop := (Scalar.cmpi .ne (Scalar.extui (Scalar.cmpi .eq (BitVec.ofNat 32 (i 0).val) 0#32)) 0#32) = 1#1
/-- The condition of the copy into the outputs (the second `scf.if`). -/
abbrev cond1_1 (i : grid1.Coords) : Prop := k1_cond2 i = 1#1

/-- The reset's condition holds at the first point only — decided over the grid. -/
theorem hcond1_0 : ∀ t : Fin cfg1.N, cond1_0 (grid1.coords t) ↔ t.val = 0 :=
  (by decide +kernel : ∀ t : Fin grid1.N, cond1_0 (grid1.coords t) ↔ t.val = 0)
/-- The copy's condition holds at the last point only — decided over the grid. -/
theorem hcond1_1 : ∀ t : Fin cfg1.N, cond1_1 (grid1.coords t) ↔ t.val = 55 :=
  (by decide +kernel : ∀ t : Fin grid1.N, cond1_1 (grid1.coords t) ↔ t.val = 55)

/-! ## Where the windows are idle -/

/-- Window 0 is never idle (an input). -/
theorem liveAt1_0 : ∀ t : Fin cfg1.N, cfg1.idle 0 (grid1.coords t) = false := by decide +kernel
/-- Window 1 is never idle (an input). -/
theorem liveAt1_1 : ∀ t : Fin cfg1.N, cfg1.idle 1 (grid1.coords t) = false := by decide +kernel
/-- Window 2 is never idle (an input). -/
theorem liveAt1_2 : ∀ t : Fin cfg1.N, cfg1.idle 2 (grid1.coords t) = false := by decide +kernel
/-- Window 3 is never idle (an input). -/
theorem liveAt1_3 : ∀ t : Fin cfg1.N, cfg1.idle 3 (grid1.coords t) = false := by decide +kernel
/-- Window 4 is never idle (an input). -/
theorem liveAt1_4 : ∀ t : Fin cfg1.N, cfg1.idle 4 (grid1.coords t) = false := by decide +kernel
/-- Away from the last point output window 5 is idle (nothing is stored into it) and is not written back; at the last point it is live. -/
theorem idleAt1_5 : ∀ t : Fin cfg1.N, ¬cond1_1 (grid1.coords t) → cfg1.idle 5 (grid1.coords t) = true := by decide +kernel
theorem noFlush1_5 : ∀ t : Fin cfg1.N, ¬cond1_1 (grid1.coords t) → (cfg1.win 5).flush t = false := by decide +kernel
theorem liveAt1_5 : ∀ t : Fin cfg1.N, cond1_1 (grid1.coords t) → cfg1.idle 5 (grid1.coords t) = false := by decide +kernel
/-- Away from the last point output window 6 is idle (nothing is stored into it) and is not written back; at the last point it is live. -/
theorem idleAt1_6 : ∀ t : Fin cfg1.N, ¬cond1_1 (grid1.coords t) → cfg1.idle 6 (grid1.coords t) = true := by decide +kernel
theorem noFlush1_6 : ∀ t : Fin cfg1.N, ¬cond1_1 (grid1.coords t) → (cfg1.win 6).flush t = false := by decide +kernel
theorem liveAt1_6 : ∀ t : Fin cfg1.N, cond1_1 (grid1.coords t) → cfg1.idle 6 (grid1.coords t) = false := by decide +kernel
/-- Away from the last point output window 7 is idle (nothing is stored into it) and is not written back; at the last point it is live. -/
theorem idleAt1_7 : ∀ t : Fin cfg1.N, ¬cond1_1 (grid1.coords t) → cfg1.idle 7 (grid1.coords t) = true := by decide +kernel
theorem noFlush1_7 : ∀ t : Fin cfg1.N, ¬cond1_1 (grid1.coords t) → (cfg1.win 7).flush t = false := by decide +kernel
theorem liveAt1_7 : ∀ t : Fin cfg1.N, cond1_1 (grid1.coords t) → cfg1.idle 7 (grid1.coords t) = false := by decide +kernel
/-- Away from the last point output window 8 is idle (nothing is stored into it) and is not written back; at the last point it is live. -/
theorem idleAt1_8 : ∀ t : Fin cfg1.N, ¬cond1_1 (grid1.coords t) → cfg1.idle 8 (grid1.coords t) = true := by decide +kernel
theorem noFlush1_8 : ∀ t : Fin cfg1.N, ¬cond1_1 (grid1.coords t) → (cfg1.win 8).flush t = false := by decide +kernel
theorem liveAt1_8 : ∀ t : Fin cfg1.N, cond1_1 (grid1.coords t) → cfg1.idle 8 (grid1.coords t) = false := by decide +kernel

/-! ## The staging memrefs at a point, spelled as the pipeline passes them -/

abbrev ms1_0 (t : Fin cfg1.N) : Memref sig .tc .vmem S1792x128 .f32 := win1_0.stage (cfg1.slots t 0)
abbrev ms1_1 (t : Fin cfg1.N) : Memref sig .tc .vmem S1792x128 .f32 := win1_1.stage (cfg1.slots t 1)
abbrev ms1_2 (t : Fin cfg1.N) : Memref sig .tc .vmem S1x1792 .f32 := win1_2.stage (cfg1.slots t 2)
abbrev ms1_3 (t : Fin cfg1.N) : Memref sig .tc .vmem S1x128 .f32 := win1_3.stage (cfg1.slots t 3)
abbrev ms1_4 (t : Fin cfg1.N) : Memref sig .tc .vmem S1x1792 .i32 := win1_4.stage (cfg1.slots t 4)
abbrev ms1_5 (t : Fin cfg1.N) : Memref sig .tc .vmem S1x128 .f32 := win1_5.stage (cfg1.slots t 5)
abbrev ms1_6 (t : Fin cfg1.N) : Memref sig .tc .vmem S1x128 .f32 := win1_6.stage (cfg1.slots t 6)
abbrev ms1_7 (t : Fin cfg1.N) : Memref sig .tc .vmem S512x128 .f32 := win1_7.stage (cfg1.slots t 7)
abbrev ms1_8 (t : Fin cfg1.N) : Memref sig .tc .vmem S512x1 .f32 := win1_8.stage (cfg1.slots t 8)

/-- The class's invariant hands out the four carried buffers as memrefs owned at some contents, apart from the other
    regions' staging buffers and the generator register, -/
theorem PhiA1_split (c : Dev nD) :
    (Pipeline.ΦA spec1 c : sProp 𝕄)
      ⊢ iprop((∃ x, owns (c : Thread nD τ) (Memref.whole cc1_scratch0) fullShare x) ∗ (∃ x, owns (c : Thread nD τ) (Memref.whole cc1_scratch1) fullShare x)
          ∗ (∃ x, owns (c : Thread nD τ) (Memref.whole cc1_scratch2) fullShare x) ∗ (∃ x, owns (c : Thread nD τ) (Memref.whole cc1_scratch3) fullShare x)
          ∗ others1 c ∗ (∃ r, prngReg c r)) := by
  unfold Pipeline.ΦA others1; rw [scopedRest1_eq]; simp only [owns_whole]
  iintro ⟨⟨A0, A1, A2, A3, A4, A5, A6, S0, S1, S2, S3, B0, B1, B2, B3, B4, B5, B6, B7⟩, Hg⟩
  isplitl [S0]; · iexact S0
  isplitl [S1]; · iexact S1
  isplitl [S2]; · iexact S2
  isplitl [S3]; · iexact S3
  isplitr [Hg]
  swap; · iexact Hg
  isplitl [A0]; · iexact A0
  isplitl [A1]; · iexact A1
  isplitl [A2]; · iexact A2
  isplitl [A3]; · iexact A3
  isplitl [A4]; · iexact A4
  isplitl [A5]; · iexact A5
  isplitl [A6]; · iexact A6
  isplitl [B0]; · iexact B0
  isplitl [B1]; · iexact B1
  isplitl [B2]; · iexact B2
  isplitl [B3]; · iexact B3
  isplitl [B4]; · iexact B4
  isplitl [B5]; · iexact B5
  isplitl [B6]; · iexact B6
  iexact B7

/-- and takes them back. -/
theorem PhiA1_join (c : Dev nD) :
    iprop((∃ x, owns (c : Thread nD τ) (Memref.whole cc1_scratch0) fullShare x) ∗ (∃ x, owns (c : Thread nD τ) (Memref.whole cc1_scratch1) fullShare x)
          ∗ (∃ x, owns (c : Thread nD τ) (Memref.whole cc1_scratch2) fullShare x) ∗ (∃ x, owns (c : Thread nD τ) (Memref.whole cc1_scratch3) fullShare x)
          ∗ others1 c ∗ (∃ r, prngReg c r))
      ⊢ (Pipeline.ΦA spec1 c : sProp 𝕄) := by
  unfold Pipeline.ΦA others1; rw [scopedRest1_eq]; simp only [owns_whole]
  iintro ⟨S0, S1, S2, S3, ⟨A0, A1, A2, A3, A4, A5, A6, B0, B1, B2, B3, B4, B5, B6, B7⟩, Hg⟩
  isplitr [Hg]
  swap; · iexact Hg
  isplitl [A0]; · iexact A0
  isplitl [A1]; · iexact A1
  isplitl [A2]; · iexact A2
  isplitl [A3]; · iexact A3
  isplitl [A4]; · iexact A4
  isplitl [A5]; · iexact A5
  isplitl [A6]; · iexact A6
  isplitl [S0]; · iexact S0
  isplitl [S1]; · iexact S1
  isplitl [S2]; · iexact S2
  isplitl [S3]; · iexact S3
  isplitl [B0]; · iexact B0
  isplitl [B1]; · iexact B1
  isplitl [B2]; · iexact B2
  isplitl [B3]; · iexact B3
  isplitl [B4]; · iexact B4
  isplitl [B5]; · iexact B5
  isplitl [B6]; · iexact B6
  iexact B7

/-- So the two are one proposition. -/
theorem PhiA1_eq (c : Dev nD) :
    (Pipeline.ΦA spec1 c : sProp 𝕄)
      = iprop((∃ x, owns (c : Thread nD τ) (Memref.whole cc1_scratch0) fullShare x) ∗ (∃ x, owns (c : Thread nD τ) (Memref.whole cc1_scratch1) fullShare x)
          ∗ (∃ x, owns (c : Thread nD τ) (Memref.whole cc1_scratch2) fullShare x) ∗ (∃ x, owns (c : Thread nD τ) (Memref.whole cc1_scratch3) fullShare x)
          ∗ others1 c ∗ (∃ r, prngReg c r)) :=
  BI.equiv_iff.mp ⟨PhiA1_split c, PhiA1_join c⟩

theorem Phi1_zero (c : Dev nD) (n : ℕ) (h : n ≤ cfg1.N) (hz : n = 0) : Phi1 V c n h = Pipeline.ΦA spec1 c := by
  subst hz; rfl

/-- After point `n` (before point `n + 1`): the carried buffers at that point's contents. -/
theorem Phi1_succ (c : Dev nD) (n : ℕ) (hn : n < cfg1.N) :
    Phi1 V c (n + 1) hn = iprop(owns (c : Thread nD τ) (Memref.whole cc1_scratch0) fullShare (scr1 V c n hn).1
      ∗ owns (c : Thread nD τ) (Memref.whole cc1_scratch1) fullShare (scr1 V c n hn).2.1
      ∗ owns (c : Thread nD τ) (Memref.whole cc1_scratch2) fullShare (scr1 V c n hn).2.2.1
      ∗ owns (c : Thread nD τ) (Memref.whole cc1_scratch3) fullShare (scr1 V c n hn).2.2.2
      ∗ others1 c ∗ (∃ r, prngReg c r)) := rfl

/-- Before a point that is not the first: the carried buffers at what the point before left. -/
theorem Phi1_pos (c : Dev nD) (n : ℕ) (h : n ≤ cfg1.N) (hz : n ≠ 0) :
    Phi1 V c n h = iprop(owns (c : Thread nD τ) (Memref.whole cc1_scratch0) fullShare (scr1 V c (n - 1) (by omega)).1
      ∗ owns (c : Thread nD τ) (Memref.whole cc1_scratch1) fullShare (scr1 V c (n - 1) (by omega)).2.1
      ∗ owns (c : Thread nD τ) (Memref.whole cc1_scratch2) fullShare (scr1 V c (n - 1) (by omega)).2.2.1
      ∗ owns (c : Thread nD τ) (Memref.whole cc1_scratch3) fullShare (scr1 V c (n - 1) (by omega)).2.2.2
      ∗ others1 c ∗ (∃ r, prngReg c r)) := by
  cases n with
  | zero => exact absurd rfl hz
  | succ n => rfl

/-- The carried buffers after the first point: one update of the zeros. -/
theorem scr1_zero (c : Dev nD) (t : Fin cfg1.N) (hz : t.val = 0) :
    scr1 V c t.val t.isLt = step1 (grid1.coords t) (iblk1 V c 0 t) (iblk1 V c 1 t) (iblk1 V c 2 t) (iblk1 V c 3 t) (iblk1 V c 4 t) zeros1 := by
  obtain ⟨n, hn⟩ := t
  cases n with
  | zero => rfl
  | succ n => exact absurd hz (Nat.succ_ne_zero n)

/-- After a later point: one update of what the point before left. -/
theorem scr1_pos (c : Dev nD) (t : Fin cfg1.N) (hz : t.val ≠ 0) :
    scr1 V c t.val t.isLt = step1 (grid1.coords t) (iblk1 V c 0 t) (iblk1 V c 1 t) (iblk1 V c 2 t) (iblk1 V c 3 t) (iblk1 V c 4 t)
      (scr1 V c (t.val - 1) (Nat.lt_of_le_of_lt (Nat.sub_le _ _) t.isLt)) := by
  obtain ⟨n, hn⟩ := t
  cases n with
  | zero => exact absurd rfl hz
  | succ n => rfl

/-- The invariant at a point's start, restated at `t.val`. -/
theorem Phi1_castSucc (c : Dev nD) (t : Fin cfg1.N) :
    (dat1 V c).Φ t.castSucc = Phi1 V c t.val (Nat.le_of_lt t.isLt) := by
  dsimp only [dat1]; simp only [Fin.coe_castSucc]

/-- Each input's current staging buffer holds its block at every point, fetched there or not: an input window is uncut
    and never idle, and a point that does not fetch it has not moved its block index. -/
theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl) (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl) (fun t => by rw [after1_3]; unfold Dat.blockOf iblk1; rw [A_eq1]; try rfl) t d).trans
    (by unfold Dat.fetched Dat.blockOf iblk1; rw [A_eq1]; try rfl)
theorem before1_4 (c : Dev nD) (t : Fin cfg1.N) (d) : (dat1 V c).before 4 t d = iblk1 V c 4 t :=
  ((dat1 V c).before_in_eq_fetched 4 rfl (fun _ => rfl) (fun _ _ _ => rfl) (fun t => by rw [after1_4]; unfold Dat.blockOf iblk1; rw [A_eq1]; try rfl) t d).trans
    (by unfold Dat.fetched Dat.blockOf iblk1; rw [A_eq1]; try rfl)

/-! ## The body's triple, case by case -/

set_option maxHeartbeats 4000000 in
/-- The body at the first point (the reset taken, the copy into the outputs not): the carried buffers, whatever they held, end at one update of the zeros by the point's blocks; the inputs are left as found. -/
theorem sound_kernel1_A (c : Dev nD) (E : Set ℕ) (i : grid1.Coords) (hc0 : cond1_0 i) (hc1 : ¬cond1_1 i) (arg1 : Memref sig .tc .vmem S1792x128 .f32) (harg1 : arg1.IsWhole) (arg2 : Memref sig .tc .vmem S1792x128 .f32) (harg2 : arg2.IsWhole) (arg3 : Memref sig .tc .vmem S1x1792 .f32) (harg3 : arg3.IsWhole) (arg4 : Memref sig .tc .vmem S1x128 .f32) (harg4 : arg4.IsWhole) (arg5 : Memref sig .tc .vmem S1x1792 .i32) (harg5 : arg5.IsWhole) (arg6 : Memref sig .tc .vmem S1x128 .f32) (harg6 : arg6.IsWhole) (arg7 : Memref sig .tc .vmem S1x128 .f32) (harg7 : arg7.IsWhole) (arg8 : Memref sig .tc .vmem S512x128 .f32) (harg8 : arg8.IsWhole) (arg9 : Memref sig .tc .vmem S512x1 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S512x128 .f32) (harg12 : arg12.IsWhole) (arg13 : Memref sig .tc .vmem S512x1 .f32) (harg13 : arg13.IsWhole)
    (a h : Vec F S1792x128 .f32) (d : Vec F S1x1792 .f32) (b : Vec F S1x128 .f32) (bt : Vec F S1x1792 .i32) (K : PUnit → sProp 𝕄) :
    iprop(owns (c : Thread nD τ) arg1 fullShare a
        ∗ owns (c : Thread nD τ) arg2 fullShare h
        ∗ owns (c : Thread nD τ) arg3 fullShare d
        ∗ owns (c : Thread nD τ) arg4 fullShare b
        ∗ owns (c : Thread nD τ) arg5 fullShare bt
        ∗ (∃ x, owns (c : Thread nD τ) arg10 fullShare x)
        ∗ (∃ x, owns (c : Thread nD τ) arg11 fullShare x)
        ∗ (∃ x, owns (c : Thread nD τ) arg12 fullShare x)
        ∗ (∃ x, owns (c : Thread nD τ) arg13 fullShare x)
        ∗ (iprop(owns (c : Thread nD τ) arg1 fullShare a
            ∗ owns (c : Thread nD τ) arg2 fullShare h
            ∗ owns (c : Thread nD τ) arg3 fullShare d
            ∗ owns (c : Thread nD τ) arg4 fullShare b
            ∗ owns (c : Thread nD τ) arg5 fullShare bt
            ∗ owns (c : Thread nD τ) arg10 fullShare (step1 i a h d b bt zeros1).1
            ∗ owns (c : Thread nD τ) arg11 fullShare (step1 i a h d b bt zeros1).2.1
            ∗ owns (c : Thread nD τ) arg12 fullShare (step1 i a h d b bt zeros1).2.2.1
            ∗ owns (c : Thread nD τ) arg13 fullShare (step1 i a h d b bt zeros1).2.2.2) -∗ K ⟨⟩))
      ⊢ wp frame (wpE (defs₀ (F := F)) Variants.none c none) E (cc1__stats_pool_kernel i arg1 harg1 arg2 harg2 arg3 harg3 arg4 harg4 arg5 harg5 arg6 harg6 arg7 harg7 arg8 harg8 arg9 harg9 arg10 harg10 arg11 harg11 arg12 harg12 arg13 harg13) K := by
  simp only [cc1__stats_pool_kernel_eq_skeleton]; unfold cc1__stats_pool_kernel_skel
  simp only [k1_part1_eq_skeleton]; unfold k1_part1_skel
  unfold owns
  iintro ⟨⟨%f1, %hf1, H1⟩, ⟨%f2, %hf2, H2⟩, ⟨%f3, %hf3, H3⟩, ⟨%f4, %hf4, H4⟩, ⟨%f5, %hf5, H5⟩, ⟨%x10, %f10, -, H10⟩, ⟨%x11, %f11, -, H11⟩, ⟨%x12, %f12, -, H12⟩, ⟨%x13, %f13, -, H13⟩, Hk⟩
  subst hf1 hf2 hf3 hf4 hf5
  sl_exec (disch := first | exact hc0 | exact hc1)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H10]
  · iexists _; isplitr
    swap; · iexact H10
    ipureintro
    refine (read_writes_unit0 (S := S1x128) _ _ hz2 _ _ _).trans ?_
    sl_unfold_run_names
    dsimp only [step1, zeros1]
    simp only [readAt_unit0 (S := S1x128) _ _ hz2,
        readAt_unit0 (S := S1x1792) _ _ hz2,
        readAt_unit0 (S := S1792x128) _ _ hz2,
        readAt_unit0 (S := S512x128) _ _ hz2,
        readAt_unit0 (S := S512x1) _ _ hz2,
        View.readCov_unit_zero (S := S1x128) _ hz2,
        View.readCov_unit_zero (S := S512x128) _ hz2,
        View.readCov_unit_zero (S := S512x1) _ hz2]
  isplitl [H11]
  · iexists _; isplitr
    swap; · iexact H11
    ipureintro
    refine (read_writes_unit0 (S := S1x128) _ _ hz2 _ _ _).trans ?_
    sl_unfold_run_names
    dsimp only [step1, zeros1]
    simp only [readAt_unit0 (S := S1x128) _ _ hz2,
        readAt_unit0 (S := S1x1792) _ _ hz2,
        readAt_unit0 (S := S1792x128) _ _ hz2,
        readAt_unit0 (S := S512x128) _ _ hz2,
        readAt_unit0 (S := S512x1) _ _ hz2,
        View.readCov_unit_zero (S := S1x128) _ hz2,
        View.readCov_unit_zero (S := S512x128) _ hz2,
        View.readCov_unit_zero (S := S512x1) _ hz2]
  isplitl [H12]
  · iexists _; isplitr
    swap; · iexact H12
    ipureintro
    refine (read_writes_unit0 (S := S512x128) _ _ hz2 _ _ _).trans ?_
    sl_unfold_run_names
    dsimp only [step1, zeros1]
    simp only [readAt_unit0 (S := S1x128) _ _ hz2,
        readAt_unit0 (S := S1x1792) _ _ hz2,
        readAt_unit0 (S := S1792x128) _ _ hz2,
        readAt_unit0 (S := S512x128) _ _ hz2,
        readAt_unit0 (S := S512x1) _ _ hz2,
        View.readCov_unit_zero (S := S1x128) _ hz2,
        View.readCov_unit_zero (S := S512x128) _ hz2,
        View.readCov_unit_zero (S := S512x1) _ hz2]
  iexists _; isplitr
  swap; · iexact H13
  ipureintro
  refine (read_writes_unit0 (S := S512x1) _ _ hz2 _ _ _).trans ?_
  sl_unfold_run_names
  dsimp only [step1, zeros1]
  simp only [readAt_unit0 (S := S1x128) _ _ hz2,
      readAt_unit0 (S := S1x1792) _ _ hz2,
      readAt_unit0 (S := S1792x128) _ _ hz2,
      readAt_unit0 (S := S512x128) _ _ hz2,
      readAt_unit0 (S := S512x1) _ _ hz2,
      View.readCov_unit_zero (S := S1x128) _ hz2,
      View.readCov_unit_zero (S := S512x128) _ hz2,
      View.readCov_unit_zero (S := S512x1) _ hz2]

set_option maxHeartbeats 4000000 in
/-- The body at a point that is neither the first nor the last (neither branch taken): the carried buffers at `s` end at one update of `s` by the point's blocks; the inputs are left as found. -/
theorem sound_kernel1_B (c : Dev nD) (E : Set ℕ) (i : grid1.Coords) (hc0 : ¬cond1_0 i) (hc1 : ¬cond1_1 i) (arg1 : Memref sig .tc .vmem S1792x128 .f32) (harg1 : arg1.IsWhole) (arg2 : Memref sig .tc .vmem S1792x128 .f32) (harg2 : arg2.IsWhole) (arg3 : Memref sig .tc .vmem S1x1792 .f32) (harg3 : arg3.IsWhole) (arg4 : Memref sig .tc .vmem S1x128 .f32) (harg4 : arg4.IsWhole) (arg5 : Memref sig .tc .vmem S1x1792 .i32) (harg5 : arg5.IsWhole) (arg6 : Memref sig .tc .vmem S1x128 .f32) (harg6 : arg6.IsWhole) (arg7 : Memref sig .tc .vmem S1x128 .f32) (harg7 : arg7.IsWhole) (arg8 : Memref sig .tc .vmem S512x128 .f32) (harg8 : arg8.IsWhole) (arg9 : Memref sig .tc .vmem S512x1 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S512x128 .f32) (harg12 : arg12.IsWhole) (arg13 : Memref sig .tc .vmem S512x1 .f32) (harg13 : arg13.IsWhole)
    (a h : Vec F S1792x128 .f32) (d : Vec F S1x1792 .f32) (b : Vec F S1x128 .f32) (bt : Vec F S1x1792 .i32) (s : Scr1 F) (K : PUnit → sProp 𝕄) :
    iprop(owns (c : Thread nD τ) arg1 fullShare a
        ∗ owns (c : Thread nD τ) arg2 fullShare h
        ∗ owns (c : Thread nD τ) arg3 fullShare d
        ∗ owns (c : Thread nD τ) arg4 fullShare b
        ∗ owns (c : Thread nD τ) arg5 fullShare bt
        ∗ owns (c : Thread nD τ) arg10 fullShare s.1
        ∗ owns (c : Thread nD τ) arg11 fullShare s.2.1
        ∗ owns (c : Thread nD τ) arg12 fullShare s.2.2.1
        ∗ owns (c : Thread nD τ) arg13 fullShare s.2.2.2
        ∗ (iprop(owns (c : Thread nD τ) arg1 fullShare a
            ∗ owns (c : Thread nD τ) arg2 fullShare h
            ∗ owns (c : Thread nD τ) arg3 fullShare d
            ∗ owns (c : Thread nD τ) arg4 fullShare b
            ∗ owns (c : Thread nD τ) arg5 fullShare bt
            ∗ owns (c : Thread nD τ) arg10 fullShare (step1 i a h d b bt s).1
            ∗ owns (c : Thread nD τ) arg11 fullShare (step1 i a h d b bt s).2.1
            ∗ owns (c : Thread nD τ) arg12 fullShare (step1 i a h d b bt s).2.2.1
            ∗ owns (c : Thread nD τ) arg13 fullShare (step1 i a h d b bt s).2.2.2) -∗ K ⟨⟩))
      ⊢ wp frame (wpE (defs₀ (F := F)) Variants.none c none) E (cc1__stats_pool_kernel i arg1 harg1 arg2 harg2 arg3 harg3 arg4 harg4 arg5 harg5 arg6 harg6 arg7 harg7 arg8 harg8 arg9 harg9 arg10 harg10 arg11 harg11 arg12 harg12 arg13 harg13) K := by
  simp only [cc1__stats_pool_kernel_eq_skeleton]; unfold cc1__stats_pool_kernel_skel
  simp only [k1_part1_eq_skeleton]; unfold k1_part1_skel
  unfold owns
  iintro ⟨⟨%f1, %hf1, H1⟩, ⟨%f2, %hf2, H2⟩, ⟨%f3, %hf3, H3⟩, ⟨%f4, %hf4, H4⟩, ⟨%f5, %hf5, H5⟩, ⟨%f10, %hf10, H10⟩, ⟨%f11, %hf11, H11⟩, ⟨%f12, %hf12, H12⟩, ⟨%f13, %hf13, H13⟩, Hk⟩
  subst hf1 hf2 hf3 hf4 hf5
  sl_exec (disch := first | exact hc0 | exact hc1)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H10]
  · iexists _; isplitr
    swap; · iexact H10
    ipureintro
    refine (read_writes_unit0 (S := S1x128) _ _ hz2 _ _ _).trans ?_
    sl_unfold_run_names
    dsimp only [step1, zeros1]
    simp only [readAt_unit0 (S := S1x128) _ _ hz2,
        readAt_unit0 (S := S1x1792) _ _ hz2,
        readAt_unit0 (S := S1792x128) _ _ hz2,
        readAt_unit0 (S := S512x128) _ _ hz2,
        readAt_unit0 (S := S512x1) _ _ hz2,
        View.readCov_unit_zero (S := S1x128) _ hz2,
        View.readCov_unit_zero (S := S512x128) _ hz2,
        View.readCov_unit_zero (S := S512x1) _ hz2, hf10]
  isplitl [H11]
  · iexists _; isplitr
    swap; · iexact H11
    ipureintro
    refine (read_writes_unit0 (S := S1x128) _ _ hz2 _ _ _).trans ?_
    sl_unfold_run_names
    dsimp only [step1, zeros1]
    simp only [readAt_unit0 (S := S1x128) _ _ hz2,
        readAt_unit0 (S := S1x1792) _ _ hz2,
        readAt_unit0 (S := S1792x128) _ _ hz2,
        readAt_unit0 (S := S512x128) _ _ hz2,
        readAt_unit0 (S := S512x1) _ _ hz2,
        View.readCov_unit_zero (S := S1x128) _ hz2,
        View.readCov_unit_zero (S := S512x128) _ hz2,
        View.readCov_unit_zero (S := S512x1) _ hz2, hf11]
  isplitl [H12]
  · iexists _; isplitr
    swap; · iexact H12
    ipureintro
    refine (read_writes_unit0 (S := S512x128) _ _ hz2 _ _ _).trans ?_
    sl_unfold_run_names
    dsimp only [step1, zeros1]
    simp only [readAt_unit0 (S := S1x128) _ _ hz2,
        readAt_unit0 (S := S1x1792) _ _ hz2,
        readAt_unit0 (S := S1792x128) _ _ hz2,
        readAt_unit0 (S := S512x128) _ _ hz2,
        readAt_unit0 (S := S512x1) _ _ hz2,
        View.readCov_unit_zero (S := S1x128) _ hz2,
        View.readCov_unit_zero (S := S512x128) _ hz2,
        View.readCov_unit_zero (S := S512x1) _ hz2, hf12]
  iexists _; isplitr
  swap; · iexact H13
  ipureintro
  refine (read_writes_unit0 (S := S512x1) _ _ hz2 _ _ _).trans ?_
  sl_unfold_run_names
  dsimp only [step1, zeros1]
  simp only [readAt_unit0 (S := S1x128) _ _ hz2,
      readAt_unit0 (S := S1x1792) _ _ hz2,
      readAt_unit0 (S := S1792x128) _ _ hz2,
      readAt_unit0 (S := S512x128) _ _ hz2,
      readAt_unit0 (S := S512x1) _ _ hz2,
      View.readCov_unit_zero (S := S1x128) _ hz2,
      View.readCov_unit_zero (S := S512x128) _ hz2,
      View.readCov_unit_zero (S := S512x1) _ hz2, hf13]

set_option maxHeartbeats 4000000 in
/-- The body at the last point (the reset not taken, the copy taken): the carried buffers at `s` end at one update of `s` by the point's blocks, and each output window's buffer, whatever it held, at a copy of the matching carried buffer; the inputs are left as found. -/
theorem sound_kernel1_C (c : Dev nD) (E : Set ℕ) (i : grid1.Coords) (hc0 : ¬cond1_0 i) (hc1 : cond1_1 i) (arg1 : Memref sig .tc .vmem S1792x128 .f32) (harg1 : arg1.IsWhole) (arg2 : Memref sig .tc .vmem S1792x128 .f32) (harg2 : arg2.IsWhole) (arg3 : Memref sig .tc .vmem S1x1792 .f32) (harg3 : arg3.IsWhole) (arg4 : Memref sig .tc .vmem S1x128 .f32) (harg4 : arg4.IsWhole) (arg5 : Memref sig .tc .vmem S1x1792 .i32) (harg5 : arg5.IsWhole) (arg6 : Memref sig .tc .vmem S1x128 .f32) (harg6 : arg6.IsWhole) (arg7 : Memref sig .tc .vmem S1x128 .f32) (harg7 : arg7.IsWhole) (arg8 : Memref sig .tc .vmem S512x128 .f32) (harg8 : arg8.IsWhole) (arg9 : Memref sig .tc .vmem S512x1 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S512x128 .f32) (harg12 : arg12.IsWhole) (arg13 : Memref sig .tc .vmem S512x1 .f32) (harg13 : arg13.IsWhole)
    (a h : Vec F S1792x128 .f32) (d : Vec F S1x1792 .f32) (b : Vec F S1x128 .f32) (bt : Vec F S1x1792 .i32) (s : Scr1 F) (K : PUnit → sProp 𝕄) :
    iprop(owns (c : Thread nD τ) arg1 fullShare a
        ∗ owns (c : Thread nD τ) arg2 fullShare h
        ∗ owns (c : Thread nD τ) arg3 fullShare d
        ∗ owns (c : Thread nD τ) arg4 fullShare b
        ∗ owns (c : Thread nD τ) arg5 fullShare bt
        ∗ owns (c : Thread nD τ) arg10 fullShare s.1
        ∗ owns (c : Thread nD τ) arg11 fullShare s.2.1
        ∗ owns (c : Thread nD τ) arg12 fullShare s.2.2.1
        ∗ owns (c : Thread nD τ) arg13 fullShare s.2.2.2
        ∗ (∃ x, owns (c : Thread nD τ) arg6 fullShare x)
        ∗ (∃ x, owns (c : Thread nD τ) arg7 fullShare x)
        ∗ (∃ x, owns (c : Thread nD τ) arg8 fullShare x)
        ∗ (∃ x, owns (c : Thread nD τ) arg9 fullShare x)
        ∗ (iprop(owns (c : Thread nD τ) arg1 fullShare a
            ∗ owns (c : Thread nD τ) arg2 fullShare h
            ∗ owns (c : Thread nD τ) arg3 fullShare d
            ∗ owns (c : Thread nD τ) arg4 fullShare b
            ∗ owns (c : Thread nD τ) arg5 fullShare bt
            ∗ owns (c : Thread nD τ) arg10 fullShare (step1 i a h d b bt s).1
            ∗ owns (c : Thread nD τ) arg11 fullShare (step1 i a h d b bt s).2.1
            ∗ owns (c : Thread nD τ) arg12 fullShare (step1 i a h d b bt s).2.2.1
            ∗ owns (c : Thread nD τ) arg13 fullShare (step1 i a h d b bt s).2.2.2
            ∗ owns (c : Thread nD τ) arg6 fullShare (step1 i a h d b bt s).1
            ∗ owns (c : Thread nD τ) arg7 fullShare (step1 i a h d b bt s).2.1
            ∗ owns (c : Thread nD τ) arg8 fullShare (step1 i a h d b bt s).2.2.1
            ∗ owns (c : Thread nD τ) arg9 fullShare (step1 i a h d b bt s).2.2.2) -∗ K ⟨⟩))
      ⊢ wp frame (wpE (defs₀ (F := F)) Variants.none c none) E (cc1__stats_pool_kernel i arg1 harg1 arg2 harg2 arg3 harg3 arg4 harg4 arg5 harg5 arg6 harg6 arg7 harg7 arg8 harg8 arg9 harg9 arg10 harg10 arg11 harg11 arg12 harg12 arg13 harg13) K := by
  simp only [cc1__stats_pool_kernel_eq_skeleton]; unfold cc1__stats_pool_kernel_skel
  simp only [k1_part1_eq_skeleton]; unfold k1_part1_skel
  unfold owns
  iintro ⟨⟨%f1, %hf1, H1⟩, ⟨%f2, %hf2, H2⟩, ⟨%f3, %hf3, H3⟩, ⟨%f4, %hf4, H4⟩, ⟨%f5, %hf5, H5⟩, ⟨%f10, %hf10, H10⟩, ⟨%f11, %hf11, H11⟩, ⟨%f12, %hf12, H12⟩, ⟨%f13, %hf13, H13⟩, ⟨%x6, %f6, -, H6⟩, ⟨%x7, %f7, -, H7⟩, ⟨%x8, %f8, -, H8⟩, ⟨%x9, %f9, -, H9⟩, Hk⟩
  subst hf1 hf2 hf3 hf4 hf5
  sl_exec (disch := first | exact hc0 | exact hc1)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H10]
  · iexists _; isplitr
    swap; · iexact H10
    ipureintro
    refine (read_writes_unit0 (S := S1x128) _ _ hz2 _ _ _).trans ?_
    sl_unfold_run_names
    dsimp only [step1, zeros1]
    simp only [readAt_unit0 (S := S1x128) _ _ hz2,
        readAt_unit0 (S := S1x1792) _ _ hz2,
        readAt_unit0 (S := S1792x128) _ _ hz2,
        readAt_unit0 (S := S512x128) _ _ hz2,
        readAt_unit0 (S := S512x1) _ _ hz2,
        View.readCov_unit_zero (S := S1x128) _ hz2,
        View.readCov_unit_zero (S := S512x128) _ hz2,
        View.readCov_unit_zero (S := S512x1) _ hz2, hf10]
  isplitl [H11]
  · iexists _; isplitr
    swap; · iexact H11
    ipureintro
    refine (read_writes_unit0 (S := S1x128) _ _ hz2 _ _ _).trans ?_
    sl_unfold_run_names
    dsimp only [step1, zeros1]
    simp only [readAt_unit0 (S := S1x128) _ _ hz2,
        readAt_unit0 (S := S1x1792) _ _ hz2,
        readAt_unit0 (S := S1792x128) _ _ hz2,
        readAt_unit0 (S := S512x128) _ _ hz2,
        readAt_unit0 (S := S512x1) _ _ hz2,
        View.readCov_unit_zero (S := S1x128) _ hz2,
        View.readCov_unit_zero (S := S512x128) _ hz2,
        View.readCov_unit_zero (S := S512x1) _ hz2, hf11]
  isplitl [H12]
  · iexists _; isplitr
    swap; · iexact H12
    ipureintro
    refine (read_writes_unit0 (S := S512x128) _ _ hz2 _ _ _).trans ?_
    sl_unfold_run_names
    dsimp only [step1, zeros1]
    simp only [readAt_unit0 (S := S1x128) _ _ hz2,
        readAt_unit0 (S := S1x1792) _ _ hz2,
        readAt_unit0 (S := S1792x128) _ _ hz2,
        readAt_unit0 (S := S512x128) _ _ hz2,
        readAt_unit0 (S := S512x1) _ _ hz2,
        View.readCov_unit_zero (S := S1x128) _ hz2,
        View.readCov_unit_zero (S := S512x128) _ hz2,
        View.readCov_unit_zero (S := S512x1) _ hz2, hf12]
  isplitl [H13]
  · iexists _; isplitr
    swap; · iexact H13
    ipureintro
    refine (read_writes_unit0 (S := S512x1) _ _ hz2 _ _ _).trans ?_
    sl_unfold_run_names
    dsimp only [step1, zeros1]
    simp only [readAt_unit0 (S := S1x128) _ _ hz2,
        readAt_unit0 (S := S1x1792) _ _ hz2,
        readAt_unit0 (S := S1792x128) _ _ hz2,
        readAt_unit0 (S := S512x128) _ _ hz2,
        readAt_unit0 (S := S512x1) _ _ hz2,
        View.readCov_unit_zero (S := S1x128) _ hz2,
        View.readCov_unit_zero (S := S512x128) _ hz2,
        View.readCov_unit_zero (S := S512x1) _ hz2, hf13]
  isplitl [H6]
  · iexists _; isplitr
    swap; · iexact H6
    ipureintro
    refine (read_writes_unit0 (S := S1x128) _ _ hz2 _ _ _).trans ?_
    sl_unfold_run_names
    dsimp only [step1, zeros1]
    simp only [readAt_unit0 (S := S1x128) _ _ hz2,
        readAt_unit0 (S := S1x1792) _ _ hz2,
        readAt_unit0 (S := S1792x128) _ _ hz2,
        readAt_unit0 (S := S512x128) _ _ hz2,
        readAt_unit0 (S := S512x1) _ _ hz2,
        View.readCov_unit_zero (S := S1x128) _ hz2,
        View.readCov_unit_zero (S := S512x128) _ hz2,
        View.readCov_unit_zero (S := S512x1) _ hz2, hf10]
  isplitl [H7]
  · iexists _; isplitr
    swap; · iexact H7
    ipureintro
    refine (read_writes_unit0 (S := S1x128) _ _ hz2 _ _ _).trans ?_
    sl_unfold_run_names
    dsimp only [step1, zeros1]
    simp only [readAt_unit0 (S := S1x128) _ _ hz2,
        readAt_unit0 (S := S1x1792) _ _ hz2,
        readAt_unit0 (S := S1792x128) _ _ hz2,
        readAt_unit0 (S := S512x128) _ _ hz2,
        readAt_unit0 (S := S512x1) _ _ hz2,
        View.readCov_unit_zero (S := S1x128) _ hz2,
        View.readCov_unit_zero (S := S512x128) _ hz2,
        View.readCov_unit_zero (S := S512x1) _ hz2, hf11]
  isplitl [H8]
  · iexists _; isplitr
    swap; · iexact H8
    ipureintro
    refine (read_writes_unit0 (S := S512x128) _ _ hz2 _ _ _).trans ?_
    sl_unfold_run_names
    dsimp only [step1, zeros1]
    simp only [readAt_unit0 (S := S1x128) _ _ hz2,
        readAt_unit0 (S := S1x1792) _ _ hz2,
        readAt_unit0 (S := S1792x128) _ _ hz2,
        readAt_unit0 (S := S512x128) _ _ hz2,
        readAt_unit0 (S := S512x1) _ _ hz2,
        View.readCov_unit_zero (S := S1x128) _ hz2,
        View.readCov_unit_zero (S := S512x128) _ hz2,
        View.readCov_unit_zero (S := S512x1) _ hz2, hf12]
  iexists _; isplitr
  swap; · iexact H9
  ipureintro
  refine (read_writes_unit0 (S := S512x1) _ _ hz2 _ _ _).trans ?_
  sl_unfold_run_names
  dsimp only [step1, zeros1]
  simp only [readAt_unit0 (S := S1x128) _ _ hz2,
      readAt_unit0 (S := S1x1792) _ _ hz2,
      readAt_unit0 (S := S1792x128) _ _ hz2,
      readAt_unit0 (S := S512x128) _ _ hz2,
      readAt_unit0 (S := S512x1) _ _ hz2,
      View.readCov_unit_zero (S := S1x128) _ hz2,
      View.readCov_unit_zero (S := S512x128) _ hz2,
      View.readCov_unit_zero (S := S512x1) _ hz2, hf13]

/-! ## The body obligation, at a generic point -/

/-- What the body is called with at point `t` (the windows one by one), -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d))
    ∗ (∃ d, owns (c : Thread nD τ) (ms1_8 t) fullShare ((dat1 V c).before 8 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t
    ∗ (dat1 V c).leavesExact 7 t
    ∗ (dat1 V c).leavesExact 8 t)

set_option maxHeartbeats 4000000 in
/-- The body at any point. The inputs' memrefs hold their blocks; the closed forms say which of the three cases the point
    is in; the invariant hands the body the carried buffers at what the point before left (at anything at the first
    point) and takes them back at this point's contents; an output window is handed back as found except at the last
    point, where it receives the matching carried buffer; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).owesAt () t.succ = (dat1 V c).owesAt () t.castSucc from rfl]
  rw [show (dat1 V c).Φ t.succ = Phi1 V c (t.val + 1) t.isLt from rfl, Phi1_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  rw [show (dat1 V c).leavesExact 4 t = owns (c : Thread nD τ) (ms1_4 t) fullShare ((dat1 V c).after 4 t) from by
    unfold Dat.leavesExact; rw [liveAt1_4 t], after1_4]
  have hN : t.val < 56 := lt_of_lt_of_eq t.isLt (show cfg1.N = 56 from N_1)
  by_cases h0 : t.val = 0
  · have hc0 : cond1_0 (grid1.coords t) := (hcond1_0 t).mpr h0
    have hc1 : ¬cond1_1 (grid1.coords t) := fun h => by have := (hcond1_1 t).mp h; omega
    rw [Dat.leavesExact_idle (dat1 V c) 5 t (idleAt1_5 t hc1) (noFlush1_5 t hc1),
      Dat.leavesExact_idle (dat1 V c) 6 t (idleAt1_6 t hc1) (noFlush1_6 t hc1),
      Dat.leavesExact_idle (dat1 V c) 7 t (idleAt1_7 t hc1) (noFlush1_7 t hc1),
      Dat.leavesExact_idle (dat1 V c) 8 t (idleAt1_8 t hc1) (noFlush1_8 t hc1)]
    rw [scr1_zero V c t h0]
    rw [Phi1_castSucc V c t, Phi1_zero V c _ _ h0, PhiA1_eq]
    iintro ⟨⟨S0, S1, S2, S3, Hoth, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (sound_kernel1_A c Set.univ (grid1.coords t) hc0 hc1 _ _ _ _ _ _ _ _ _ _ _ _ _ _ _ _ _ _ _ _ _ _ _ _ _ _ (iblk1 V c 0 t) (iblk1 V c 1 t) (iblk1 V c 2 t) (iblk1 V c 3 t) (iblk1 V c 4 t) _)
    isplitl [H0]; · iexact H0
    isplitl [H1]; · iexact H1
    isplitl [H2]; · iexact H2
    isplitl [H3]; · iexact H3
    isplitl [H4]; · iexact H4
    isplitl [S0]; · iexact S0
    isplitl [S1]; · iexact S1
    isplitl [S2]; · iexact S2
    isplitl [S3]; · iexact S3
    iintro ⟨H0, H1, H2, H3, H4, S0, S1, S2, S3⟩
    isplitl [S0 S1 S2 S3 Hoth Hg]
    · isplitl [S0]; · iexact S0
      isplitl [S1]; · iexact S1
      isplitl [S2]; · iexact S2
      isplitl [S3]; · iexact S3
      isplitl [Hoth]; · iexact Hoth
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexists _; iexact H7
    iexists _; iexact H8
  · by_cases h1 : t.val = 55
    · have hc0 : ¬cond1_0 (grid1.coords t) := fun h => h0 ((hcond1_0 t).mp h)
      have hc1 : cond1_1 (grid1.coords t) := (hcond1_1 t).mpr h1
      rw [show (dat1 V c).leavesExact 5 t = owns (c : Thread nD τ) (ms1_5 t) fullShare ((dat1 V c).after 5 t) from by
        unfold Dat.leavesExact; rw [liveAt1_5 t hc1], after1_5]
      rw [show (dat1 V c).leavesExact 6 t = owns (c : Thread nD τ) (ms1_6 t) fullShare ((dat1 V c).after 6 t) from by
        unfold Dat.leavesExact; rw [liveAt1_6 t hc1], after1_6]
      rw [show (dat1 V c).leavesExact 7 t = owns (c : Thread nD τ) (ms1_7 t) fullShare ((dat1 V c).after 7 t) from by
        unfold Dat.leavesExact; rw [liveAt1_7 t hc1], after1_7]
      rw [show (dat1 V c).leavesExact 8 t = owns (c : Thread nD τ) (ms1_8 t) fullShare ((dat1 V c).after 8 t) from by
        unfold Dat.leavesExact; rw [liveAt1_8 t hc1], after1_8]
      rw [scr1_pos V c t h0]
      rw [Phi1_castSucc V c t, Phi1_pos V c _ _ h0]
      iintro ⟨⟨S0, S1, S2, S3, Hoth, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply (sound_kernel1_C c Set.univ (grid1.coords t) hc0 hc1 _ _ _ _ _ _ _ _ _ _ _ _ _ _ _ _ _ _ _ _ _ _ _ _ _ _ (iblk1 V c 0 t) (iblk1 V c 1 t) (iblk1 V c 2 t) (iblk1 V c 3 t) (iblk1 V c 4 t) (scr1 V c (t.val - 1) _) _)
      isplitl [H0]; · iexact H0
      isplitl [H1]; · iexact H1
      isplitl [H2]; · iexact H2
      isplitl [H3]; · iexact H3
      isplitl [H4]; · iexact H4
      isplitl [S0]; · iexact S0
      isplitl [S1]; · iexact S1
      isplitl [S2]; · iexact S2
      isplitl [S3]; · iexact S3
      isplitl [H5]; · iexists _; iexact H5
      isplitl [H6]; · iexists _; iexact H6
      isplitl [H7]; · iexists _; iexact H7
      isplitl [H8]; · iexists _; iexact H8
      iintro ⟨H0, H1, H2, H3, H4, S0, S1, S2, S3, H5, H6, H7, H8⟩
      isplitl [S0 S1 S2 S3 Hoth Hg]
      · isplitl [S0]; · iexact S0
        isplitl [S1]; · iexact S1
        isplitl [S2]; · iexact S2
        isplitl [S3]; · iexact S3
        isplitl [Hoth]; · iexact Hoth
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexact H8
    · have hc0 : ¬cond1_0 (grid1.coords t) := fun h => h0 ((hcond1_0 t).mp h)
      have hc1 : ¬cond1_1 (grid1.coords t) := fun h => h1 ((hcond1_1 t).mp h)
      rw [Dat.leavesExact_idle (dat1 V c) 5 t (idleAt1_5 t hc1) (noFlush1_5 t hc1),
        Dat.leavesExact_idle (dat1 V c) 6 t (idleAt1_6 t hc1) (noFlush1_6 t hc1),
        Dat.leavesExact_idle (dat1 V c) 7 t (idleAt1_7 t hc1) (noFlush1_7 t hc1),
        Dat.leavesExact_idle (dat1 V c) 8 t (idleAt1_8 t hc1) (noFlush1_8 t hc1)]
      rw [scr1_pos V c t h0]
      rw [Phi1_castSucc V c t, Phi1_pos V c _ _ h0]
      iintro ⟨⟨S0, S1, S2, S3, Hoth, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply (sound_kernel1_B c Set.univ (grid1.coords t) hc0 hc1 _ _ _ _ _ _ _ _ _ _ _ _ _ _ _ _ _ _ _ _ _ _ _ _ _ _ (iblk1 V c 0 t) (iblk1 V c 1 t) (iblk1 V c 2 t) (iblk1 V c 3 t) (iblk1 V c 4 t) (scr1 V c (t.val - 1) _) _)
      isplitl [H0]; · iexact H0
      isplitl [H1]; · iexact H1
      isplitl [H2]; · iexact H2
      isplitl [H3]; · iexact H3
      isplitl [H4]; · iexact H4
      isplitl [S0]; · iexact S0
      isplitl [S1]; · iexact S1
      isplitl [S2]; · iexact S2
      isplitl [S3]; · iexact S3
      iintro ⟨H0, H1, H2, H3, H4, S0, S1, S2, S3⟩
      isplitl [S0 S1 S2 S3 Hoth Hg]
      · isplitl [S0]; · iexact S0
        isplitl [S1]; · iexact S1
        isplitl [S2]; · iexact S2
        isplitl [S3]; · iexact S3
        isplitl [Hoth]; · iexact Hoth
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [H7]; · iexists _; iexact H7
      iexists _; iexact H8

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = Phi1 V c 0 (Nat.zero_le _) from rfl, Phi1_zero V c 0 _ rfl]
  try exact Idealize.SL.BI.Entails.refl _

/-- After any point but the first the invariant gives the class's back: the carried buffers' named contents are forgotten. -/
theorem Phi1_out (c : Dev nD) (t : Fin (cfg1.N + 1)) (ht : t.val ≠ 0) : (dat1 V c).Φ t ⊢ Pipeline.ΦA spec1 c := by
  rw [show (dat1 V c).Φ t = Phi1 V c t.val (Nat.le_of_lt_succ t.isLt) from rfl, Phi1_pos V c _ _ ht, PhiA1_eq]
  iintro ⟨S0, S1, S2, S3, Hoth, Hg⟩
  isplitl [S0]; · iexists _; iexact S0
  isplitl [S1]; · iexists _; iexact S1
  isplitl [S2]; · iexists _; iexact S2
  isplitl [S3]; · iexists _; iexact S3
  isplitl [Hoth]; · iexact Hoth
  iexact Hg

/-- The same after the last point. -/
theorem hout1 (c : Dev nD) : (dat1 V c).Φ (Fin.last cfg1.N) ⊢ Pipeline.ΦA spec1 c :=
  Phi1_out V c _ (by rw [Fin.val_last]; have : cfg1.N = 56 := N_1; omega)

end Cert.KernelIdeal.Hand

end
-- ==== Proof.KI.Dat2.lean ====
/- The third pallas region (a grid of one point, one whole store of the output block): each window's
   block at the point, the output block as a function of the seven input blocks, the pipeline's
   proof data at the region-entry contents, and the body obligation. -/
import proofs.«417852_j54494545052225_3_alg».proof.Proof.Gen.KernelIdeal.Skeleton
import proofs.«417852_j54494545052225_3_alg».proof.Proof.Gen.KernelIdeal.Launch
import proofs.«417852_j54494545052225_3_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-! ## The body's accesses: each operand is read whole, the output is stored whole -/

abbrev r2_0 : Rect S512x128 := Rect.unit (s := S512x128) ![0, 0] S512x128.size inb_S512x128_S512x128_0_0
abbrev r2_1 : Rect S128x256 := Rect.unit (s := S128x256) ![0, 0] S128x256.size inb_S128x256_S128x256_0_0
abbrev r2_2 : Rect S1x256 := Rect.unit (s := S1x256) ![0, 0] S1x256.size inb_S1x256_S1x256_0_0
abbrev r2_3 : Rect S256x128 := Rect.unit (s := S256x128) ![0, 0] S256x128.size inb_S256x128_S256x128_0_0
abbrev r2_4 : Rect S1x128 := Rect.unit (s := S1x128) ![0, 0] S1x128.size inb_S1x128_S1x128_0_0
abbrev r2_5 : Rect S128x1 := Rect.unit (s := S128x1) ![0, 0] S128x1.size inb_S128x1_S128x1_0_0
abbrev r2_6 : Rect S1x1 := Rect.unit (s := S1x1) ![0, 0] S1x1.size inb_S1x1_S1x1_0_0
abbrev r2_7 : Rect S512x1 := Rect.unit (s := S512x1) ![0, 0] S512x1.size inb_S512x1_S512x1_0_0

/-! ## What the body leaves in the output window's buffer -/

/-- The output window's buffer after the body, from the seven input blocks: one piece, the whole block. -/
def out2_7 (x0 : Vec F S512x128 .f32) (x1 : Vec F S128x256 .f32) (x2 : Vec F S1x256 .f32) (x3 : Vec F S256x128 .f32)
    (x4 : Vec F S1x128 .f32) (x5 : Vec F S128x1 .f32) (x6 : Vec F S1x1 .f32) : Vec F S512x1 .f32 :=
  View.canon [⟨r2_7, k2_pay1 (View.ld x0 r2_0) (View.ld x1 r2_1) (View.ld x2 r2_2) (View.ld x3 r2_3)
    (View.ld x4 r2_4) (View.ld x5 r2_5) (View.ld x6 r2_6)⟩]

/-! ## The pipeline's proof data -/

/-- The proof data on core `c`: the arrays as the region finds them; after the body each input's buffer at its
    block and the output's at `out2_7` of the input blocks; the invariant leaves the scoped rest untouched;
    nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => out2_7 (iblk2 V c 0 t) (iblk2 V c 1 t) (iblk2 V c 2 t) (iblk2 V c 3 t) (iblk2 V c 4 t)
        (iblk2 V c 5 t) (iblk2 V c 6 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) :
    (dat2 V c).after 7 t = out2_7 (iblk2 V c 0 t) (iblk2 V c 1 t) (iblk2 V c 2 t) (iblk2 V c 3 t) (iblk2 V c 4 t)
      (iblk2 V c 5 t) (iblk2 V c 6 t) := by dsimp only [dat2]

/-! ## The inputs' buffers hold their blocks at the point -/

/-- Input window 0's current staging buffer holds its block, for any proof data whose array is `V`'s and whose
    body leaves the block in place: the window is uncut and never idle. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block, for any proof data whose array is `V`'s and whose
    body leaves the block in place: the window is uncut and never idle. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block, for any proof data whose array is `V`'s and whose
    body leaves the block in place: the window is uncut and never idle. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current staging buffer holds its block, for any proof data whose array is `V`'s and whose
    body leaves the block in place: the window is uncut and never idle. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's current staging buffer holds its block, for any proof data whose array is `V`'s and whose
    body leaves the block in place: the window is uncut and never idle. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- Input window 5's current staging buffer holds its block, for any proof data whose array is `V`'s and whose
    body leaves the block in place: the window is uncut and never idle. -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-- Input window 6's current staging buffer holds its block, for any proof data whose array is `V`'s and whose
    body leaves the block in place: the window is uncut and never idle. -/
theorem before2_6_of {c : Dev nD} (dat : Dat τ (Elt F) Unit ℕ (UR sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)

/-! ## The one store covers the output block -/

theorem cover2_7 (p0 : Vec F S512x1 .f32) (y : S512x1.Idx) :
    ∃ pc ∈ ([⟨r2_7, p0⟩] : List (View.Piece (Elt F) S512x1 .f32)), y ∈ pc.1.set :=
  View.cover_of_tiled [⟨r2_7, p0⟩] S512x1.size (by rfl) y

/-! ## The body's triple -/

set_option maxHeartbeats 1000000 in
/-- The kernel body on whole staging memrefs, the inputs' at contents `x0 … x6` and the output's at anything, runs
    to the continuation holding the inputs' as they were and the output's at `out2_7` of the inputs'. -/
theorem sound_kernel2 (c : Dev nD) (E : Set ℕ) (i : grid2.Coords)
    (arg1 : Memref sig .tc .vmem S512x128 .f32) (harg1 : arg1.IsWhole)
    (arg2 : Memref sig .tc .vmem S128x256 .f32) (harg2 : arg2.IsWhole)
    (arg3 : Memref sig .tc .vmem S1x256 .f32) (harg3 : arg3.IsWhole)
    (arg4 : Memref sig .tc .vmem S256x128 .f32) (harg4 : arg4.IsWhole)
    (arg5 : Memref sig .tc .vmem S1x128 .f32) (harg5 : arg5.IsWhole)
    (arg6 : Memref sig .tc .vmem S128x1 .f32) (harg6 : arg6.IsWhole)
    (arg7 : Memref sig .tc .vmem S1x1 .f32) (harg7 : arg7.IsWhole)
    (arg8 : Memref sig .tc .vmem S512x1 .f32) (harg8 : arg8.IsWhole)
    (x0 : Vec F S512x128 .f32)
    (x1 : Vec F S128x256 .f32)
    (x2 : Vec F S1x256 .f32)
    (x3 : Vec F S256x128 .f32)
    (x4 : Vec F S1x128 .f32)
    (x5 : Vec F S128x1 .f32)
    (x6 : Vec F S1x1 .f32) (K : PUnit → sProp 𝕄) :
    iprop(owns (c : Thread nD τ) arg1 fullShare x0
        ∗ owns (c : Thread nD τ) arg2 fullShare x1
        ∗ owns (c : Thread nD τ) arg3 fullShare x2
        ∗ owns (c : Thread nD τ) arg4 fullShare x3
        ∗ owns (c : Thread nD τ) arg5 fullShare x4
        ∗ owns (c : Thread nD τ) arg6 fullShare x5
        ∗ owns (c : Thread nD τ) arg7 fullShare x6
        ∗ (∃ d, owns (c : Thread nD τ) arg8 fullShare d)
        ∗ (iprop(owns (c : Thread nD τ) arg1 fullShare x0
            ∗ owns (c : Thread nD τ) arg2 fullShare x1
            ∗ owns (c : Thread nD τ) arg3 fullShare x2
            ∗ owns (c : Thread nD τ) arg4 fullShare x3
            ∗ owns (c : Thread nD τ) arg5 fullShare x4
            ∗ owns (c : Thread nD τ) arg6 fullShare x5
            ∗ owns (c : Thread nD τ) arg7 fullShare x6
            ∗ owns (c : Thread nD τ) arg8 fullShare (out2_7 x0 x1 x2 x3 x4 x5 x6)) -∗ K ⟨⟩))
      ⊢ wp frame (wpE (defs₀ (F := F)) Variants.none c none) E (cc2__mlp_kernel i arg1 harg1 arg2 harg2 arg3 harg3 arg4 harg4 arg5 harg5 arg6 harg6 arg7 harg7 arg8 harg8) K := by
  simp only [cc2__mlp_kernel_eq_skeleton]; unfold cc2__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0; subst hf1; subst hf2; subst hf3; subst hf4; subst hf5; subst hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover2_7 _)

/-! ## The proof data's inputs hold their blocks -/

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d
theorem before2_6 (c : Dev nD) (t : Fin cfg2.N) (d) : (dat2 V c).before 6 t d = iblk2 V c 6 t :=
  before2_6_of V (dat2 V c) (A_eq2 V c 6) (after2_6 V c) t d

/-! ## The body obligation -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t))

/-- The body at the point: the inputs' memrefs hold their blocks, so the body's triple applies; the invariant and
    what the core owes pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel2 c Set.univ _ _ _ _ _ _ _ _ _ _ _ _ _ _ _ _ _ (iblk2 V c 0 t) (iblk2 V c 1 t) (iblk2 V c 2 t) (iblk2 V c 3 t) (iblk2 V c 4 t) (iblk2 V c 5 t) (iblk2 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body obligation, at the one point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KI.Run.lean ====
/- The launch of @main: the contents each of the three pallas regions leaves in its arrays, stage by stage; each
   region as a segment between two thread states "every unscoped buffer at the boundary's contents, the generator
   register at some state, nothing owed"; every weakly fair execution ends with every unscoped buffer at the last
   boundary's contents; the thirteen argument arrays end as launched. -/
import proofs.«417852_j54494545052225_3_alg».proof.Proof.Gen.KernelIdeal.Skeleton
import proofs.«417852_j54494545052225_3_alg».proof.Proof.Gen.KernelIdeal.Launch
import proofs.«417852_j54494545052225_3_alg».proof.Proof.Gen.KernelIdeal.Points
import proofs.«417852_j54494545052225_3_alg».proof.Proof.Gen.KernelIdeal.Regions
import proofs.«417852_j54494545052225_3_alg».proof.Proof.KI.Dat0
import proofs.«417852_j54494545052225_3_alg».proof.Proof.KI.Dat1
import proofs.«417852_j54494545052225_3_alg».proof.Proof.KI.Dat1Body
import proofs.«417852_j54494545052225_3_alg».proof.Proof.KI.Dat2
import Idealize.ShloMosaic.Lib.Pipeline.FrameSuffix
import Idealize.ShloMosaic.Lib.Pipeline.Frame
import Idealize.ShloMosaic.Lib.Pipeline.Regions
import Idealize.ShloMosaic.Lib.Pipeline.RegionsLoop
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

variable (m : (ℓ : Loc nD τ sig) → Buf (Elt F) ℓ) (ρ : Dev nD → PrngReg)

/-! ## The contents the regions leave, stage by stage

The buffers' contents between @main's items are written over unknown region results. They are fixed here one region
at a time: the contents before region 0 read no region's result; those before region 1 read only region 0's; those
before region 2 only the first two regions'. Each region leaves, in its arrays, what the write-backs of its proof
data (taken at the region's entry contents) leave, and every other buffer as it found it. -/

/-- The contents region 0 is entered from. -/
abbrev VR0 (c : Dev nD) (b : Ref sig .tc) : Buf (Elt F) ((c : Thread nD τ).loc b) := Gen.V4 m c b

/-- What region 0 leaves on core `c`: its arrays after the write-backs of all its points, the rest as entered. -/
def left0 (c : Dev nD) : Valuation τ sig (Elt F) :=
  Pipeline.withArrays spec0 c (Gen.V4 m c) fun w => (dat0 (VR0 m) c).arrAt w cfg0.N

/-- The regions' results with region 0's fixed. -/
def outs1 : Gen.Outs (F := F) := fun _ r c => left0 m c r

/-- The contents region 1 is entered from, over region 0's result alone. -/
abbrev VS1 (c : Dev nD) (b : Ref sig .tc) : Buf (Elt F) ((c : Thread nD τ).loc b) := Gen.V7 m (outs1 m) c b

/-- What region 1 leaves on core `c`. -/
def left1 (c : Dev nD) : Valuation τ sig (Elt F) :=
  Pipeline.withArrays spec1 c (Gen.V7 m (outs1 m) c) fun w => (dat1 (VS1 m) c).arrAt w cfg1.N

/-- The regions' results with the first two fixed. -/
def outs2 : Gen.Outs (F := F) := fun J r c => if J = 5 then left0 m c r else left1 m c r

/-- The contents region 2 is entered from, over the first two regions' results. -/
abbrev VS2 (c : Dev nD) (b : Ref sig .tc) : Buf (Elt F) ((c : Thread nD τ).loc b) := Gen.V11 m (outs2 m) c b

/-- What region 2 leaves on core `c`. -/
def left2 (c : Dev nD) : Valuation τ sig (Elt F) :=
  Pipeline.withArrays spec2 c (Gen.V11 m (outs2 m) c) fun w => (dat2 (VS2 m) c).arrAt w cfg2.N

/-- The contents the three regions leave: after item 4 region 0's, after item 7 region 1's, after item 11 region 2's. -/
def outsV : Gen.Outs (F := F) := fun J r c =>
  if J = 5 then left0 m c r else if J = 8 then left1 m c r else left2 m c r

/-- The contents region 1 is entered from. -/
abbrev VR1 (c : Dev nD) (b : Ref sig .tc) : Buf (Elt F) ((c : Thread nD τ).loc b) := Gen.V7 m (outsV m) c b
/-- The contents region 2 is entered from. -/
abbrev VR2 (c : Dev nD) (b : Ref sig .tc) : Buf (Elt F) ((c : Thread nD τ).loc b) := Gen.V11 m (outsV m) c b

/-! ## Reading the stages back -/

theorem outsV_at5 (r : Ref sig .tc) (c : Dev nD) : outsV m 5 r c = left0 m c r := by
  unfold outsV; exact if_pos rfl
theorem outsV_at8 (r : Ref sig .tc) (c : Dev nD) : outsV m 8 r c = left1 m c r := by
  unfold outsV; rw [if_neg (by decide), if_pos rfl]
theorem outsV_at12 (r : Ref sig .tc) (c : Dev nD) : outsV m 12 r c = left2 m c r := by
  unfold outsV; rw [if_neg (by decide), if_neg (by decide)]
theorem outs2_at5 (r : Ref sig .tc) (c : Dev nD) : outs2 m 5 r c = left0 m c r := by
  unfold outs2; exact if_pos rfl
theorem outs2_at8 (r : Ref sig .tc) (c : Dev nD) : outs2 m 8 r c = left1 m c r := by
  unfold outs2; exact if_neg (by decide)

/-- The contents before region 1 read the regions' results only at region 0's output. -/
theorem V7_congr (o o' : Gen.Outs (F := F)) (h : ∀ c, o 5 main_v16 c = o' 5 main_v16 c) : Gen.V7 m o = Gen.V7 m o' := by
  funext c
  simp only [Gen.V7, Gen.V6, Gen.V5, h c]

/-- The contents before region 2 read them only at the first two regions' outputs. -/
theorem V11_congr (o o' : Gen.Outs (F := F)) (h5 : ∀ c, o 5 main_v16 c = o' 5 main_v16 c)
    (h80 : ∀ c, o 8 main_v30_0 c = o' 8 main_v30_0 c) (h81 : ∀ c, o 8 main_v30_1 c = o' 8 main_v30_1 c)
    (h82 : ∀ c, o 8 main_v30_2 c = o' 8 main_v30_2 c) (h83 : ∀ c, o 8 main_v30_3 c = o' 8 main_v30_3 c) :
    Gen.V11 m o = Gen.V11 m o' := by
  funext c
  simp only [Gen.V11, Gen.V10, Gen.V9, Gen.V8, h80 c, h81 c, h82 c, h83 c]
  rw [V7_congr m o o' h5]

/-- Region 1 is entered from the contents written over region 0's result alone. -/
theorem VR1_eq : VR1 m = VS1 m := by
  funext c b
  exact congrFun (congrFun (V7_congr m (outsV m) (outs1 m) fun c => outsV_at5 m main_v16 c) c) b

/-- Region 2 is entered from the contents written over the first two regions' results. -/
theorem VR2_eq : VR2 m = VS2 m := by
  funext c b
  exact congrFun (congrFun (V11_congr m (outsV m) (outs2 m)
    (fun c => (outsV_at5 m main_v16 c).trans (outs2_at5 m main_v16 c).symm)
    (fun c => (outsV_at8 m main_v30_0 c).trans (outs2_at8 m main_v30_0 c).symm)
    (fun c => (outsV_at8 m main_v30_1 c).trans (outs2_at8 m main_v30_1 c).symm)
    (fun c => (outsV_at8 m main_v30_2 c).trans (outs2_at8 m main_v30_2 c).symm)
    (fun c => (outsV_at8 m main_v30_3 c).trans (outs2_at8 m main_v30_3 c).symm)) c) b

/-- Each region's arrays hold, in what it leaves, what its write-backs leave. -/
theorem left0_arr (c : Dev nD) (w : Fin cfg0.W) :
    left0 m c (Proc.devRef .tc (Pipeline.arrRef spec0 w)) = (dat0 (VR0 m) c).arrAt w cfg0.N := by
  unfold left0; exact Pipeline.withArrays_arr spec0 winFacts0.arr_inj c _ _ w
theorem left1_arr (c : Dev nD) (w : Fin cfg1.W) :
    left1 m c (Proc.devRef .tc (Pipeline.arrRef spec1 w)) = (dat1 (VR1 m) c).arrAt w cfg1.N := by
  rw [VR1_eq]; unfold left1; exact Pipeline.withArrays_arr spec1 winFacts1.arr_inj c _ _ w
theorem left2_arr (c : Dev nD) (w : Fin cfg2.W) :
    left2 m c (Proc.devRef .tc (Pipeline.arrRef spec2 w)) = (dat2 (VR2 m) c).arrAt w cfg2.N := by
  rw [VR2_eq]; unfold left2; exact Pipeline.withArrays_arr spec2 winFacts2.arr_inj c _ _ w

theorem outsV_5 (c : Dev nD) : outsV m 5 main_v16 c = (dat0 (VR0 m) c).arrAt 3 cfg0.N :=
  (outsV_at5 m main_v16 c).trans (left0_arr m c 3)
theorem outsV_8_0 (c : Dev nD) : outsV m 8 main_v30_0 c = (dat1 (VR1 m) c).arrAt 5 cfg1.N :=
  (outsV_at8 m main_v30_0 c).trans (left1_arr m c 5)
theorem outsV_8_1 (c : Dev nD) : outsV m 8 main_v30_1 c = (dat1 (VR1 m) c).arrAt 6 cfg1.N :=
  (outsV_at8 m main_v30_1 c).trans (left1_arr m c 6)
theorem outsV_8_2 (c : Dev nD) : outsV m 8 main_v30_2 c = (dat1 (VR1 m) c).arrAt 7 cfg1.N :=
  (outsV_at8 m main_v30_2 c).trans (left1_arr m c 7)
theorem outsV_8_3 (c : Dev nD) : outsV m 8 main_v30_3 c = (dat1 (VR1 m) c).arrAt 8 cfg1.N :=
  (outsV_at8 m main_v30_3 c).trans (left1_arr m c 8)
theorem outsV_12 (c : Dev nD) : outsV m 12 main_v62 c = (dat2 (VR2 m) c).arrAt 7 cfg2.N :=
  (outsV_at12 m main_v62 c).trans (left2_arr m c 7)

/-! ## What each region's exit contents hold -/

/-- The contents region 0 leaves the core's buffers at, and likewise the other two. -/
abbrev VX0 (c : Dev nD) (b : Ref sig .tc) : Buf (Elt F) ((c : Thread nD τ).loc b) := Gen.V5 m (outsV m) c b
abbrev VX1 (c : Dev nD) (b : Ref sig .tc) : Buf (Elt F) ((c : Thread nD τ).loc b) := Gen.V8 m (outsV m) c b
abbrev VX2 (c : Dev nD) (b : Ref sig .tc) : Buf (Elt F) ((c : Thread nD τ).loc b) := Gen.V12 m (outsV m) c b

/-- Distinct TensorCore references are distinct buffers. -/
theorem dne {r r' : Ref sig .tc} (h : r ≠ r') : (Proc.devRef .tc r : DevRef τ sig) ≠ Proc.devRef .tc r' :=
  StableHlo.devRef_ne_of_ne h

/-- Region 1's four outputs, read off the contents after it. -/
theorem V8_v30_3 (o : Gen.Outs (F := F)) (c : Dev nD) : Gen.V8 m o c main_v30_3 = o 8 main_v30_3 c := by
  simp only [Gen.V8, Function.update_self]
theorem V8_v30_2 (o : Gen.Outs (F := F)) (c : Dev nD) : Gen.V8 m o c main_v30_2 = o 8 main_v30_2 c := by
  simp only [Gen.V8]
  rw [Function.update_of_ne (dne (by decide : (main_v30_2 : Ref sig .tc) ≠ main_v30_3)), Function.update_self]
theorem V8_v30_1 (o : Gen.Outs (F := F)) (c : Dev nD) : Gen.V8 m o c main_v30_1 = o 8 main_v30_1 c := by
  simp only [Gen.V8]
  rw [Function.update_of_ne (dne (by decide : (main_v30_1 : Ref sig .tc) ≠ main_v30_3)),
    Function.update_of_ne (dne (by decide : (main_v30_1 : Ref sig .tc) ≠ main_v30_2)), Function.update_self]
theorem V8_v30_0 (o : Gen.Outs (F := F)) (c : Dev nD) : Gen.V8 m o c main_v30_0 = o 8 main_v30_0 c := by
  simp only [Gen.V8]
  rw [Function.update_of_ne (dne (by decide : (main_v30_0 : Ref sig .tc) ≠ main_v30_3)),
    Function.update_of_ne (dne (by decide : (main_v30_0 : Ref sig .tc) ≠ main_v30_2)),
    Function.update_of_ne (dne (by decide : (main_v30_0 : Ref sig .tc) ≠ main_v30_1)), Function.update_self]

/-- At region 0's exit each of its arrays holds what the pipeline leaves — an input array is never written back, so it
    holds its entry contents, which no region result replaces; the output array holds the region's result — -/
theorem hF0 (c : Dev nD) : ∀ w : Fin 4, (dat0 (VR0 m) c).arrAt w cfg0.N = VX0 m c (Pipeline.arrRef spec0 w) := fun
  | 0 => ((dat0 (VR0 m) c).arrAt_in 0 rfl _).trans ((A_eq0 (VR0 m) c 0).trans (Gen.V5_of m (outsV m) c (Pipeline.arrRef spec0 0) (by decide)).symm)
  | 1 => ((dat0 (VR0 m) c).arrAt_in 1 rfl _).trans ((A_eq0 (VR0 m) c 1).trans (Gen.V5_of m (outsV m) c (Pipeline.arrRef spec0 1) (by decide)).symm)
  | 2 => ((dat0 (VR0 m) c).arrAt_in 2 rfl _).trans ((A_eq0 (VR0 m) c 2).trans (Gen.V5_of m (outsV m) c (Pipeline.arrRef spec0 2) (by decide)).symm)
  | 3 => ((Function.update_self (Proc.devRef .tc main_v16) (outsV m 5 main_v16 c) (Gen.V4 m c)).trans (outsV_5 m c)).symm
  | ⟨_ + 4, h⟩ => absurd h (Nat.not_lt.2 (Nat.le_add_left _ _))
/-- and every other buffer what it held at entry. -/
theorem hrest0 (c : Dev nD) : ∀ b, b ∉ Finset.univ.image (Pipeline.arrRef spec0) → VX0 m c b = VR0 m c b :=
  fun b hb => Gen.V5_of m (outsV m) c b fun hmem =>
    hb (Finset.mem_image.mpr ⟨3, Finset.mem_univ _, (List.mem_singleton.mp hmem).symm⟩)

/-- An input array of region 1 is never written back and is none of the region's results. -/
theorem hF1_in (c : Dev nD) (w : Fin 9) (hin : (cfg1.win w).isOut = false) (r : Ref sig .tc) (hr : Pipeline.arrRef spec1 w = r)
    (hnot : r ∉ ([main_v30_0, main_v30_1, main_v30_2, main_v30_3] : List (Ref sig .tc))) :
    (dat1 (VR1 m) c).arrAt w cfg1.N = VX1 m c (Pipeline.arrRef spec1 w) := by
  subst hr
  exact ((dat1 (VR1 m) c).arrAt_in w hin _).trans ((A_eq1 (VR1 m) c w).trans (Gen.V8_of m (outsV m) c _ hnot).symm)
theorem hF1 (c : Dev nD) : ∀ w : Fin 9, (dat1 (VR1 m) c).arrAt w cfg1.N = VX1 m c (Pipeline.arrRef spec1 w) := fun
  | 0 => hF1_in m c 0 rfl main_v26 rfl (by decide)
  | 1 => hF1_in m c 1 rfl main_v16 rfl (by decide)
  | 2 => hF1_in m c 2 rfl main_v14 rfl (by decide)
  | 3 => hF1_in m c 3 rfl main_v27 rfl (by decide)
  | 4 => hF1_in m c 4 rfl main_v29 rfl (by decide)
  | 5 => ((V8_v30_0 m (outsV m) c).trans (outsV_8_0 m c)).symm
  | 6 => ((V8_v30_1 m (outsV m) c).trans (outsV_8_1 m c)).symm
  | 7 => ((V8_v30_2 m (outsV m) c).trans (outsV_8_2 m c)).symm
  | 8 => ((V8_v30_3 m (outsV m) c).trans (outsV_8_3 m c)).symm
  | ⟨_ + 9, h⟩ => absurd h (Nat.not_lt.2 (Nat.le_add_left _ _))
theorem hrest1 (c : Dev nD) : ∀ b, b ∉ Finset.univ.image (Pipeline.arrRef spec1) → VX1 m c b = VR1 m c b :=
  fun b hb => Gen.V8_of m (outsV m) c b fun hmem => by
    simp only [List.mem_cons, List.mem_singleton, List.not_mem_nil, or_false] at hmem
    rcases hmem with h | h | h | h
    · exact hb (Finset.mem_image.mpr ⟨5, Finset.mem_univ _, h.symm⟩)
    · exact hb (Finset.mem_image.mpr ⟨6, Finset.mem_univ _, h.symm⟩)
    · exact hb (Finset.mem_image.mpr ⟨7, Finset.mem_univ _, h.symm⟩)
    · exact hb (Finset.mem_image.mpr ⟨8, Finset.mem_univ _, h.symm⟩)

/-- An input array of region 2 is never written back and is not the region's result. -/
theorem hF2_in (c : Dev nD) (w : Fin 8) (hin : (cfg2.win w).isOut = false) (r : Ref sig .tc) (hr : Pipeline.arrRef spec2 w = r)
    (hnot : r ∉ ([main_v62] : List (Ref sig .tc))) :
    (dat2 (VR2 m) c).arrAt w cfg2.N = VX2 m c (Pipeline.arrRef spec2 w) := by
  subst hr
  exact ((dat2 (VR2 m) c).arrAt_in w hin _).trans ((A_eq2 (VR2 m) c w).trans (Gen.V12_of m (outsV m) c _ hnot).symm)
theorem hF2 (c : Dev nD) : ∀ w : Fin 8, (dat2 (VR2 m) c).arrAt w cfg2.N = VX2 m c (Pipeline.arrRef spec2 w) := fun
  | 0 => hF2_in m c 0 rfl main_v58 rfl (by decide)
  | 1 => hF2_in m c 1 rfl main_arg7 rfl (by decide)
  | 2 => hF2_in m c 2 rfl main_v59 rfl (by decide)
  | 3 => hF2_in m c 3 rfl main_arg9 rfl (by decide)
  | 4 => hF2_in m c 4 rfl main_v60 rfl (by decide)
  | 5 => hF2_in m c 5 rfl main_arg11 rfl (by decide)
  | 6 => hF2_in m c 6 rfl main_v61 rfl (by decide)
  | 7 => ((Function.update_self (Proc.devRef .tc main_v62) (outsV m 12 main_v62 c) (Gen.V11 m (outsV m) c)).trans (outsV_12 m c)).symm
  | ⟨_ + 8, h⟩ => absurd h (Nat.not_lt.2 (Nat.le_add_left _ _))
theorem hrest2 (c : Dev nD) : ∀ b, b ∉ Finset.univ.image (Pipeline.arrRef spec2) → VX2 m c b = VR2 m c b :=
  fun b hb => Gen.V12_of m (outsV m) c b fun hmem =>
    hb (Finset.mem_image.mpr ⟨7, Finset.mem_univ _, (List.mem_singleton.mp hmem).symm⟩)

/-! ## The proof data family and the thread state -/

/-- Every pipeline's proof data, each at its region's entry contents. -/
def pdats : (p : Fin 3) → (c : Dev nD) → Dat τ (Elt F) Unit ℕ (UR sig nD τ) ℕ (Pipeline.pin (pcfgs (F := F)) Gen.adm p) c
  | ⟨0, _⟩ => fun c => dat0 (VR0 m) c
  | ⟨1, _⟩ => fun c => dat1 (VR1 m) c
  | ⟨2, _⟩ => fun c => dat2 (VR2 m) c
/-- No core owes another anything: no level is assigned. -/
abbrev noL : GSem nD τ sig → Finset Unit := fun _ => ∅
abbrev noLv : GSem nD τ sig → Unit → ℕ := fun _ _ => 0
/-- What rides beside the buffers through every item: the core's generator register at some state (a region's
    invariant takes it in and gives it back) and what the core owes, which is nothing. -/
abbrev rider (c : Dev nD) : sProp 𝕄 := iprop((∃ r, prngReg c r) ∗ ∃ W, owes (c : Thread nD τ) (0 : CellTallies nD τ sig Unit) W)

/-! ## The regions as segments -/

set_option backward.isDefEq.respectTransparency.types false in
/-- REGION 0 over the thread state: entered from every unscoped buffer at the contents before it, left at the contents
    after it. Its arrays are split out of the unscoped buffers and put back at what the write-backs leave; the generator
    register goes into the region's invariant and comes back; nothing is owed; the kernel has no semaphore of its own. -/
def reg0 : Pipeline.RegionSeg (pcfgs (F := F)) Gen.adm (pdats m) () defs₀ Variants.none noL noLv 0 where
  win := launch0.win.to₀
  block_pos := launch0.block_pos
  stage_whole := launch0.stage_whole
  K := PEmpty
  osem k := k.elim
  ho := Pipeline.OwnSemFacts.none _
  hbody c := (body_obligation0 (VR0 m) c).loose
  hwaits := Pipeline.hwaits_of_owed_zero _ _ _ _ noL noLv 0 fun _ _ => rfl
  pre c := iprop(StableHlo.held (c : Thread nD τ) (Pipeline.ucRefs τ sig) (Gen.V4 m c) ∗ rider c)
  post c := iprop(StableHlo.held (c : Thread nD τ) (Pipeline.ucRefs τ sig) (Gen.V5 m (outsV m) c) ∗ rider c)
  X c := iprop(∃ r, prngReg c r)
  Y c := iprop(∃ r, prngReg c r)
  Z c := Pipeline.unscopedRest (Ix := Unit) (Name := ℕ) (U := UR sig nD τ) (Lvl := ℕ) spec0 c (VR0 m c)
  hentry c := by
    rw [Pipeline.ownSems0_none]
    have hsplit := Pipeline.arrays_of_unscopedBufs (p := 0) (pcfgs (F := F)) Gen.adm (pdats m) launch0.win launch0.arr_whole c
      ((pdats m 0 c).share_full fun _ => rfl) (VR0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) Gen.adm (Ix := Unit) (Name := ℕ) (U := UR sig nD τ) (Lvl := ℕ)
      launch0.win launch0.arr_whole c (pdats m) ((pdats m 0 c).share_full fun _ => rfl)
      (VR0 m c) (VX0 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1 over the thread state: entered from every unscoped buffer at the contents before it, left at the contents
    after it. Its arrays are split out of the unscoped buffers and put back at what the write-backs leave; the generator
    register goes into the region's invariant and comes back; nothing is owed; the kernel has no semaphore of its own. -/
def reg1 : Pipeline.RegionSeg (pcfgs (F := F)) Gen.adm (pdats m) () defs₀ Variants.none noL noLv 1 where
  win := launch1.win.to₀
  block_pos := launch1.block_pos
  stage_whole := launch1.stage_whole
  K := PEmpty
  osem k := k.elim
  ho := Pipeline.OwnSemFacts.none _
  hbody c := (body_obligation1 (VR1 m) c).loose
  hwaits := Pipeline.hwaits_of_owed_zero _ _ _ _ noL noLv 1 fun _ _ => rfl
  pre c := iprop(StableHlo.held (c : Thread nD τ) (Pipeline.ucRefs τ sig) (Gen.V7 m (outsV m) c) ∗ rider c)
  post c := iprop(StableHlo.held (c : Thread nD τ) (Pipeline.ucRefs τ sig) (Gen.V8 m (outsV m) c) ∗ rider c)
  X c := iprop(∃ r, prngReg c r)
  Y c := iprop(∃ r, prngReg c r)
  Z c := Pipeline.unscopedRest (Ix := Unit) (Name := ℕ) (U := UR sig nD τ) (Lvl := ℕ) spec1 c (VR1 m c)
  hentry c := by
    rw [Pipeline.ownSems0_none]
    have hsplit := Pipeline.arrays_of_unscopedBufs (p := 1) (pcfgs (F := F)) Gen.adm (pdats m) launch1.win launch1.arr_whole c
      ((pdats m 1 c).share_full fun _ => rfl) (VR1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (VR1 m) c)
    unfold Pipeline.ΦA
    iintro ⟨Hp, -, Hr⟩
    isplitl [Hr]; · iexact Hr
    iexact Hp
  hout c := by
    rw [Pipeline.ownSems0_none]
    refine BIBase.Entails.trans (hout1 (VR1 m) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) Gen.adm (Ix := Unit) (Name := ℕ) (U := UR sig nD τ) (Lvl := ℕ)
      launch1.win launch1.arr_whole c (pdats m) ((pdats m 1 c).share_full fun _ => rfl)
      (VR1 m c) (VX1 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 2 over the thread state: entered from every unscoped buffer at the contents before it, left at the contents
    after it. Its arrays are split out of the unscoped buffers and put back at what the write-backs leave; the generator
    register goes into the region's invariant and comes back; nothing is owed; the kernel has no semaphore of its own. -/
def reg2 : Pipeline.RegionSeg (pcfgs (F := F)) Gen.adm (pdats m) () defs₀ Variants.none noL noLv 2 where
  win := launch2.win.to₀
  block_pos := launch2.block_pos
  stage_whole := launch2.stage_whole
  K := PEmpty
  osem k := k.elim
  ho := Pipeline.OwnSemFacts.none _
  hbody c := (body_obligation2 (VR2 m) c).loose
  hwaits := Pipeline.hwaits_of_owed_zero _ _ _ _ noL noLv 2 fun _ _ => rfl
  pre c := iprop(StableHlo.held (c : Thread nD τ) (Pipeline.ucRefs τ sig) (Gen.V11 m (outsV m) c) ∗ rider c)
  post c := iprop(StableHlo.held (c : Thread nD τ) (Pipeline.ucRefs τ sig) (Gen.V12 m (outsV m) c) ∗ rider c)
  X c := iprop(∃ r, prngReg c r)
  Y c := iprop(∃ r, prngReg c r)
  Z c := Pipeline.unscopedRest (Ix := Unit) (Name := ℕ) (U := UR sig nD τ) (Lvl := ℕ) spec2 c (VR2 m c)
  hentry c := by
    rw [Pipeline.ownSems0_none]
    have hsplit := Pipeline.arrays_of_unscopedBufs (p := 2) (pcfgs (F := F)) Gen.adm (pdats m) launch2.win launch2.arr_whole c
      ((pdats m 2 c).share_full fun _ => rfl) (VR2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) Gen.adm (Ix := Unit) (Name := ℕ) (U := UR sig nD τ) (Lvl := ℕ)
      launch2.win launch2.arr_whole c (pdats m) ((pdats m 2 c).share_full fun _ => rfl)
      (VR2 m c) (VX2 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- Every weakly fair execution ends, nothing faulting, with every unscoped buffer at the last valuation: @main is the
    run of its twelve items — nine host stretches, each from its boundary's contents, and the three regions —, the thread
    states chain, the launch deals the first one on every core, and the last one is read against the final state. -/
theorem run : θ_run defs (onTc (τ := τ) (main (F := F))) ⟨m, fun _ => 0, ρ⟩
    (fun r => ∀ c : Dev nD, ∀ b ∈ Pipeline.ucRefs τ sig, r.2.mem ((c : Thread nD τ).1, b) = Gen.V12 m (outsV m) c b) := by
  refine Pipeline.θ_run_regions_kit_dev (pcfgs (F := F)) Gen.adm (pdats m) () cellOf_inj emb₁ defs₀ Variants.none noL noLv m ρ main
    (Gen.segs m (outsV m) Variants.none noL noLv (fun _ => rider) () (pdats m) (reg0 m) (reg1 m) (reg2 m))
    (fun c Q => by
      rewrite [main_chain c, Pipeline.Seg.run_eq_chain,
        show (Gen.segs m (outsV m) Variants.none noL noLv (fun _ => rider) () (pdats m) (reg0 m) (reg1 m) (reg2 m) c).map Pipeline.Seg.prog = [
          StableHlo.seq hostOps0,
          StableHlo.seq hostOps0_1,
          StableHlo.seq hostOps0_2,
          StableHlo.seq hostOps0_3,
          Prog.lift (.customCall (Pipeline.entry 0) ()),
          StableHlo.seq hostOps1,
          StableHlo.seq hostOps1_1,
          Prog.lift (.customCall (Pipeline.entry 1) ()),
          StableHlo.seq hostOps2,
          StableHlo.seq hostOps2_1,
          StableHlo.seq hostOps2_2,
          Prog.lift (.customCall (Pipeline.entry 2) ()) ] from rfl]
      exact .rfl)
    (fun c => by simp only [Gen.segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ rider c))
    (Tₙ := fun c => StableHlo.held (c : Thread nD τ) (Pipeline.ucRefs τ sig) (Gen.V12 m (outsV m) c))
    (hch := fun c => ⟨.rfl, .rfl, .rfl, .rfl, .rfl, .rfl, .rfl, .rfl, .rfl, .rfl, .rfl, .rfl,
      sep_mono .rfl (by iintro ⟨-, HO⟩; iexact HO)⟩)
    (hinit := by
      refine Pipeline.initEach noL noLv fun c => ?_
      rw [show unscopedBufs c (fun b => m ((c : Thread nD τ).loc b)) = StableHlo.held (c : Thread nD τ) (Pipeline.ucRefs τ sig) (Gen.V0 m c)
        from Pipeline.unscopedBufs_held c (Gen.V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Gen.V12 m (outsV m) c b)
    (hfin := fun c s' => by
      iintro ⟨Hh, HSI⟩
      unfold StableHlo.held
      imodintro
      iapply (pointsTo_read_all (Pipeline.ucRefs τ sig) (fun b => (((c : Thread nD τ)).1, b)) (Gen.V12 m (outsV m) c) s')
      isplitl [Hh] <;> iassumption)
    (hQ := fun s h => h)

/-- The frame: the thirteen arguments end as launched — each is an unscoped buffer, and the last valuation has it at
    its launch contents, no host stretch writing it and no region changing it. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun _ h c => ⟨(h c _ (mem_uc main_arg0 (by decide))).trans (Gen.V12_main_arg0 m (outsV m) c),
    (h c _ (mem_uc main_arg1 (by decide))).trans (Gen.V12_main_arg1 m (outsV m) c),
    (h c _ (mem_uc main_arg2 (by decide))).trans (Gen.V12_main_arg2 m (outsV m) c),
    (h c _ (mem_uc main_arg3 (by decide))).trans (Gen.V12_main_arg3 m (outsV m) c),
    (h c _ (mem_uc main_arg4 (by decide))).trans (Gen.V12_main_arg4 m (outsV m) c),
    (h c _ (mem_uc main_arg5 (by decide))).trans (Gen.V12_main_arg5 m (outsV m) c),
    (h c _ (mem_uc main_arg6 (by decide))).trans (Gen.V12_main_arg6 m (outsV m) c),
    (h c _ (mem_uc main_arg7 (by decide))).trans (Gen.V12_main_arg7 m (outsV m) c),
    (h c _ (mem_uc main_arg8 (by decide))).trans (Gen.V12_main_arg8 m (outsV m) c),
    (h c _ (mem_uc main_arg9 (by decide))).trans (Gen.V12_main_arg9 m (outsV m) c),
    (h c _ (mem_uc main_arg10 (by decide))).trans (Gen.V12_main_arg10 m (outsV m) c),
    (h c _ (mem_uc main_arg11 (by decide))).trans (Gen.V12_main_arg11 m (outsV m) c),
    (h c _ (mem_uc main_arg12 (by decide))).trans (Gen.V12_main_arg12 m (outsV m) c)⟩) (run m ρ)

end Cert.KernelIdeal.Hand

end
-- ==== Proof.Spec.lean ====
/-
  The two computations as plain index-level formulas over the extended reals, and the multilayer perceptron both
  end with. Nothing here mentions a program.

  A graph of 100000 nodes with 128 features each and 1600000 edges; every node also sends itself a message. A node's
  degree counts the messages it receives, and `dis = deg^(-1/2)`. One graph-convolution layer sends along every
  message `h[src] · dis[src] · dis[dst]` with `h = x · W`, sums the messages at their destination and adds a bias;
  batch normalisation over the nodes (statistics of this very batch) follows, then the mean over the nodes of each of
  512 graphs, then three dense layers with rectifiers.

  KERNEL SIDE. The node axis is padded with zero rows to 100352. The normalisation is factorised: `hp = h · dis` is
  computed once per node, the edges move `hp[src]`, and `dis[dst] · (sum of the arrivals + hp[dst])` finishes the
  layer, the node's own message being the second summand. Sum, sum of squares, per-graph sum and per-graph count are
  accumulated over all padded rows under a mask of the true rows; mean, variance (as mean of squares minus squared
  mean, clipped at 0) and the normalisation are applied to the per-graph means.
  REFERENCE SIDE. 1700000 messages (the edges, then one per node), normalised one by one; two-pass variance; every
  node normalised before the per-graph mean.
-/
import Idealize.ShloMosaic.PureOps.Ideal
import Mathlib.Algebra.BigOperators.Group.Finset.Basic
import Mathlib.Algebra.BigOperators.Fin

noncomputable section

open scoped BigOperators

namespace Cert.Spec

open Idealize.ShloMosaic

/-- nodes, padded nodes, edges, messages (edges and self loops), features, graphs -/
abbrev NN : Nat := 100000
abbrev NP : Nat := 100352
abbrev NE : Nat := 1600000
abbrev NM : Nat := 1700000
abbrev NH : Nat := 128
abbrev NG : Nat := 512

/-- the node count as a float, 100000 -/
abbrev nF : EReal := ((100000 : ℝ) : EReal)
/-- the variance's guard: the binary32 number nearest 1e-5, kept as its pattern -/
abbrev eps : EReal := Ideal.ofBits .f32 0x3727C5AC#32

/-- What both computations read. `src e` is the source NODE of edge `e` (its word lies in the node range by the
    precondition); `dst e` and `bat i` are the destination word of edge `e` and the graph word of node `i`, read
    signed, whatever they are. -/
structure Inp where
  x : Fin NN → Fin NH → EReal
  src : Fin NE → Fin NN
  dst : Fin NE → ℤ
  bat : Fin NN → ℤ
  Wg : Fin NH → Fin NH → EReal
  bg : Fin NH → EReal
  gam : Fin NH → EReal
  bet : Fin NH → EReal

/-- a node as a padded row -/
abbrev padRow (i : Fin NN) : Fin NP := ⟨i.val, Nat.lt_of_lt_of_le i.isLt (by decide)⟩

/-! ## The kernel side -/

section Kernel
variable (I : Inp)

/-- a node's degree: the edges arriving, plus its own message -/
def degK (i : Fin NN) : EReal := (∑ e ∈ Finset.univ.filter (fun e : Fin NE => I.dst e = (i.val : ℤ)), (1 : EReal)) + 1
def disK (i : Fin NN) : EReal := Ideal.rsqrt (degK I i)
/-- `dis` and `x` on the padded rows: zero beyond the nodes -/
def disP (i : Fin NP) : EReal := if h : i.val < NN then disK I ⟨i.val, h⟩ else 0
def xP (i : Fin NP) (j : Fin NH) : EReal := if h : i.val < NN then I.x ⟨i.val, h⟩ j else 0
/-- the scaled linear map, per padded row -/
def hpK (i : Fin NP) (k : Fin NH) : EReal := (∑ j : Fin NH, xP I i j * I.Wg j k) * disP I i
/-- what the edges bring to padded row `i` -/
def aggK (i : Fin NP) (k : Fin NH) : EReal :=
  ∑ e ∈ Finset.univ.filter (fun e : Fin NE => I.dst e = (i.val : ℤ)), hpK I (padRow (I.src e)) k
/-- the layer's output on a padded row -/
def hbK (i : Fin NP) (k : Fin NH) : EReal := disP I i * (aggK I i k + hpK I i k) + I.bg k
/-- the mask of the true rows, and the masked output -/
def validK (i : Fin NP) : EReal := if i.val < NN then 1 else 0
def hbmK (i : Fin NP) (k : Fin NH) : EReal := hbK I i k * validK i
/-- the graph word of a padded row (0 beyond the nodes), and "row `i` is a true row of graph `g`" as 0 or 1 -/
def batP (i : Fin NP) : ℤ := if h : i.val < NN then I.bat ⟨i.val, h⟩ else 0
def ohK (g : Fin NG) (i : Fin NP) : EReal := (if batP I i = (g.val : ℤ) then 1 else 0) * validK i
def sumK (k : Fin NH) : EReal := ∑ i : Fin NP, hbmK I i k
def sumsqK (k : Fin NH) : EReal := ∑ i : Fin NP, hbmK I i k * hbmK I i k
def poolK (g : Fin NG) (k : Fin NH) : EReal := ∑ i : Fin NP, ohK I g i * hbmK I i k
def cntK (g : Fin NG) : EReal := ∑ i : Fin NP, ohK I g i
def meanK (k : Fin NH) : EReal := Ideal.div (sumK I k) nF
def varK (k : Fin NH) : EReal := max (Ideal.div (sumsqK I k) nF - meanK I k * meanK I k) 0
def invK (k : Fin NH) : EReal := Ideal.rsqrt (varK I k + eps)
/-- the normalised per-graph mean; an empty graph gives 0 -/
def gK (g : Fin NG) (k : Fin NH) : EReal :=
  if 0 < cntK I g then (Ideal.div (poolK I g k) (max (cntK I g) 1) - meanK I k) * invK I k * I.gam k + I.bet k else 0

end Kernel

/-! ## The reference side -/

/-- the node a gathered word names: a negative word counts from the end, then the word is clamped into the nodes -/
def nodeOf (w : ℤ) : Fin NN := ⟨min (if w < 0 then w + 100000 else w).toNat 99999, by show _ < 100000; omega⟩

section Reference
variable (I : Inp)

/-- source and destination word of a message: the edge's, then the node's own number -/
def srcM (e : Fin NM) : ℤ := if h : e.val < NE then ((I.src ⟨e.val, h⟩).val : ℤ) else (e.val : ℤ) - 1600000
def dstM (e : Fin NM) : ℤ := if h : e.val < NE then I.dst ⟨e.val, h⟩ else (e.val : ℤ) - 1600000
def degR (i : Fin NN) : EReal := ∑ e ∈ Finset.univ.filter (fun e : Fin NM => dstM I e = (i.val : ℤ)), (1 : EReal)
def disR (i : Fin NN) : EReal := if 0 < degR I i then Ideal.rsqrt (max (degR I i) 1) else 0
def normR (e : Fin NM) : EReal := disR I (nodeOf (srcM I e)) * disR I (nodeOf (dstM I e))
def hR (i : Fin NN) (k : Fin NH) : EReal := ∑ j : Fin NH, I.x i j * I.Wg j k
def outR (i : Fin NN) (k : Fin NH) : EReal :=
  (∑ e ∈ Finset.univ.filter (fun e : Fin NM => dstM I e = (i.val : ℤ)), hR I (nodeOf (srcM I e)) k * normR I e) + I.bg k
def meanR (k : Fin NH) : EReal := Ideal.div (∑ i : Fin NN, outR I i k) nF
def varR (k : Fin NH) : EReal := Ideal.div (∑ i : Fin NN, (outR I i k - meanR I k) * (outR I i k - meanR I k)) nF
def hnR (i : Fin NN) (k : Fin NH) : EReal :=
  (outR I i k - meanR I k) * Ideal.rsqrt (varR I k + eps) * I.gam k + I.bet k
def sR (g : Fin NG) (k : Fin NH) : EReal := ∑ i ∈ Finset.univ.filter (fun i : Fin NN => I.bat i = (g.val : ℤ)), hnR I i k
def cntR (g : Fin NG) : EReal := ∑ i ∈ Finset.univ.filter (fun i : Fin NN => I.bat i = (g.val : ℤ)), (1 : EReal)
def gR (g : Fin NG) (k : Fin NH) : EReal := Ideal.div (sR I g k) (max (cntR I g) 1)

end Reference

/-! ## The three dense layers both sides end with -/

def mlp (g : Fin NG → Fin NH → EReal) (W1 : Fin NH → Fin 256 → EReal) (b1 : Fin 256 → EReal)
    (W2 : Fin 256 → Fin NH → EReal) (b2 : Fin NH → EReal) (W3 : Fin NH → EReal) (b3 : EReal) (r : Fin NG) : EReal :=
  (∑ c : Fin NH, max ((∑ a : Fin 256, max ((∑ k : Fin NH, g r k * W1 k a) + b1 a) 0 * W2 a c) + b2 c) 0 * W3 c) + b3

/-- Every float the two computations read is a real number. -/
structure Inp.Finite (I : Inp) : Prop where
  x : ∀ i j, ∃ r : ℝ, I.x i j = (r : EReal)
  Wg : ∀ j k, ∃ r : ℝ, I.Wg j k = (r : EReal)
  bg : ∀ k, ∃ r : ℝ, I.bg k = (r : EReal)
  gam : ∀ k, ∃ r : ℝ, I.gam k = (r : EReal)
  bet : ∀ k, ∃ r : ℝ, I.bet k = (r : EReal)

end Cert.Spec

end
-- ==== Proof.LibVecScatterAdd.lean ====
/-
  GENERAL LEMMA: the accumulating scatter of a VECTOR of updates [E] into a vector operand [N] at a column [E, 1] of
  start words (`segment_sum` / `.at[idx].add` of a rank-1 array), READ AT AN INDEX over the extended reals, for
  arbitrary extents N (entries) and E (updates).

  Update e lands at entry (the start word of e read signed and NOT clamped), or nowhere when that is no entry
  (`vecScatter_resultIdx_iff`); so entry d of the result is the operand's entry plus the sum, over the updates
  whose word read signed is d, of the update (`vecScatterAdd_apply`). With it the re-indexing of a sum over the
  indices of a rank-1 shape as a sum over its one coordinate (`sum_idx1`).
  Nothing here mentions a program: the dimension-number record is built from a well-formedness fact the caller has.
-/
import Idealize.ShloMosaic.PureOps.Ideal
import Idealize.ShloMosaic.PureOps.Contract
import Idealize.ShloMosaic.Lib.ValueIdx
import Mathlib.Algebra.BigOperators.Group.Finset.Basic
import Mathlib.Algebra.BigOperators.Fin

noncomputable section

open scoped BigOperators

namespace Cert.Hand.VecScatter

open Idealize.ShloMosaic Idealize.ShloMosaic.ValueIdx

/-- An index of a rank-1 shape is its one coordinate … -/
def idxEquiv1 {n : Nat} : (⟨1, ![n]⟩ : Shape).Idx ≃ Fin n where
  toFun i := i 0
  invFun a := ix1 a
  left_inv i := (eq_ix1 i).symm
  right_inv _ := rfl

/-- … so a sum over the indices is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- The dimension numbers of a scatter of a vector of updates [E] into a vector [N] at a column [E, 1] of start
    words: no window axis, the one operand axis inserted and indexed. -/
abbrev vecScatter (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

variable {N E w : Nat} (wf : ScatterDims.WF ⟨1, ![N]⟩ ⟨2, ![E, 1]⟩ ⟨1, ![E]⟩ [] [0] [0] 1)
  (idx : IVec ⟨2, ![E, 1]⟩ w)

/-- The window of update e starts at the start word of e, read signed … -/
theorem vecScatter_start (e : Fin E) :
    (vecScatter N E wf).start (ix1 e) idx 0 = (idx (ix2 e 0)).toInt := by
  unfold ScatterDims.start
  rw [dif_pos (show (0 : Fin 1) ∈ (vecScatter N E wf).scatterDimsToOperandDims from List.mem_singleton.mpr rfl)]
  have hsi : (vecScatter N E wf).siIdx (ix1 e) ⟨List.idxOf (0 : Fin 1) (vecScatter N E wf).scatterDimsToOperandDims,
      List.idxOf_lt_length_iff.2 (List.mem_singleton.mpr rfl)⟩ = ix2 e 0 := by
    funext b; refine Fin.ext ?_
    match b with
    | ⟨0, _⟩ => rfl
    | ⟨1, _⟩ => rfl
  rw [hsi]

/-- … and its window coordinate is 0: the one operand axis is an inserted axis. -/
theorem vecScatter_window (e : Fin E) :
    (vecScatter N E wf).window (ix1 e) 0 = 0 := by
  unfold ScatterDims.window
  rw [dif_neg]
  show (0 : Fin 1) ∉ (List.finRange 1).filter (· ∉ [(0 : Fin 1)])
  decide

/-- Update e lands at entry d exactly when the start word of e, read signed, is d. -/
theorem vecScatter_resultIdx_iff (e : Fin E) (d : Fin N) :
    (vecScatter N E wf).resultIdx? (ix1 e) idx = some (ix1 d) ↔ (idx (ix2 e 0)).toInt = (d.val : ℤ) := by
  unfold ScatterDims.resultIdx?
  split
  · next h =>
    rw [Option.some.injEq]
    have h0 := h 0
    rw [vecScatter_start, vecScatter_window] at h0
    constructor
    · intro hf
      have e0 := congrArg (fun f => (f 0).val) hf
      simp only [vecScatter_start, vecScatter_window] at e0
      have : ((ix1 d : (⟨1, ![N]⟩ : Shape).Idx) 0).val = d.val := rfl
      omega
    · intro hd
      funext a
      refine Fin.ext ?_
      match a with
      | ⟨0, _⟩ =>
        show ((vecScatter N E wf).start (ix1 e) idx 0 + ((vecScatter N E wf).window (ix1 e) 0 : ℕ)).toNat = d.val
        rw [vecScatter_start, vecScatter_window]
        omega
  · next h =>
    constructor
    · intro hf
      exact absurd hf (by simp)
    · intro hd
      exfalso
      apply h
      intro a
      match a with
      | ⟨0, _⟩ =>
        show 0 ≤ (vecScatter N E wf).start (ix1 e) idx 0 + ((vecScatter N E wf).window (ix1 e) 0 : ℕ)
          ∧ (vecScatter N E wf).start (ix1 e) idx 0 + ((vecScatter N E wf).window (ix1 e) 0 : ℕ) < (N : ℤ)
        rw [vecScatter_start, vecScatter_window]
        have := d.isLt
        omega

/-- THE ACCUMULATING VECTOR SCATTER AT ENTRY d: the operand's entry plus the sum, over the updates whose start word
    read signed is d, of the update. -/
theorem vecScatterAdd_apply {φ : FTy} (x : FVec Ideal ⟨1, ![N]⟩ φ) (upd : FVec Ideal ⟨1, ![E]⟩ φ) (d : Fin N) :
    Host.scatterAdd (F := Ideal) (vecScatter N E wf) x idx upd (ix1 d)
      = x (ix1 d) + ∑ e ∈ Finset.univ.filter (fun e : Fin E => (idx (ix2 e 0)).toInt = (d.val : ℤ)), upd (ix1 e) := by
  show Ideal.hostScatterAdd (vecScatter N E wf) x idx upd (ix1 d) = _
  unfold Ideal.hostScatterAdd
  congr 1
  rw [Finset.sum_filter, sum_idx1, Finset.sum_filter]
  refine Finset.sum_congr rfl fun e _ => ?_
  simp only [vecScatter_resultIdx_iff]

end Cert.Hand.VecScatter

end
-- ==== Proof.Glue.lean ====
/-
  The argument arrays as the specification's input: entries by coordinates, the edge and graph words read signed, an
  edge's source word clamped into the nodes (under the precondition it already lies there).
-/
import proofs.«417852_j54494545052225_3_alg».proof.Proof.Spec
import proofs.«417852_j54494545052225_3_alg».proof.Proof.LibVecScatterAdd
import Idealize.ShloMosaic.Lib.ValueIdx

noncomputable section

namespace Cert.Glue

open Idealize.ShloMosaic Idealize.ShloMosaic.ValueIdx Cert.Spec

/-- the index of a vector's entry -/
abbrev iv {n : Nat} (i : Fin n) : (⟨1, ![n]⟩ : Shape).Idx := ix1 i

/-- The specification's input read off the first seven argument arrays (node features, edge list, graph words,
    layer weight and bias, normalisation scale and shift). -/
def inpOf (x : FVec Ideal ⟨2, ![100000, 128]⟩ .f32) (ei : IVec ⟨2, ![2, 1600000]⟩ 32) (bt : IVec ⟨1, ![100000]⟩ 32)
    (Wg : FVec Ideal ⟨2, ![128, 128]⟩ .f32) (bg gam bet : FVec Ideal ⟨1, ![128]⟩ .f32) : Inp where
  x i j := x (ix2 i j)
  src e := ⟨min (ei (ix2 (0 : Fin 2) e)).toInt.toNat 99999, by show _ < 100000; omega⟩
  dst e := (ei (ix2 (1 : Fin 2) e)).toInt
  bat i := (bt (iv i)).toInt
  Wg j k := Wg (ix2 j k)
  bg k := bg (iv k)
  gam k := gam (iv k)
  bet k := bet (iv k)

/-- every edge's source word names a node -/
def SrcOk (ei : IVec ⟨2, ![2, 1600000]⟩ 32) : Prop :=
  ∀ e : Fin 1600000, 0 ≤ (ei (ix2 (0 : Fin 2) e)).toInt ∧ (ei (ix2 (0 : Fin 2) e)).toInt < 100000

/-- under it the specification's source node of an edge is the edge's word -/
theorem src_val {x : FVec Ideal ⟨2, ![100000, 128]⟩ .f32} {ei : IVec ⟨2, ![2, 1600000]⟩ 32} {bt : IVec ⟨1, ![100000]⟩ 32}
    {Wg : FVec Ideal ⟨2, ![128, 128]⟩ .f32} {bg gam bet : FVec Ideal ⟨1, ![128]⟩ .f32} (h : SrcOk ei) (e : Fin 1600000) :
    (((inpOf x ei bt Wg bg gam bet).src e).val : ℤ) = (ei (ix2 (0 : Fin 2) e)).toInt := by
  have := h e
  show ((min (ei (ix2 (0 : Fin 2) e)).toInt.toNat 99999 : ℕ) : ℤ) = _
  omega

end Cert.Glue

end
-- ==== Proof.KerGlue.lean ====
/-
  The kernel program's argument arrays, on a core, as the specification's input.
-/
import proofs.«417852_j54494545052225_3_alg».proof.KernelIdeal
import proofs.«417852_j54494545052225_3_alg».proof.Proof.Glue

noncomputable section

namespace Cert.KerVal

open Idealize.ShloMosaic Idealize.ShloMosaic.TcCoe Idealize.SL.Sem Cert.KernelIdeal

variable (m : (ℓ : Loc nD τ sig) → Buf (Elt Ideal) ℓ) (c : Dev nD)

/-- the specification's input read off the kernel program's first seven arguments as launched on core `c` -/
def inpK : Cert.Spec.Inp :=
  Cert.Glue.inpOf (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5)) (m ((c.tc : Thread nD τ).loc main_arg6))

/-- a buffer's entry read as an extended real: fixes the array shape a buffer is read at, so that entries can be
    multiplied and added (`dsimp only [rdAt]` removes it) -/
abbrev rdAt (S : Shape) (f : S.Idx → EReal) (i : S.Idx) : EReal := f i

/-- the same for a buffer of 32-bit words -/
abbrev rdW (S : Shape) (f : S.Idx → BitVec 32) (i : S.Idx) : BitVec 32 := f i

/-- every edge's source word, as launched on core `c`, names a node -/
def SrcOkK : Prop := Cert.Glue.SrcOk (m ((c.tc : Thread nD τ).loc main_arg1))

end Cert.KerVal

end
-- ==== Proof.LibRowGatherScatter.lean ====
/-
  GENERAL LEMMAS: two indexed host operations, the broadcasts that feed them, and two small companions, each READ AT AN
  INDEX over the extended reals, for ARBITRARY extents N (table rows), E (edges) and D (features).

  * the row gather (`x[idx]` of an [N, D] table at a column [E, 1] of start words: `rowGather`, `rowGather_apply`):
    result (e, q) is the table at (the start word of edge e read signed and clamped into the rows [0, N − 1], q);
  * the accumulating row scatter (`segment_sum` / `.at[idx].add` of [E, D] updates into an [N, D] operand at a column
    [E, 1] of start words: `rowScatter`, `rowScatter_resultIdx_iff`, `rowScatterAdd_apply`): update (e, q') lands at
    (the start word of edge e read signed and NOT clamped, q'), or nowhere when that is no row; so result (d, q) is the
    operand's entry plus the sum over the edges whose word, read signed, is d of update (e, q);
  * a scalar, a vector as a column, a column over the features, a vector as a row and a row over the rows, each
    broadcast read at an index (`bcastScalar_apply` … `bcastRows_apply`);
  * jnp's index normalisation as a select (`wrap_select`: a negative word counts from the end) and the maximum with a
    broadcast zero (`reluOps_apply`).
  Nothing here mentions a program: the dimension-number records are built from a well-formedness fact the caller has.
-/
import Idealize.ShloMosaic.PureOps.Ideal
import Idealize.ShloMosaic.PureOps.Contract
import Idealize.ShloMosaic.Lib.ValueIdx
import Idealize.ShloMosaic.Lib.Affine
import Idealize.ShloMosaic.Lib.Pipeline.Value
import Idealize.ShloMosaic.Lib.StackMember
import Mathlib.Algebra.BigOperators.Group.Finset.Basic
import Mathlib.Algebra.BigOperators.Fin

noncomputable section

open scoped BigOperators

namespace Cert.ReferenceIdeal.Hand

open Idealize.ShloMosaic Idealize.ShloMosaic.ValueIdx

/-! ## The row gather -/

section Gather
variable {α : Type}

/-- The dimension numbers of a gather of whole rows of an [N, D] table at a column [E, 1] of start words:
    the row axis collapsed and indexed, the feature axis an offset axis. -/
abbrev rowGather (N E D : Nat)
    (wf : GatherDims.WF ⟨2, ![N, D]⟩ ⟨2, ![E, 1]⟩ ⟨2, ![E, D]⟩ [1] [0] [] [0] [] 1 ![1, D]) :
    GatherDims ⟨2, ![N, D]⟩ ⟨2, ![E, 1]⟩ ⟨2, ![E, D]⟩ where
  offsetDims := [1]
  collapsedSliceDims := [0]
  operandBatchingDims := []
  startIndicesBatchingDims := []
  startIndexMap := [0]
  indexVectorDim := 1
  sliceSizes := ![1, D]
  wf := wf

/-- The row gather at (e, q): the table at the clamped signed start word of e, feature q. -/
theorem rowGather_apply {N E D w : Nat} (hN : 0 < N)
    (wf : GatherDims.WF ⟨2, ![N, D]⟩ ⟨2, ![E, 1]⟩ ⟨2, ![E, D]⟩ [1] [0] [] [0] [] 1 ![1, D])
    (x : (⟨2, ![N, D]⟩ : Shape).Idx → α) (idx : IVec ⟨2, ![E, 1]⟩ w) (e : Fin E) (q : Fin D) :
    Host.gather (rowGather N E D wf) x idx (ix2 e q)
      = x (ix2 ⟨min (idx (ix2 e 0)).toInt.toNat (N - 1), by omega⟩ q) := by
  unfold Host.gather
  congr 1
  funext a
  refine Fin.ext ?_
  match a with
  | ⟨0, _⟩ =>
    show (rowGather N E D wf).start (ix2 e q) idx 0 + (rowGather N E D wf).batchCoord (ix2 e q) 0
      + (rowGather N E D wf).offCoord (ix2 e q) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGather N E D wf).startIndexMap from List.mem_singleton.mpr rfl)]
    have hsi : (rowGather N E D wf).siIdx (ix2 e q) ⟨List.idxOf (0 : Fin 2) (rowGather N E D wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    show (rowGather N E D wf).start (ix2 e q) idx 1 + (rowGather N E D wf).batchCoord (ix2 e q) 1
      + (rowGather N E D wf).offCoord (ix2 e q) 1 = q.val
    have h1 : (1 : Fin 2) ∉ (rowGather N E D wf).startIndexMap := by
      show (1 : Fin 2) ∉ [(0 : Fin 2)]
      decide
    rw [GatherDims.batchCoord_eq_zero _ _ _ List.not_mem_nil]
    unfold GatherDims.start
    rw [dif_neg h1]
    simp only [Nat.add_zero, Nat.zero_add]
    unfold GatherDims.offCoord
    rw [dif_pos ((GatherDims.mem_sKept _ _).mpr ⟨(show (1 : Fin 2) ∉ [(0 : Fin 2)] by decide), List.not_mem_nil⟩)]
    rfl

/-- The same with the start word of e named: the form a caller uses when the start words are themselves computed. -/
theorem rowGather_apply_of_eq {N E D w : Nat} (hN : 0 < N)
    (wf : GatherDims.WF ⟨2, ![N, D]⟩ ⟨2, ![E, 1]⟩ ⟨2, ![E, D]⟩ [1] [0] [] [0] [] 1 ![1, D])
    (x : (⟨2, ![N, D]⟩ : Shape).Idx → α) (idx : IVec ⟨2, ![E, 1]⟩ w) (e : Fin E) (q : Fin D) (s : BitVec w)
    (hs : idx (ix2 e 0) = s) :
    Host.gather (rowGather N E D wf) x idx (ix2 e q) = x (ix2 ⟨min s.toInt.toNat (N - 1), by omega⟩ q) := by
  subst hs
  exact rowGather_apply hN wf x idx e q

end Gather

/-! ## The accumulating row scatter -/

section Scatter

/-- The dimension numbers of a scatter of whole rows [E, D] into an [N, D] operand at a column [E, 1] of start
    words: the feature axis a window axis, the row axis inserted and indexed. -/
abbrev rowScatter (N E D : Nat) (wf : ScatterDims.WF ⟨2, ![N, D]⟩ ⟨2, ![E, 1]⟩ ⟨2, ![E, D]⟩ [1] [0] [0] 1) :
    ScatterDims ⟨2, ![N, D]⟩ ⟨2, ![E, 1]⟩ ⟨2, ![E, D]⟩ where
  updateWindowDims := [1]
  insertedWindowDims := [0]
  scatterDimsToOperandDims := [0]
  indexVectorDim := 1
  wf := wf

variable {N E D w : Nat} (wf : ScatterDims.WF ⟨2, ![N, D]⟩ ⟨2, ![E, 1]⟩ ⟨2, ![E, D]⟩ [1] [0] [0] 1)
  (idx : IVec ⟨2, ![E, 1]⟩ w)

/-- On the row axis the window of update (e, q') starts at the start word of e, read signed … -/
theorem rowScatter_start_zero (e : Fin E) (q' : Fin D) :
    (rowScatter N E D wf).start (ix2 e q') idx 0 = (idx (ix2 e 0)).toInt := by
  unfold ScatterDims.start
  rw [dif_pos (show (0 : Fin 2) ∈ (rowScatter N E D wf).scatterDimsToOperandDims from List.mem_singleton.mpr rfl)]
  have hsi : (rowScatter N E D wf).siIdx (ix2 e q') ⟨List.idxOf (0 : Fin 2) (rowScatter N E D wf).scatterDimsToOperandDims,
      List.idxOf_lt_length_iff.2 (List.mem_singleton.mpr rfl)⟩ = ix2 e 0 := by
    funext b; refine Fin.ext ?_
    match b with
    | ⟨0, _⟩ => rfl
    | ⟨1, _⟩ => rfl
  rw [hsi]

/-- … and on the feature axis at 0. -/
theorem rowScatter_start_one (e : Fin E) (q' : Fin D) :
    (rowScatter N E D wf).start (ix2 e q') idx 1 = 0 := by
  unfold ScatterDims.start
  rw [dif_neg (show (1 : Fin 2) ∉ [(0 : Fin 2)] by decide)]

/-- The window coordinate of update (e, q') is 0 on the row axis … -/
theorem rowScatter_window_zero (e : Fin E) (q' : Fin D) :
    (rowScatter N E D wf).window (ix2 e q') 0 = 0 := by
  unfold ScatterDims.window
  rw [dif_neg]
  show (0 : Fin 2) ∉ (List.finRange 2).filter (· ∉ [(0 : Fin 2)])
  decide

/-- … and q' on the feature axis. -/
theorem rowScatter_window_one (e : Fin E) (q' : Fin D) :
    (rowScatter N E D wf).window (ix2 e q') 1 = q'.val := by
  unfold ScatterDims.window
  have h1 : (1 : Fin 2) ∈ (rowScatter N E D wf).sKept := by
    show (1 : Fin 2) ∈ (List.finRange 2).filter (· ∉ [(0 : Fin 2)])
    decide
  rw [dif_pos h1]
  rfl

/-- Update (e, q') lands at (d, q) exactly when the start word of e, read signed, is d and q' = q. -/
theorem rowScatter_resultIdx_iff (e : Fin E) (q' : Fin D) (d : Fin N) (q : Fin D) :
    (rowScatter N E D wf).resultIdx? (ix2 e q') idx = some (ix2 d q)
      ↔ (idx (ix2 e 0)).toInt = (d.val : ℤ) ∧ q' = q := by
  unfold ScatterDims.resultIdx?
  split
  · next h =>
    rw [Option.some.injEq]
    have h0 := h 0
    have h1 := h 1
    rw [rowScatter_start_zero, rowScatter_window_zero] at h0
    constructor
    · intro hf
      have e0 := congrArg (fun f => (f 0).val) hf
      have e1 := congrArg (fun f => (f 1).val) hf
      simp only [rowScatter_start_zero, rowScatter_window_zero, rowScatter_start_one, rowScatter_window_one] at e0 e1
      refine ⟨?_, Fin.ext ?_⟩
      · have : ((ix2 d q : (⟨2, ![N, D]⟩ : Shape).Idx) 0).val = d.val := rfl
        omega
      · have : ((ix2 d q : (⟨2, ![N, D]⟩ : Shape).Idx) 1).val = q.val := rfl
        omega
    · rintro ⟨hd, rfl⟩
      funext a
      refine Fin.ext ?_
      match a with
      | ⟨0, _⟩ =>
        show ((rowScatter N E D wf).start (ix2 e q') idx 0 + ((rowScatter N E D wf).window (ix2 e q') 0 : ℕ)).toNat = d.val
        rw [rowScatter_start_zero, rowScatter_window_zero]
        omega
      | ⟨1, _⟩ =>
        show ((rowScatter N E D wf).start (ix2 e q') idx 1 + ((rowScatter N E D wf).window (ix2 e q') 1 : ℕ)).toNat = q'.val
        rw [rowScatter_start_one, rowScatter_window_one]
        omega
  · next h =>
    constructor
    · intro hf
      exact absurd hf (by simp)
    · rintro ⟨hd, rfl⟩
      exfalso
      apply h
      intro a
      match a with
      | ⟨0, _⟩ =>
        show 0 ≤ (rowScatter N E D wf).start (ix2 e q') idx 0 + ((rowScatter N E D wf).window (ix2 e q') 0 : ℕ)
          ∧ (rowScatter N E D wf).start (ix2 e q') idx 0 + ((rowScatter N E D wf).window (ix2 e q') 0 : ℕ) < (N : ℤ)
        rw [rowScatter_start_zero, rowScatter_window_zero]
        have := d.isLt
        omega
      | ⟨1, _⟩ =>
        show 0 ≤ (rowScatter N E D wf).start (ix2 e q') idx 1 + ((rowScatter N E D wf).window (ix2 e q') 1 : ℕ)
          ∧ (rowScatter N E D wf).start (ix2 e q') idx 1 + ((rowScatter N E D wf).window (ix2 e q') 1 : ℕ) < (D : ℤ)
        rw [rowScatter_start_one, rowScatter_window_one]
        have := q'.isLt
        omega

/-- THE ACCUMULATING ROW SCATTER AT (d, q): the operand's entry plus the sum, over the edges whose start word read
    signed is d, of update (e, q). The sum over the rank-2 update indices that land at (d, q) is split by
    coordinates; in the inner sum over features only q' = q survives. -/
theorem rowScatterAdd_apply {φ : FTy} (x : FVec Ideal ⟨2, ![N, D]⟩ φ) (upd : FVec Ideal ⟨2, ![E, D]⟩ φ) (d : Fin N) (q : Fin D) :
    Host.scatterAdd (F := Ideal) (rowScatter N E D wf) x idx upd (ix2 d q)
      = x (ix2 d q) + ∑ e ∈ Finset.univ.filter (fun e : Fin E => (idx (ix2 e 0)).toInt = (d.val : ℤ)), upd (ix2 e q) := by
  show Ideal.hostScatterAdd (rowScatter N E D wf) x idx upd (ix2 d q) = _
  unfold Ideal.hostScatterAdd
  congr 1
  rw [Finset.sum_filter, sum_idx2, Finset.sum_filter]
  refine Finset.sum_congr rfl fun e _ => ?_
  simp only [rowScatter_resultIdx_iff]
  by_cases hd : (idx (ix2 e 0)).toInt = (d.val : ℤ)
  · simp only [hd, true_and, if_true]
    rw [Finset.sum_ite_eq' Finset.univ q (fun q' => upd (ix2 e q'))]
    simp
  · simp only [hd, false_and, if_false]
    exact Finset.sum_const_zero

end Scatter

/-! ## Broadcasts read at an index -/

section Broadcasts
variable {α : Type}

/-- A scalar spread over any shape reads the scalar everywhere. -/
theorem bcastScalar_apply {t : Shape} (h : (⟨0, ![]⟩ : Shape).BroadcastsInDim t ![])
    (v : (⟨0, ![]⟩ : Shape).Idx → α) (j : t.Idx) : broadcastInDim t ![] h v j = v ix0 := by
  unfold broadcastInDim
  exact congrArg v (funext fun a => a.elim0)

/-- A vector as a column [E, 1], at (e, 0): the vector at e. -/
theorem bcastCol_apply {E : Nat} (h : (⟨1, ![E]⟩ : Shape).BroadcastsInDim ⟨2, ![E, 1]⟩ ![0])
    (v : (⟨1, ![E]⟩ : Shape).Idx → α) (e : Fin E) (z : Fin 1) :
    broadcastInDim ⟨2, ![E, 1]⟩ ![0] h v (ix2 e z) = v (ix1 e) := by
  refine broadcastInDim_apply _ h v _ (ix1 e) fun a => ?_
  match a with
  | ⟨0, _⟩ =>
    show e.val = if E = 1 then 0 else e.val
    have := e.isLt
    split <;> omega

/-- A column [E, 1] spread over D features, at (e, q): the column at (e, 0). -/
theorem bcastFeat_apply {E D : Nat} (h : (⟨2, ![E, 1]⟩ : Shape).BroadcastsInDim ⟨2, ![E, D]⟩ ![0, 1])
    (v : (⟨2, ![E, 1]⟩ : Shape).Idx → α) (e : Fin E) (q : Fin D) :
    broadcastInDim ⟨2, ![E, D]⟩ ![0, 1] h v (ix2 e q) = v (ix2 e 0) := by
  refine broadcastInDim_apply _ h v _ (ix2 e 0) fun a => ?_
  match a with
  | ⟨0, _⟩ =>
    show e.val = if E = 1 then 0 else e.val
    have := e.isLt
    split <;> omega
  | ⟨1, _⟩ =>
    show 0 = if 1 = 1 then 0 else q.val
    rfl

/-- A vector [D] as a row [1, D], at (0, q): the vector at q. -/
theorem bcastRow_apply {D : Nat} (h : (⟨1, ![D]⟩ : Shape).BroadcastsInDim ⟨2, ![1, D]⟩ ![1])
    (v : (⟨1, ![D]⟩ : Shape).Idx → α) (z : Fin 1) (q : Fin D) :
    broadcastInDim ⟨2, ![1, D]⟩ ![1] h v (ix2 z q) = v (ix1 q) := by
  refine broadcastInDim_apply _ h v _ (ix1 q) fun a => ?_
  match a with
  | ⟨0, _⟩ =>
    show q.val = if D = 1 then 0 else q.val
    have := q.isLt
    split <;> omega

/-- A row [1, D] spread over N rows, at (d, q): the row at (0, q). -/
theorem bcastRows_apply {N D : Nat} (h : (⟨2, ![1, D]⟩ : Shape).BroadcastsInDim ⟨2, ![N, D]⟩ ![0, 1])
    (v : (⟨2, ![1, D]⟩ : Shape).Idx → α) (d : Fin N) (q : Fin D) :
    broadcastInDim ⟨2, ![N, D]⟩ ![0, 1] h v (ix2 d q) = v (ix2 0 q) := by
  refine broadcastInDim_apply _ h v _ (ix2 0 q) fun a => ?_
  match a with
  | ⟨0, _⟩ =>
    show 0 = if 1 = 1 then 0 else d.val
    rfl
  | ⟨1, _⟩ =>
    show q.val = if D = 1 then 0 else q.val
    have := q.isLt
    split <;> omega

end Broadcasts

/-! ## The start word of a row lookup: a negative word counts from the end -/

/-- The select on "the word is negative" between the word plus the row count and the word itself. -/
theorem wrap_select (s n : BitVec 32) :
    Scalar.select (IntOp.cmpi .slt s 0#32) (IntOp.addi s n) s = if s.toInt < 0 then s + n else s := by
  by_cases h : s.toInt < 0
  · have hc : IntOp.cmpi .slt s 0#32 = 1#1 := IntOp.cmpi_slt.mpr (by simpa using h)
    rw [hc, select_one, if_pos h]
    rfl
  · have hc : ¬IntOp.cmpi .slt s 0#32 = 1#1 := fun hc => h (by simpa using IntOp.cmpi_slt.mp hc)
    rw [eq_zero_of_ne_one hc, select_zero, if_neg h]

/-! ## The rectifier read at an index -/

/-- The maximum with a zero scalar spread over the shape is the maximum with 0, entry by entry. -/
theorem reluOps_apply {t : Shape} (hz : (⟨0, ![]⟩ : Shape).BroadcastsInDim t ![]) (x : FVec Ideal t .f32) (i : t.Idx) :
    maximumf x (broadcastInDim t ![] hz (constant (F := Ideal) ⟨0, ![]⟩ .f32 0x00000000#32)) i = max (x i) 0 := by
  rw [maximumf_apply, bcastScalar_apply, constant_apply, Ideal.ofBits_zero_f32]

end Cert.ReferenceIdeal.Hand

end
-- ==== Proof.KerVal0.lean ====
/-
  The first host stretches and the first kernel region, read at an index: the padded normalisation row, the padded
  features and the layer weight as the region finds them, the region's result array as a function of any entry
  contents, and the scaled linear map it leaves.
-/
import proofs.«417852_j54494545052225_3_alg».proof.Proof.KerGlue
import proofs.«417852_j54494545052225_3_alg».proof.Proof.KI.Dat0
import proofs.«417852_j54494545052225_3_alg».proof.Proof.Gen.KernelIdeal.Regions
import proofs.«417852_j54494545052225_3_alg».proof.Proof.LibRowGatherScatter
import proofs.«417852_j54494545052225_3_alg».proof.Proof.LibVecScatterAdd
import Idealize.ShloMosaic.Lib.ValueIdx
import Idealize.ShloMosaic.Lib.ValueLayout
import Idealize.ShloMosaic.Lib.Pipeline.Value
import Idealize.ShloMosaic.Lib.KernelVsHost
import Idealize.ShloMosaic.Lib.IdealHost
import Idealize.ShloMosaic.Lib.StableHlo.Run
import Idealize.ShloMosaic.PureOps.Ideal.Laws

set_option maxRecDepth 16384

noncomputable section

namespace Cert.KerVal

open Idealize.ShloMosaic Idealize.ShloMosaic.TcCoe Idealize.ShloMosaic.ValueIdx Idealize.SL.Sem Cert.KernelIdeal Cert.KernelIdeal.Gen

variable (m : (ℓ : Loc nD τ sig) → Buf (Elt Ideal) ℓ) (c : Dev nD)

/-! ## The buffers region 0 finds, as terms over the launch contents -/

/-- the layer weight is as launched -/
theorem V4_arg3 : Gen.V4 m c main_arg3 = m ((c : Thread nD τ).loc main_arg3) :=
  (V4_of m c main_arg3 (by decide)).trans <| (V3_of m c main_arg3 (by decide)).trans <|
    (V2_of m c main_arg3 (by decide)).trans <| (V1_of m c main_arg3 (by decide)).trans rfl

/-- the features are as launched when the second padding reads them -/
theorem V3_arg0 : Gen.V3 m c main_arg0 = m ((c : Thread nD τ).loc main_arg0) :=
  (V3_of m c main_arg0 (by decide)).trans <| (V2_of m c main_arg0 (by decide)).trans <|
    (V1_of m c main_arg0 (by decide)).trans rfl

/-- the padded features: the launched features padded below with 352 rows of the converted integer 0 -/
theorem V4_v15 : (Gen.V4 m c main_v15 : S100352x128.Idx → EReal)
    = pad S100352x128 ![0, 0] ![352, 0] ![0, 0] (m ((c : Thread nD τ).loc main_arg0) : S100000x128.Idx → EReal)
        (sitofp (F := Ideal) .f32 (constantI S_ 32 0#32)) pads_S100000x128_S100352x128_03520_000 h_S_ := by
  rw [← V3_arg0 m c]
  show StableHlo.after hostOps0_3 (Gen.V3 m c) (Proc.devRef .tc main_v15) = _
  after_results
  rfl

/-- the converted integer 0 is the extended real 0 -/
theorem sitofp_zero_word (i : S_.Idx) : (sitofp (F := Ideal) .f32 (constantI S_ 32 0#32) : S_.Idx → EReal) i = 0 := by
  show (((0#32 : BitVec 32).toInt : ℝ) : EReal) = 0
  simp

/-- the padded features as region 0 finds them: the node's features on a true row, zero beyond -/
theorem x_entry (i : Fin 100352) (j : Fin 128) : (Gen.V4 m c main_v15 : S100352x128.Idx → EReal) (ix2 i j) = Cert.Spec.xP (inpK m c) i j := by
  rw [V4_v15]
  unfold Cert.Spec.xP
  by_cases h : i.val < Cert.Spec.NN
  · rw [dif_pos h]
    exact pad_apply_of_inside _ _ _ _ _ _ _ _ (ix2 (⟨i.val, h⟩ : Fin 100000) j) (fun a => match a with
      | ⟨0, _⟩ => by show i.val = 0 + i.val * (0 + 1); omega
      | ⟨1, _⟩ => by show j.val = 0 + j.val * (0 + 1); omega)
  · rw [dif_neg h]
    rw [pad_apply_of_not_inside _ _ _ _ _ _ _ _ (0 : Fin 2) (by
      show ¬(0 ≤ i.val ∧ (i.val - 0) % (0 + 1) = 0 ∧ (i.val - 0) / (0 + 1) < 100000)
      have : ¬ i.val < 100000 := h
      omega)]
    exact sitofp_zero_word _

/-- the layer weight as region 0 finds it -/
theorem Wg_entry (j k : Fin 128) : (Gen.V4 m c main_arg3 : S128x128.Idx → EReal) (ix2 j k) = (inpK m c).Wg j k := by
  rw [V4_arg3]
  rfl

/-! ## The normalisation row -/

/-- the destination words of the edges as the degree scatter reads them: row 1 of the launched edge list, as a column -/
abbrev dstCol : S1600000x1.Idx → BitVec 32 :=
  broadcastInDim S1600000x1 ![0] bcast_S1600000_S1600000x1_0
    (shapeCast S1600000 (extractStridedSlice S1x1600000 ![1, 0] (m ((c : Thread nD τ).loc main_arg1) : S2x1600000.Idx → BitVec 32) slices_S2x1600000_S1x1600000_1_0) shapeCasts_S1x1600000_S1600000)

/-- the normalisation row before padding: the reciprocal root of (the scattered ones plus one), as a row -/
theorem V1_v13 : (Gen.V1 m c main_v13 : S1x100000.Idx → EReal)
    = shapeCast S1x100000 (Host.rsqrt (F := Ideal) (addf
        (Host.scatterAdd (F := Ideal) scatter_S100000_S1600000x1_S1600000_n_0_0_1
          (broadcastInDim S100000 ![] bcast_S_S100000 (constant (F := Ideal) S_ .f32 0x00000000#32))
          (dstCol m c)
          (broadcastInDim S1600000 ![] bcast_S_S1600000 (constant (F := Ideal) S_ .f32 0x3F800000#32)))
        (broadcastInDim S100000 ![] bcast_S_S100000 (constant (F := Ideal) S_ .f32 0x3F800000#32)))) shapeCasts_S100000_S1x100000 := by
  show StableHlo.after hostOps0 (Gen.V0 m c) (Proc.devRef .tc main_v13) = _
  after_results
  rfl

/-- the integer 0 the first padding converts -/
theorem V1_c : (Gen.V1 m c main_c : S_.Idx → BitVec 32) = constantI S_ 32 0#32 := by
  show StableHlo.after hostOps0 (Gen.V0 m c) (Proc.devRef .tc main_c) = _
  after_results

/-- the first padding, over any contents before it -/
theorem pad_row_of (F : Valuation τ sig (Elt Ideal)) :
    (StableHlo.after hostOps0_1 F (Proc.devRef .tc main_v14) : S1x100352.Idx → EReal)
      = pad S1x100352 ![0, 0] ![0, 352] ![0, 0] (F (Proc.devRef .tc main_v13) : S1x100000.Idx → EReal)
          (sitofp (F := Ideal) .f32 (F (Proc.devRef .tc main_c) : S_.Idx → BitVec 32)) pads_S1x100000_S1x100352_000_03520 h_S_ := by
  after_results
  rfl

/-- the padded normalisation row: the row padded on the right with 352 entries of the converted integer 0 -/
theorem V4_v14 : (Gen.V4 m c main_v14 : S1x100352.Idx → EReal)
    = pad S1x100352 ![0, 0] ![0, 352] ![0, 0] (Gen.V1 m c main_v13 : S1x100000.Idx → EReal)
        (sitofp (F := Ideal) .f32 (Gen.V1 m c main_c : S_.Idx → BitVec 32)) pads_S1x100000_S1x100352_000_03520 h_S_ :=
  (V4_of m c main_v14 (by decide)).trans ((V3_of m c main_v14 (by decide)).trans (pad_row_of (Gen.V1 m c)))

/-- an edge's destination word as the scatter reads it is the launched edge list's row 1 -/
theorem dstCol_apply (e : Fin 1600000) :
    dstCol m c (ix2 e (0 : Fin 1)) = (m ((c : Thread nD τ).loc main_arg1) : S2x1600000.Idx → BitVec 32) (ix2 (1 : Fin 2) e) := by
  unfold dstCol
  rw [broadcastInDim_apply _ _ _ _ (ix1 e) (fun a => match a with | ⟨0, _⟩ => rfl),
    shapeCast_1a_a_apply,
    extractStridedSlice_apply _ _ _ _ (ix2 (1 : Fin 2) e) (fun a => match a with
      | ⟨0, _⟩ => rfl
      | ⟨1, _⟩ => by show e.val = 0 + e.val; omega)]

/-- a node's degree as the host computes it: zero, plus one per edge whose destination word is the node, plus one -/
theorem deg_apply (i : Fin 100000) :
    (addf (Host.scatterAdd (F := Ideal) scatter_S100000_S1600000x1_S1600000_n_0_0_1
          (broadcastInDim S100000 ![] bcast_S_S100000 (constant (F := Ideal) S_ .f32 0x00000000#32))
          (dstCol m c)
          (broadcastInDim S1600000 ![] bcast_S_S1600000 (constant (F := Ideal) S_ .f32 0x3F800000#32)))
        (broadcastInDim S100000 ![] bcast_S_S100000 (constant (F := Ideal) S_ .f32 0x3F800000#32)) : S100000.Idx → EReal) (ix1 i)
      = Cert.Spec.degK (inpK m c) i := by
  have b0 : ∀ j, (broadcastInDim S100000 ![] bcast_S_S100000 (constant (F := Ideal) S_ .f32 0x00000000#32) : S100000.Idx → EReal) j = 0 :=
    fun j => (broadcastInDim_scalar_apply _ _ j).trans (by rw [constant_apply, Ideal.ofBits_zero_f32])
  have b1 : ∀ j, (broadcastInDim S100000 ![] bcast_S_S100000 (constant (F := Ideal) S_ .f32 0x3F800000#32) : S100000.Idx → EReal) j = 1 :=
    fun j => (broadcastInDim_scalar_apply _ _ j).trans (by rw [constant_apply, Ideal.ofBits_one_f32])
  have bE : ∀ j, (broadcastInDim S1600000 ![] bcast_S_S1600000 (constant (F := Ideal) S_ .f32 0x3F800000#32) : S1600000.Idx → EReal) j = 1 :=
    fun j => (broadcastInDim_scalar_apply _ _ j).trans (by rw [constant_apply, Ideal.ofBits_one_f32])
  rw [addf_apply,
    show scatter_S100000_S1600000x1_S1600000_n_0_0_1
      = Cert.Hand.VecScatter.vecScatter 100000 1600000 scatter_S100000_S1600000x1_S1600000_n_0_0_1_wf from rfl,
    Cert.Hand.VecScatter.vecScatterAdd_apply, b0, b1, zero_add]
  unfold Cert.Spec.degK
  refine congrArg (fun s : EReal => s + 1) ?_
  refine Finset.sum_congr (Finset.filter_congr fun e _ => ?_) (fun e _ => bE _)
  rw [dstCol_apply]
  rfl

/-- the reciprocal root of an array, at an index -/
theorem host_rsqrt_apply {s : Shape} (x : FVec Ideal s .f32) (j : s.Idx) : Host.rsqrt (F := Ideal) x j = Ideal.rsqrt (x j) := rfl

/-- the padded normalisation row as region 0 finds it: the node's degree to the power -1/2 on a true row, zero beyond -/
theorem dis_entry (i : Fin 100352) : (Gen.V4 m c main_v14 : S1x100352.Idx → EReal) (ix2 (0 : Fin 1) i) = Cert.Spec.disP (inpK m c) i := by
  rw [V4_v14, V1_c]
  unfold Cert.Spec.disP
  by_cases h : i.val < Cert.Spec.NN
  · rw [dif_pos h, pad_apply_of_inside _ _ _ _ _ _ _ _ (ix2 (0 : Fin 1) (⟨i.val, h⟩ : Fin 100000)) (fun a => match a with
      | ⟨0, _⟩ => by show 0 = 0 + 0 * (0 + 1); omega
      | ⟨1, _⟩ => by show i.val = 0 + i.val * (0 + 1); omega),
      V1_v13, shapeCast_a_1a_apply, host_rsqrt_apply, deg_apply]
    rfl
  · rw [dif_neg h, pad_apply_of_not_inside _ _ _ _ _ _ _ _ (1 : Fin 2) (by
      show ¬(0 ≤ i.val ∧ (i.val - 0) % (0 + 1) = 0 ∧ (i.val - 0) / (0 + 1) < 100000)
      have : ¬ i.val < 100000 := h
      omega)]
    exact sitofp_zero_word _

/-! ## Region 0's payload at an index -/

/-- the block product's operand indices, axis by axis: the left operand at (row, contracted feature), the right at
    (contracted feature, feature) -/
theorem lhs_mm_0 (i : S7168x128.Idx) (q : dot_S7168x128_S128x128_S7168x128_1_0_0_1_n_n.contr.Idx) :
    (dot_S7168x128_S128x128_S7168x128_1_0_0_1_n_n.lhsIdx i q 0).val = (i 0).val := by
  unfold DotDims.lhsIdx
  rw [dif_neg (show ¬(0 : Fin S7168x128.rank) ∈ dot_S7168x128_S128x128_S7168x128_1_0_0_1_n_n.lhsBatch by decide), dif_pos (show (0 : Fin S7168x128.rank) ∈ dot_S7168x128_S128x128_S7168x128_1_0_0_1_n_n.lhsNonContracting by decide)]
  rfl
theorem lhs_mm_1 (i : S7168x128.Idx) (q : dot_S7168x128_S128x128_S7168x128_1_0_0_1_n_n.contr.Idx) :
    (dot_S7168x128_S128x128_S7168x128_1_0_0_1_n_n.lhsIdx i q 1).val = (q ⟨0, by decide⟩).val :=
  dot_S7168x128_S128x128_S7168x128_1_0_0_1_n_n.lhsIdx_val_of_single rfl i q
theorem rhs_mm_0 (i : S7168x128.Idx) (q : dot_S7168x128_S128x128_S7168x128_1_0_0_1_n_n.contr.Idx) :
    (dot_S7168x128_S128x128_S7168x128_1_0_0_1_n_n.rhsIdx i q 0).val = (q ⟨0, by decide⟩).val :=
  dot_S7168x128_S128x128_S7168x128_1_0_0_1_n_n.rhsIdx_val_of_single rfl i q
theorem rhs_mm_1 (i : S7168x128.Idx) (q : dot_S7168x128_S128x128_S7168x128_1_0_0_1_n_n.contr.Idx) :
    (dot_S7168x128_S128x128_S7168x128_1_0_0_1_n_n.rhsIdx i q 1).val = (i 1).val := by
  unfold DotDims.rhsIdx
  rw [dif_neg (show ¬(1 : Fin S128x128.rank) ∈ dot_S7168x128_S128x128_S7168x128_1_0_0_1_n_n.rhsBatch by decide), dif_pos (show (1 : Fin S128x128.rank) ∈ dot_S7168x128_S128x128_S7168x128_1_0_0_1_n_n.rhsNonContracting by decide)]
  rfl

/-- the block product into a zero accumulator, at a row and a feature: the sum over the contracted feature -/
theorem mm_apply {φ₁ φ₂ : FTy} (x0 : FVec Ideal S7168x128 φ₁) (x1 : FVec Ideal S128x128 φ₂) (p : Fin 7168) (q : Fin 128) :
    matmul dot_S7168x128_S128x128_S7168x128_1_0_0_1_n_n none x0 x1 (constant (F := Ideal) S7168x128 .f32 0x00000000#32) (ix2 p q)
      = ∑ j : Fin 128, x0 (ix2 p j) * x1 (ix2 j q) := by
  simp only [matmul]
  rw [Ideal.matmul_constant_zero_apply, ← Equiv.sum_comp (contrEquiv1 dot_S7168x128_S128x128_S7168x128_1_0_0_1_n_n 128 rfl rfl).symm]
  refine Finset.sum_congr rfl fun k _ => ?_
  have hk := contrEquiv1_symm_val dot_S7168x128_S128x128_S7168x128_1_0_0_1_n_n 128 rfl rfl k
  have el : dot_S7168x128_S128x128_S7168x128_1_0_0_1_n_n.lhsIdx (ix2 p q) ((contrEquiv1 dot_S7168x128_S128x128_S7168x128_1_0_0_1_n_n 128 rfl rfl).symm k) = ix2 p k := funext fun a => Fin.ext (by
    match a with
    | ⟨0, _⟩ => exact lhs_mm_0 _ _
    | ⟨1, _⟩ => exact (lhs_mm_1 _ _).trans hk)
  have er : dot_S7168x128_S128x128_S7168x128_1_0_0_1_n_n.rhsIdx (ix2 p q) ((contrEquiv1 dot_S7168x128_S128x128_S7168x128_1_0_0_1_n_n 128 rfl rfl).symm k) = ix2 k q := funext fun a => Fin.ext (by
    match a with
    | ⟨0, _⟩ => exact (rhs_mm_0 _ _).trans hk
    | ⟨1, _⟩ => exact rhs_mm_1 _ _)
  rw [el, er]

/-- the body's stored value at row p, feature q of the block: (row p of the features' block · the weight) times the
    normalisation block's entry p -/
theorem pay_apply (x0 : Vec Ideal S7168x128 .f32) (x1 : Vec Ideal S128x128 .f32) (x2 : Vec Ideal S1x7168 .f32) (p : Fin 7168) (q : Fin 128) :
    k0_pay1 x0 x1 x2 (ix2 p q) = (∑ j : Fin 128, x0 (ix2 p j) * x1 (ix2 j q)) * x2 (ix2 (0 : Fin 1) p) := by
  unfold k0_pay1
  rw [mulf_apply, mm_apply]
  simp only [truncf_apply, shapeCast_self]
  congr 1
  rw [broadcastTo_apply _ _ _ (ix2 p (0 : Fin 1)) (fun a => match a with
      | ⟨0, _⟩ => rfl
      | ⟨1, _⟩ => rfl),
    transpose_ix2_apply]

/-! ## From region 0's blocks to its result array -/

section Region0

open Idealize.ShloMosaic.Pipeline (Dat)
open Cert.KernelIdeal.Hand

variable (V : (c : Dev nD) → (b : Ref sig .tc) → Buf (Elt Ideal) ((c : Thread nD τ).loc b))

theorem zero_offsets : (![0, 0] : Fin 2 → Nat) = fun _ => 0 := funext fun a => by fin_cases a <;> rfl

/-- the index maps over the 14 grid points: the features' and the result's blocks move down the rows, the
    normalisation row's along its columns, the weight's stays -/
theorem index_maps : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = t.val
    ∧ win0_3.index t (0 : Fin 2) = t.val ∧ win0_3.index t (1 : Fin 2) = 0 :=
  (by decide +kernel : ∀ t : Fin grid0.N, _)

/-- every row block is some point's -/
theorem index_onto : ∀ q0 : Fin 14, ∃ t : Fin cfg0.N, t.val = q0.val :=
  (by decide +kernel : ∀ q0 : Fin 14, ∃ t : Fin grid0.N, t.val = q0.val)

/-- the scaled linear map of any three arrays, at a padded row and a feature -/
def hpOf (X : S100352x128.Idx → EReal) (W : S128x128.Idx → EReal) (D : S1x100352.Idx → EReal) (y : S100352x128.Idx) : EReal :=
  (∑ j : Fin 128, X (ix2 (⟨(y 0).val, idx2_lt0 y⟩ : Fin 100352) j) * W (ix2 j (⟨(y 1).val, idx2_lt1 y⟩ : Fin 128)))
    * D (ix2 (0 : Fin 1) (⟨(y 0).val, idx2_lt0 y⟩ : Fin 100352))

/-- the features' block at point t is rows 7168·t … of the array -/
theorem xblk_apply (t : Fin cfg0.N) (x : S7168x128.Idx) (k : S100352x128.Idx)
    (hk0 : (k 0).val = 7168 * t.val + (x 0).val) (hk1 : (k 1).val = (x 1).val) :
    (iblk0 V c 0 t : Vec Ideal S7168x128 .f32) x = (V c main_v15 : S100352x128.Idx → EReal) k := by
  obtain ⟨e0, e1, -⟩ := index_maps t
  unfold iblk0
  rw [View.read_apply]
  show V c main_v15 _ = V c main_v15 _
  congr 1
  funext a
  apply Fin.ext
  match a with
  | ⟨0, _⟩ => show win0_0.index t 0 * 7168 + 1 * (x 0).val = (k 0).val; rw [e0, hk0]; omega
  | ⟨1, _⟩ => show win0_0.index t 1 * 128 + 1 * (x 1).val = (k 1).val; rw [e1, hk1]; omega

/-- the weight's block at any point is the whole weight -/
theorem wblk_apply (t : Fin cfg0.N) (x : S128x128.Idx) :
    (iblk0 V c 1 t : Vec Ideal S128x128 .f32) x = (V c main_arg3 : S128x128.Idx → EReal) x := by
  obtain ⟨-, -, e2, e3, -⟩ := index_maps t
  unfold iblk0
  rw [View.read_apply]
  show V c main_arg3 _ = V c main_arg3 _
  congr 1
  funext a
  apply Fin.ext
  match a with
  | ⟨0, _⟩ => show win0_1.index t 0 * 128 + 1 * (x 0).val = (x 0).val; rw [e2]; omega
  | ⟨1, _⟩ => show win0_1.index t 1 * 128 + 1 * (x 1).val = (x 1).val; rw [e3]; omega

/-- the normalisation row's block at point t is columns 7168·t … of the row -/
theorem dblk_apply (t : Fin cfg0.N) (x : S1x7168.Idx) (k : S1x100352.Idx)
    (hk0 : (k 0).val = (x 0).val) (hk1 : (k 1).val = 7168 * t.val + (x 1).val) :
    (iblk0 V c 2 t : Vec Ideal S1x7168 .f32) x = (V c main_v14 : S1x100352.Idx → EReal) k := by
  obtain ⟨-, -, -, -, e4, e5, -⟩ := index_maps t
  unfold iblk0
  rw [View.read_apply]
  show V c main_v14 _ = V c main_v14 _
  congr 1
  funext a
  apply Fin.ext
  match a with
  | ⟨0, _⟩ => show win0_2.index t 0 * 1 + 1 * (x 0).val = (k 0).val; rw [e4, hk0]; omega
  | ⟨1, _⟩ => show win0_2.index t 1 * 7168 + 1 * (x 1).val = (k 1).val; rw [e5, hk1]; omega

/-- what point t writes back is block t of the scaled linear map of the arrays as the region finds them -/
theorem flushed0_eq (t : Fin cfg0.N) :
    (dat0 V c).flushed 3 t = ((cfg0.win 3).blk t).view.read (Elt Ideal) (hpOf (V c main_v15) (V c main_arg3) (V c main_v14)) := by
  show (cfg0.win 3).cut (grid0.coords t) ((dat0 V c).after 3 t) = _
  rw [after0_3]
  unfold out0_3
  rw [View.canon_unit_zero zero_offsets]
  simp only [View.ld_unit_zero (S := S7168x128) zero_offsets, View.ld_unit_zero (S := S128x128) zero_offsets, View.ld_unit_zero (S := S1x7168) zero_offsets]
  obtain ⟨-, -, -, -, -, -, e6, e7⟩ := index_maps t
  funext y
  obtain ⟨p, q, rfl⟩ : ∃ (p : Fin 7168) (q : Fin 128), y = ix2 p q := ⟨y 0, y 1, eq_ix2 y⟩
  show k0_pay1 (iblk0 V c 0 t) (iblk0 V c 1 t) (iblk0 V c 2 t) (ix2 p q)
    = hpOf (V c main_v15) (V c main_arg3) (V c main_v14) (((cfg0.win 3).blk t).view.emb (ix2 p q))
  refine (pay_apply _ _ _ p q).trans ?_
  unfold hpOf
  have r0 : ((((cfg0.win 3).blk t).view.emb (ix2 p q) : S100352x128.Idx) 0).val = 7168 * t.val + p.val := by
    show win0_3.index t 0 * 7168 + 1 * p.val = _; rw [e6]; omega
  have r1 : ((((cfg0.win 3).blk t).view.emb (ix2 p q) : S100352x128.Idx) 1).val = q.val := by
    show win0_3.index t 1 * 128 + 1 * q.val = _; rw [e7]; omega
  congr 1
  · refine Finset.sum_congr rfl fun j _ => ?_
    congr 1
    · exact xblk_apply c V t (ix2 p j) _ r0 rfl
    · refine (wblk_apply c V t (ix2 j q)).trans (congrArg _ ?_)
      funext a
      apply Fin.ext
      match a with
      | ⟨0, _⟩ => rfl
      | ⟨1, _⟩ => exact r1.symm
  · exact dblk_apply c V t (ix2 (0 : Fin 1) p) _ rfl r0

/-- an index of the result array is in point t's block iff each coordinate is in the block's range on its axis -/
theorem mem_blk0 (t : Fin cfg0.N) (i : S100352x128.Idx) :
    i ∈ ((cfg0.win 3).blk t).view.set ↔ ∀ a : Fin 2, win0_3.index t a * S7168x128.size a ≤ (i a).val ∧ (i a).val < win0_3.index t a * S7168x128.size a + S7168x128.size a := by
  show i ∈ ((View.whole main_v16).slice (win0_3.rect t)).set ↔ _
  rw [View.set_slice_whole, Rect.mem_set_unit]
  exact Iff.rfl

/-- the 14 row blocks cover the result array: row r lies in the block of point r / 7168 -/
theorem cover0 (i : S100352x128.Idx) :
    ∃ t : Fin cfg0.N, (cfg0.win 3).flush t = true ∧ i ∈ ((cfg0.win 3).blk t).view.set := by
  have hi0 : (i 0).val < 100352 := (i 0).isLt
  have hi1 : (i 1).val < 128 := (i 1).isLt
  obtain ⟨t, ht⟩ := index_onto ⟨(i 0).val / 7168, by omega⟩
  have ht' : t.val = (i 0).val / 7168 := ht
  obtain ⟨-, -, -, -, -, -, e6, e7⟩ := index_maps t
  refine ⟨t, flush0_3 t, ?_⟩
  rw [mem_blk0]
  intro a
  match a with
  | ⟨0, _⟩ =>
    show win0_3.index t (0 : Fin 2) * 7168 ≤ (i 0).val ∧ (i 0).val < win0_3.index t (0 : Fin 2) * 7168 + 7168
    rw [e6]; omega
  | ⟨1, _⟩ =>
    show win0_3.index t (1 : Fin 2) * 128 ≤ (i 1).val ∧ (i 1).val < win0_3.index t (1 : Fin 2) * 128 + 128
    rw [e7]; omega

/-- region 0's result array is the scaled linear map of the arrays as the region finds them -/
theorem reg0_final : (dat0 V c).arrAt 3 cfg0.N = hpOf (V c main_v15) (V c main_arg3) (V c main_v14) :=
  (dat0 V c).arrAt_eq_of_cover 3 _ (fun t _ => flushed0_eq c V t) cover0

end Region0

/-- region 0's result array, for ANY entry contents V: row i is (row i of x · W) scaled by the row's dis entry -/
theorem reg0_array (V : (c : Dev nD) → (b : Ref sig .tc) → Buf (Elt Ideal) ((c : Thread nD τ).loc b)) (i : Fin 100352) (k : Fin 128) :
    ((Cert.KernelIdeal.Hand.dat0 V c).arrAt 3 cfg0.N : S100352x128.Idx → EReal) (ix2 i k)
      = (∑ j : Fin 128, rdAt S100352x128 (V c main_v15) (ix2 i j) * rdAt S128x128 (V c main_arg3) (ix2 j k)) * rdAt S1x100352 (V c main_v14) (ix2 (0 : Fin 1) i) := by
  rw [reg0_final]
  rfl

/-- the scaled linear map as region 1 and the edge gather find it -/
theorem hp_val (outs : Gen.Outs (F := Ideal)) (h5 : outs 5 main_v16 c = (Cert.KernelIdeal.Hand.dat0 (fun c b => Gen.V4 m c b) c).arrAt 3 cfg0.N) (i : Fin 100352) (k : Fin 128) :
    (Gen.V5 m outs c main_v16 : S100352x128.Idx → EReal) (ix2 i k) = Cert.Spec.hpK (inpK m c) i k := by
  have hV : Gen.V5 m outs c main_v16 = outs 5 main_v16 c :=
    Function.update_self (Proc.devRef .tc main_v16) (outs 5 main_v16 c) (Gen.V4 m c)
  rw [hV, h5, reg0_array]
  unfold Cert.Spec.hpK
  dsimp only [rdAt]
  rw [dis_entry]
  congr 1
  refine Finset.sum_congr rfl fun j _ => ?_
  rw [x_entry, Wg_entry]

end Cert.KerVal

end
-- ==== Proof.KerVal1a.lean ====
/-
  The host stretch between the first and the second kernel region, read at an index: the rows the edges move and
  their sums at the destinations, the bias as a row, the graph words padded with zeros, and the two arrays the
  stretch leaves as they were.
-/
import proofs.«417852_j54494545052225_3_alg».proof.Proof.KerGlue
import proofs.«417852_j54494545052225_3_alg».proof.Proof.Gen.KernelIdeal.Regions
import proofs.«417852_j54494545052225_3_alg».proof.Proof.LibRowGatherScatter
import proofs.«417852_j54494545052225_3_alg».proof.Proof.LibVecScatterAdd
import Idealize.ShloMosaic.Lib.StableHlo.Run
import Idealize.ShloMosaic.Lib.ValueIdx
import Idealize.ShloMosaic.Lib.Pipeline.Value
import Idealize.ShloMosaic.Lib.KernelVsHost
import Idealize.ShloMosaic.Lib.ValueLayout
import Idealize.ShloMosaic.PureOps.Ideal

set_option maxRecDepth 16384

noncomputable section

open scoped BigOperators

namespace Cert.KerVal

open Idealize.ShloMosaic Idealize.ShloMosaic.TcCoe Idealize.ShloMosaic.ValueIdx Idealize.SL.Sem Cert.KernelIdeal Cert.KernelIdeal.Gen

variable (m : (ℓ : Loc nD τ sig) → Buf (Elt Ideal) ℓ) (c : Dev nD)

/-! ## What the stretch writes, as terms of what it reads -/

/-- The edges' sums: the accumulating scatter, at the destination words, of the rows gathered at the source words
    (a negative word counted from the end), into zeros. -/
theorem v6_v26 (outs : Gen.Outs (F := Ideal)) :
    (Gen.V6 m outs c main_v26 : S100352x128.Idx → EReal)
      = Host.scatterAdd (F := Ideal) scatter_S100352x128_S1600000x1_S1600000x128_1_0_0_1
          (broadcastInDim S100352x128 ![] bcast_S_S100352x128 (constant (F := Ideal) S_ .f32 0x00000000#32))
          (broadcastInDim S1600000x1 ![0] bcast_S1600000_S1600000x1_0 (Gen.V5 m outs c main_v3 : S1600000.Idx → BitVec 32))
          (Host.gather gather_S100352x128_S1600000x1_S1600000x128_1_0_n_n_0_1_1128
            (Gen.V5 m outs c main_v16 : S100352x128.Idx → EReal)
            (broadcastInDim S1600000x1 ![0] bcast_S1600000_S1600000x1_0
              (select (cmpi .slt (Gen.V5 m outs c main_v1 : S1600000.Idx → BitVec 32)
                  (broadcastInDim S1600000 ![] bcast_S_S1600000 (constantI S_ 32 0#32)))
                (addi (Gen.V5 m outs c main_v1 : S1600000.Idx → BitVec 32)
                  (broadcastInDim S1600000 ![] bcast_S_S1600000 (constantI S_ 32 100352#32)))
                (Gen.V5 m outs c main_v1 : S1600000.Idx → BitVec 32)))) := by
  show StableHlo.after hostOps1 _ (Proc.devRef .tc main_v26) = _
  after_results

/-- The bias as a row. -/
theorem v6_v27 (outs : Gen.Outs (F := Ideal)) :
    (Gen.V6 m outs c main_v27 : S1x128.Idx → EReal)
      = shapeCast S1x128 (Gen.V5 m outs c main_arg4 : S128.Idx → EReal) shapeCasts_S128_S1x128 := by
  show StableHlo.after hostOps1 _ (Proc.devRef .tc main_v27) = _
  after_results
  rfl

/-- The graph words as a row, padded with the zero word. -/
theorem v7_v29 (outs : Gen.Outs (F := Ideal)) :
    (Gen.V7 m outs c main_v29 : S1x100352.Idx → BitVec 32)
      = pad S1x100352 ![0, 0] ![0, 352] ![0, 0]
          (shapeCast S1x100000 (Gen.V5 m outs c main_arg2 : S100000.Idx → BitVec 32) shapeCasts_S100000_S1x100000)
          (constantI S_ 32 0#32) pads_S1x100000_S1x100352_000_03520 h_S_ := by
  show StableHlo.after hostOps1_1 _ (Proc.devRef .tc main_v29) = _
  after_results
  rfl

/-- The source words: row 0 of the edge list as a vector. -/
theorem v1_v1 :
    (Gen.V1 m c main_v1 : S1600000.Idx → BitVec 32)
      = shapeCast S1600000 (extractStridedSlice S1x1600000 ![0, 0] (m ((c.tc : Thread nD τ).loc main_arg1) : S2x1600000.Idx → BitVec 32) slices_S2x1600000_S1x1600000_0_0) shapeCasts_S1x1600000_S1600000 := by
  show StableHlo.after hostOps0 _ (Proc.devRef .tc main_v1) = _
  after_results
  rfl

/-- The destination words: row 1 of the edge list as a vector. -/
theorem v1_v3 :
    (Gen.V1 m c main_v3 : S1600000.Idx → BitVec 32)
      = shapeCast S1600000 (extractStridedSlice S1x1600000 ![1, 0] (m ((c.tc : Thread nD τ).loc main_arg1) : S2x1600000.Idx → BitVec 32) slices_S2x1600000_S1x1600000_1_0) shapeCasts_S1x1600000_S1600000 := by
  show StableHlo.after hostOps0 _ (Proc.devRef .tc main_v3) = _
  after_results
  rfl

/-! ## What the stretch leaves as it was -/

/-- An array nothing before the second region writes holds its launch contents. -/
theorem v5_arg (outs : Gen.Outs (F := Ideal)) (r : Ref sig .tc) (h5 : r ∉ ([main_v16] : List (Ref sig .tc)))
    (h4 : r ∉ hostOps0_3_W) (h3 : r ∉ hostOps0_2_W) (h2 : r ∉ hostOps0_1_W) (h1 : r ∉ hostOps0_W) :
    Gen.V5 m outs c r = m ((c.tc : Thread nD τ).loc r) :=
  (Gen.V5_of m outs c r h5).trans <| (Gen.V4_of m c r h4).trans <| (Gen.V3_of m c r h3).trans <|
    (Gen.V2_of m c r h2).trans <| (Gen.V1_of m c r h1).trans rfl

/-- What only the first host operations write is unchanged up to the second stretch. -/
theorem v5_of_v1 (outs : Gen.Outs (F := Ideal)) (r : Ref sig .tc) (h5 : r ∉ ([main_v16] : List (Ref sig .tc)))
    (h4 : r ∉ hostOps0_3_W) (h3 : r ∉ hostOps0_2_W) (h2 : r ∉ hostOps0_1_W) :
    Gen.V5 m outs c r = Gen.V1 m c r :=
  (Gen.V5_of m outs c r h5).trans <| (Gen.V4_of m c r h4).trans <| (Gen.V3_of m c r h3).trans <| Gen.V2_of m c r h2

/-! ## A row of words padded with zeros -/

/-- A vector of words as a row, padded with zero words to 100352 entries: the word, and zero beyond the vector. -/
theorem padWords_apply (bt : S100000.Idx → BitVec 32) (i : Fin 100352) :
    (pad S1x100352 ![0, 0] ![0, 352] ![0, 0] (shapeCast S1x100000 bt shapeCasts_S100000_S1x100000)
        (constantI S_ 32 0#32) pads_S1x100000_S1x100352_000_03520 h_S_ (ix2 (0 : Fin 1) i)).toInt
      = if h : i.val < 100000 then (bt (ix1 (⟨i.val, h⟩ : Fin 100000))).toInt else 0 := by
  by_cases h : i.val < 100000
  · rw [dif_pos h, pad_apply_of_inside (s := S1x100000) (t := S1x100352) ![0, 0] ![0, 352] ![0, 0] _ _
        pads_S1x100000_S1x100352_000_03520 h_S_
        (ix2 (0 : Fin 1) i) (ix2 (0 : Fin 1) (⟨i.val, h⟩ : Fin 100000)) (fun a => by
          match a with
          | ⟨0, _⟩ => rfl
          | ⟨1, _⟩ => show i.val = 0 + i.val * (0 + 1); omega),
      shapeCast_a_1a_apply]
  · rw [dif_neg h, pad_apply_of_not_inside (s := S1x100000) (t := S1x100352) ![0, 0] ![0, 352] ![0, 0] _ _
        pads_S1x100000_S1x100352_000_03520 h_S_
        (ix2 (0 : Fin 1) i) (1 : Fin 2) (fun hin => h (by
          have h2 : (i.val - 0) / (0 + 1) < 100000 := hin.2.2
          omega)),
      constantI_apply]
    rfl

/-! ## The rows the edges move, summed at their destinations -/

section Agg
open Cert.ReferenceIdeal.Hand

/-- The gather's and the scatter's dimension numbers are those of whole rows moved at a column of words. -/
theorem gather_eq : gather_S100352x128_S1600000x1_S1600000x128_1_0_n_n_0_1_1128
    = rowGather 100352 1600000 128 gather_S100352x128_S1600000x1_S1600000x128_1_0_n_n_0_1_1128_wf := rfl
theorem scatter_eq : scatter_S100352x128_S1600000x1_S1600000x128_1_0_0_1
    = rowScatter 100352 1600000 128 scatter_S100352x128_S1600000x1_S1600000x128_1_0_0_1_wf := rfl

variable (hp : S100352x128.Idx → EReal) (sw dw : S1600000.Idx → BitVec 32)

/-- The source words with a negative word counted from the end, as a column: at edge `e` the select on the sign. -/
theorem wrapCol_apply (e : Fin 1600000) :
    broadcastInDim S1600000x1 ![0] bcast_S1600000_S1600000x1_0
        (select (cmpi .slt sw (broadcastInDim S1600000 ![] bcast_S_S1600000 (constantI S_ 32 0#32)))
          (addi sw (broadcastInDim S1600000 ![] bcast_S_S1600000 (constantI S_ 32 100352#32))) sw) (ix2 e (0 : Fin 1))
      = if (sw (ix1 e)).toInt < 0 then sw (ix1 e) + 100352#32 else sw (ix1 e) := by
  rw [bcastCol_apply, select_apply]
  show Scalar.select (IntOp.cmpi .slt (sw (ix1 e)) (broadcastInDim S1600000 ![] bcast_S_S1600000 (constantI S_ 32 0#32) (ix1 e)))
      (IntOp.addi (sw (ix1 e)) (broadcastInDim S1600000 ![] bcast_S_S1600000 (constantI S_ 32 100352#32) (ix1 e))) (sw (ix1 e)) = _
  rw [bcastScalar_apply, bcastScalar_apply, constantI_apply, constantI_apply, wrap_select]

/-- When every source word names a node, the sums at padded row `i`: over the edges whose destination word read
    signed is `i`, the row at the edge's source word. -/
theorem aggTerm_apply (hsw : ∀ e : Fin 1600000, 0 ≤ (sw (ix1 e)).toInt ∧ (sw (ix1 e)).toInt < 100000)
    (i : Fin 100352) (k : Fin 128) :
    Host.scatterAdd (F := Ideal) scatter_S100352x128_S1600000x1_S1600000x128_1_0_0_1
        (broadcastInDim S100352x128 ![] bcast_S_S100352x128 (constant (F := Ideal) S_ .f32 0x00000000#32))
        (broadcastInDim S1600000x1 ![0] bcast_S1600000_S1600000x1_0 dw)
        (Host.gather gather_S100352x128_S1600000x1_S1600000x128_1_0_n_n_0_1_1128 hp
          (broadcastInDim S1600000x1 ![0] bcast_S1600000_S1600000x1_0
            (select (cmpi .slt sw (broadcastInDim S1600000 ![] bcast_S_S1600000 (constantI S_ 32 0#32)))
              (addi sw (broadcastInDim S1600000 ![] bcast_S_S1600000 (constantI S_ 32 100352#32))) sw))) (ix2 i k)
      = ∑ e ∈ Finset.univ.filter (fun e : Fin 1600000 => (dw (ix1 e)).toInt = (i.val : ℤ)),
          hp (ix2 (⟨(sw (ix1 e)).toInt.toNat, by have := hsw e; omega⟩ : Fin 100352) k) := by
  rw [scatter_eq, rowScatterAdd_apply, bcastScalar_apply, constant_apply, Ideal.ofBits_zero_f32, zero_add]
  rw [Finset.sum_filter, Finset.sum_filter]
  refine Finset.sum_congr rfl fun e _ => ?_
  rw [bcastCol_apply]
  refine congrArg (fun v : EReal => if (dw (ix1 e)).toInt = (i.val : ℤ) then v else 0) ?_
  have hw := hsw e
  rw [gather_eq, rowGather_apply_of_eq (by decide) _ hp _ e k _ (wrapCol_apply sw e), if_neg (by omega)]
  refine congrArg hp (congrArg (fun a => ix2 a k) (Fin.ext ?_))
  show min (sw (ix1 e)).toInt.toNat (100352 - 1) = (sw (ix1 e)).toInt.toNat
  omega

/-- The same against the specification: when the words are the specification's (the source node's number is the source
    word, the destination word read signed is the destination) and the rows are the scaled rows, the sums are the
    specification's. -/
theorem aggTerm_eq_aggK (I : Cert.Spec.Inp)
    (hsw : ∀ e : Fin 1600000, 0 ≤ (sw (ix1 e)).toInt ∧ (sw (ix1 e)).toInt < 100000)
    (hsrc : ∀ e : Fin 1600000, ((I.src e).val : ℤ) = (sw (ix1 e)).toInt)
    (hdst : ∀ e : Fin 1600000, (dw (ix1 e)).toInt = I.dst e)
    (hhp : ∀ (i : Fin 100352) (k : Fin 128), hp (ix2 i k) = Cert.Spec.hpK I i k)
    (i : Fin 100352) (k : Fin 128) :
    Host.scatterAdd (F := Ideal) scatter_S100352x128_S1600000x1_S1600000x128_1_0_0_1
        (broadcastInDim S100352x128 ![] bcast_S_S100352x128 (constant (F := Ideal) S_ .f32 0x00000000#32))
        (broadcastInDim S1600000x1 ![0] bcast_S1600000_S1600000x1_0 dw)
        (Host.gather gather_S100352x128_S1600000x1_S1600000x128_1_0_n_n_0_1_1128 hp
          (broadcastInDim S1600000x1 ![0] bcast_S1600000_S1600000x1_0
            (select (cmpi .slt sw (broadcastInDim S1600000 ![] bcast_S_S1600000 (constantI S_ 32 0#32)))
              (addi sw (broadcastInDim S1600000 ![] bcast_S_S1600000 (constantI S_ 32 100352#32))) sw))) (ix2 i k)
      = Cert.Spec.aggK I i k := by
  rw [aggTerm_apply hp sw dw hsw i k]
  unfold Cert.Spec.aggK
  refine Finset.sum_congr (Finset.filter_congr fun e _ => by rw [hdst e]) fun e _ => ?_
  rw [← hhp]
  refine congrArg hp (congrArg (fun a => ix2 a k) (Fin.ext ?_))
  have h0 := (hsw e).1
  have hv := hsrc e
  show (sw (ix1 e)).toInt.toNat = (I.src e).val
  omega

end Agg

/-- The sums the edges bring: at padded row `i`, feature `k`, the second region finds the sum, over the edges whose
    destination word read signed is `i`, of the scaled row of the edge's source node. -/
theorem agg_entry (outs : Gen.Outs (F := Ideal)) (hs : SrcOkK m c)
    (hhp : ∀ (i : Fin 100352) (k : Fin 128),
      (Gen.V5 m outs c main_v16 : S100352x128.Idx → EReal) (ix2 i k) = Cert.Spec.hpK (inpK m c) i k)
    (i : Fin 100352) (k : Fin 128) :
    (Gen.V7 m outs c main_v26 : S100352x128.Idx → EReal) (ix2 i k) = Cert.Spec.aggK (inpK m c) i k := by
  have e : (Gen.V7 m outs c main_v26 : S100352x128.Idx → EReal) = (Gen.V6 m outs c main_v26 : S100352x128.Idx → EReal) :=
    Gen.V7_of m outs c main_v26 (by decide)
  have e1 : (Gen.V5 m outs c main_v1 : S1600000.Idx → BitVec 32) = (Gen.V1 m c main_v1 : S1600000.Idx → BitVec 32) :=
    v5_of_v1 m c outs main_v1 (by decide) (by decide) (by decide) (by decide)
  have e3 : (Gen.V5 m outs c main_v3 : S1600000.Idx → BitVec 32) = (Gen.V1 m c main_v3 : S1600000.Idx → BitVec 32) :=
    v5_of_v1 m c outs main_v3 (by decide) (by decide) (by decide) (by decide)
  -- the two rows of the edge list, as the stretch before the first region cut them
  have hsw : ∀ e : Fin 1600000, (Gen.V5 m outs c main_v1 : S1600000.Idx → BitVec 32) (ix1 e)
      = (m ((c.tc : Thread nD τ).loc main_arg1) : S2x1600000.Idx → BitVec 32) (ix2 (0 : Fin 2) e) := fun e => by
    rw [e1, v1_v1, shapeCast_1a_a_apply, slice2_axis0_apply 0 _ _ (0 : Fin 1) e (0 : Fin 2) rfl]
  have hdw : ∀ e : Fin 1600000, (Gen.V5 m outs c main_v3 : S1600000.Idx → BitVec 32) (ix1 e)
      = (m ((c.tc : Thread nD τ).loc main_arg1) : S2x1600000.Idx → BitVec 32) (ix2 (1 : Fin 2) e) := fun e => by
    rw [e3, v1_v3, shapeCast_1a_a_apply, slice2_axis0_apply 1 _ _ (0 : Fin 1) e (1 : Fin 2) rfl]
  rw [e, v6_v26]
  exact aggTerm_eq_aggK (Gen.V5 m outs c main_v16 : S100352x128.Idx → EReal)
    (Gen.V5 m outs c main_v1 : S1600000.Idx → BitVec 32) (Gen.V5 m outs c main_v3 : S1600000.Idx → BitVec 32) (inpK m c)
    (fun e => by rw [hsw e]; exact hs e)
    (fun e => by rw [hsw e]; exact Cert.Glue.src_val hs e)
    (fun e => by rw [hdw e]; rfl)
    hhp i k

/-- The scaled rows reach the second region as the first left them. -/
theorem hp_entry7 (outs : Gen.Outs (F := Ideal))
    (hhp : ∀ (i : Fin 100352) (k : Fin 128),
      (Gen.V5 m outs c main_v16 : S100352x128.Idx → EReal) (ix2 i k) = Cert.Spec.hpK (inpK m c) i k)
    (i : Fin 100352) (k : Fin 128) :
    (Gen.V7 m outs c main_v16 : S100352x128.Idx → EReal) (ix2 i k) = Cert.Spec.hpK (inpK m c) i k := by
  have e : (Gen.V7 m outs c main_v16 : S100352x128.Idx → EReal) = (Gen.V5 m outs c main_v16 : S100352x128.Idx → EReal) :=
    (Gen.V7_of m outs c main_v16 (by decide)).trans (Gen.V6_of m outs c main_v16 (by decide))
  rw [e]
  exact hhp i k

/-- The padded inverse square roots of the degrees reach the second region as the first stretch left them. -/
theorem dis_entry7 (outs : Gen.Outs (F := Ideal))
    (hdis : ∀ i : Fin 100352, (Gen.V4 m c main_v14 : S1x100352.Idx → EReal) (ix2 (0 : Fin 1) i) = Cert.Spec.disP (inpK m c) i)
    (i : Fin 100352) :
    (Gen.V7 m outs c main_v14 : S1x100352.Idx → EReal) (ix2 (0 : Fin 1) i) = Cert.Spec.disP (inpK m c) i := by
  have e : (Gen.V7 m outs c main_v14 : S1x100352.Idx → EReal) = (Gen.V4 m c main_v14 : S1x100352.Idx → EReal) :=
    (Gen.V7_of m outs c main_v14 (by decide)).trans <| (Gen.V6_of m outs c main_v14 (by decide)).trans
      (Gen.V5_of m outs c main_v14 (by decide))
  rw [e]
  exact hdis i

/-- The layer's bias as a row. -/
theorem bg_entry7 (outs : Gen.Outs (F := Ideal)) (k : Fin 128) :
    (Gen.V7 m outs c main_v27 : S1x128.Idx → EReal) (ix2 (0 : Fin 1) k) = (inpK m c).bg k := by
  have e : (Gen.V7 m outs c main_v27 : S1x128.Idx → EReal) = (Gen.V6 m outs c main_v27 : S1x128.Idx → EReal) :=
    Gen.V7_of m outs c main_v27 (by decide)
  have e4 : (Gen.V5 m outs c main_arg4 : S128.Idx → EReal) = m ((c.tc : Thread nD τ).loc main_arg4) :=
    v5_arg m c outs main_arg4 (by decide) (by decide) (by decide) (by decide) (by decide)
  rw [e, v6_v27, e4, shapeCast_a_1a_apply]
  rfl

/-- The graph words as a row padded with zeros: a node's word, and zero beyond the nodes. -/
theorem bat_entry7 (outs : Gen.Outs (F := Ideal)) (i : Fin 100352) :
    ((Gen.V7 m outs c main_v29 : S1x100352.Idx → BitVec 32) (ix2 (0 : Fin 1) i)).toInt = Cert.Spec.batP (inpK m c) i := by
  have e2 : (Gen.V5 m outs c main_arg2 : S100000.Idx → BitVec 32) = m ((c.tc : Thread nD τ).loc main_arg2) :=
    v5_arg m c outs main_arg2 (by decide) (by decide) (by decide) (by decide) (by decide)
  rw [v7_v29, e2, padWords_apply]
  rfl

end Cert.KerVal

end
-- ==== Proof.KerVal1b.lean ====
/-
  Region 1 (statistics and pooling): its four result arrays as sums over all 100352 padded rows, for any contents
  of the buffers at the region's entry. Each of the 56 grid points adds its tile of 1792 rows to four carried
  accumulators; the accumulators after the last point are what the region writes back.
-/
import proofs.«417852_j54494545052225_3_alg».proof.Proof.KerGlue
import proofs.«417852_j54494545052225_3_alg».proof.Proof.KI.Dat1
import proofs.«417852_j54494545052225_3_alg».proof.Proof.Gen.KernelIdeal.Regions
import proofs.«417852_j54494545052225_3_alg».proof.Proof.LibRowGatherScatter
import proofs.«417852_j54494545052225_3_alg».proof.Proof.LibVecScatterAdd
import Idealize.ShloMosaic.Lib.Pipeline.Value
import Idealize.ShloMosaic.Lib.ValueIdx
import Idealize.ShloMosaic.Lib.ValueLayout
import Idealize.ShloMosaic.PureOps.Ideal.Laws
import Mathlib.Algebra.BigOperators.Fin

set_option maxRecDepth 16384

noncomputable section

namespace Cert.KerVal

open Idealize.ShloMosaic Idealize.ShloMosaic.TcCoe Idealize.ShloMosaic.ValueIdx Idealize.SL.Sem Cert.KernelIdeal Cert.KernelIdeal.Gen
open scoped BigOperators

variable (m : (ℓ : Loc nD τ sig) → Buf (Elt Ideal) ℓ) (c : Dev nD)

/-! ## Words -/

theorem toInt_ofNat32 (n : ℕ) (h : n < 2147483648) : (BitVec.ofNat 32 n).toInt = (n : ℤ) := by
  have e := BitVec.toInt_eq_toNat_cond (BitVec.ofNat 32 n)
  rw [BitVec.toNat_ofNat] at e
  omega

/-- a one-bit word widened and converted: 1 or 0 -/
theorem conv_bit (b : Bool) : (((BitVec.setWidth 32 (BitVec.ofBool b)).toInt : ℝ) : EReal) = if b = true then 1 else 0 := by
  cases b
  · have : (BitVec.setWidth 32 (BitVec.ofBool false)).toInt = 0 := by decide
    rw [this]; simp
  · have : (BitVec.setWidth 32 (BitVec.ofBool true)).toInt = 1 := by decide
    rw [this]; simp

theorem mask_word (n : ℕ) (h : n < 2147483648) :
    (((BitVec.setWidth 32 (IntOp.cmpi .slt (BitVec.ofNat 32 n) 100000#32)).toInt : ℝ) : EReal) = if n < 100000 then 1 else 0 := by
  have e : (BitVec.ofNat 32 n).toInt = (n : ℤ) := toInt_ofNat32 n h
  have e2 : (100000#32 : BitVec 32).toInt = 100000 := by decide
  show (((BitVec.setWidth 32 (BitVec.ofBool (decide ((BitVec.ofNat 32 n).toInt < (100000#32 : BitVec 32).toInt)))).toInt : ℝ) : EReal) = _
  rw [conv_bit, e, e2]
  by_cases hn : n < 100000
  · rw [if_pos hn, if_pos]; exact decide_eq_true (by exact_mod_cast hn)
  · rw [if_neg hn, if_neg]; intro hh; exact hn (by have := of_decide_eq_true hh; exact_mod_cast this)

/-- a word equals a small natural read as a word exactly when its signed reading is that natural -/
theorem eq_word (w : BitVec 32) (n : ℕ) (h : n < 2147483648) :
    (((BitVec.setWidth 32 (IntOp.cmpi .eq w (BitVec.ofNat 32 n))).toInt : ℝ) : EReal) = if w.toInt = (n : ℤ) then 1 else 0 := by
  show (((BitVec.setWidth 32 (BitVec.ofBool (w == BitVec.ofNat 32 n))).toInt : ℝ) : EReal) = _
  rw [conv_bit]
  have e : (BitVec.ofNat 32 n).toInt = (n : ℤ) := toInt_ofNat32 n h
  by_cases hw : w = BitVec.ofNat 32 n
  · rw [if_pos (by rw [hw]; exact beq_self_eq_true _), if_pos (by rw [hw, e])]
  · rw [if_neg (by intro hh; exact hw (eq_of_beq hh)), if_neg]
    intro hh; exact hw (BitVec.eq_of_toInt_eq (by rw [hh, e]))

/-! ## A column broadcast over the columns -/

theorem broadcastTo_a1_ab_apply {α : Type} {a b : ℕ} (v : (⟨2, ![a, 1]⟩ : Shape).Idx → α) (h : (⟨2, ![a, 1]⟩ : Shape).Broadcasts ⟨2, ![a, b]⟩)
    (p : Fin a) (q : Fin b) : broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-! ## One point's arithmetic, read at an index -/

/-- the mask of the true rows inside the tile at grid coordinate `i` -/
def maskT (i : grid1.Coords) (r : Fin 1792) : EReal := if 1792 * (i 0).val + r.val < 100000 then 1 else 0

theorem pay9_apply (i : grid1.Coords) (r : Fin 1792) :
    (k1_pay9 (F := Ideal) i) (ix2 (0 : Fin 1) r) = maskT i r := by
  have hi : (i 0).val < 56 := (i 0).isLt
  have hr : r.val < 1792 := r.isLt
  unfold k1_pay9 maskT
  rw [sitofp_apply, extui_apply]
  show (((BitVec.setWidth 32 (IntOp.cmpi .slt (IntOp.addi (Scalar.muli (BitVec.ofNat 32 (i 0).val) 1792#32) (iota .tc S1x1792 32 [1] iota_S1x1792_d1_w32 (ix2 (0 : Fin 1) r))) 100000#32)).toInt : ℝ) : EReal) = _
  rw [iota_single_apply]
  have hw : IntOp.addi (Scalar.muli (BitVec.ofNat 32 (i 0).val) 1792#32) (BitVec.ofNat 32 ((ix2 (0 : Fin 1) r : S1x1792.Idx) 1).val) = BitVec.ofNat 32 (1792 * (i 0).val + r.val) := by
    show BitVec.ofNat 32 (i 0).val * BitVec.ofNat 32 1792 + BitVec.ofNat 32 r.val = _
    rw [← BitVec.ofNat_mul, ← BitVec.ofNat_add, Nat.mul_comm]
  rw [hw]
  exact mask_word _ (by omega)

theorem pay10_apply (i : grid1.Coords) (d : Vec Ideal S1x1792 .f32) (a h : Vec Ideal S1792x128 .f32) (b : Vec Ideal S1x128 .f32)
    (r : Fin 1792) (k : Fin 128) :
    k1_pay10 i d a h b (ix2 r k) = (d (ix2 (0 : Fin 1) r) * (a (ix2 r k) + h (ix2 r k)) + b (ix2 (0 : Fin 1) k)) * maskT i r := by
  unfold k1_pay10
  simp only [shapeCast_self]
  rw [mulf_apply, addf_apply, mulf_apply, addf_apply]
  rw [broadcastTo_a1_ab_apply, transpose_ix2_apply, broadcastTo_1b_ab_apply, broadcastTo_a1_ab_apply, transpose_ix2_apply, pay9_apply]

/-- a sum over the rows of a tile -/
theorem colSum_apply (src : FVec Ideal S1792x128 .f32) (hφ : FKind.Formats .f32) (hacc : (0x00000000#32 : BitVec FTy.f32.bits) = FKind.add.neutral .f32 hφ) (k : Fin 128) :
    multiReduction .add [0] S128 src 0x00000000#32 reduces_S1792x128_S128 hφ hacc (ix1 k) = ∑ r : Fin 1792, src (ix2 r k) := by
  refine (Ideal.multiReduction_add_single src _ reduces_S1792x128_S128 hφ hacc (ix1 k)).trans ?_
  refine Finset.sum_congr rfl fun r _ => congrArg src ?_
  funext ax
  match ax with
  | ⟨0, _⟩ => rfl
  | ⟨1, _⟩ => rfl

theorem pay11_apply (i : grid1.Coords) (d : Vec Ideal S1x1792 .f32) (a h : Vec Ideal S1792x128 .f32) (b s : Vec Ideal S1x128 .f32) (k : Fin 128) :
    k1_pay11 i d a h b s (ix2 (0 : Fin 1) k) = s (ix2 (0 : Fin 1) k) + ∑ r : Fin 1792, k1_pay10 i d a h b (ix2 r k) := by
  unfold k1_pay11
  simp only [shapeCast_self]
  rw [addf_apply, shapeCast_a_1a_apply]
  exact congrArg (s (ix2 (0 : Fin 1) k) + ·) (colSum_apply _ _ _ k)

theorem pay12_apply (i : grid1.Coords) (d : Vec Ideal S1x1792 .f32) (a h : Vec Ideal S1792x128 .f32) (b : Vec Ideal S1x128 .f32)
    (r : Fin 1792) (k : Fin 128) :
    k1_pay12 i d a h b (ix2 r k) = k1_pay10 i d a h b (ix2 r k) * k1_pay10 i d a h b (ix2 r k) := rfl

theorem pay1_apply (s : Vec Ideal S1x128 .f32) (v : FVec Ideal S1792x128 .f32) (k : Fin 128) :
    k1_pay1 s v (ix2 (0 : Fin 1) k) = s (ix2 (0 : Fin 1) k) + ∑ r : Fin 1792, v (ix2 r k) := by
  unfold k1_pay1
  simp only [shapeCast_self]
  rw [addf_apply, shapeCast_a_1a_apply]
  exact congrArg (s (ix2 (0 : Fin 1) k) + ·) (colSum_apply _ _ _ k)

theorem pay2_apply (mk : FVec Ideal S1x1792 .f32) (bt : Vec Ideal S1x1792 .i32) (g : Fin 512) (r : Fin 1792) :
    k1_pay2 mk bt (ix2 g r) = (if (bt (ix2 (0 : Fin 1) r)).toInt = (g.val : ℤ) then 1 else 0) * mk (ix2 (0 : Fin 1) r) := by
  unfold k1_pay2
  simp only [shapeCast_self]
  rw [mulf_apply, sitofp_apply, extui_apply, broadcastTo_1b_ab_apply]
  show (((BitVec.setWidth 32 (IntOp.cmpi .eq (broadcastTo S512x1792 bt broadcasts_S1x1792_S512x1792 (ix2 g r)) (iota .tc S512x1792 32 [0] iota_S512x1792_d0_w32 (ix2 g r)))).toInt : ℝ) : EReal) * _ = _
  rw [iota_single_apply, broadcastTo_1b_ab_apply]
  exact congrArg (· * mk (ix2 (0 : Fin 1) r)) (eq_word _ g.val (by have := g.isLt; omega))

/-! ### The pooled product -/

theorem lhs3_0 (i : S512x128.Idx) (q : dot_S512x1792_S1792x128_S512x128_1_0_0_1_n_n.contr.Idx) :
    (dot_S512x1792_S1792x128_S512x128_1_0_0_1_n_n.lhsIdx i q 0).val = (i 0).val := by
  unfold DotDims.lhsIdx
  rw [dif_neg (show ¬(0 : Fin S512x1792.rank) ∈ dot_S512x1792_S1792x128_S512x128_1_0_0_1_n_n.lhsBatch by decide), dif_pos (show (0 : Fin S512x1792.rank) ∈ dot_S512x1792_S1792x128_S512x128_1_0_0_1_n_n.lhsNonContracting by decide)]
  rfl
theorem lhs3_1 (i : S512x128.Idx) (q : dot_S512x1792_S1792x128_S512x128_1_0_0_1_n_n.contr.Idx) :
    (dot_S512x1792_S1792x128_S512x128_1_0_0_1_n_n.lhsIdx i q 1).val = (q ⟨0, by decide⟩).val :=
  dot_S512x1792_S1792x128_S512x128_1_0_0_1_n_n.lhsIdx_val_of_single rfl i q
theorem rhs3_0 (i : S512x128.Idx) (q : dot_S512x1792_S1792x128_S512x128_1_0_0_1_n_n.contr.Idx) :
    (dot_S512x1792_S1792x128_S512x128_1_0_0_1_n_n.rhsIdx i q 0).val = (q ⟨0, by decide⟩).val :=
  dot_S512x1792_S1792x128_S512x128_1_0_0_1_n_n.rhsIdx_val_of_single rfl i q
theorem rhs3_1 (i : S512x128.Idx) (q : dot_S512x1792_S1792x128_S512x128_1_0_0_1_n_n.contr.Idx) :
    (dot_S512x1792_S1792x128_S512x128_1_0_0_1_n_n.rhsIdx i q 1).val = (i 1).val := by
  unfold DotDims.rhsIdx
  rw [dif_neg (show ¬(1 : Fin S1792x128.rank) ∈ dot_S512x1792_S1792x128_S512x128_1_0_0_1_n_n.rhsBatch by decide), dif_pos (show (1 : Fin S1792x128.rank) ∈ dot_S512x1792_S1792x128_S512x128_1_0_0_1_n_n.rhsNonContracting by decide)]
  rfl

/-- the matrix product of a [512,1792] block and a [1792,128] block into zeros, at an index -/
theorem matmul3_apply (L : FVec Ideal S512x1792 .bf16) (R : FVec Ideal S1792x128 .bf16) (g : Fin 512) (k : Fin 128) :
    FloatOps.matmul dot_S512x1792_S1792x128_S512x128_1_0_0_1_n_n none L R (constant (F := Ideal) S512x128 .f32 0x00000000#32) (ix2 g k)
      = ∑ r : Fin 1792, L (ix2 g r) * R (ix2 r k) := by
  rw [Ideal.matmul_constant_zero_apply, ← Equiv.sum_comp (contrEquiv1 dot_S512x1792_S1792x128_S512x128_1_0_0_1_n_n 1792 rfl rfl).symm]
  refine Finset.sum_congr rfl fun r _ => ?_
  have hk := contrEquiv1_symm_val dot_S512x1792_S1792x128_S512x128_1_0_0_1_n_n 1792 rfl rfl r
  have el : dot_S512x1792_S1792x128_S512x128_1_0_0_1_n_n.lhsIdx (ix2 g k) ((contrEquiv1 dot_S512x1792_S1792x128_S512x128_1_0_0_1_n_n 1792 rfl rfl).symm r) = ix2 g r := funext fun a => Fin.ext (by
    match a with
    | ⟨0, _⟩ => exact lhs3_0 _ _
    | ⟨1, _⟩ => exact (lhs3_1 _ _).trans hk)
  have er : dot_S512x1792_S1792x128_S512x128_1_0_0_1_n_n.rhsIdx (ix2 g k) ((contrEquiv1 dot_S512x1792_S1792x128_S512x128_1_0_0_1_n_n 1792 rfl rfl).symm r) = ix2 r k := funext fun a => Fin.ext (by
    match a with
    | ⟨0, _⟩ => exact (rhs3_0 _ _).trans hk
    | ⟨1, _⟩ => exact rhs3_1 _ _)
  rw [el, er]

theorem pay3_apply (mk : FVec Ideal S1x1792 .f32) (v : FVec Ideal S1792x128 .f32) (bt : Vec Ideal S1x1792 .i32) (s : Vec Ideal S512x128 .f32)
    (g : Fin 512) (k : Fin 128) :
    k1_pay3 mk v bt s (ix2 g k) = s (ix2 g k) + ∑ r : Fin 1792, k1_pay2 mk bt (ix2 g r) * v (ix2 r k) := by
  unfold k1_pay3
  simp only [shapeCast_self]
  rw [addf_apply]
  exact congrArg (s (ix2 g k) + ·) (matmul3_apply _ _ g k)

/-- a sum over the columns of a [512,1792] block -/
theorem rowSum_apply (src : FVec Ideal S512x1792 .f32) (hφ : FKind.Formats .f32) (hacc : (0x00000000#32 : BitVec FTy.f32.bits) = FKind.add.neutral .f32 hφ) (g : Fin 512) :
    multiReduction .add [1] S512 src 0x00000000#32 reduces_S512x1792_S512 hφ hacc (ix1 g) = ∑ r : Fin 1792, src (ix2 g r) := by
  refine (Ideal.multiReduction_add_single src _ reduces_S512x1792_S512 hφ hacc (ix1 g)).trans ?_
  refine Finset.sum_congr rfl fun r _ => congrArg src ?_
  funext ax
  match ax with
  | ⟨0, _⟩ => rfl
  | ⟨1, _⟩ => rfl

/-- a vector as a column -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

theorem pay4_apply (mk : FVec Ideal S1x1792 .f32) (bt : Vec Ideal S1x1792 .i32) (s : Vec Ideal S512x1 .f32) (g : Fin 512) :
    k1_pay4 mk bt s (ix2 g (0 : Fin 1)) = s (ix2 g (0 : Fin 1)) + ∑ r : Fin 1792, k1_pay2 mk bt (ix2 g r) := by
  unfold k1_pay4
  simp only [shapeCast_self]
  rw [addf_apply, shapeCast_a_a1_apply]
  exact congrArg (s (ix2 g (0 : Fin 1)) + ·) (rowSum_apply _ _ _ g)

/-! ### The reset -/

theorem zeros1_1 (k : Fin 128) : (Cert.KernelIdeal.Hand.zeros1 (F := Ideal)).1 (ix2 (0 : Fin 1) k) = 0 := by
  show Ideal.ofBits .f32 0x00000000#32 = 0
  exact Ideal.ofBits_zero_f32
theorem zeros1_2 (k : Fin 128) : (Cert.KernelIdeal.Hand.zeros1 (F := Ideal)).2.1 (ix2 (0 : Fin 1) k) = 0 := by
  show Ideal.ofBits .f32 0x00000000#32 = 0
  exact Ideal.ofBits_zero_f32
theorem zeros1_3 (g : Fin 512) (k : Fin 128) : (Cert.KernelIdeal.Hand.zeros1 (F := Ideal)).2.2.1 (ix2 g k) = 0 := by
  show Ideal.ofBits .f32 0x00000000#32 = 0
  exact Ideal.ofBits_zero_f32
theorem zeros1_4 (g : Fin 512) : (Cert.KernelIdeal.Hand.zeros1 (F := Ideal)).2.2.2 (ix2 g (0 : Fin 1)) = 0 := by
  show Ideal.ofBits .f32 0x00000000#32 = 0
  exact Ideal.ofBits_zero_f32

/-! ## The region's four results -/

/-- a padded row of the layer's output under the mask of the true rows, from the buffers the region finds -/
def rowV (V : (c : Dev nD) → (b : Ref sig .tc) → Buf (Elt Ideal) ((c : Thread nD τ).loc b)) (c : Dev nD) (i : Fin 100352) (k : Fin 128) : EReal :=
  (rdAt S1x100352 (V c main_v14) (ix2 (0 : Fin 1) i) * (rdAt S100352x128 (V c main_v26) (ix2 i k) + rdAt S100352x128 (V c main_v16) (ix2 i k)) + rdAt S1x128 (V c main_v27) (ix2 (0 : Fin 1) k)) * Cert.Spec.validK i
/-- "padded row `i` is a true row whose graph word is `g`", as 0 or 1 -/
def ohV (V : (c : Dev nD) → (b : Ref sig .tc) → Buf (Elt Ideal) ((c : Thread nD τ).loc b)) (c : Dev nD) (g : Fin 512) (i : Fin 100352) : EReal :=
  (if (rdW S1x100352 (V c main_v29) (ix2 (0 : Fin 1) i)).toInt = (g.val : ℤ) then 1 else 0) * Cert.Spec.validK i

/-! ## The windows' blocks, read at an index -/

/-- the block index of each input window at each grid point, and the point's grid coordinate -/
theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = t.val
    ∧ win1_3.index t (0 : Fin 2) = 0 ∧ win1_3.index t (1 : Fin 2) = 0
    ∧ win1_4.index t (0 : Fin 2) = 0 ∧ win1_4.index t (1 : Fin 2) = t.val
    ∧ (grid1.coords t 0).val = t.val :=
  (by decide +kernel : ∀ t : Fin grid1.N, _)

section Blocks
variable (V : (c : Dev nD) → (b : Ref sig .tc) → Buf (Elt Ideal) ((c : Thread nD τ).loc b)) (c : Dev nD)

theorem iblk0_apply (t : Fin cfg1.N) (r : Fin 1792) (k : Fin 128) (i : Fin 100352) (hi : i.val = 1792 * t.val + r.val) :
    (Cert.KernelIdeal.Hand.iblk1 V c 0 t : S1792x128.Idx → EReal) (ix2 r k) = rdAt S100352x128 (V c main_v26) (ix2 i k) := by
  obtain ⟨e0, e1, -⟩ := idx_facts1 t
  unfold Cert.KernelIdeal.Hand.iblk1
  rw [View.read_apply]
  show V c main_v26 _ = V c main_v26 _
  congr 1
  funext a
  apply Fin.ext
  match a with
  | ⟨0, _⟩ => show win1_0.index t (0 : Fin 2) * 1792 + 1 * r.val = i.val; rw [e0, hi]; omega
  | ⟨1, _⟩ => show win1_0.index t (1 : Fin 2) * 128 + 1 * k.val = k.val; rw [e1]; omega

theorem iblk1_apply (t : Fin cfg1.N) (r : Fin 1792) (k : Fin 128) (i : Fin 100352) (hi : i.val = 1792 * t.val + r.val) :
    (Cert.KernelIdeal.Hand.iblk1 V c 1 t : S1792x128.Idx → EReal) (ix2 r k) = rdAt S100352x128 (V c main_v16) (ix2 i k) := by
  obtain ⟨-, -, e0, e1, -⟩ := idx_facts1 t
  unfold Cert.KernelIdeal.Hand.iblk1
  rw [View.read_apply]
  show V c main_v16 _ = V c main_v16 _
  congr 1
  funext a
  apply Fin.ext
  match a with
  | ⟨0, _⟩ => show win1_1.index t (0 : Fin 2) * 1792 + 1 * r.val = i.val; rw [e0, hi]; omega
  | ⟨1, _⟩ => show win1_1.index t (1 : Fin 2) * 128 + 1 * k.val = k.val; rw [e1]; omega

theorem iblk2_apply (t : Fin cfg1.N) (r : Fin 1792) (i : Fin 100352) (hi : i.val = 1792 * t.val + r.val) :
    (Cert.KernelIdeal.Hand.iblk1 V c 2 t : S1x1792.Idx → EReal) (ix2 (0 : Fin 1) r) = rdAt S1x100352 (V c main_v14) (ix2 (0 : Fin 1) i) := by
  obtain ⟨-, -, -, -, e0, e1, -⟩ := idx_facts1 t
  unfold Cert.KernelIdeal.Hand.iblk1
  rw [View.read_apply]
  show V c main_v14 _ = V c main_v14 _
  congr 1
  funext a
  apply Fin.ext
  match a with
  | ⟨0, _⟩ => show win1_2.index t (0 : Fin 2) * 1 + 1 * 0 = 0; rw [e0]
  | ⟨1, _⟩ => show win1_2.index t (1 : Fin 2) * 1792 + 1 * r.val = i.val; rw [e1, hi]; omega

theorem iblk3_apply (t : Fin cfg1.N) (k : Fin 128) :
    (Cert.KernelIdeal.Hand.iblk1 V c 3 t : S1x128.Idx → EReal) (ix2 (0 : Fin 1) k) = rdAt S1x128 (V c main_v27) (ix2 (0 : Fin 1) k) := by
  obtain ⟨-, -, -, -, -, -, e0, e1, -⟩ := idx_facts1 t
  unfold Cert.KernelIdeal.Hand.iblk1
  rw [View.read_apply]
  show V c main_v27 _ = V c main_v27 _
  congr 1
  funext a
  apply Fin.ext
  match a with
  | ⟨0, _⟩ => show win1_3.index t (0 : Fin 2) * 1 + 1 * 0 = 0; rw [e0]
  | ⟨1, _⟩ => show win1_3.index t (1 : Fin 2) * 128 + 1 * k.val = k.val; rw [e1]; omega

theorem iblk4_apply (t : Fin cfg1.N) (r : Fin 1792) (i : Fin 100352) (hi : i.val = 1792 * t.val + r.val) :
    (Cert.KernelIdeal.Hand.iblk1 V c 4 t : S1x1792.Idx → BitVec 32) (ix2 (0 : Fin 1) r) = rdW S1x100352 (V c main_v29) (ix2 (0 : Fin 1) i) := by
  obtain ⟨-, -, -, -, -, -, -, -, e0, e1, -⟩ := idx_facts1 t
  unfold Cert.KernelIdeal.Hand.iblk1
  rw [View.read_apply]
  show V c main_v29 _ = V c main_v29 _
  congr 1
  funext a
  apply Fin.ext
  match a with
  | ⟨0, _⟩ => show win1_4.index t (0 : Fin 2) * 1 + 1 * 0 = 0; rw [e0]
  | ⟨1, _⟩ => show win1_4.index t (1 : Fin 2) * 1792 + 1 * r.val = i.val; rw [e1, hi]; omega

end Blocks

/-! ## Tiles -/

/-- row `r` of tile `t` among the padded rows -/
def tileRow (t : Fin 56) (r : Fin 1792) : Fin 100352 := ⟨1792 * t.val + r.val, by have := t.isLt; have := r.isLt; omega⟩

/-- the sum of `f` over the rows of tile `n` (nothing beyond the 56 tiles) -/
def tileSum (f : Fin 100352 → EReal) (n : ℕ) : EReal := if h : n < 56 then ∑ r : Fin 1792, f (tileRow ⟨n, h⟩ r) else 0

/-- the 56 tiles of 1792 rows are the 100352 padded rows -/
theorem sum_tiles (f : Fin 100352 → EReal) : ∑ n ∈ Finset.range 56, tileSum f n = ∑ i : Fin 100352, f i := by
  rw [Finset.sum_range]
  have e : ∀ n : Fin 56, tileSum f n.val = ∑ r : Fin 1792, f (tileRow n r) := fun n => by
    unfold tileSum; rw [dif_pos n.isLt]
  rw [Finset.sum_congr rfl fun n _ => e n]
  refine (Fintype.sum_prod_type' (fun t r => f (tileRow t r))).symm.trans ?_
  exact Fintype.sum_equiv finProdFinEquiv (fun x => f (tileRow x.1 x.2)) f fun x => congrArg f (Fin.ext (by
    show 1792 * x.1.val + x.2.val = x.2.val + 1792 * x.1.val
    omega))

/-! ## One point's update of the four accumulators -/

section Points
open Cert.KernelIdeal.Hand
variable (V : (c : Dev nD) → (b : Ref sig .tc) → Buf (Elt Ideal) ((c : Thread nD τ).loc b)) (c : Dev nD)

theorem mask_valid (t : Fin cfg1.N) (r : Fin 1792) (i : Fin 100352) (hi : i.val = 1792 * t.val + r.val) :
    maskT (grid1.coords t) r = Cert.Spec.validK i := by
  obtain ⟨-, -, -, -, -, -, -, -, -, -, e⟩ := idx_facts1 t
  unfold maskT Cert.Spec.validK
  rw [e, hi]

/-- a row of the point's masked tile is the padded row it sits at -/
theorem tile_row (t : Fin cfg1.N) (r : Fin 1792) (k : Fin 128) (i : Fin 100352) (hi : i.val = 1792 * t.val + r.val) :
    k1_pay10 (grid1.coords t) (iblk1 V c 2 t) (iblk1 V c 0 t) (iblk1 V c 1 t) (iblk1 V c 3 t) (ix2 r k) = rowV V c i k := by
  refine (pay10_apply _ _ _ _ _ r k).trans ?_
  unfold rowV
  rw [iblk2_apply V c t r i hi, iblk0_apply V c t r k i hi, iblk1_apply V c t r k i hi, iblk3_apply V c t k, mask_valid t r i hi]

/-- an entry of the point's graph indicator is the padded row's -/
theorem tile_oh (t : Fin cfg1.N) (g : Fin 512) (r : Fin 1792) (i : Fin 100352) (hi : i.val = 1792 * t.val + r.val) :
    k1_pay2 (k1_pay9 (grid1.coords t)) (iblk1 V c 4 t) (ix2 g r) = ohV V c g i := by
  refine (pay2_apply _ _ g r).trans ?_
  unfold ohV
  rw [iblk4_apply V c t r i hi, pay9_apply, mask_valid t r i hi]

theorem t_lt (t : Fin cfg1.N) : t.val < 56 := Nat.lt_of_lt_of_eq t.isLt N_1

theorem step_1 (t : Fin cfg1.N) (s : Scr1 Ideal) (k : Fin 128) :
    (step1 (grid1.coords t) (iblk1 V c 0 t) (iblk1 V c 1 t) (iblk1 V c 2 t) (iblk1 V c 3 t) (iblk1 V c 4 t) s).1 (ix2 (0 : Fin 1) k)
      = s.1 (ix2 (0 : Fin 1) k) + tileSum (fun i => rowV V c i k) t.val := by
  unfold tileSum
  rw [dif_pos (t_lt t)]
  show k1_pay11 (grid1.coords t) (iblk1 V c 2 t) (iblk1 V c 0 t) (iblk1 V c 1 t) (iblk1 V c 3 t) s.1 (ix2 (0 : Fin 1) k) = _
  refine (pay11_apply _ _ _ _ _ _ k).trans ?_
  exact congrArg (s.1 (ix2 (0 : Fin 1) k) + ·) (Finset.sum_congr rfl fun r _ => tile_row V c t r k _ rfl)

theorem step_2 (t : Fin cfg1.N) (s : Scr1 Ideal) (k : Fin 128) :
    (step1 (grid1.coords t) (iblk1 V c 0 t) (iblk1 V c 1 t) (iblk1 V c 2 t) (iblk1 V c 3 t) (iblk1 V c 4 t) s).2.1 (ix2 (0 : Fin 1) k)
      = s.2.1 (ix2 (0 : Fin 1) k) + tileSum (fun i => rowV V c i k * rowV V c i k) t.val := by
  unfold tileSum
  rw [dif_pos (t_lt t)]
  show k1_pay1 s.2.1 (k1_pay12 (grid1.coords t) (iblk1 V c 2 t) (iblk1 V c 0 t) (iblk1 V c 1 t) (iblk1 V c 3 t)) (ix2 (0 : Fin 1) k) = _
  refine (pay1_apply _ _ k).trans ?_
  refine congrArg (s.2.1 (ix2 (0 : Fin 1) k) + ·) (Finset.sum_congr rfl fun r _ => ?_)
  refine (pay12_apply _ _ _ _ _ r k).trans ?_
  rw [tile_row V c t r k (tileRow ⟨t.val, t_lt t⟩ r) rfl]

theorem step_3 (t : Fin cfg1.N) (s : Scr1 Ideal) (g : Fin 512) (k : Fin 128) :
    (step1 (grid1.coords t) (iblk1 V c 0 t) (iblk1 V c 1 t) (iblk1 V c 2 t) (iblk1 V c 3 t) (iblk1 V c 4 t) s).2.2.1 (ix2 g k)
      = s.2.2.1 (ix2 g k) + tileSum (fun i => ohV V c g i * rowV V c i k) t.val := by
  unfold tileSum
  rw [dif_pos (t_lt t)]
  show k1_pay3 (k1_pay9 (grid1.coords t)) (k1_pay10 (grid1.coords t) (iblk1 V c 2 t) (iblk1 V c 0 t) (iblk1 V c 1 t) (iblk1 V c 3 t)) (iblk1 V c 4 t) s.2.2.1 (ix2 g k) = _
  refine (pay3_apply _ _ _ _ g k).trans ?_
  refine congrArg (s.2.2.1 (ix2 g k) + ·) (Finset.sum_congr rfl fun r _ => ?_)
  rw [tile_row V c t r k (tileRow ⟨t.val, t_lt t⟩ r) rfl, tile_oh V c t g r (tileRow ⟨t.val, t_lt t⟩ r) rfl]

theorem step_4 (t : Fin cfg1.N) (s : Scr1 Ideal) (g : Fin 512) :
    (step1 (grid1.coords t) (iblk1 V c 0 t) (iblk1 V c 1 t) (iblk1 V c 2 t) (iblk1 V c 3 t) (iblk1 V c 4 t) s).2.2.2 (ix2 g (0 : Fin 1))
      = s.2.2.2 (ix2 g (0 : Fin 1)) + tileSum (fun i => ohV V c g i) t.val := by
  unfold tileSum
  rw [dif_pos (t_lt t)]
  show k1_pay4 (k1_pay9 (grid1.coords t)) (iblk1 V c 4 t) s.2.2.2 (ix2 g (0 : Fin 1)) = _
  refine (pay4_apply _ _ _ g).trans ?_
  exact congrArg (s.2.2.2 (ix2 g (0 : Fin 1)) + ·) (Finset.sum_congr rfl fun r _ => tile_oh V c t g r _ rfl)

/-! ## The accumulators after each point -/

theorem scr1_inv : ∀ (n : ℕ) (hn : n < cfg1.N),
    (∀ k : Fin 128, (scr1 V c n hn).1 (ix2 (0 : Fin 1) k) = ∑ t ∈ Finset.range (n + 1), tileSum (fun i => rowV V c i k) t)
    ∧ (∀ k : Fin 128, (scr1 V c n hn).2.1 (ix2 (0 : Fin 1) k) = ∑ t ∈ Finset.range (n + 1), tileSum (fun i => rowV V c i k * rowV V c i k) t)
    ∧ (∀ (g : Fin 512) (k : Fin 128), (scr1 V c n hn).2.2.1 (ix2 g k) = ∑ t ∈ Finset.range (n + 1), tileSum (fun i => ohV V c g i * rowV V c i k) t)
    ∧ (∀ g : Fin 512, (scr1 V c n hn).2.2.2 (ix2 g (0 : Fin 1)) = ∑ t ∈ Finset.range (n + 1), tileSum (fun i => ohV V c g i) t)
  | 0, hn => by
    refine ⟨fun k => ?_, fun k => ?_, fun g k => ?_, fun g => ?_⟩
    · rw [Finset.sum_range_one]
      exact (step_1 V c ⟨0, hn⟩ zeros1 k).trans (by rw [zeros1_1, zero_add])
    · rw [Finset.sum_range_one]
      exact (step_2 V c ⟨0, hn⟩ zeros1 k).trans (by rw [zeros1_2, zero_add])
    · rw [Finset.sum_range_one]
      exact (step_3 V c ⟨0, hn⟩ zeros1 g k).trans (by rw [zeros1_3, zero_add])
    · rw [Finset.sum_range_one]
      exact (step_4 V c ⟨0, hn⟩ zeros1 g).trans (by rw [zeros1_4, zero_add])
  | n + 1, hn => by
    obtain ⟨h1, h2, h3, h4⟩ := scr1_inv n (Nat.lt_of_succ_lt hn)
    refine ⟨fun k => ?_, fun k => ?_, fun g k => ?_, fun g => ?_⟩
    · rw [Finset.sum_range_succ, ← h1 k]
      exact step_1 V c ⟨n + 1, hn⟩ (scr1 V c n (Nat.lt_of_succ_lt hn)) k
    · rw [Finset.sum_range_succ, ← h2 k]
      exact step_2 V c ⟨n + 1, hn⟩ (scr1 V c n (Nat.lt_of_succ_lt hn)) k
    · rw [Finset.sum_range_succ, ← h3 g k]
      exact step_3 V c ⟨n + 1, hn⟩ (scr1 V c n (Nat.lt_of_succ_lt hn)) g k
    · rw [Finset.sum_range_succ, ← h4 g]
      exact step_4 V c ⟨n + 1, hn⟩ (scr1 V c n (Nat.lt_of_succ_lt hn)) g

end Points

/-! ## What the region writes back: the accumulators after the last point -/

section Last
open Cert.KernelIdeal.Hand
variable (V : (c : Dev nD) → (b : Ref sig .tc) → Buf (Elt Ideal) ((c : Thread nD τ).loc b)) (c : Dev nD)

theorem h55 : 55 < cfg1.N := Nat.lt_of_lt_of_eq (by decide : 55 < 56) N_1.symm

/-- the last grid point -/
def tLast : Fin cfg1.N := ⟨55, h55⟩

theorem flushed_5 (t : Fin cfg1.N) (hf : (cfg1.win 5).flush t = true) :
    (dat1 V c).flushed 5 t = ((cfg1.win 5).blk t).view.read (Elt Ideal) ((scr1 V c 55 h55).1) := by
  have hN : cfg1.N = 56 := N_1
  have h1 : t.val = 55 := by have := (flush1_5 t).mp hf; have := t.isLt; omega
  obtain rfl : t = tLast := Fin.ext h1
  show (cfg1.win 5).cut (grid1.coords tLast) ((dat1 V c).after 5 tLast) = _
  rw [after1_5]
  have hz' : (fun a => win1_5.index tLast a * main_v30_0.ty.shape.size a) = fun _ => 0 := funext fun a => by fin_cases a <;> decide +kernel
  exact (Memref.read_access_unit_zero (Elt Ideal) main_v30_0 hz' (fun a => by rw [congrFun hz' a]; simp) _).symm

theorem arrAt_5 : (dat1 V c).arrAt 5 cfg1.N = (scr1 V c 55 h55).1 :=
  (dat1 V c).arrAt_eq_of_cover 5 ((scr1 V c 55 h55).1) (flushed_5 V c) fun i =>
    ⟨tLast, (flush1_5 tLast).mpr rfl, by
      show i ∈ ((View.whole main_v30_0).slice (win1_5.rect tLast)).set
      rw [View.set_slice_whole, Rect.mem_set_unit]
      intro a
      have h0 : (i 0 : Nat) < 1 := (i 0).isLt
      have h1 : (i 1 : Nat) < 128 := (i 1).isLt
      match a with
      | ⟨0, _⟩ => show win1_5.index tLast 0 * win1_5.size 0 ≤ (i 0 : Nat) ∧ (i 0 : Nat) < win1_5.index tLast 0 * win1_5.size 0 + win1_5.xsize (grid1.coords tLast) 0
                  rw [show win1_5.index tLast 0 * win1_5.size 0 = 0 from by decide +kernel, show win1_5.xsize (grid1.coords tLast) 0 = 1 from by decide +kernel]; omega
      | ⟨1, _⟩ => show win1_5.index tLast 1 * win1_5.size 1 ≤ (i 1 : Nat) ∧ (i 1 : Nat) < win1_5.index tLast 1 * win1_5.size 1 + win1_5.xsize (grid1.coords tLast) 1
                  rw [show win1_5.index tLast 1 * win1_5.size 1 = 0 from by decide +kernel, show win1_5.xsize (grid1.coords tLast) 1 = 128 from by decide +kernel]; omega⟩

theorem flushed_6 (t : Fin cfg1.N) (hf : (cfg1.win 6).flush t = true) :
    (dat1 V c).flushed 6 t = ((cfg1.win 6).blk t).view.read (Elt Ideal) ((scr1 V c 55 h55).2.1) := by
  have hN : cfg1.N = 56 := N_1
  have h1 : t.val = 55 := by have := (flush1_6 t).mp hf; have := t.isLt; omega
  obtain rfl : t = tLast := Fin.ext h1
  show (cfg1.win 6).cut (grid1.coords tLast) ((dat1 V c).after 6 tLast) = _
  rw [after1_6]
  have hz' : (fun a => win1_6.index tLast a * main_v30_1.ty.shape.size a) = fun _ => 0 := funext fun a => by fin_cases a <;> decide +kernel
  exact (Memref.read_access_unit_zero (Elt Ideal) main_v30_1 hz' (fun a => by rw [congrFun hz' a]; simp) _).symm

theorem arrAt_6 : (dat1 V c).arrAt 6 cfg1.N = (scr1 V c 55 h55).2.1 :=
  (dat1 V c).arrAt_eq_of_cover 6 ((scr1 V c 55 h55).2.1) (flushed_6 V c) fun i =>
    ⟨tLast, (flush1_6 tLast).mpr rfl, by
      show i ∈ ((View.whole main_v30_1).slice (win1_6.rect tLast)).set
      rw [View.set_slice_whole, Rect.mem_set_unit]
      intro a
      have h0 : (i 0 : Nat) < 1 := (i 0).isLt
      have h1 : (i 1 : Nat) < 128 := (i 1).isLt
      match a with
      | ⟨0, _⟩ => show win1_6.index tLast 0 * win1_6.size 0 ≤ (i 0 : Nat) ∧ (i 0 : Nat) < win1_6.index tLast 0 * win1_6.size 0 + win1_6.xsize (grid1.coords tLast) 0
                  rw [show win1_6.index tLast 0 * win1_6.size 0 = 0 from by decide +kernel, show win1_6.xsize (grid1.coords tLast) 0 = 1 from by decide +kernel]; omega
      | ⟨1, _⟩ => show win1_6.index tLast 1 * win1_6.size 1 ≤ (i 1 : Nat) ∧ (i 1 : Nat) < win1_6.index tLast 1 * win1_6.size 1 + win1_6.xsize (grid1.coords tLast) 1
                  rw [show win1_6.index tLast 1 * win1_6.size 1 = 0 from by decide +kernel, show win1_6.xsize (grid1.coords tLast) 1 = 128 from by decide +kernel]; omega⟩

theorem flushed_7 (t : Fin cfg1.N) (hf : (cfg1.win 7).flush t = true) :
    (dat1 V c).flushed 7 t = ((cfg1.win 7).blk t).view.read (Elt Ideal) ((scr1 V c 55 h55).2.2.1) := by
  have hN : cfg1.N = 56 := N_1
  have h1 : t.val = 55 := by have := (flush1_7 t).mp hf; have := t.isLt; omega
  obtain rfl : t = tLast := Fin.ext h1
  show (cfg1.win 7).cut (grid1.coords tLast) ((dat1 V c).after 7 tLast) = _
  rw [after1_7]
  have hz' : (fun a => win1_7.index tLast a * main_v30_2.ty.shape.size a) = fun _ => 0 := funext fun a => by fin_cases a <;> decide +kernel
  exact (Memref.read_access_unit_zero (Elt Ideal) main_v30_2 hz' (fun a => by rw [congrFun hz' a]; simp) _).symm

theorem arrAt_7 : (dat1 V c).arrAt 7 cfg1.N = (scr1 V c 55 h55).2.2.1 :=
  (dat1 V c).arrAt_eq_of_cover 7 ((scr1 V c 55 h55).2.2.1) (flushed_7 V c) fun i =>
    ⟨tLast, (flush1_7 tLast).mpr rfl, by
      show i ∈ ((View.whole main_v30_2).slice (win1_7.rect tLast)).set
      rw [View.set_slice_whole, Rect.mem_set_unit]
      intro a
      have h0 : (i 0 : Nat) < 512 := (i 0).isLt
      have h1 : (i 1 : Nat) < 128 := (i 1).isLt
      match a with
      | ⟨0, _⟩ => show win1_7.index tLast 0 * win1_7.size 0 ≤ (i 0 : Nat) ∧ (i 0 : Nat) < win1_7.index tLast 0 * win1_7.size 0 + win1_7.xsize (grid1.coords tLast) 0
                  rw [show win1_7.index tLast 0 * win1_7.size 0 = 0 from by decide +kernel, show win1_7.xsize (grid1.coords tLast) 0 = 512 from by decide +kernel]; omega
      | ⟨1, _⟩ => show win1_7.index tLast 1 * win1_7.size 1 ≤ (i 1 : Nat) ∧ (i 1 : Nat) < win1_7.index tLast 1 * win1_7.size 1 + win1_7.xsize (grid1.coords tLast) 1
                  rw [show win1_7.index tLast 1 * win1_7.size 1 = 0 from by decide +kernel, show win1_7.xsize (grid1.coords tLast) 1 = 128 from by decide +kernel]; omega⟩

theorem flushed_8 (t : Fin cfg1.N) (hf : (cfg1.win 8).flush t = true) :
    (dat1 V c).flushed 8 t = ((cfg1.win 8).blk t).view.read (Elt Ideal) ((scr1 V c 55 h55).2.2.2) := by
  have hN : cfg1.N = 56 := N_1
  have h1 : t.val = 55 := by have := (flush1_8 t).mp hf; have := t.isLt; omega
  obtain rfl : t = tLast := Fin.ext h1
  show (cfg1.win 8).cut (grid1.coords tLast) ((dat1 V c).after 8 tLast) = _
  rw [after1_8]
  have hz' : (fun a => win1_8.index tLast a * main_v30_3.ty.shape.size a) = fun _ => 0 := funext fun a => by fin_cases a <;> decide +kernel
  exact (Memref.read_access_unit_zero (Elt Ideal) main_v30_3 hz' (fun a => by rw [congrFun hz' a]; simp) _).symm

theorem arrAt_8 : (dat1 V c).arrAt 8 cfg1.N = (scr1 V c 55 h55).2.2.2 :=
  (dat1 V c).arrAt_eq_of_cover 8 ((scr1 V c 55 h55).2.2.2) (flushed_8 V c) fun i =>
    ⟨tLast, (flush1_8 tLast).mpr rfl, by
      show i ∈ ((View.whole main_v30_3).slice (win1_8.rect tLast)).set
      rw [View.set_slice_whole, Rect.mem_set_unit]
      intro a
      have h0 : (i 0 : Nat) < 512 := (i 0).isLt
      have h1 : (i 1 : Nat) < 1 := (i 1).isLt
      match a with
      | ⟨0, _⟩ => show win1_8.index tLast 0 * win1_8.size 0 ≤ (i 0 : Nat) ∧ (i 0 : Nat) < win1_8.index tLast 0 * win1_8.size 0 + win1_8.xsize (grid1.coords tLast) 0
                  rw [show win1_8.index tLast 0 * win1_8.size 0 = 0 from by decide +kernel, show win1_8.xsize (grid1.coords tLast) 0 = 512 from by decide +kernel]; omega
      | ⟨1, _⟩ => show win1_8.index tLast 1 * win1_8.size 1 ≤ (i 1 : Nat) ∧ (i 1 : Nat) < win1_8.index tLast 1 * win1_8.size 1 + win1_8.xsize (grid1.coords tLast) 1
                  rw [show win1_8.index tLast 1 * win1_8.size 1 = 0 from by decide +kernel, show win1_8.xsize (grid1.coords tLast) 1 = 1 from by decide +kernel]; omega⟩

end Last

theorem reg1_sum (V : (c : Dev nD) → (b : Ref sig .tc) → Buf (Elt Ideal) ((c : Thread nD τ).loc b)) (c : Dev nD) (k : Fin 128) : rdAt S1x128 ((Cert.KernelIdeal.Hand.dat1 V c).arrAt 5 cfg1.N) (ix2 (0 : Fin 1) k) = ∑ i : Fin 100352, rowV V c i k := by
  have e := congrFun (arrAt_5 V c) (ix2 (0 : Fin 1) k)
  refine e.trans ?_
  rw [(scr1_inv V c 55 h55).1 k]
  exact sum_tiles _

theorem reg1_sumsq (V : (c : Dev nD) → (b : Ref sig .tc) → Buf (Elt Ideal) ((c : Thread nD τ).loc b)) (c : Dev nD) (k : Fin 128) : rdAt S1x128 ((Cert.KernelIdeal.Hand.dat1 V c).arrAt 6 cfg1.N) (ix2 (0 : Fin 1) k) = ∑ i : Fin 100352, rowV V c i k * rowV V c i k := by
  have e := congrFun (arrAt_6 V c) (ix2 (0 : Fin 1) k)
  refine e.trans ?_
  rw [(scr1_inv V c 55 h55).2.1 k]
  exact sum_tiles _

theorem reg1_pool (V : (c : Dev nD) → (b : Ref sig .tc) → Buf (Elt Ideal) ((c : Thread nD τ).loc b)) (c : Dev nD) (g : Fin 512) (k : Fin 128) : rdAt S512x128 ((Cert.KernelIdeal.Hand.dat1 V c).arrAt 7 cfg1.N) (ix2 g k) = ∑ i : Fin 100352, ohV V c g i * rowV V c i k := by
  have e := congrFun (arrAt_7 V c) (ix2 g k)
  refine e.trans ?_
  rw [(scr1_inv V c 55 h55).2.2.1 g k]
  exact sum_tiles _

theorem reg1_cnt (V : (c : Dev nD) → (b : Ref sig .tc) → Buf (Elt Ideal) ((c : Thread nD τ).loc b)) (c : Dev nD) (g : Fin 512) : rdAt S512x1 ((Cert.KernelIdeal.Hand.dat1 V c).arrAt 8 cfg1.N) (ix2 g (0 : Fin 1)) = ∑ i : Fin 100352, ohV V c g i := by
  have e := congrFun (arrAt_8 V c) (ix2 g (0 : Fin 1))
  refine e.trans ?_
  rw [(scr1_inv V c 55 h55).2.2.2 g]
  exact sum_tiles _

end Cert.KerVal

end
-- ==== Proof.KerVal2.lean ====
/-
  The kernel program after its second region: the host stretch that turns the four accumulated statistics into
  the normalised per-graph means, and the third region's three dense layers, each read at an index.
-/
import proofs.«417852_j54494545052225_3_alg».proof.Proof.KerGlue
import proofs.«417852_j54494545052225_3_alg».proof.Proof.KI.Dat2
import proofs.«417852_j54494545052225_3_alg».proof.Proof.Gen.KernelIdeal.Regions
import proofs.«417852_j54494545052225_3_alg».proof.Proof.LibRowGatherScatter
import proofs.«417852_j54494545052225_3_alg».proof.Proof.LibVecScatterAdd
import Idealize.ShloMosaic.Lib.StableHlo.Run
import Idealize.ShloMosaic.Lib.Pipeline.Value
import Idealize.ShloMosaic.Lib.ValueIdx
import Idealize.ShloMosaic.PureOps.Ideal.Laws
import Idealize.ShloMosaic.Lib.IdealHost

set_option maxRecDepth 16384

noncomputable section

namespace Cert.KerVal

open Idealize.ShloMosaic Idealize.ShloMosaic.TcCoe Idealize.ShloMosaic.ValueIdx Idealize.SL.Sem Cert.KernelIdeal Cert.KernelIdeal.Gen
open Cert.ReferenceIdeal.Hand

variable (m : (ℓ : Loc nD τ sig) → Buf (Elt Ideal) ℓ) (c : Dev nD)

/-! ## The host stretch after the second region -/

/-- The normalised per-graph means as the host operations compose them, from the column sums `s`, the column sums
    of squares `q`, the per-graph sums `p`, the per-graph counts `n`, the scale `ga` and the shift `be`. -/
def normPool (s q : FVec Ideal S1x128 .f32) (p : FVec Ideal S512x128 .f32) (n : FVec Ideal S512x1 .f32)
    (ga be : FVec Ideal S128 .f32) : FVec Ideal S512x128 .f32 :=
  have v31 : FVec Ideal S1x128 .f32 := broadcastInDim S1x128 ![] bcast_S_S1x128 (constant (F := Ideal) S_ .f32 0x47C35000#32)
  have v32 : FVec Ideal S1x128 .f32 := Host.divf s v31
  have v33 : FVec Ideal S1x128 .f32 := broadcastInDim S1x128 ![] bcast_S_S1x128 (constant (F := Ideal) S_ .f32 0x47C35000#32)
  have v34 : FVec Ideal S1x128 .f32 := Host.divf q v33
  have v35 : FVec Ideal S1x128 .f32 := mulf v32 v32
  have v36 : FVec Ideal S1x128 .f32 := subf v34 v35
  have v37 : FVec Ideal S1x128 .f32 := broadcastInDim S1x128 ![] bcast_S_S1x128 (constant (F := Ideal) S_ .f32 0x00000000#32)
  have v38 : FVec Ideal S1x128 .f32 := maximumf v36 v37
  have v39 : FVec Ideal S1x128 .f32 := broadcastInDim S1x128 ![] bcast_S_S1x128 (constant (F := Ideal) S_ .f32 0x3727C5AC#32)
  have v40 : FVec Ideal S1x128 .f32 := addf v38 v39
  have v41 : FVec Ideal S1x128 .f32 := Host.rsqrt v40
  have v42 : FVec Ideal S512x1 .f32 := broadcastInDim S512x1 ![] bcast_S_S512x1 (constant (F := Ideal) S_ .f32 0x3F800000#32)
  have v43 : FVec Ideal S512x1 .f32 := maximumf n v42
  have v44 : FVec Ideal S512x128 .f32 := broadcastInDim S512x128 ![0, 1] bcast_S512x1_S512x128_0_1 v43
  have v45 : FVec Ideal S512x128 .f32 := Host.divf p v44
  have v46 : FVec Ideal S1x128 .f32 := shapeCast S1x128 ga shapeCasts_S128_S1x128
  have v47 : FVec Ideal S1x128 .f32 := shapeCast S1x128 be shapeCasts_S128_S1x128
  have v48 : FVec Ideal S512x1 .f32 := broadcastInDim S512x1 ![] bcast_S_S512x1 (constant (F := Ideal) S_ .f32 0x00000000#32)
  have v49 : IVec S512x1 1 := cmpf .ogt n v48
  have v50 : FVec Ideal S512x128 .f32 := broadcastInDim S512x128 ![0, 1] bcast_S1x128_S512x128_0_1 v32
  have v51 : FVec Ideal S512x128 .f32 := subf v45 v50
  have v52 : FVec Ideal S512x128 .f32 := broadcastInDim S512x128 ![0, 1] bcast_S1x128_S512x128_0_1 v41
  have v53 : FVec Ideal S512x128 .f32 := mulf v51 v52
  have v54 : FVec Ideal S512x128 .f32 := broadcastInDim S512x128 ![0, 1] bcast_S1x128_S512x128_0_1 v46
  have v55 : FVec Ideal S512x128 .f32 := mulf v53 v54
  have v56 : FVec Ideal S512x128 .f32 := broadcastInDim S512x128 ![0, 1] bcast_S1x128_S512x128_0_1 v47
  have v57 : FVec Ideal S512x128 .f32 := addf v55 v56
  have w1 : IVec S512x128 1 := broadcastInDim S512x128 ![0, 1] bcast_S512x1_S512x128_0_1 v49
  have w2 : FVec Ideal S512x128 .f32 := broadcastInDim S512x128 ![] bcast_S_S512x128 (constant (F := Ideal) S_ .f32 0x00000000#32)
  select w1 v57 w2

set_option maxHeartbeats 1000000 in
/-- What the three host stretches leave in the buffer of the normalised per-graph means, from any contents. -/
theorem after_v58 (W : Valuation τ sig (Elt Ideal)) :
    StableHlo.after hostOps2_2 (StableHlo.after hostOps2_1 (StableHlo.after hostOps2 W)) (Proc.devRef .tc main_v58)
      = normPool (W (Proc.devRef .tc main_v30_0)) (W (Proc.devRef .tc main_v30_1)) (W (Proc.devRef .tc main_v30_2))
          (W (Proc.devRef .tc main_v30_3)) (W (Proc.devRef .tc main_arg5)) (W (Proc.devRef .tc main_arg6)) := by
  after_results_simp
  rfl

/-! ## Words and small operations read at an index -/

/-- the word of the node count -/
theorem ofBits_nodes : Ideal.ofBits .f32 0x47C35000#32 = ((100000 : ℝ) : EReal) := by
  simp [Ideal.ofBits, Ideal.ieee, -EReal.coe_mul]; norm_num

/-- the host's reciprocal square root at an index -/
theorem hostRsqrt_apply {s : Shape} {φ : FTy} (a : FVec Ideal s φ) (i : s.Idx) :
    Host.rsqrt a i = Ideal.rsqrt (a i) := rfl

/-- a select on "the first operand is positive" is the `if` on that order -/
theorem select_pos (x a b : EReal) : Scalar.select (Ideal.cmp .ogt x 0) a b = if 0 < x then a else b := by
  unfold Ideal.cmp Scalar.select
  by_cases h : (0 : EReal) < x
  · simp [h]
  · simp [h]

/-- a vector of 128 entries as a row, at (0, k): the vector at k -/
theorem rowOf128_apply {α : Type} (v : S128.Idx → α) (k : Fin 128) :
    shapeCast S1x128 v shapeCasts_S128_S1x128 (ix2 (0 : Fin 1) k) = v (ix1 k) := by
  refine shapeCast_apply v shapeCasts_S128_S1x128 _ (ix1 k) ?_
  rw [Shape.rowMajor_val_two, Shape.rowMajor_val_one]
  show k.val = 0 * 128 + k.val
  omega

/-- The composed host operations at graph `g`, feature `k`. -/
theorem normPool_apply (s q : FVec Ideal S1x128 .f32) (p : FVec Ideal S512x128 .f32) (n : FVec Ideal S512x1 .f32)
    (ga be : FVec Ideal S128 .f32) (g : Fin 512) (k : Fin 128) :
    normPool s q p n ga be (ix2 g k)
      = if 0 < n (ix2 g (0 : Fin 1)) then
          (Ideal.div (p (ix2 g k)) (max (n (ix2 g (0 : Fin 1))) 1) - Ideal.div (s (ix2 (0 : Fin 1) k)) Cert.Spec.nF)
            * Ideal.rsqrt (max (Ideal.div (q (ix2 (0 : Fin 1) k)) Cert.Spec.nF
                - Ideal.div (s (ix2 (0 : Fin 1) k)) Cert.Spec.nF * Ideal.div (s (ix2 (0 : Fin 1) k)) Cert.Spec.nF) 0 + Cert.Spec.eps)
            * ga (ix1 k) + be (ix1 k)
        else 0 := by
  unfold normPool
  simp only [select_apply, addf_apply, mulf_apply, subf_apply, hostDivf_apply]
  rw [bcastFeat_apply bcast_S512x1_S512x128_0_1, bcastFeat_apply bcast_S512x1_S512x128_0_1,
    bcastRows_apply bcast_S1x128_S512x128_0_1, bcastRows_apply bcast_S1x128_S512x128_0_1,
    bcastRows_apply bcast_S1x128_S512x128_0_1, bcastRows_apply bcast_S1x128_S512x128_0_1,
    bcastScalar_apply bcast_S_S512x128]
  simp only [cmpf_apply, maximumf_apply, hostDivf_apply, hostRsqrt_apply, addf_apply, subf_apply, mulf_apply]
  rw [bcastScalar_apply bcast_S_S512x1, bcastScalar_apply bcast_S_S512x1,
    bcastScalar_apply bcast_S_S1x128, bcastScalar_apply bcast_S_S1x128, bcastScalar_apply bcast_S_S1x128,
    rowOf128_apply, rowOf128_apply]
  simp only [constant_apply, Ideal.cmpf_def, Ideal.ofBits_zero_f32, Ideal.ofBits_one_f32, ofBits_nodes, select_pos]

/-! ## The arguments the host stretch reads are as launched -/

theorem V8_main_arg5 (outs : Gen.Outs (F := Ideal)) : Gen.V8 m outs c main_arg5 = m ((c : Thread nD τ).loc main_arg5) :=
  (V8_of m outs c main_arg5 (by decide)).trans <| (V7_of m outs c main_arg5 (by decide)).trans <| (V6_of m outs c main_arg5 (by decide)).trans <| (V5_of m outs c main_arg5 (by decide)).trans <| (V4_of m c main_arg5 (by decide)).trans <| (V3_of m c main_arg5 (by decide)).trans <| (V2_of m c main_arg5 (by decide)).trans <| (V1_of m c main_arg5 (by decide)).trans rfl

theorem V8_main_arg6 (outs : Gen.Outs (F := Ideal)) : Gen.V8 m outs c main_arg6 = m ((c : Thread nD τ).loc main_arg6) :=
  (V8_of m outs c main_arg6 (by decide)).trans <| (V7_of m outs c main_arg6 (by decide)).trans <| (V6_of m outs c main_arg6 (by decide)).trans <| (V5_of m outs c main_arg6 (by decide)).trans <| (V4_of m c main_arg6 (by decide)).trans <| (V3_of m c main_arg6 (by decide)).trans <| (V2_of m c main_arg6 (by decide)).trans <| (V1_of m c main_arg6 (by decide)).trans rfl

/-! ## The normalised per-graph means, as the third region finds them -/

theorem g_entry (outs : Gen.Outs (F := Ideal))
    (hsum : ∀ k : Fin 128, (Gen.V8 m outs c main_v30_0 : S1x128.Idx → EReal) (ix2 (0 : Fin 1) k) = Cert.Spec.sumK (inpK m c) k)
    (hsq : ∀ k : Fin 128, (Gen.V8 m outs c main_v30_1 : S1x128.Idx → EReal) (ix2 (0 : Fin 1) k) = Cert.Spec.sumsqK (inpK m c) k)
    (hpool : ∀ (g : Fin 512) (k : Fin 128), (Gen.V8 m outs c main_v30_2 : S512x128.Idx → EReal) (ix2 g k) = Cert.Spec.poolK (inpK m c) g k)
    (hcnt : ∀ g : Fin 512, (Gen.V8 m outs c main_v30_3 : S512x1.Idx → EReal) (ix2 g (0 : Fin 1)) = Cert.Spec.cntK (inpK m c) g)
    (g : Fin 512) (k : Fin 128) :
    (Gen.V11 m outs c main_v58 : S512x128.Idx → EReal) (ix2 g k) = Cert.Spec.gK (inpK m c) g k := by
  refine (congrFun (after_v58 (Gen.V8 m outs c)) (ix2 g k)).trans ?_
  rw [normPool_apply]
  have e5 : Gen.V8 m outs c (Proc.devRef .tc main_arg5) = m ((c : Thread nD τ).loc main_arg5) := V8_main_arg5 m c outs
  have e6 : Gen.V8 m outs c (Proc.devRef .tc main_arg6) = m ((c : Thread nD τ).loc main_arg6) := V8_main_arg6 m c outs
  rw [e5, e6]
  have c3 := hcnt g
  have c2 := hpool g k
  have c0 := hsum k
  have c1 := hsq k
  rw [c3, c2, c0, c1]
  rfl

/-! ## The third region: a matrix product into a zero accumulator, read at an index -/

theorem lhs1_0 (i : S512x256.Idx) (q : dot_S512x128_S128x256_S512x256_1_0_0_1_n_n.contr.Idx) :
    (dot_S512x128_S128x256_S512x256_1_0_0_1_n_n.lhsIdx i q 0).val = (i 0).val := by
  unfold DotDims.lhsIdx
  rw [dif_neg (show ¬(0 : Fin S512x128.rank) ∈ dot_S512x128_S128x256_S512x256_1_0_0_1_n_n.lhsBatch by decide), dif_pos (show (0 : Fin S512x128.rank) ∈ dot_S512x128_S128x256_S512x256_1_0_0_1_n_n.lhsNonContracting by decide)]
  rfl
theorem lhs1_1 (i : S512x256.Idx) (q : dot_S512x128_S128x256_S512x256_1_0_0_1_n_n.contr.Idx) :
    (dot_S512x128_S128x256_S512x256_1_0_0_1_n_n.lhsIdx i q 1).val = (q ⟨0, by decide⟩).val :=
  dot_S512x128_S128x256_S512x256_1_0_0_1_n_n.lhsIdx_val_of_single rfl i q
theorem rhs1_0 (i : S512x256.Idx) (q : dot_S512x128_S128x256_S512x256_1_0_0_1_n_n.contr.Idx) :
    (dot_S512x128_S128x256_S512x256_1_0_0_1_n_n.rhsIdx i q 0).val = (q ⟨0, by decide⟩).val :=
  dot_S512x128_S128x256_S512x256_1_0_0_1_n_n.rhsIdx_val_of_single rfl i q
theorem rhs1_1 (i : S512x256.Idx) (q : dot_S512x128_S128x256_S512x256_1_0_0_1_n_n.contr.Idx) :
    (dot_S512x128_S128x256_S512x256_1_0_0_1_n_n.rhsIdx i q 1).val = (i 1).val := by
  unfold DotDims.rhsIdx
  rw [dif_neg (show ¬(1 : Fin S128x256.rank) ∈ dot_S512x128_S128x256_S512x256_1_0_0_1_n_n.rhsBatch by decide), dif_pos (show (1 : Fin S128x256.rank) ∈ dot_S512x128_S128x256_S512x256_1_0_0_1_n_n.rhsNonContracting by decide)]
  rfl
/-- the first product at (r, j): the sum over the 128 inner positions -/
theorem mm1 {φ₁ φ₂ : FTy} (a : FVec Ideal S512x128 φ₁) (b : FVec Ideal S128x256 φ₂) (r : Fin 512) (j : Fin 256) :
    matmul dot_S512x128_S128x256_S512x256_1_0_0_1_n_n none a b (constant (F := Ideal) S512x256 .f32 0x00000000#32) (ix2 r j)
      = ∑ k : Fin 128, a (ix2 r k) * b (ix2 k j) := by
  show FloatOps.matmul _ none a b (constant (F := Ideal) _ .f32 0x00000000#32) (ix2 r j) = _
  rw [Ideal.matmul_constant_zero_apply, ← Equiv.sum_comp (contrEquiv1 dot_S512x128_S128x256_S512x256_1_0_0_1_n_n 128 rfl rfl).symm]
  refine Finset.sum_congr rfl fun k _ => ?_
  have hk := contrEquiv1_symm_val dot_S512x128_S128x256_S512x256_1_0_0_1_n_n 128 rfl rfl k
  have el : dot_S512x128_S128x256_S512x256_1_0_0_1_n_n.lhsIdx (ix2 r j) ((contrEquiv1 dot_S512x128_S128x256_S512x256_1_0_0_1_n_n 128 rfl rfl).symm k) = ix2 r k := funext fun a => Fin.ext (by
    match a with
    | ⟨0, _⟩ => exact lhs1_0 _ _
    | ⟨1, _⟩ => exact (lhs1_1 _ _).trans hk)
  have er : dot_S512x128_S128x256_S512x256_1_0_0_1_n_n.rhsIdx (ix2 r j) ((contrEquiv1 dot_S512x128_S128x256_S512x256_1_0_0_1_n_n 128 rfl rfl).symm k) = ix2 k j := funext fun a => Fin.ext (by
    match a with
    | ⟨0, _⟩ => exact (rhs1_0 _ _).trans hk
    | ⟨1, _⟩ => exact rhs1_1 _ _)
  rw [el, er]
/-- a bias row spread over the 512 rows, at (r, j): the row at (0, j) -/
theorem biasRow1 {α : Type} (v : S1x256.Idx → α) (r : Fin 512) (j : Fin 256) :
    broadcastTo S512x256 v broadcasts_S1x256_S512x256 (ix2 r j) = v (ix2 (0 : Fin 1) j) := by
  refine broadcastTo_apply v broadcasts_S1x256_S512x256 _ (ix2 (0 : Fin 1) j) fun a => ?_
  match a with
  | ⟨0, _⟩ => rfl
  | ⟨1, _⟩ =>
    have h : ¬ (S1x256.size ⟨1, by decide⟩ = 1) := by decide
    exact (if_neg h).symm

theorem lhs2_0 (i : S512x128.Idx) (q : dot_S512x256_S256x128_S512x128_1_0_0_1_n_n.contr.Idx) :
    (dot_S512x256_S256x128_S512x128_1_0_0_1_n_n.lhsIdx i q 0).val = (i 0).val := by
  unfold DotDims.lhsIdx
  rw [dif_neg (show ¬(0 : Fin S512x256.rank) ∈ dot_S512x256_S256x128_S512x128_1_0_0_1_n_n.lhsBatch by decide), dif_pos (show (0 : Fin S512x256.rank) ∈ dot_S512x256_S256x128_S512x128_1_0_0_1_n_n.lhsNonContracting by decide)]
  rfl
theorem lhs2_1 (i : S512x128.Idx) (q : dot_S512x256_S256x128_S512x128_1_0_0_1_n_n.contr.Idx) :
    (dot_S512x256_S256x128_S512x128_1_0_0_1_n_n.lhsIdx i q 1).val = (q ⟨0, by decide⟩).val :=
  dot_S512x256_S256x128_S512x128_1_0_0_1_n_n.lhsIdx_val_of_single rfl i q
theorem rhs2_0 (i : S512x128.Idx) (q : dot_S512x256_S256x128_S512x128_1_0_0_1_n_n.contr.Idx) :
    (dot_S512x256_S256x128_S512x128_1_0_0_1_n_n.rhsIdx i q 0).val = (q ⟨0, by decide⟩).val :=
  dot_S512x256_S256x128_S512x128_1_0_0_1_n_n.rhsIdx_val_of_single rfl i q
theorem rhs2_1 (i : S512x128.Idx) (q : dot_S512x256_S256x128_S512x128_1_0_0_1_n_n.contr.Idx) :
    (dot_S512x256_S256x128_S512x128_1_0_0_1_n_n.rhsIdx i q 1).val = (i 1).val := by
  unfold DotDims.rhsIdx
  rw [dif_neg (show ¬(1 : Fin S256x128.rank) ∈ dot_S512x256_S256x128_S512x128_1_0_0_1_n_n.rhsBatch by decide), dif_pos (show (1 : Fin S256x128.rank) ∈ dot_S512x256_S256x128_S512x128_1_0_0_1_n_n.rhsNonContracting by decide)]
  rfl
/-- the second product at (r, j): the sum over the 256 inner positions -/
theorem mm2 {φ₁ φ₂ : FTy} (a : FVec Ideal S512x256 φ₁) (b : FVec Ideal S256x128 φ₂) (r : Fin 512) (j : Fin 128) :
    matmul dot_S512x256_S256x128_S512x128_1_0_0_1_n_n none a b (constant (F := Ideal) S512x128 .f32 0x00000000#32) (ix2 r j)
      = ∑ k : Fin 256, a (ix2 r k) * b (ix2 k j) := by
  show FloatOps.matmul _ none a b (constant (F := Ideal) _ .f32 0x00000000#32) (ix2 r j) = _
  rw [Ideal.matmul_constant_zero_apply, ← Equiv.sum_comp (contrEquiv1 dot_S512x256_S256x128_S512x128_1_0_0_1_n_n 256 rfl rfl).symm]
  refine Finset.sum_congr rfl fun k _ => ?_
  have hk := contrEquiv1_symm_val dot_S512x256_S256x128_S512x128_1_0_0_1_n_n 256 rfl rfl k
  have el : dot_S512x256_S256x128_S512x128_1_0_0_1_n_n.lhsIdx (ix2 r j) ((contrEquiv1 dot_S512x256_S256x128_S512x128_1_0_0_1_n_n 256 rfl rfl).symm k) = ix2 r k := funext fun a => Fin.ext (by
    match a with
    | ⟨0, _⟩ => exact lhs2_0 _ _
    | ⟨1, _⟩ => exact (lhs2_1 _ _).trans hk)
  have er : dot_S512x256_S256x128_S512x128_1_0_0_1_n_n.rhsIdx (ix2 r j) ((contrEquiv1 dot_S512x256_S256x128_S512x128_1_0_0_1_n_n 256 rfl rfl).symm k) = ix2 k j := funext fun a => Fin.ext (by
    match a with
    | ⟨0, _⟩ => exact (rhs2_0 _ _).trans hk
    | ⟨1, _⟩ => exact rhs2_1 _ _)
  rw [el, er]
/-- a bias row spread over the 512 rows, at (r, j): the row at (0, j) -/
theorem biasRow2 {α : Type} (v : S1x128.Idx → α) (r : Fin 512) (j : Fin 128) :
    broadcastTo S512x128 v broadcasts_S1x128_S512x128 (ix2 r j) = v (ix2 (0 : Fin 1) j) := by
  refine broadcastTo_apply v broadcasts_S1x128_S512x128 _ (ix2 (0 : Fin 1) j) fun a => ?_
  match a with
  | ⟨0, _⟩ => rfl
  | ⟨1, _⟩ =>
    have h : ¬ (S1x128.size ⟨1, by decide⟩ = 1) := by decide
    exact (if_neg h).symm

theorem lhsD3_0 (i : S512x1.Idx) (q : dot_S512x128_S128x1_S512x1_1_0_0_1_n_n.contr.Idx) :
    (dot_S512x128_S128x1_S512x1_1_0_0_1_n_n.lhsIdx i q 0).val = (i 0).val := by
  unfold DotDims.lhsIdx
  rw [dif_neg (show ¬(0 : Fin S512x128.rank) ∈ dot_S512x128_S128x1_S512x1_1_0_0_1_n_n.lhsBatch by decide), dif_pos (show (0 : Fin S512x128.rank) ∈ dot_S512x128_S128x1_S512x1_1_0_0_1_n_n.lhsNonContracting by decide)]
  rfl
theorem lhsD3_1 (i : S512x1.Idx) (q : dot_S512x128_S128x1_S512x1_1_0_0_1_n_n.contr.Idx) :
    (dot_S512x128_S128x1_S512x1_1_0_0_1_n_n.lhsIdx i q 1).val = (q ⟨0, by decide⟩).val :=
  dot_S512x128_S128x1_S512x1_1_0_0_1_n_n.lhsIdx_val_of_single rfl i q
theorem rhsD3_0 (i : S512x1.Idx) (q : dot_S512x128_S128x1_S512x1_1_0_0_1_n_n.contr.Idx) :
    (dot_S512x128_S128x1_S512x1_1_0_0_1_n_n.rhsIdx i q 0).val = (q ⟨0, by decide⟩).val :=
  dot_S512x128_S128x1_S512x1_1_0_0_1_n_n.rhsIdx_val_of_single rfl i q
theorem rhsD3_1 (i : S512x1.Idx) (q : dot_S512x128_S128x1_S512x1_1_0_0_1_n_n.contr.Idx) :
    (dot_S512x128_S128x1_S512x1_1_0_0_1_n_n.rhsIdx i q 1).val = (i 1).val := by
  unfold DotDims.rhsIdx
  rw [dif_neg (show ¬(1 : Fin S128x1.rank) ∈ dot_S512x128_S128x1_S512x1_1_0_0_1_n_n.rhsBatch by decide), dif_pos (show (1 : Fin S128x1.rank) ∈ dot_S512x128_S128x1_S512x1_1_0_0_1_n_n.rhsNonContracting by decide)]
  rfl
/-- the third product at (r, j): the sum over the 128 inner positions -/
theorem mm3 {φ₁ φ₂ : FTy} (a : FVec Ideal S512x128 φ₁) (b : FVec Ideal S128x1 φ₂) (r : Fin 512) (j : Fin 1) :
    matmul dot_S512x128_S128x1_S512x1_1_0_0_1_n_n none a b (constant (F := Ideal) S512x1 .f32 0x00000000#32) (ix2 r j)
      = ∑ k : Fin 128, a (ix2 r k) * b (ix2 k j) := by
  show FloatOps.matmul _ none a b (constant (F := Ideal) _ .f32 0x00000000#32) (ix2 r j) = _
  rw [Ideal.matmul_constant_zero_apply, ← Equiv.sum_comp (contrEquiv1 dot_S512x128_S128x1_S512x1_1_0_0_1_n_n 128 rfl rfl).symm]
  refine Finset.sum_congr rfl fun k _ => ?_
  have hk := contrEquiv1_symm_val dot_S512x128_S128x1_S512x1_1_0_0_1_n_n 128 rfl rfl k
  have el : dot_S512x128_S128x1_S512x1_1_0_0_1_n_n.lhsIdx (ix2 r j) ((contrEquiv1 dot_S512x128_S128x1_S512x1_1_0_0_1_n_n 128 rfl rfl).symm k) = ix2 r k := funext fun a => Fin.ext (by
    match a with
    | ⟨0, _⟩ => exact lhsD3_0 _ _
    | ⟨1, _⟩ => exact (lhsD3_1 _ _).trans hk)
  have er : dot_S512x128_S128x1_S512x1_1_0_0_1_n_n.rhsIdx (ix2 r j) ((contrEquiv1 dot_S512x128_S128x1_S512x1_1_0_0_1_n_n 128 rfl rfl).symm k) = ix2 k j := funext fun a => Fin.ext (by
    match a with
    | ⟨0, _⟩ => exact (rhsD3_0 _ _).trans hk
    | ⟨1, _⟩ => exact rhsD3_1 _ _)
  rw [el, er]
/-- a bias row spread over the 512 rows, at (r, j): the row at (0, j) -/
theorem biasRow3 {α : Type} (v : S1x1.Idx → α) (r : Fin 512) (j : Fin 1) :
    broadcastTo S512x1 v broadcasts_S1x1_S512x1 (ix2 r j) = v (ix2 (0 : Fin 1) j) := by
  refine broadcastTo_apply v broadcasts_S1x1_S512x1 _ (ix2 (0 : Fin 1) j) fun a => ?_
  match a with
  | ⟨0, _⟩ => rfl
  | ⟨1, _⟩ =>
    have hj : j = 0 := Subsingleton.elim _ _
    subst hj
    have h : S1x1.size ⟨1, by decide⟩ = 1 := by decide
    exact (if_pos h).symm

/-- the zero scalar -/
theorem scalar_zero : (Scalar.ofBits (F := Ideal) .f32 0x00000000#32 : EReal) = 0 := Ideal.ofBits_zero_f32

/-- THE BODY'S PAYLOAD AT ROW `r`: the three dense layers of the seven blocks. -/
theorem payMlp_apply (x0 : Vec Ideal S512x128 .f32) (x1 : Vec Ideal S128x256 .f32) (x2 : Vec Ideal S1x256 .f32) (x3 : Vec Ideal S256x128 .f32)
    (x4 : Vec Ideal S1x128 .f32) (x5 : Vec Ideal S128x1 .f32) (x6 : Vec Ideal S1x1 .f32) (r : Fin 512) :
    k2_pay1 (F := Ideal) x0 x1 x2 x3 x4 x5 x6 (ix2 r (0 : Fin 1))
      = Cert.Spec.mlp (fun g k => x0 (ix2 g k)) (fun k a => x1 (ix2 k a)) (fun a => x2 (ix2 (0 : Fin 1) a))
          (fun a d => x3 (ix2 a d)) (fun d => x4 (ix2 (0 : Fin 1) d)) (fun d => x5 (ix2 d (0 : Fin 1))) (x6 (ix2 (0 : Fin 1) (0 : Fin 1))) r := by
  unfold k2_pay1 Cert.Spec.mlp
  simp only [shapeCast_self, addf_apply, maximumf_apply, truncf_apply, mm1, mm2, mm3, biasRow1, biasRow2, biasRow3, broadcast_apply, scalar_zero]

/-! ## The third region's grid is one point, and each window's block there is its whole array -/

theorem zeros2 : (![0, 0] : Fin 2 → Nat) = fun _ => 0 := funext fun a => by fin_cases a <;> rfl

/-- At the one point every window's block index is zero on both axes. -/
theorem index_zero : ∀ t : Fin cfg2.N,
    win2_0.index t (0 : Fin 2) = 0 ∧ win2_0.index t (1 : Fin 2) = 0 ∧
    win2_1.index t (0 : Fin 2) = 0 ∧ win2_1.index t (1 : Fin 2) = 0 ∧
    win2_2.index t (0 : Fin 2) = 0 ∧ win2_2.index t (1 : Fin 2) = 0 ∧
    win2_3.index t (0 : Fin 2) = 0 ∧ win2_3.index t (1 : Fin 2) = 0 ∧
    win2_4.index t (0 : Fin 2) = 0 ∧ win2_4.index t (1 : Fin 2) = 0 ∧
    win2_5.index t (0 : Fin 2) = 0 ∧ win2_5.index t (1 : Fin 2) = 0 ∧
    win2_6.index t (0 : Fin 2) = 0 ∧ win2_6.index t (1 : Fin 2) = 0 ∧
    win2_7.index t (0 : Fin 2) = 0 ∧ win2_7.index t (1 : Fin 2) = 0 :=
  (by decide +kernel : ∀ t : Fin grid2.N, _)

/-- window 0's block at the point is its array as the region finds it -/
theorem block0 (V : (c : Dev nD) → (b : Ref sig .tc) → Buf (Elt Ideal) ((c : Thread nD τ).loc b)) (t : Fin cfg2.N) :
    Cert.KernelIdeal.Hand.iblk2 V c 0 t = (V c main_v58 : S512x128.Idx → EReal) := by
  have hz := index_zero t
  funext y
  show V c main_v58 (((cfg2.win 0).blk t).view.emb y) = V c main_v58 y
  refine congrArg (V c main_v58) (funext fun a => Fin.ext ?_)
  match a with
  | ⟨0, _⟩ => show win2_0.index t (0 : Fin 2) * 512 + 1 * (y 0).val = (y 0).val; omega
  | ⟨1, _⟩ => show win2_0.index t (1 : Fin 2) * 128 + 1 * (y 1).val = (y 1).val; omega

/-- window 1's block at the point is its array as the region finds it -/
theorem block1 (V : (c : Dev nD) → (b : Ref sig .tc) → Buf (Elt Ideal) ((c : Thread nD τ).loc b)) (t : Fin cfg2.N) :
    Cert.KernelIdeal.Hand.iblk2 V c 1 t = (V c main_arg7 : S128x256.Idx → EReal) := by
  have hz := index_zero t
  funext y
  show V c main_arg7 (((cfg2.win 1).blk t).view.emb y) = V c main_arg7 y
  refine congrArg (V c main_arg7) (funext fun a => Fin.ext ?_)
  match a with
  | ⟨0, _⟩ => show win2_1.index t (0 : Fin 2) * 128 + 1 * (y 0).val = (y 0).val; omega
  | ⟨1, _⟩ => show win2_1.index t (1 : Fin 2) * 256 + 1 * (y 1).val = (y 1).val; omega

/-- window 2's block at the point is its array as the region finds it -/
theorem block2 (V : (c : Dev nD) → (b : Ref sig .tc) → Buf (Elt Ideal) ((c : Thread nD τ).loc b)) (t : Fin cfg2.N) :
    Cert.KernelIdeal.Hand.iblk2 V c 2 t = (V c main_v59 : S1x256.Idx → EReal) := by
  have hz := index_zero t
  funext y
  show V c main_v59 (((cfg2.win 2).blk t).view.emb y) = V c main_v59 y
  refine congrArg (V c main_v59) (funext fun a => Fin.ext ?_)
  match a with
  | ⟨0, _⟩ => show win2_2.index t (0 : Fin 2) * 1 + 1 * (y 0).val = (y 0).val; omega
  | ⟨1, _⟩ => show win2_2.index t (1 : Fin 2) * 256 + 1 * (y 1).val = (y 1).val; omega

/-- window 3's block at the point is its array as the region finds it -/
theorem block3 (V : (c : Dev nD) → (b : Ref sig .tc) → Buf (Elt Ideal) ((c : Thread nD τ).loc b)) (t : Fin cfg2.N) :
    Cert.KernelIdeal.Hand.iblk2 V c 3 t = (V c main_arg9 : S256x128.Idx → EReal) := by
  have hz := index_zero t
  funext y
  show V c main_arg9 (((cfg2.win 3).blk t).view.emb y) = V c main_arg9 y
  refine congrArg (V c main_arg9) (funext fun a => Fin.ext ?_)
  match a with
  | ⟨0, _⟩ => show win2_3.index t (0 : Fin 2) * 256 + 1 * (y 0).val = (y 0).val; omega
  | ⟨1, _⟩ => show win2_3.index t (1 : Fin 2) * 128 + 1 * (y 1).val = (y 1).val; omega

/-- window 4's block at the point is its array as the region finds it -/
theorem block4 (V : (c : Dev nD) → (b : Ref sig .tc) → Buf (Elt Ideal) ((c : Thread nD τ).loc b)) (t : Fin cfg2.N) :
    Cert.KernelIdeal.Hand.iblk2 V c 4 t = (V c main_v60 : S1x128.Idx → EReal) := by
  have hz := index_zero t
  funext y
  show V c main_v60 (((cfg2.win 4).blk t).view.emb y) = V c main_v60 y
  refine congrArg (V c main_v60) (funext fun a => Fin.ext ?_)
  match a with
  | ⟨0, _⟩ => show win2_4.index t (0 : Fin 2) * 1 + 1 * (y 0).val = (y 0).val; omega
  | ⟨1, _⟩ => show win2_4.index t (1 : Fin 2) * 128 + 1 * (y 1).val = (y 1).val; omega

/-- window 5's block at the point is its array as the region finds it -/
theorem block5 (V : (c : Dev nD) → (b : Ref sig .tc) → Buf (Elt Ideal) ((c : Thread nD τ).loc b)) (t : Fin cfg2.N) :
    Cert.KernelIdeal.Hand.iblk2 V c 5 t = (V c main_arg11 : S128x1.Idx → EReal) := by
  have hz := index_zero t
  funext y
  show V c main_arg11 (((cfg2.win 5).blk t).view.emb y) = V c main_arg11 y
  refine congrArg (V c main_arg11) (funext fun a => Fin.ext ?_)
  match a with
  | ⟨0, _⟩ => show win2_5.index t (0 : Fin 2) * 128 + 1 * (y 0).val = (y 0).val; omega
  | ⟨1, _⟩ => show win2_5.index t (1 : Fin 2) * 1 + 1 * (y 1).val = (y 1).val; omega

/-- window 6's block at the point is its array as the region finds it -/
theorem block6 (V : (c : Dev nD) → (b : Ref sig .tc) → Buf (Elt Ideal) ((c : Thread nD τ).loc b)) (t : Fin cfg2.N) :
    Cert.KernelIdeal.Hand.iblk2 V c 6 t = (V c main_v61 : S1x1.Idx → EReal) := by
  have hz := index_zero t
  funext y
  show V c main_v61 (((cfg2.win 6).blk t).view.emb y) = V c main_v61 y
  refine congrArg (V c main_v61) (funext fun a => Fin.ext ?_)
  match a with
  | ⟨0, _⟩ => show win2_6.index t (0 : Fin 2) * 1 + 1 * (y 0).val = (y 0).val; omega
  | ⟨1, _⟩ => show win2_6.index t (1 : Fin 2) * 1 + 1 * (y 1).val = (y 1).val; omega

/-- What the point writes back is the payload of the seven whole arrays, as its block of the result array. -/
theorem flushed7 (V : (c : Dev nD) → (b : Ref sig .tc) → Buf (Elt Ideal) ((c : Thread nD τ).loc b)) (t : Fin cfg2.N) :
    (Cert.KernelIdeal.Hand.dat2 V c).flushed 7 t
      = ((cfg2.win 7).blk t).view.read (Elt Ideal)
          (k2_pay1 (F := Ideal) (V c main_v58) (V c main_arg7) (V c main_v59) (V c main_arg9) (V c main_v60) (V c main_arg11) (V c main_v61)) := by
  show (cfg2.win 7).cut (grid2.coords t) ((Cert.KernelIdeal.Hand.dat2 V c).after 7 t) = _
  rw [Cert.KernelIdeal.Hand.after2_7]
  unfold Cert.KernelIdeal.Hand.out2_7
  rw [View.canon_unit_zero zeros2]
  simp only [View.ld_unit_zero (S := S512x128) zeros2, View.ld_unit_zero (S := S128x256) zeros2, View.ld_unit_zero (S := S1x256) zeros2,
    View.ld_unit_zero (S := S256x128) zeros2, View.ld_unit_zero (S := S1x128) zeros2, View.ld_unit_zero (S := S128x1) zeros2,
    View.ld_unit_zero (S := S1x1) zeros2]
  rw [block0, block1, block2, block3, block4, block5, block6]
  generalize k2_pay1 (F := Ideal) (V c main_v58) (V c main_arg7) (V c main_v59) (V c main_arg9) (V c main_v60) (V c main_arg11) (V c main_v61) = P
  have hz := index_zero t
  funext y
  show P y = P (((cfg2.win 7).blk t).view.emb y)
  refine congrArg P (funext fun a => Fin.ext ?_)
  match a with
  | ⟨0, _⟩ => show (y 0).val = win2_7.index t (0 : Fin 2) * 512 + 1 * (y 0).val; omega
  | ⟨1, _⟩ => show (y 1).val = win2_7.index t (1 : Fin 2) * 1 + 1 * (y 1).val; omega

/-- An index of the result array is in the point's block iff each coordinate is in the block's range. -/
theorem mem_block7 (t : Fin cfg2.N) (i : S512x1.Idx) :
    i ∈ ((cfg2.win 7).blk t).view.set ↔ ∀ a : Fin 2, win2_7.index t a * S512x1.size a ≤ (i a).val ∧ (i a).val < win2_7.index t a * S512x1.size a + S512x1.size a := by
  show i ∈ ((View.whole main_v62).slice (win2_7.rect t)).set ↔ _
  rw [View.set_slice_whole, Rect.mem_set_unit]
  exact Iff.rfl

/-- region 2's result array, for ANY entry contents V: the three dense layers of what it finds -/
theorem reg2_array (V : (c : Dev nD) → (b : Ref sig .tc) → Buf (Elt Ideal) ((c : Thread nD τ).loc b)) (r : Fin 512) :
    ((Cert.KernelIdeal.Hand.dat2 V c).arrAt 7 cfg2.N : S512x1.Idx → EReal) (ix2 r (0 : Fin 1))
      = Cert.Spec.mlp (fun g k => (V c main_v58 : S512x128.Idx → EReal) (ix2 g k)) (fun k a => (V c main_arg7 : S128x256.Idx → EReal) (ix2 k a)) (fun a => (V c main_v59 : S1x256.Idx → EReal) (ix2 (0 : Fin 1) a))
          (fun a d => (V c main_arg9 : S256x128.Idx → EReal) (ix2 a d)) (fun d => (V c main_v60 : S1x128.Idx → EReal) (ix2 (0 : Fin 1) d)) (fun d => (V c main_arg11 : S128x1.Idx → EReal) (ix2 d (0 : Fin 1))) ((V c main_v61 : S1x1.Idx → EReal) (ix2 (0 : Fin 1) (0 : Fin 1))) r := by
  have hfin := (Cert.KernelIdeal.Hand.dat2 V c).arrAt_eq_of_cover 7
    (k2_pay1 (F := Ideal) (V c main_v58) (V c main_arg7) (V c main_v59) (V c main_arg9) (V c main_v60) (V c main_arg11) (V c main_v61))
    (fun t _ => flushed7 c V t) (fun i => by
      have t0 : Fin cfg2.N := ⟨0, by decide⟩
      have hz := index_zero t0
      refine ⟨t0, flush2_7 t0, (mem_block7 t0 i).mpr fun a => ?_⟩
      match a with
      | ⟨0, _⟩ =>
        show win2_7.index t0 (0 : Fin 2) * 512 ≤ (i 0).val ∧ (i 0).val < win2_7.index t0 (0 : Fin 2) * 512 + 512
        have := (i 0).isLt
        have h512 : (i 0).val < 512 := this
        omega
      | ⟨1, _⟩ =>
        show win2_7.index t0 (1 : Fin 2) * 1 ≤ (i 1).val ∧ (i 1).val < win2_7.index t0 (1 : Fin 2) * 1 + 1
        have := (i 1).isLt
        have h1 : (i 1).val < 1 := this
        omega)
  refine (congrFun hfin (ix2 r (0 : Fin 1))).trans ?_
  exact payMlp_apply _ _ _ _ _ _ _ r

/-! ## The kernel program's result -/

/-- a vector of 256 entries as a row, at (0, a): the vector at a -/
theorem rowOf256_apply {α : Type} (v : S256.Idx → α) (a : Fin 256) :
    shapeCast S1x256 v shapeCasts_S256_S1x256 (ix2 (0 : Fin 1) a) = v (ix1 a) := by
  refine shapeCast_apply v shapeCasts_S256_S1x256 _ (ix1 a) ?_
  rw [Shape.rowMajor_val_two, Shape.rowMajor_val_one]
  show a.val = 0 * 256 + a.val
  omega

/-- a vector of one entry as a row, at (0, 0): the vector at 0 -/
theorem rowOf1_apply {α : Type} (v : S1.Idx → α) (a : Fin 1) :
    shapeCast S1x1 v shapeCasts_S1_S1x1 (ix2 (0 : Fin 1) a) = v (ix1 a) := by
  refine shapeCast_apply v shapeCasts_S1_S1x1 _ (ix1 a) ?_
  rw [Shape.rowMajor_val_two, Shape.rowMajor_val_one]
  show a.val = 0 * 1 + a.val
  omega

/-- What the last host stretch leaves in the three bias rows, from any contents. -/
theorem after_v59 (W : Valuation τ sig (Elt Ideal)) :
    StableHlo.after hostOps2_2 W (Proc.devRef .tc main_v59) = shapeCast S1x256 (W (Proc.devRef .tc main_arg8)) shapeCasts_S256_S1x256 := by
  after_results
  rfl
theorem after_v60 (W : Valuation τ sig (Elt Ideal)) :
    StableHlo.after hostOps2_2 W (Proc.devRef .tc main_v60) = shapeCast S1x128 (W (Proc.devRef .tc main_arg10)) shapeCasts_S128_S1x128 := by
  after_results
  rfl
theorem after_v61 (W : Valuation τ sig (Elt Ideal)) :
    StableHlo.after hostOps2_2 W (Proc.devRef .tc main_v61) = shapeCast S1x1 (W (Proc.devRef .tc main_arg12)) shapeCasts_S1_S1x1 := by
  after_results
  rfl

/-- the weights are as launched when the third region is entered -/
theorem V11_main_arg7 (outs : Gen.Outs (F := Ideal)) : Gen.V11 m outs c main_arg7 = m ((c : Thread nD τ).loc main_arg7) :=
  (V12_of m outs c main_arg7 (by decide)).symm.trans (V12_main_arg7 m outs c)
theorem V11_main_arg9 (outs : Gen.Outs (F := Ideal)) : Gen.V11 m outs c main_arg9 = m ((c : Thread nD τ).loc main_arg9) :=
  (V12_of m outs c main_arg9 (by decide)).symm.trans (V12_main_arg9 m outs c)
theorem V11_main_arg11 (outs : Gen.Outs (F := Ideal)) : Gen.V11 m outs c main_arg11 = m ((c : Thread nD τ).loc main_arg11) :=
  (V12_of m outs c main_arg11 (by decide)).symm.trans (V12_main_arg11 m outs c)
/-- and so are the biases before the last host stretch -/
theorem V10_main_arg8 (outs : Gen.Outs (F := Ideal)) : Gen.V10 m outs c main_arg8 = m ((c : Thread nD τ).loc main_arg8) :=
  ((V12_of m outs c main_arg8 (by decide)).trans (V11_of m outs c main_arg8 (by decide))).symm.trans (V12_main_arg8 m outs c)
theorem V10_main_arg10 (outs : Gen.Outs (F := Ideal)) : Gen.V10 m outs c main_arg10 = m ((c : Thread nD τ).loc main_arg10) :=
  ((V12_of m outs c main_arg10 (by decide)).trans (V11_of m outs c main_arg10 (by decide))).symm.trans (V12_main_arg10 m outs c)
theorem V10_main_arg12 (outs : Gen.Outs (F := Ideal)) : Gen.V10 m outs c main_arg12 = m ((c : Thread nD τ).loc main_arg12) :=
  ((V12_of m outs c main_arg12 (by decide)).trans (V11_of m outs c main_arg12 (by decide))).symm.trans (V12_main_arg12 m outs c)

/-- the bias rows at an index: the bias vectors as launched -/
theorem V11_v59 (outs : Gen.Outs (F := Ideal)) (a : Fin 256) :
    (Gen.V11 m outs c main_v59 : S1x256.Idx → EReal) (ix2 (0 : Fin 1) a) = (m ((c.tc : Thread nD τ).loc main_arg8) : S256.Idx → EReal) (Cert.Glue.iv a) := by
  refine (congrFun (after_v59 (Gen.V10 m outs c)) (ix2 (0 : Fin 1) a)).trans ?_
  have e : Gen.V10 m outs c (Proc.devRef .tc main_arg8) = m ((c : Thread nD τ).loc main_arg8) := V10_main_arg8 m c outs
  rw [rowOf256_apply, e]
theorem V11_v60 (outs : Gen.Outs (F := Ideal)) (d : Fin 128) :
    (Gen.V11 m outs c main_v60 : S1x128.Idx → EReal) (ix2 (0 : Fin 1) d) = (m ((c.tc : Thread nD τ).loc main_arg10) : S128.Idx → EReal) (Cert.Glue.iv d) := by
  refine (congrFun (after_v60 (Gen.V10 m outs c)) (ix2 (0 : Fin 1) d)).trans ?_
  have e : Gen.V10 m outs c (Proc.devRef .tc main_arg10) = m ((c : Thread nD τ).loc main_arg10) := V10_main_arg10 m c outs
  rw [rowOf128_apply, e]
theorem V11_v61 (outs : Gen.Outs (F := Ideal)) (a : Fin 1) :
    (Gen.V11 m outs c main_v61 : S1x1.Idx → EReal) (ix2 (0 : Fin 1) a) = (m ((c.tc : Thread nD τ).loc main_arg12) : S1.Idx → EReal) (Cert.Glue.iv a) := by
  refine (congrFun (after_v61 (Gen.V10 m outs c)) (ix2 (0 : Fin 1) a)).trans ?_
  have e : Gen.V10 m outs c (Proc.devRef .tc main_arg12) = m ((c : Thread nD τ).loc main_arg12) := V10_main_arg12 m c outs
  rw [rowOf1_apply, e]

/-- the kernel program's result entry -/
theorem result_entry (outs : Gen.Outs (F := Ideal))
    (hg : ∀ (g : Fin 512) (k : Fin 128), (Gen.V11 m outs c main_v58 : S512x128.Idx → EReal) (ix2 g k) = Cert.Spec.gK (inpK m c) g k)
    (h12 : outs 12 main_v62 c = (Cert.KernelIdeal.Hand.dat2 (fun c b => Gen.V11 m outs c b) c).arrAt 7 cfg2.N) (r : Fin 512) :
    (Gen.V12 m outs c main_v62 : S512x1.Idx → EReal) (ix2 r (0 : Fin 1))
      = Cert.Spec.mlp (Cert.Spec.gK (inpK m c)) (fun k a => (m ((c.tc : Thread nD τ).loc main_arg7) : S128x256.Idx → EReal) (ix2 k a)) (fun a => (m ((c.tc : Thread nD τ).loc main_arg8) : S256.Idx → EReal) (Cert.Glue.iv a))
          (fun a d => (m ((c.tc : Thread nD τ).loc main_arg9) : S256x128.Idx → EReal) (ix2 a d)) (fun d => (m ((c.tc : Thread nD τ).loc main_arg10) : S128.Idx → EReal) (Cert.Glue.iv d)) (fun d => (m ((c.tc : Thread nD τ).loc main_arg11) : S128x1.Idx → EReal) (ix2 d (0 : Fin 1))) ((m ((c.tc : Thread nD τ).loc main_arg12) : S1.Idx → EReal) (Cert.Glue.iv (0 : Fin 1))) r := by
  have e : Gen.V12 m outs c main_v62 = outs 12 main_v62 c := by
    show Function.update (Gen.V11 m outs c) (Proc.devRef .tc main_v62) (outs 12 main_v62 c) (Proc.devRef .tc main_v62) = _
    exact Function.update_self ..
  have h := reg2_array c (fun c b => Gen.V11 m outs c b) r
  rw [← h12, ← e] at h
  refine h.trans ?_
  have e7 : Gen.V11 m outs c (Proc.devRef .tc main_arg7) = m ((c : Thread nD τ).loc main_arg7) := V11_main_arg7 m c outs
  have e9 : Gen.V11 m outs c (Proc.devRef .tc main_arg9) = m ((c : Thread nD τ).loc main_arg9) := V11_main_arg9 m c outs
  have e11 : Gen.V11 m outs c (Proc.devRef .tc main_arg11) = m ((c : Thread nD τ).loc main_arg11) := V11_main_arg11 m c outs
  simp only [hg, V11_v59 m c outs, V11_v60 m c outs, V11_v61 m c outs, e7, e9, e11]

end Cert.KerVal

end
-- ==== Proof.KerVal.lean ====
/-
  The kernel program's result entry as the specification's kernel side followed by the dense layers: the scaled linear
  map (region 0) feeds the edge sums, both feed the masked row sums (region 1), whose four results are normalised into
  the per-graph means that the dense layers (region 2) read.
-/
import proofs.«417852_j54494545052225_3_alg».proof.Proof.KerVal0
import proofs.«417852_j54494545052225_3_alg».proof.Proof.KerVal1a
import proofs.«417852_j54494545052225_3_alg».proof.Proof.KerVal1b
import proofs.«417852_j54494545052225_3_alg».proof.Proof.KerVal2

set_option maxRecDepth 16384

noncomputable section

namespace Cert.KerVal

open Idealize.ShloMosaic Idealize.ShloMosaic.TcCoe Idealize.ShloMosaic.ValueIdx Idealize.SL.Sem Cert.KernelIdeal Cert.KernelIdeal.Gen

variable (m : (ℓ : Loc nD τ sig) → Buf (Elt Ideal) ℓ) (c : Dev nD) (outs : Gen.Outs (F := Ideal))

/-! ## What region 1 leaves, read off the valuation after it -/

theorem V8_v30_3 : Gen.V8 m outs c main_v30_3 = outs 8 main_v30_3 c := by
  simp only [Gen.V8, Function.update_self]

theorem V8_v30_2 : Gen.V8 m outs c main_v30_2 = outs 8 main_v30_2 c := by
  simp only [Gen.V8, Function.update_self,
    Function.update_of_ne (StableHlo.devRef_ne_of_ne (by decide : main_v30_2 ≠ main_v30_3) : (Proc.devRef .tc main_v30_2 : DevRef τ sig) ≠ Proc.devRef .tc main_v30_3)]

theorem V8_v30_1 : Gen.V8 m outs c main_v30_1 = outs 8 main_v30_1 c := by
  simp only [Gen.V8, Function.update_self,
    Function.update_of_ne (StableHlo.devRef_ne_of_ne (by decide : main_v30_1 ≠ main_v30_3) : (Proc.devRef .tc main_v30_1 : DevRef τ sig) ≠ Proc.devRef .tc main_v30_3),
    Function.update_of_ne (StableHlo.devRef_ne_of_ne (by decide : main_v30_1 ≠ main_v30_2) : (Proc.devRef .tc main_v30_1 : DevRef τ sig) ≠ Proc.devRef .tc main_v30_2)]

theorem V8_v30_0 : Gen.V8 m outs c main_v30_0 = outs 8 main_v30_0 c := by
  simp only [Gen.V8, Function.update_self,
    Function.update_of_ne (StableHlo.devRef_ne_of_ne (by decide : main_v30_0 ≠ main_v30_3) : (Proc.devRef .tc main_v30_0 : DevRef τ sig) ≠ Proc.devRef .tc main_v30_3),
    Function.update_of_ne (StableHlo.devRef_ne_of_ne (by decide : main_v30_0 ≠ main_v30_2) : (Proc.devRef .tc main_v30_0 : DevRef τ sig) ≠ Proc.devRef .tc main_v30_2),
    Function.update_of_ne (StableHlo.devRef_ne_of_ne (by decide : main_v30_0 ≠ main_v30_1) : (Proc.devRef .tc main_v30_0 : DevRef τ sig) ≠ Proc.devRef .tc main_v30_1)]

/-! ## The chain -/

/-- Given what the three regions leave (each region's result arrays as its proof data's final arrays at the region's
    entry contents) and source words that name nodes, entry r of the result is the dense layers of the kernel side's
    normalised per-graph means. -/
theorem ker_result
    (h5 : outs 5 main_v16 c = (Cert.KernelIdeal.Hand.dat0 (fun c b => Gen.V4 m c b) c).arrAt 3 cfg0.N)
    (h80 : outs 8 main_v30_0 c = (Cert.KernelIdeal.Hand.dat1 (fun c b => Gen.V7 m outs c b) c).arrAt 5 cfg1.N)
    (h81 : outs 8 main_v30_1 c = (Cert.KernelIdeal.Hand.dat1 (fun c b => Gen.V7 m outs c b) c).arrAt 6 cfg1.N)
    (h82 : outs 8 main_v30_2 c = (Cert.KernelIdeal.Hand.dat1 (fun c b => Gen.V7 m outs c b) c).arrAt 7 cfg1.N)
    (h83 : outs 8 main_v30_3 c = (Cert.KernelIdeal.Hand.dat1 (fun c b => Gen.V7 m outs c b) c).arrAt 8 cfg1.N)
    (h12 : outs 12 main_v62 c = (Cert.KernelIdeal.Hand.dat2 (fun c b => Gen.V11 m outs c b) c).arrAt 7 cfg2.N)
    (hs : SrcOkK m c) (r : Fin 512) :
    (Gen.V12 m outs c main_v62 : S512x1.Idx → EReal) (ix2 r (0 : Fin 1))
      = Cert.Spec.mlp (Cert.Spec.gK (inpK m c)) (fun k a => (m ((c.tc : Thread nD τ).loc main_arg7) : S128x256.Idx → EReal) (ix2 k a)) (fun a => (m ((c.tc : Thread nD τ).loc main_arg8) : S256.Idx → EReal) (Cert.Glue.iv a))
          (fun a d => (m ((c.tc : Thread nD τ).loc main_arg9) : S256x128.Idx → EReal) (ix2 a d)) (fun d => (m ((c.tc : Thread nD τ).loc main_arg10) : S128.Idx → EReal) (Cert.Glue.iv d)) (fun d => (m ((c.tc : Thread nD τ).loc main_arg11) : S128x1.Idx → EReal) (ix2 d (0 : Fin 1))) ((m ((c.tc : Thread nD τ).loc main_arg12) : S1.Idx → EReal) (Cert.Glue.iv (0 : Fin 1))) r := by
  have hhp := hp_val m c outs h5
  have hagg := agg_entry m c outs hs hhp
  have hhp7 := hp_entry7 m c outs hhp
  have hdis7 := dis_entry7 m c outs (dis_entry m c)
  have hbg7 := bg_entry7 m c outs
  have hbat7 := bat_entry7 m c outs
  -- a masked row and a row's graph indicator, as region 1 finds them, are the specification's
  have hrow : ∀ (i : Fin 100352) (k : Fin 128), rowV (fun c b => Gen.V7 m outs c b) c i k = Cert.Spec.hbmK (inpK m c) i k := by
    intro i k
    unfold rowV Cert.Spec.hbmK Cert.Spec.hbK
    dsimp only [rdAt]
    rw [hdis7 i, hagg i k, hhp7 i k, hbg7 k]
  have hoh : ∀ (g : Fin 512) (i : Fin 100352), ohV (fun c b => Gen.V7 m outs c b) c g i = Cert.Spec.ohK (inpK m c) g i := by
    intro g i
    unfold ohV Cert.Spec.ohK
    dsimp only [rdW]
    rw [hbat7 i]
  have hsum : ∀ k : Fin 128, (Gen.V8 m outs c main_v30_0 : S1x128.Idx → EReal) (ix2 (0 : Fin 1) k) = Cert.Spec.sumK (inpK m c) k := by
    intro k
    rw [V8_v30_0 m c outs, h80]
    refine (reg1_sum (fun c b => Gen.V7 m outs c b) c k).trans ?_
    unfold Cert.Spec.sumK
    exact Finset.sum_congr rfl fun i _ => hrow i k
  have hsq : ∀ k : Fin 128, (Gen.V8 m outs c main_v30_1 : S1x128.Idx → EReal) (ix2 (0 : Fin 1) k) = Cert.Spec.sumsqK (inpK m c) k := by
    intro k
    rw [V8_v30_1 m c outs, h81]
    refine (reg1_sumsq (fun c b => Gen.V7 m outs c b) c k).trans ?_
    unfold Cert.Spec.sumsqK
    exact Finset.sum_congr rfl fun i _ => by rw [hrow i k]
  have hpool : ∀ (g : Fin 512) (k : Fin 128), (Gen.V8 m outs c main_v30_2 : S512x128.Idx → EReal) (ix2 g k) = Cert.Spec.poolK (inpK m c) g k := by
    intro g k
    rw [V8_v30_2 m c outs, h82]
    refine (reg1_pool (fun c b => Gen.V7 m outs c b) c g k).trans ?_
    unfold Cert.Spec.poolK
    exact Finset.sum_congr rfl fun i _ => by rw [hrow i k, hoh g i]
  have hcnt : ∀ g : Fin 512, (Gen.V8 m outs c main_v30_3 : S512x1.Idx → EReal) (ix2 g (0 : Fin 1)) = Cert.Spec.cntK (inpK m c) g := by
    intro g
    rw [V8_v30_3 m c outs, h83]
    refine (reg1_cnt (fun c b => Gen.V7 m outs c b) c g).trans ?_
    unfold Cert.Spec.cntK
    exact Finset.sum_congr rfl fun i _ => hoh g i
  exact result_entry m c outs (g_entry m c outs hsum hsq hpool hcnt) h12 r

end Cert.KerVal

end
-- ==== Proof.RefGcn.lean ====
/-
  The reference's graph-convolution layer read at an index. The layer sends 1700000 messages (the edges, then one per
  node to itself): the concatenated source and destination words of message e are the specification's srcM and dstM
  read back as words; the degree of a node counts the messages whose destination word is the node; dis is the inverse
  square root of the degree raised to at least 1, kept where the degree is positive; a lookup at a word first counts a
  negative word from the end and then clamps it into the nodes, which is the specification's nodeOf; the linear map is
  the contraction over the features; the messages h[src] · dis[src] · dis[dst] are summed at their destination words
  and the bias is added. Each stage of the reference is read at an index as the corresponding part of the
  specification, and the last one is the layer's output outR.
-/
import proofs.«417852_j54494545052225_3_alg».proof.Proof.RefRead
import proofs.«417852_j54494545052225_3_alg».proof.Proof.Glue
import proofs.«417852_j54494545052225_3_alg».proof.Proof.LibRowGatherScatter
import proofs.«417852_j54494545052225_3_alg».proof.Proof.LibVecScatterAdd
import Idealize.ShloMosaic.Lib.ValueIdx
import Idealize.ShloMosaic.Lib.Pipeline.Value
import Idealize.ShloMosaic.Lib.IdealHost
import Idealize.ShloMosaic.PureOps.Ideal.Laws

noncomputable section

open scoped BigOperators

namespace Cert.RefVal

open Idealize.ShloMosaic Idealize.ShloMosaic.ValueIdx Cert.ReferenceIdeal Cert.ReferenceIdeal.Gen
  Cert.ReferenceIdeal.ReadP Cert.ReferenceIdeal.Hand Cert.Hand.VecScatter Cert.Spec Cert.Glue

/-! ## General lemmas: the rank-1 gather, the wrapped start word as a node, the guarded inverse square root -/

section Gather
variable {α : Type}

/-- The dimension numbers of a gather of single entries of a vector [N] at a column [E, 1] of start words: the one
    operand axis collapsed and indexed, no offset axis. -/
abbrev vecGather (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- The vector gather at e: the vector at the start word of e, read signed and clamped into [0, N − 1]. -/
theorem vecGather_apply {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (vecGather N E wf) x idx (ix1 e)
      = x (ix1 ⟨min (idx (ix2 e 0)).toInt.toNat (N - 1), by omega⟩) := by
  unfold Host.gather
  congr 1
  funext a
  obtain rfl : a = 0 := Subsingleton.elim _ _
  refine Fin.ext ?_
  show (vecGather N E wf).start (ix1 e) idx 0 + (vecGather N E wf).batchCoord (ix1 e) 0
    + (vecGather N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecGather N E wf).startIndexMap from List.mem_singleton.mpr rfl)]
  have hsi : (vecGather N E wf).siIdx (ix1 e) ⟨List.idxOf (0 : Fin 1) (vecGather N E wf).startIndexMap,
      List.idxOf_lt_length_iff.2 (List.mem_singleton.mpr rfl)⟩ = ix2 e 0 := by
    funext b; refine Fin.ext ?_
    match b with
    | ⟨0, _⟩ => rfl
    | ⟨1, _⟩ => rfl
  rw [hsi]
  rfl

end Gather

/-- A negative word plus the node count, read signed, is the sum of the two integers: a word lies in
    [−2³¹, 2³¹) and 100000 is added only to a negative one, so nothing wraps around. -/
theorem wrap_toInt (s : BitVec 32) :
    (if s.toInt < 0 then s + 100000#32 else s).toInt = if s.toInt < 0 then s.toInt + 100000 else s.toInt := by
  split
  · next h =>
    rw [BitVec.toInt_add]
    have h1 : (100000#32 : BitVec 32).toInt = 100000 := by decide
    rw [h1]
    have hlo := BitVec.le_toInt s
    simp only [Int.bmod]
    omega
  · rfl

/-- A number below the node count, as a word read signed, is itself. -/
theorem ofNat_toInt_small (n : Nat) (h : n < 100000) : (BitVec.ofNat 32 n).toInt = (n : ℤ) := by
  have hn : (BitVec.ofNat 32 n).toNat = n := by rw [BitVec.toNat_ofNat]; omega
  rw [BitVec.toInt_eq_toNat_of_lt (by rw [hn]; omega), hn]

/-- The start word of a lookup after the index normalisation (a negative word counts from the end), clamped into the
    nodes, is the node the specification reads off the word. -/
theorem wrap_node (s : BitVec 32)
    (h : min (Scalar.select (IntOp.cmpi .slt s 0#32) (IntOp.addi s 100000#32) s).toInt.toNat (100000 - 1) < 100000) :
    (⟨min (Scalar.select (IntOp.cmpi .slt s 0#32) (IntOp.addi s 100000#32) s).toInt.toNat (100000 - 1), h⟩ : Fin 100000)
      = nodeOf s.toInt := by
  refine Fin.ext ?_
  show min (Scalar.select (IntOp.cmpi .slt s 0#32) (IntOp.addi s 100000#32) s).toInt.toNat (100000 - 1)
    = min (if s.toInt < 0 then s.toInt + 100000 else s.toInt).toNat 99999
  rw [wrap_select, wrap_toInt]

/-- A vector over the nodes gathered at a column of normalised start words: entry e is the vector at the node of e's
    word. -/
theorem vecGather_node {α : Type} {E : Nat}
    (wf : GatherDims.WF ⟨1, ![100000]⟩ ⟨2, ![E, 1]⟩ ⟨1, ![E]⟩ [] [0] [] [0] [] 1 ![1])
    (x : (⟨1, ![100000]⟩ : Shape).Idx → α) (idx : IVec ⟨2, ![E, 1]⟩ 32) (e : Fin E) (s : BitVec 32)
    (hs : idx (ix2 e 0) = Scalar.select (IntOp.cmpi .slt s 0#32) (IntOp.addi s 100000#32) s) :
    Host.gather (vecGather 100000 E wf) x idx (ix1 e) = x (ix1 (nodeOf s.toInt)) := by
  rw [vecGather_apply (by decide)]
  refine congrArg (fun n => x (ix1 n)) ?_
  refine Fin.ext ?_
  show min (idx (ix2 e 0)).toInt.toNat (100000 - 1) = (nodeOf s.toInt).val
  rw [hs]
  exact congrArg Fin.val (wrap_node s (by omega))

/-- A table over the nodes gathered by rows at a column of normalised start words: row e is the table's row at the
    node of e's word. -/
theorem rowGather_node {α : Type} {E D : Nat}
    (wf : GatherDims.WF ⟨2, ![100000, D]⟩ ⟨2, ![E, 1]⟩ ⟨2, ![E, D]⟩ [1] [0] [] [0] [] 1 ![1, D])
    (x : (⟨2, ![100000, D]⟩ : Shape).Idx → α) (idx : IVec ⟨2, ![E, 1]⟩ 32) (e : Fin E) (q : Fin D) (s : BitVec 32)
    (hs : idx (ix2 e 0) = Scalar.select (IntOp.cmpi .slt s 0#32) (IntOp.addi s 100000#32) s) :
    Host.gather (rowGather 100000 E D wf) x idx (ix2 e q) = x (ix2 (nodeOf s.toInt) q) := by
  rw [rowGather_apply (by decide)]
  refine congrArg (fun n => x (ix2 n q)) ?_
  refine Fin.ext ?_
  show min (idx (ix2 e 0)).toInt.toNat (100000 - 1) = (nodeOf s.toInt).val
  rw [hs]
  exact congrArg Fin.val (wrap_node s (by omega))

/-- The inverse square root of a degree raised to at least 1, kept where the degree is positive and 0 elsewhere. -/
theorem dis_select (d : EReal) :
    Scalar.select (FloatOps.cmpf (F := Ideal) (φ := .f32) .ogt d (FloatOps.ofBits (F := Ideal) .f32 0x00000000#32))
        (FloatOps.hostUnary (F := Ideal) (φ := .f32) .rsqrt
          (FloatOps.maximumf (F := Ideal) (φ := .f32) d (FloatOps.ofBits (F := Ideal) .f32 0x3F800000#32)))
        (FloatOps.ofBits (F := Ideal) .f32 0x00000000#32)
      = if 0 < d then Ideal.rsqrt (max d 1) else 0 := by
  rw [Ideal.cmpf_def, Ideal.hostUnary_rsqrt_def, Ideal.maximumf_def, Ideal.ofBits_def, Ideal.ofBits_def,
    Ideal.ofBits_zero_f32, Ideal.ofBits_one_f32]
  unfold Ideal.cmp Scalar.select
  by_cases h : (0 : EReal) < d
  · rw [if_pos h, if_pos (by simp [h])]
  · rw [if_neg h, if_neg (by simp [h])]

/-! ## The reference's layer, stage by stage -/

section Stages

variable (x0 : FVec Ideal ⟨2, ![100000, 128]⟩ .f32) (x1 : IVec ⟨2, ![2, 1600000]⟩ 32) (x2 : IVec ⟨1, ![100000]⟩ 32)
  (x3 : FVec Ideal ⟨2, ![128, 128]⟩ .f32) (x4 x5 x6 : FVec Ideal ⟨1, ![128]⟩ .f32)

/-- The destination word of message e: the edge list's second row at e for an edge, the node's own number after. -/
theorem dstWord (e : Fin 1700000) :
    val_main_v6 (F := Ideal) x1 (ix1 e)
      = if h : e.val < 1600000 then x1 (ix2 (1 : Fin 2) ⟨e.val, h⟩) else BitVec.ofNat 32 (e.val - 1600000) := by
  unfold val_main_v6
  by_cases h : e.val < 1600000
  · rw [dif_pos h, concatenate_pair_apply_left (t := S1700000) (s₁ := S1600000) (s₂ := S100000) (0 : Fin S1700000.rank) _ _ _ (ix1 e)
      rfl (ix1 ⟨e.val, h⟩)
      (fun b => by match b with | ⟨0, _⟩ => rfl), val_main_v5_apply, val_main_v4_apply]
    refine congrArg x1 (funext fun a => Fin.ext ?_)
    match a with
    | ⟨0, _⟩ => rfl
    | ⟨1, _⟩ => exact Nat.mod_eq_of_lt h
  · have he := e.isLt
    rw [dif_neg h, concatenate_pair_apply_right (t := S1700000) (s₁ := S1600000) (s₂ := S100000) (0 : Fin S1700000.rank) _ _ _ (ix1 e)
      rfl rfl
      (ix1 ⟨e.val - 1600000, by omega⟩) (fun b hb => absurd (Subsingleton.elim (α := Fin 1) _ _) hb)
      (by show e.val - 1600000 + 1600000 = e.val; omega)]
    exact val_main_v0_apply _

/-- The source word of message e: the edge list's first row at e for an edge, the node's own number after. -/
theorem srcWord (e : Fin 1700000) :
    val_main_v3 (F := Ideal) x1 (ix1 e)
      = if h : e.val < 1600000 then x1 (ix2 (0 : Fin 2) ⟨e.val, h⟩) else BitVec.ofNat 32 (e.val - 1600000) := by
  unfold val_main_v3
  by_cases h : e.val < 1600000
  · rw [dif_pos h, concatenate_pair_apply_left (t := S1700000) (s₁ := S1600000) (s₂ := S100000) (0 : Fin S1700000.rank) _ _ _ (ix1 e)
      rfl (ix1 ⟨e.val, h⟩)
      (fun b => by match b with | ⟨0, _⟩ => rfl), val_main_v2_apply, val_main_v1_apply]
    refine congrArg x1 (funext fun a => Fin.ext ?_)
    match a with
    | ⟨0, _⟩ => rfl
    | ⟨1, _⟩ => exact Nat.mod_eq_of_lt h
  · have he := e.isLt
    rw [dif_neg h, concatenate_pair_apply_right (t := S1700000) (s₁ := S1600000) (s₂ := S100000) (0 : Fin S1700000.rank) _ _ _ (ix1 e)
      rfl rfl
      (ix1 ⟨e.val - 1600000, by omega⟩) (fun b hb => absurd (Subsingleton.elim (α := Fin 1) _ _) hb)
      (by show e.val - 1600000 + 1600000 = e.val; omega)]
    exact val_main_v0_apply _

/-- The destination word of message e, read signed, is the specification's dstM. -/
theorem dstWord_toInt (e : Fin 1700000) :
    (val_main_v6 (F := Ideal) x1 (ix1 e)).toInt = dstM (inpOf x0 x1 x2 x3 x4 x5 x6) e := by
  rw [dstWord]
  unfold dstM
  by_cases h : e.val < 1600000
  · rw [dif_pos h, dif_pos h]
    rfl
  · have he := e.isLt
    rw [dif_neg h, dif_neg h, ofNat_toInt_small _ (by omega)]
    omega

/-- The source word of message e, read signed, is the specification's srcM: an edge's source word names a node. -/
theorem srcWord_toInt (hs : SrcOk x1) (e : Fin 1700000) :
    (val_main_v3 (F := Ideal) x1 (ix1 e)).toInt = srcM (inpOf x0 x1 x2 x3 x4 x5 x6) e := by
  rw [srcWord]
  unfold srcM
  by_cases h : e.val < 1600000
  · rw [dif_pos h, dif_pos h]
    exact (src_val hs ⟨e.val, h⟩).symm
  · have he := e.isLt
    rw [dif_neg h, dif_neg h, ofNat_toInt_small _ (by omega)]
    omega

/-- The degree of node i: the number of messages whose destination word is i. -/
theorem deg_val (i : Fin 100000) :
    val_main_v10 (F := Ideal) x1 (ix1 i) = degR (inpOf x0 x1 x2 x3 x4 x5 x6) i := by
  unfold val_main_v10
  rw [show scatter_S100000_S1700000x1_S1700000_n_0_0_1
      = vecScatter 100000 1700000 scatter_S100000_S1700000x1_S1700000_n_0_0_1_wf from rfl,
    vecScatterAdd_apply, val_main_v8_apply, val_main_cst_0_apply, Ideal.ofBits_def, Ideal.ofBits_zero_f32, zero_add]
  unfold degR
  refine Finset.sum_congr (Finset.filter_congr fun e _ => ?_) fun e _ => ?_
  · rw [val_main_v9_apply,
      show idx_main_v9 (ix2 e (0 : Fin 1)) = ix1 e from funext fun a => by match a with | ⟨0, _⟩ => rfl,
      dstWord_toInt x0 x1 x2 x3 x4 x5 x6]
  · rw [val_main_v7_apply, val_main_cst_apply, Ideal.ofBits_def, Ideal.ofBits_one_f32]

/-- dis at node i. -/
theorem dis_val (i : Fin 100000) :
    val_main_v16 (F := Ideal) x1 (ix1 i) = disR (inpOf x0 x1 x2 x3 x4 x5 x6) i := by
  rw [val_main_v16_apply, val_main_v12_apply, val_main_v15_apply, val_main_v14_apply, val_main_v11_apply,
    val_main_cst_1_apply, val_main_v13_apply, val_main_cst_2_apply, val_main_call0_v1_apply, val_main_call0_v0_apply,
    val_main_cst_3_apply, deg_val x0 x1 x2 x3 x4 x5 x6, dis_select]
  rfl

/-- The normalised start word of the lookup of dis at the source of message e. -/
theorem srcStart (e : Fin 1700000) :
    val_main_v22 (F := Ideal) x1 (ix2 e (0 : Fin 1))
      = Scalar.select (IntOp.cmpi .slt (val_main_v3 (F := Ideal) x1 (ix1 e)) 0#32)
          (IntOp.addi (val_main_v3 (F := Ideal) x1 (ix1 e)) 100000#32) (val_main_v3 (F := Ideal) x1 (ix1 e)) := by
  rw [val_main_v22_apply,
    show idx_main_v22 (ix2 e (0 : Fin 1)) = ix1 e from funext fun a => by match a with | ⟨0, _⟩ => rfl,
    val_main_v21_apply, val_main_v18_apply, val_main_v20_apply, val_main_v17_apply, val_main_c_apply,
    val_main_v19_apply, val_main_c_4_apply]

/-- The normalised start word of the lookup of dis at the destination of message e. -/
theorem dstStart (e : Fin 1700000) :
    val_main_v29 (F := Ideal) x1 (ix2 e (0 : Fin 1))
      = Scalar.select (IntOp.cmpi .slt (val_main_v6 (F := Ideal) x1 (ix1 e)) 0#32)
          (IntOp.addi (val_main_v6 (F := Ideal) x1 (ix1 e)) 100000#32) (val_main_v6 (F := Ideal) x1 (ix1 e)) := by
  rw [val_main_v29_apply,
    show idx_main_v29 (ix2 e (0 : Fin 1)) = ix1 e from funext fun a => by match a with | ⟨0, _⟩ => rfl,
    val_main_v28_apply, val_main_v25_apply, val_main_v27_apply, val_main_v24_apply, val_main_c_5_apply,
    val_main_v26_apply, val_main_c_6_apply]

/-- The normalised start word of the lookup of the linear map's row at the source of message e. -/
theorem rowStart (e : Fin 1700000) :
    val_main_v38 (F := Ideal) x1 (ix2 e (0 : Fin 1))
      = Scalar.select (IntOp.cmpi .slt (val_main_v3 (F := Ideal) x1 (ix1 e)) 0#32)
          (IntOp.addi (val_main_v3 (F := Ideal) x1 (ix1 e)) 100000#32) (val_main_v3 (F := Ideal) x1 (ix1 e)) := by
  rw [val_main_v38_apply,
    show idx_main_v38 (ix2 e (0 : Fin 1)) = ix1 e from funext fun a => by match a with | ⟨0, _⟩ => rfl,
    val_main_v37_apply, val_main_v34_apply, val_main_v36_apply, val_main_v33_apply, val_main_c_7_apply,
    val_main_v35_apply, val_main_c_8_apply]

/-- dis looked up at the source of message e. -/
theorem disSrc_val (hs : SrcOk x1) (e : Fin 1700000) :
    val_main_v23 (F := Ideal) x1 (ix1 e)
      = disR (inpOf x0 x1 x2 x3 x4 x5 x6) (nodeOf (srcM (inpOf x0 x1 x2 x3 x4 x5 x6) e)) := by
  unfold val_main_v23
  rw [show gather_S100000_S1700000x1_S1700000_n_0_n_n_0_1_1
      = vecGather 100000 1700000 gather_S100000_S1700000x1_S1700000_n_0_n_n_0_1_1_wf from rfl,
    vecGather_node _ _ _ e _ (srcStart x1 e), srcWord_toInt x0 x1 x2 x3 x4 x5 x6 hs, dis_val x0 x1 x2 x3 x4 x5 x6]

/-- dis looked up at the destination of message e. -/
theorem disDst_val (e : Fin 1700000) :
    val_main_v30 (F := Ideal) x1 (ix1 e)
      = disR (inpOf x0 x1 x2 x3 x4 x5 x6) (nodeOf (dstM (inpOf x0 x1 x2 x3 x4 x5 x6) e)) := by
  unfold val_main_v30
  rw [show gather_S100000_S1700000x1_S1700000_n_0_n_n_0_1_1
      = vecGather 100000 1700000 gather_S100000_S1700000x1_S1700000_n_0_n_n_0_1_1_wf from rfl,
    vecGather_node _ _ _ e _ (dstStart x1 e), dstWord_toInt x0 x1 x2 x3 x4 x5 x6, dis_val x0 x1 x2 x3 x4 x5 x6]

/-- The normalisation of message e. -/
theorem norm_val (hs : SrcOk x1) (e : Fin 1700000) :
    val_main_v31 (F := Ideal) x1 (ix1 e) = normR (inpOf x0 x1 x2 x3 x4 x5 x6) e := by
  rw [val_main_v31_apply, Ideal.mulf_def, disSrc_val x0 x1 x2 x3 x4 x5 x6 hs, disDst_val x0 x1 x2 x3 x4 x5 x6]
  rfl

/-- The linear map at node i, feature k. -/
theorem lin_val (i : Fin 100000) (k : Fin 128) :
    val_main_v32 (F := Ideal) x0 x3 (ix2 i k) = hR (inpOf x0 x1 x2 x3 x4 x5 x6) i k := by
  rw [val_main_v32_apply]
  unfold hR
  refine Finset.sum_congr rfl fun j _ => ?_
  rw [show lidx_main_v32 (ix2 i k) j = ix2 i j from
      funext fun a => by match a with | ⟨0, _⟩ => rfl | ⟨1, _⟩ => rfl,
    show ridx_main_v32 (ix2 i k) j = ix2 j k from
      funext fun a => by match a with | ⟨0, _⟩ => rfl | ⟨1, _⟩ => rfl]
  rfl

/-- The linear map's row looked up at the source of message e. -/
theorem linSrc_val (hs : SrcOk x1) (e : Fin 1700000) (k : Fin 128) :
    val_main_v39 (F := Ideal) x0 x1 x3 (ix2 e k)
      = hR (inpOf x0 x1 x2 x3 x4 x5 x6) (nodeOf (srcM (inpOf x0 x1 x2 x3 x4 x5 x6) e)) k := by
  unfold val_main_v39
  rw [show gather_S100000x128_S1700000x1_S1700000x128_1_0_n_n_0_1_1128
      = rowGather 100000 1700000 128 gather_S100000x128_S1700000x1_S1700000x128_1_0_n_n_0_1_1128_wf from rfl,
    rowGather_node _ _ _ e k _ (rowStart x1 e), srcWord_toInt x0 x1 x2 x3 x4 x5 x6 hs, lin_val x0 x1 x2 x3 x4 x5 x6]

/-- Message e at feature k: the looked-up row scaled by the normalisation. -/
theorem msg_val (hs : SrcOk x1) (e : Fin 1700000) (k : Fin 128) :
    val_main_v42 (F := Ideal) x0 x1 x3 (ix2 e k)
      = hR (inpOf x0 x1 x2 x3 x4 x5 x6) (nodeOf (srcM (inpOf x0 x1 x2 x3 x4 x5 x6) e)) k
        * normR (inpOf x0 x1 x2 x3 x4 x5 x6) e := by
  rw [val_main_v42_apply, Ideal.mulf_def, linSrc_val x0 x1 x2 x3 x4 x5 x6 hs, val_main_v41_apply,
    show idx_main_v41 (ix2 e k) = ix2 e (0 : Fin 1) from
      funext fun a => by match a with | ⟨0, _⟩ => rfl | ⟨1, _⟩ => rfl,
    val_main_v40_apply,
    show idx_main_v40 (ix2 e (0 : Fin 1)) = ix1 e from funext fun a => by match a with | ⟨0, _⟩ => rfl,
    norm_val x0 x1 x2 x3 x4 x5 x6 hs]

/-- The messages summed at node i, feature k. -/
theorem agg_val (hs : SrcOk x1) (i : Fin 100000) (k : Fin 128) :
    val_main_v45 (F := Ideal) x0 x1 x3 (ix2 i k)
      = ∑ e ∈ Finset.univ.filter (fun e : Fin NM => dstM (inpOf x0 x1 x2 x3 x4 x5 x6) e = (i.val : ℤ)),
          hR (inpOf x0 x1 x2 x3 x4 x5 x6) (nodeOf (srcM (inpOf x0 x1 x2 x3 x4 x5 x6) e)) k
            * normR (inpOf x0 x1 x2 x3 x4 x5 x6) e := by
  unfold val_main_v45
  rw [show scatter_S100000x128_S1700000x1_S1700000x128_1_0_0_1
      = rowScatter 100000 1700000 128 scatter_S100000x128_S1700000x1_S1700000x128_1_0_0_1_wf from rfl,
    rowScatterAdd_apply, val_main_v43_apply, val_main_cst_9_apply, Ideal.ofBits_def, Ideal.ofBits_zero_f32, zero_add]
  refine Finset.sum_congr (Finset.filter_congr fun e _ => ?_) fun e _ => ?_
  · rw [val_main_v44_apply,
      show idx_main_v44 (ix2 e (0 : Fin 1)) = ix1 e from funext fun a => by match a with | ⟨0, _⟩ => rfl,
      dstWord_toInt x0 x1 x2 x3 x4 x5 x6]
  · exact msg_val x0 x1 x2 x3 x4 x5 x6 hs e k

end Stages

/-- THE LAYER'S OUTPUT at node i, feature k: the messages summed at the node, plus the bias. -/
theorem outR_val (x0 : FVec Ideal ⟨2, ![100000, 128]⟩ .f32) (x1 : IVec ⟨2, ![2, 1600000]⟩ 32)
    (x2 : IVec ⟨1, ![100000]⟩ 32) (x3 : FVec Ideal ⟨2, ![128, 128]⟩ .f32) (x4 x5 x6 : FVec Ideal ⟨1, ![128]⟩ .f32)
    (hs : Cert.Glue.SrcOk x1) (i : Fin 100000) (k : Fin 128) :
    Cert.ReferenceIdeal.ReadP.val_main_v48 (F := Ideal) x0 x1 x3 x4 (ValueIdx.ix2 i k)
      = Cert.Spec.outR (Cert.Glue.inpOf x0 x1 x2 x3 x4 x5 x6) i k := by
  rw [val_main_v48_apply, Ideal.addf_def, agg_val x0 x1 x2 x3 x4 x5 x6 hs, val_main_v47_apply, val_main_v46_apply]
  unfold outR
  refine congrArg (fun b => _ + b) ?_
  refine congrArg x4 (funext fun a => Fin.ext ?_)
  match a with
  | ⟨0, _⟩ => rfl

end Cert.RefVal

end
-- ==== Proof.RefTail.lean ====
/-
  The reference from its graph-convolution output to its result, read at an index.

  Given the layer output h (one row of 128 features per node), the reference takes per feature the mean over the
  100000 nodes and the mean of the squared deviations from it (the variance), normalises every row as
  (h − mean) · rsqrt(variance + guard) · scale + shift, sums the normalised rows and counts the nodes per graph word
  (an accumulating scatter at the graph word read signed), divides the sums by the count or by one for an empty graph,
  and applies three dense layers, the first two followed by a maximum with zero. Each stage is shown, entry by entry,
  to be the specification's formula of the same name; the result is the specification's three dense layers over the
  specification's per-graph means.
-/
import proofs.«417852_j54494545052225_3_alg».proof.Proof.RefRead
import proofs.«417852_j54494545052225_3_alg».proof.Proof.Glue
import proofs.«417852_j54494545052225_3_alg».proof.Proof.LibRowGatherScatter
import proofs.«417852_j54494545052225_3_alg».proof.Proof.LibVecScatterAdd
import Idealize.ShloMosaic.Lib.ValueIdx
import Idealize.ShloMosaic.Lib.IdealHost
import Idealize.ShloMosaic.PureOps.Ideal.Laws
import Mathlib.Algebra.BigOperators.Group.Finset.Basic

noncomputable section

namespace Cert.RefVal

open Idealize.ShloMosaic Idealize.ShloMosaic.ValueIdx Cert.ReferenceIdeal Cert.ReferenceIdeal.Gen
  Cert.ReferenceIdeal.ReadP Cert.Spec
open scoped BigOperators

/-- The binary32 pattern 0x47C35000 is the number 100000. -/
theorem ofBits_1e5 : Ideal.ofBits .f32 0x47C35000#32 = ((100000 : ℝ) : EReal) := by
  simp [Ideal.ofBits, Ideal.ieee, -EReal.coe_mul]; norm_num

section Stages

variable (x0 : (⟨S100000x128, .f32⟩ : BufTy).Contents (Elt Ideal)) (x1 : (⟨S2x1600000, .i32⟩ : BufTy).Contents (Elt Ideal))
  (x2 : (⟨S100000, .i32⟩ : BufTy).Contents (Elt Ideal)) (x3 : (⟨S128x128, .f32⟩ : BufTy).Contents (Elt Ideal))
  (x4 x5 x6 : (⟨S128, .f32⟩ : BufTy).Contents (Elt Ideal)) (x7 : (⟨S128x256, .f32⟩ : BufTy).Contents (Elt Ideal))
  (x8 : (⟨S256, .f32⟩ : BufTy).Contents (Elt Ideal)) (x9 : (⟨S256x128, .f32⟩ : BufTy).Contents (Elt Ideal))
  (x10 : (⟨S128, .f32⟩ : BufTy).Contents (Elt Ideal)) (x11 : (⟨S128x1, .f32⟩ : BufTy).Contents (Elt Ideal))
  (x12 : (⟨S1, .f32⟩ : BufTy).Contents (Elt Ideal)) (I : Cert.Spec.Inp)

/-- the layer output at any index, by its coordinates -/
theorem out_at (ho : ∀ (i : Fin 100000) (k : Fin 128), val_main_v48 (F := Ideal) x0 x1 x3 x4 (ix2 i k) = outR I i k)
    (j : S100000x128.Idx) : val_main_v48 (F := Ideal) x0 x1 x3 x4 j = outR I (j 0) (j 1) :=
  (congrArg (val_main_v48 (F := Ideal) x0 x1 x3 x4) (eq_ix2 j)).trans (ho (j 0) (j 1))

/-- the column mean: the column's sum over the nodes, divided by their number -/
theorem mean_at (ho : ∀ (i : Fin 100000) (k : Fin 128), val_main_v48 (F := Ideal) x0 x1 x3 x4 (ix2 i k) = outR I i k)
    (j : S128.Idx) : val_main_v51 (F := Ideal) x0 x1 x3 x4 j = meanR I (j 0) := by
  rw [val_main_v51_apply, val_main_v49_apply, val_main_v50_apply, val_main_cst_10_apply, val_main_cst_11_apply]
  simp only [Ideal.hostDivf_def, Ideal.ofBits_def, Ideal.ofBits_zero_f32, ofBits_1e5, zero_add, out_at x0 x1 x3 x4 I ho]
  rfl

/-- the column variance: the mean of the squared deviations from the column mean -/
theorem var_at (ho : ∀ (i : Fin 100000) (k : Fin 128), val_main_v48 (F := Ideal) x0 x1 x3 x4 (ix2 i k) = outR I i k)
    (j : S128.Idx) : val_main_v58 (F := Ideal) x0 x1 x3 x4 j = varR I (j 0) := by
  rw [val_main_v58_apply, val_main_v56_apply, val_main_v57_apply, val_main_cst_12_apply, val_main_cst_13_apply,
    Ideal.hostDivf_def, Ideal.ofBits_def, Ideal.ofBits_def, Ideal.ofBits_zero_f32, ofBits_1e5, zero_add]
  refine congrArg (fun s => Ideal.div s nF) (Finset.sum_congr rfl fun i _ => ?_)
  rw [val_main_v55_apply, val_main_v54_apply, val_main_v53_apply, val_main_v52_apply, out_at x0 x1 x3 x4 I ho,
    mean_at x0 x1 x3 x4 I ho, Ideal.mulf_def, Ideal.subf_def]
  rfl

/-- the reciprocal standard deviation, guarded -/
theorem inv_at (ho : ∀ (i : Fin 100000) (k : Fin 128), val_main_v48 (F := Ideal) x0 x1 x3 x4 (ix2 i k) = outR I i k)
    (j : S128.Idx) : val_main_v64 (F := Ideal) x0 x1 x3 x4 j = Ideal.rsqrt (varR I (j 0) + eps) := by
  rw [val_main_v64_apply, val_main_v63_apply, val_main_v62_apply, val_main_cst_14_apply]
  simp only [Ideal.hostUnary_rsqrt_def, Ideal.addf_def, Ideal.ofBits_def, var_at x0 x1 x3 x4 I ho]

/-- the normalised layer output -/
theorem hn_at (ho : ∀ (i : Fin 100000) (k : Fin 128), val_main_v48 (F := Ideal) x0 x1 x3 x4 (ix2 i k) = outR I i k)
    (hgam : ∀ k : Fin 128, I.gam k = x5 (Cert.Glue.iv k)) (hbet : ∀ k : Fin 128, I.bet k = x6 (Cert.Glue.iv k))
    (j : S100000x128.Idx) : val_main_v73 (F := Ideal) x0 x1 x3 x4 x5 x6 j = hnR I (j 0) (j 1) := by
  have h5 : ∀ p : S128.Idx, x5 p = I.gam (p 0) := fun p => (congrArg x5 (eq_ix1 p)).trans (hgam (p 0)).symm
  have h6 : ∀ p : S128.Idx, x6 p = I.bet (p 0) := fun p => (congrArg x6 (eq_ix1 p)).trans (hbet (p 0)).symm
  rw [val_main_v73_apply, val_main_v70_apply, val_main_v67_apply, val_main_v61_apply, val_main_v60_apply, val_main_v59_apply,
    val_main_v66_apply, val_main_v65_apply, val_main_v69_apply, val_main_v68_apply, val_main_v72_apply, val_main_v71_apply]
  simp only [Ideal.addf_def, Ideal.mulf_def, Ideal.subf_def, out_at x0 x1 x3 x4 I ho, mean_at x0 x1 x3 x4 I ho,
    inv_at x0 x1 x3 x4 I ho, h5, h6]
  rfl

/-- the graph word of a node, as the scatters read it off the column of start words -/
theorem bat_at (hbat : ∀ i : Fin 100000, I.bat i = (x2 (Cert.Glue.iv i)).toInt) (e : Fin 100000) :
    (x2 (idx_main_v75 (ix2 e 0))).toInt = I.bat e := by
  rw [hbat e]
  exact congrArg (fun w => (x2 w).toInt) (funext fun a => match a with | ⟨0, _⟩ => rfl)

/-- the per-graph sum of the normalised rows -/
theorem s_val (ho : ∀ (i : Fin 100000) (k : Fin 128), val_main_v48 (F := Ideal) x0 x1 x3 x4 (ix2 i k) = outR I i k) (hgam : ∀ k : Fin 128, I.gam k = x5 (Cert.Glue.iv k)) (hbet : ∀ k : Fin 128, I.bet k = x6 (Cert.Glue.iv k)) (hbat : ∀ i : Fin 100000, I.bat i = (x2 (Cert.Glue.iv i)).toInt) (g : Fin 512) (k : Fin 128) :
    val_main_v76 (F := Ideal) x0 x1 x2 x3 x4 x5 x6 (ix2 g k) = sR I g k := by
  unfold val_main_v76
  have hd : scatter_S512x128_S100000x1_S100000x128_1_0_0_1
      = Cert.ReferenceIdeal.Hand.rowScatter 512 100000 128 scatter_S512x128_S100000x1_S100000x128_1_0_0_1_wf := rfl
  rw [hd, Cert.ReferenceIdeal.Hand.rowScatterAdd_apply, val_main_v74_apply, val_main_cst_15_apply, Ideal.ofBits_def,
    Ideal.ofBits_zero_f32, zero_add]
  unfold sR
  refine Finset.sum_congr (Finset.filter_congr fun e _ => ?_) fun e _ => ?_
  · rw [val_main_v75_apply, bat_at x2 I hbat e]
  · exact hn_at x0 x1 x3 x4 x5 x6 I ho hgam hbet (ix2 e k)

/-- the per-graph node count -/
theorem cnt_val (hbat : ∀ i : Fin 100000, I.bat i = (x2 (Cert.Glue.iv i)).toInt) (g : Fin 512) : val_main_v80 (F := Ideal) x2 (ix1 g) = cntR I g := by
  unfold val_main_v80
  have hd : scatter_S512_S100000x1_S100000_n_0_0_1
      = Cert.Hand.VecScatter.vecScatter 512 100000 scatter_S512_S100000x1_S100000_n_0_0_1_wf := rfl
  rw [hd, Cert.Hand.VecScatter.vecScatterAdd_apply, val_main_v78_apply, val_main_cst_17_apply, Ideal.ofBits_def,
    Ideal.ofBits_zero_f32, zero_add]
  unfold cntR
  refine Finset.sum_congr (Finset.filter_congr fun e _ => ?_) fun e _ => ?_
  · rw [val_main_v79_apply]
    exact Iff.of_eq (congrArg (· = ((g.val : ℕ) : ℤ)) (bat_at x2 I hbat e))
  · rw [val_main_v77_apply, val_main_cst_16_apply, Ideal.ofBits_def, Ideal.ofBits_one_f32]

/-- the per-graph mean of the normalised rows; an empty graph divides by one -/
theorem g_at (ho : ∀ (i : Fin 100000) (k : Fin 128), val_main_v48 (F := Ideal) x0 x1 x3 x4 (ix2 i k) = outR I i k) (hgam : ∀ k : Fin 128, I.gam k = x5 (Cert.Glue.iv k)) (hbet : ∀ k : Fin 128, I.bet k = x6 (Cert.Glue.iv k)) (hbat : ∀ i : Fin 100000, I.bat i = (x2 (Cert.Glue.iv i)).toInt) (j : S512x128.Idx) :
    val_main_v85 (F := Ideal) x0 x1 x2 x3 x4 x5 x6 j = gR I (j 0) (j 1) := by
  have hs : val_main_v76 (F := Ideal) x0 x1 x2 x3 x4 x5 x6 j = sR I (j 0) (j 1) :=
    (congrArg (val_main_v76 (F := Ideal) x0 x1 x2 x3 x4 x5 x6) (eq_ix2 j)).trans
      (s_val x0 x1 x2 x3 x4 x5 x6 I ho hgam hbet hbat (j 0) (j 1))
  have hc : ∀ p : S512.Idx, val_main_v80 (F := Ideal) x2 p = cntR I (p 0) := fun p =>
    (congrArg (val_main_v80 (F := Ideal) x2) (eq_ix1 p)).trans (cnt_val x2 I hbat (p 0))
  rw [val_main_v85_apply, hs, val_main_v84_apply, val_main_v83_apply, val_main_v82_apply, hc, val_main_v81_apply,
    val_main_cst_18_apply, Ideal.hostDivf_def, Ideal.maximumf_def, Ideal.ofBits_def, Ideal.ofBits_one_f32]
  rfl

/-- the first dense layer with its rectifier -/
theorem l1_at (ho : ∀ (i : Fin 100000) (k : Fin 128), val_main_v48 (F := Ideal) x0 x1 x3 x4 (ix2 i k) = outR I i k) (hgam : ∀ k : Fin 128, I.gam k = x5 (Cert.Glue.iv k)) (hbet : ∀ k : Fin 128, I.bet k = x6 (Cert.Glue.iv k)) (hbat : ∀ i : Fin 100000, I.bat i = (x2 (Cert.Glue.iv i)).toInt) (j : S512x256.Idx) :
    val_main_v90 (F := Ideal) x0 x1 x2 x3 x4 x5 x6 x7 x8 j
      = max ((∑ k : Fin 128, gR I (j 0) k * x7 (ix2 k (j 1))) + x8 (Cert.Glue.iv (j 1))) 0 := by
  have e7 : ∀ k : Fin 128, x7 (ridx_main_v86 j k) = x7 (ix2 k (j 1)) := fun k =>
    congrArg x7 (funext fun a => match a with | ⟨0, _⟩ => rfl | ⟨1, _⟩ => rfl)
  have e8 : x8 (idx_main_v87 (idx_main_v88 j)) = x8 (Cert.Glue.iv (j 1)) :=
    congrArg x8 (funext fun a => match a with | ⟨0, _⟩ => rfl)
  rw [val_main_v90_apply, val_main_v89_apply, val_main_v86_apply, val_main_v88_apply, val_main_v87_apply,
    val_main_call1_v0_apply, val_main_call1_cst_apply, Ideal.maximumf_def, Ideal.addf_def, Ideal.ofBits_def,
    Ideal.ofBits_zero_f32, e8]
  simp only [g_at x0 x1 x2 x3 x4 x5 x6 I ho hgam hbet hbat, e7]
  rfl

/-- the second dense layer with its rectifier -/
theorem l2_at (ho : ∀ (i : Fin 100000) (k : Fin 128), val_main_v48 (F := Ideal) x0 x1 x3 x4 (ix2 i k) = outR I i k) (hgam : ∀ k : Fin 128, I.gam k = x5 (Cert.Glue.iv k)) (hbet : ∀ k : Fin 128, I.bet k = x6 (Cert.Glue.iv k)) (hbat : ∀ i : Fin 100000, I.bat i = (x2 (Cert.Glue.iv i)).toInt) (j : S512x128.Idx) :
    val_main_v95 (F := Ideal) x0 x1 x2 x3 x4 x5 x6 x7 x8 x9 x10 j
      = max ((∑ a : Fin 256, max ((∑ k : Fin 128, gR I (j 0) k * x7 (ix2 k a)) + x8 (Cert.Glue.iv a)) 0
          * x9 (ix2 a (j 1))) + x10 (Cert.Glue.iv (j 1))) 0 := by
  have e9 : ∀ a : Fin 256, x9 (ridx_main_v91 j a) = x9 (ix2 a (j 1)) := fun a =>
    congrArg x9 (funext fun d => match d with | ⟨0, _⟩ => rfl | ⟨1, _⟩ => rfl)
  have e10 : x10 (idx_main_v92 (idx_main_v93 j)) = x10 (Cert.Glue.iv (j 1)) :=
    congrArg x10 (funext fun a => match a with | ⟨0, _⟩ => rfl)
  rw [val_main_v95_apply, val_main_v94_apply, val_main_v91_apply, val_main_v93_apply, val_main_v92_apply,
    val_main_call2_v0_apply, val_main_call2_cst_apply, Ideal.maximumf_def, Ideal.addf_def, Ideal.ofBits_def,
    Ideal.ofBits_zero_f32, e10]
  simp only [l1_at x0 x1 x2 x3 x4 x5 x6 x7 x8 I ho hgam hbet hbat, e9]
  rfl

end Stages

/-- THE REFERENCE'S RESULT at row r: the three dense layers over the per-graph means of the normalised layer output. -/
theorem result_val
    (x0 : (⟨S100000x128, .f32⟩ : BufTy).Contents (Elt Ideal)) (x1 : (⟨S2x1600000, .i32⟩ : BufTy).Contents (Elt Ideal))
    (x2 : (⟨S100000, .i32⟩ : BufTy).Contents (Elt Ideal)) (x3 : (⟨S128x128, .f32⟩ : BufTy).Contents (Elt Ideal))
    (x4 x5 x6 : (⟨S128, .f32⟩ : BufTy).Contents (Elt Ideal)) (x7 : (⟨S128x256, .f32⟩ : BufTy).Contents (Elt Ideal))
    (x8 : (⟨S256, .f32⟩ : BufTy).Contents (Elt Ideal)) (x9 : (⟨S256x128, .f32⟩ : BufTy).Contents (Elt Ideal))
    (x10 : (⟨S128, .f32⟩ : BufTy).Contents (Elt Ideal)) (x11 : (⟨S128x1, .f32⟩ : BufTy).Contents (Elt Ideal))
    (x12 : (⟨S1, .f32⟩ : BufTy).Contents (Elt Ideal)) (I : Cert.Spec.Inp)
    (hbat : ∀ i : Fin 100000, I.bat i = (x2 (Cert.Glue.iv i)).toInt)
    (hgam : ∀ k : Fin 128, I.gam k = x5 (Cert.Glue.iv k)) (hbet : ∀ k : Fin 128, I.bet k = x6 (Cert.Glue.iv k))
    (ho : ∀ (i : Fin 100000) (k : Fin 128),
      Cert.ReferenceIdeal.ReadP.val_main_v48 (F := Ideal) x0 x1 x3 x4 (ValueIdx.ix2 i k) = Cert.Spec.outR I i k)
    (r : Fin 512) :
    Cert.ReferenceIdeal.ReadP.val_main_v99 (F := Ideal) x0 x1 x2 x3 x4 x5 x6 x7 x8 x9 x10 x11 x12 (ValueIdx.ix2 r (0 : Fin 1))
      = Cert.Spec.mlp (Cert.Spec.gR I) (fun k a => x7 (ValueIdx.ix2 k a)) (fun a => x8 (Cert.Glue.iv a))
          (fun a c => x9 (ValueIdx.ix2 a c)) (fun c => x10 (Cert.Glue.iv c)) (fun c => x11 (ValueIdx.ix2 c (0 : Fin 1)))
          (x12 (Cert.Glue.iv (0 : Fin 1))) r := by
  have e11 : ∀ c : Fin 128, x11 (ridx_main_v96 (ix2 r (0 : Fin 1)) c) = x11 (ix2 c (0 : Fin 1)) := fun c =>
    congrArg x11 (funext fun d => match d with | ⟨0, _⟩ => rfl | ⟨1, _⟩ => rfl)
  have e12 : x12 (idx_main_v97 (idx_main_v98 (ix2 r (0 : Fin 1)))) = x12 (Cert.Glue.iv (0 : Fin 1)) :=
    congrArg x12 (funext fun a => match a with | ⟨0, _⟩ => rfl)
  rw [val_main_v99_apply, val_main_v96_apply, val_main_v98_apply, val_main_v97_apply, Ideal.addf_def, e12]
  simp only [l2_at x0 x1 x2 x3 x4 x5 x6 x7 x8 x9 x10 I ho hgam hbet hbat, e11]
  rfl

end Cert.RefVal

end
-- ==== Proof.RefVal.lean ====
/-
  The reference's result, entry by entry: the specification's reference side (layer output, normalisation, per-graph
  means) followed by the dense layers.
-/
import proofs.«417852_j54494545052225_3_alg».proof.Proof.RefGcn
import proofs.«417852_j54494545052225_3_alg».proof.Proof.RefTail

noncomputable section

namespace Cert.RefVal

open Idealize.ShloMosaic Idealize.ShloMosaic.ValueIdx Cert.ReferenceIdeal

/-- When every source word names a node, entry r of the reference's result is the dense layers of the reference side's
    normalised per-graph means. -/
theorem ref_result (x0 : FVec Ideal S100000x128 .f32) (x1 : IVec S2x1600000 32) (x2 : IVec S100000 32)
    (x3 : FVec Ideal S128x128 .f32) (x4 x5 x6 : FVec Ideal S128 .f32) (x7 : FVec Ideal S128x256 .f32)
    (x8 : FVec Ideal S256 .f32) (x9 : FVec Ideal S256x128 .f32) (x10 : FVec Ideal S128 .f32)
    (x11 : FVec Ideal S128x1 .f32) (x12 : FVec Ideal S1 .f32) (hs : Cert.Glue.SrcOk x1) (r : Fin 512) :
    Cert.ReferenceIdeal.ReadP.val_main_v99 (F := Ideal) x0 x1 x2 x3 x4 x5 x6 x7 x8 x9 x10 x11 x12 (ix2 r (0 : Fin 1))
      = Cert.Spec.mlp (Cert.Spec.gR (Cert.Glue.inpOf x0 x1 x2 x3 x4 x5 x6)) (fun k a => x7 (ix2 k a)) (fun a => x8 (Cert.Glue.iv a))
          (fun a c => x9 (ix2 a c)) (fun c => x10 (Cert.Glue.iv c)) (fun c => x11 (ix2 c (0 : Fin 1))) (x12 (Cert.Glue.iv (0 : Fin 1))) r :=
  result_val x0 x1 x2 x3 x4 x5 x6 x7 x8 x9 x10 x11 x12 (Cert.Glue.inpOf x0 x1 x2 x3 x4 x5 x6)
    (fun _ => rfl) (fun _ => rfl) (fun _ => rfl) (fun i k => outR_val x0 x1 x2 x3 x4 x5 x6 hs i k) r

end Cert.RefVal

end
-- ==== Proof.MathGcn.lean ====
/-
  The graph-convolution layer, factorised against message by message: on every node the two outputs are one real number.
-/
import proofs.«417852_j54494545052225_3_alg».proof.Proof.Spec
import Mathlib.Data.EReal.Basic
import Mathlib.Analysis.SpecialFunctions.Pow.Real

noncomputable section

open scoped BigOperators

namespace Cert.Spec

open Idealize.ShloMosaic

namespace MathGcn

/-! ## Sums of reals inside the extended reals -/

/-- the embedding of the reals commutes with finite sums -/
theorem coe_sum {ι : Type*} (s : Finset ι) (f : ι → ℝ) :
    ((∑ i ∈ s, f i : ℝ) : EReal) = ∑ i ∈ s, (f i : EReal) := by
  classical
  refine Finset.induction_on s ?_ ?_
  · simp
  · intro a s ha ih
    rw [Finset.sum_insert ha, Finset.sum_insert ha, EReal.coe_add, ih]

/-! ## The 1700000 messages: the 1600000 edges, then one per node -/

/-- edge `e` as a message -/
def edgeMsg (e : Fin NE) : Fin NM :=
  ⟨e.val, by have h : e.val < 1600000 := e.isLt; show e.val < 1700000; omega⟩

/-- node `j`'s own message -/
def selfMsg (j : Fin NN) : Fin NM :=
  ⟨1600000 + j.val, by have h : j.val < 100000 := j.isLt; show 1600000 + j.val < 1700000; omega⟩

/-- a sum over all messages is the sum over the edges plus the sum over the nodes' own messages -/
theorem sum_msg {M : Type*} [AddCommMonoid M] (g : Fin NM → M) :
    ∑ e, g e = (∑ e : Fin NE, g (edgeMsg e)) + ∑ j : Fin NN, g (selfMsg j) :=
  Fin.sum_univ_add (a := 1600000) (b := 100000) g

theorem dstM_edge (I : Inp) (e : Fin NE) : dstM I (edgeMsg e) = I.dst e :=
  dif_pos e.isLt

theorem srcM_edge (I : Inp) (e : Fin NE) : srcM I (edgeMsg e) = ((I.src e).val : ℤ) :=
  dif_pos e.isLt

theorem dstM_self (I : Inp) (j : Fin NN) : dstM I (selfMsg j) = (j.val : ℤ) := by
  have h : ¬ (selfMsg j).val < NE := by
    show ¬ (1600000 + j.val < 1600000)
    omega
  unfold dstM
  rw [dif_neg h]
  show ((1600000 + j.val : ℕ) : ℤ) - 1600000 = (j.val : ℤ)
  push_cast
  ring

theorem srcM_self (I : Inp) (j : Fin NN) : srcM I (selfMsg j) = (j.val : ℤ) := by
  have h : ¬ (selfMsg j).val < NE := by
    show ¬ (1600000 + j.val < 1600000)
    omega
  unfold srcM
  rw [dif_neg h]
  show ((1600000 + j.val : ℕ) : ℤ) - 1600000 = (j.val : ℤ)
  push_cast
  ring

/-- the messages arriving at node `i` are the edges arriving there and the node's own message -/
theorem sum_filter_msg {M : Type*} [AddCommMonoid M] (I : Inp) (i : Fin NN) (f : Fin NM → M) :
    ∑ e ∈ Finset.univ.filter (fun e : Fin NM => dstM I e = (i.val : ℤ)), f e
      = (∑ e ∈ Finset.univ.filter (fun e : Fin NE => I.dst e = (i.val : ℤ)), f (edgeMsg e))
        + f (selfMsg i) := by
  rw [Finset.sum_filter, sum_msg, Finset.sum_filter]
  refine congrArg₂ (· + ·) ?_ ?_
  · refine Finset.sum_congr rfl ?_
    intro e _
    rw [dstM_edge]
  · rw [Finset.sum_eq_single i]
    · rw [if_pos (dstM_self I i)]
    · intro j _ hji
      rw [if_neg]
      rw [dstM_self]
      intro h
      apply hji
      apply Fin.ext
      exact_mod_cast h
    · intro h
      exact absurd (Finset.mem_univ i) h

/-- a word that already is a node's number names that node -/
theorem nodeOf_coe (j : Fin NN) : nodeOf (j.val : ℤ) = j := by
  apply Fin.ext
  have hj : j.val < 100000 := j.isLt
  show min (if (j.val : ℤ) < 0 then (j.val : ℤ) + 100000 else (j.val : ℤ)).toNat 99999 = j.val
  rw [if_neg (by omega)]
  omega

/-! ## Degrees and their inverse square roots, as reals -/

theorem sum_one {ι : Type*} (s : Finset ι) : ∑ _e ∈ s, (1 : EReal) = ((s.card : ℝ) : EReal) := by
  have hr : (∑ _e ∈ s, (1 : ℝ)) = (s.card : ℝ) := by
    rw [Finset.sum_const, nsmul_eq_mul, mul_one]
  rw [← hr, coe_sum]
  rfl

/-- the number of edges arriving at node `i` -/
def cnt (I : Inp) (i : Fin NN) : ℝ :=
  ((Finset.univ.filter (fun e : Fin NE => I.dst e = (i.val : ℤ))).card : ℝ)

theorem cnt_nonneg (I : Inp) (i : Fin NN) : 0 ≤ cnt I i := Nat.cast_nonneg _

/-- `deg^(-1/2)` of node `i` -/
def dis (I : Inp) (i : Fin NN) : ℝ := (Real.sqrt (cnt I i + 1))⁻¹

theorem degK_coe (I : Inp) (i : Fin NN) : degK I i = ((cnt I i + 1 : ℝ) : EReal) := by
  unfold degK cnt
  rw [sum_one, EReal.coe_add, EReal.coe_one]

/-- both sides count the same messages -/
theorem degR_eq (I : Inp) (i : Fin NN) : degR I i = degK I i := by
  unfold degR degK
  rw [sum_filter_msg I i (fun _ => (1 : EReal))]

theorem disK_coe (I : Inp) (i : Fin NN) : disK I i = ((dis I i : ℝ) : EReal) := by
  have h0 : 0 ≤ cnt I i := cnt_nonneg I i
  unfold disK dis
  rw [degK_coe, Ideal.rsqrt_coe, if_neg (by linarith), if_neg (by linarith)]

/-- a degree is at least 1, so neither the guard nor the clamp of the reference changes anything -/
theorem disR_eq (I : Inp) (i : Fin NN) : disR I i = disK I i := by
  have h0 : 0 ≤ cnt I i := cnt_nonneg I i
  have hpos : (0 : EReal) < degK I i := by
    rw [degK_coe]
    exact EReal.coe_pos.mpr (by linarith)
  have hge : (1 : EReal) ≤ degK I i := by
    rw [degK_coe, ← EReal.coe_one]
    exact EReal.coe_le_coe_iff.mpr (by linarith)
  unfold disR
  rw [degR_eq, if_pos hpos, max_eq_left hge]
  rfl

/-! ## The linear map, and the kernel side on a node's row -/

/-- `x · W` over the reals -/
def hReal (xr : Fin NN → Fin NH → ℝ) (Wr : Fin NH → Fin NH → ℝ) (j : Fin NN) (k : Fin NH) : ℝ :=
  ∑ c : Fin NH, xr j c * Wr c k

theorem hR_coe (I : Inp) (xr : Fin NN → Fin NH → ℝ) (Wr : Fin NH → Fin NH → ℝ)
    (hx : ∀ i j, I.x i j = (xr i j : EReal)) (hW : ∀ j k, I.Wg j k = (Wr j k : EReal))
    (j : Fin NN) (k : Fin NH) : hR I j k = ((hReal xr Wr j k : ℝ) : EReal) := by
  unfold hR hReal
  rw [coe_sum]
  refine Finset.sum_congr rfl ?_
  intro c _
  rw [hx, hW, EReal.coe_mul]

theorem disP_pad (I : Inp) (j : Fin NN) : disP I (padRow j) = disK I j := dif_pos j.isLt

theorem xP_pad (I : Inp) (j : Fin NN) (c : Fin NH) : xP I (padRow j) c = I.x j c := dif_pos j.isLt

theorem hpK_pad (I : Inp) (j : Fin NN) (k : Fin NH) : hpK I (padRow j) k = hR I j k * disK I j := by
  unfold hpK hR
  rw [disP_pad]
  refine congrArg₂ (· * ·) ?_ rfl
  refine Finset.sum_congr rfl ?_
  intro c _
  rw [xP_pad]

/-- the factorised layer on a node's row, over the reals -/
theorem hbK_pad_coe (I : Inp) (xr : Fin NN → Fin NH → ℝ) (Wr : Fin NH → Fin NH → ℝ) (br : Fin NH → ℝ)
    (hx : ∀ i j, I.x i j = (xr i j : EReal)) (hW : ∀ j k, I.Wg j k = (Wr j k : EReal))
    (hb : ∀ k, I.bg k = (br k : EReal)) (i : Fin NN) (k : Fin NH) :
    hbK I (padRow i) k
      = ((dis I i * ((∑ e ∈ Finset.univ.filter (fun e : Fin NE => I.dst e = (i.val : ℤ)),
            hReal xr Wr (I.src e) k * dis I (I.src e)) + hReal xr Wr i k * dis I i) + br k : ℝ) : EReal) := by
  have hagg : aggK I (padRow i) k
      = ((∑ e ∈ Finset.univ.filter (fun e : Fin NE => I.dst e = (i.val : ℤ)),
            hReal xr Wr (I.src e) k * dis I (I.src e) : ℝ) : EReal) := by
    unfold aggK
    rw [coe_sum]
    refine Finset.sum_congr rfl ?_
    intro e _
    rw [hpK_pad, hR_coe I xr Wr hx hW, disK_coe, EReal.coe_mul]
  unfold hbK
  rw [hagg, hpK_pad, disP_pad, hR_coe I xr Wr hx hW, disK_coe, hb, EReal.coe_add, EReal.coe_mul,
    EReal.coe_add, EReal.coe_mul]

/-- the message-by-message layer on a node, over the reals -/
theorem outR_coe (I : Inp) (xr : Fin NN → Fin NH → ℝ) (Wr : Fin NH → Fin NH → ℝ) (br : Fin NH → ℝ)
    (hx : ∀ i j, I.x i j = (xr i j : EReal)) (hW : ∀ j k, I.Wg j k = (Wr j k : EReal))
    (hb : ∀ k, I.bg k = (br k : EReal)) (i : Fin NN) (k : Fin NH) :
    outR I i k
      = ((((∑ e ∈ Finset.univ.filter (fun e : Fin NE => I.dst e = (i.val : ℤ)),
            hReal xr Wr (I.src e) k * (dis I (I.src e) * dis I i))
          + hReal xr Wr i k * (dis I i * dis I i)) + br k : ℝ) : EReal) := by
  have hedge : ∑ e ∈ Finset.univ.filter (fun e : Fin NE => I.dst e = (i.val : ℤ)),
        hR I (nodeOf (srcM I (edgeMsg e))) k * normR I (edgeMsg e)
      = ((∑ e ∈ Finset.univ.filter (fun e : Fin NE => I.dst e = (i.val : ℤ)),
            hReal xr Wr (I.src e) k * (dis I (I.src e) * dis I i) : ℝ) : EReal) := by
    rw [coe_sum]
    refine Finset.sum_congr rfl ?_
    intro e he
    have hd : I.dst e = (i.val : ℤ) := (Finset.mem_filter.mp he).2
    unfold normR
    rw [srcM_edge, dstM_edge, hd, nodeOf_coe, nodeOf_coe, disR_eq, disR_eq, disK_coe, disK_coe,
      hR_coe I xr Wr hx hW, EReal.coe_mul, EReal.coe_mul]
  have hself : hR I (nodeOf (srcM I (selfMsg i))) k * normR I (selfMsg i)
      = ((hReal xr Wr i k * (dis I i * dis I i) : ℝ) : EReal) := by
    unfold normR
    rw [srcM_self, dstM_self, nodeOf_coe, disR_eq, disK_coe, hR_coe I xr Wr hx hW,
      EReal.coe_mul, EReal.coe_mul]
  unfold outR
  rw [sum_filter_msg, hedge, hself, hb, EReal.coe_add, EReal.coe_add]

end MathGcn

open MathGcn

/-- every entry of the kernel side's layer output, padded rows included, is a real number -/
theorem hbK_real (I : Inp) (hI : I.Finite) (i : Fin NP) (k : Fin NH) : ∃ r : ℝ, hbK I i k = (r : EReal) := by
  by_cases h : i.val < NN
  · choose xr hx using hI.x
    choose Wr hW using hI.Wg
    choose br hb using hI.bg
    have hi : i = padRow ⟨i.val, h⟩ := rfl
    rw [hi]
    exact ⟨_, hbK_pad_coe I xr Wr br hx hW hb ⟨i.val, h⟩ k⟩
  · -- a padded row: its `dis` is 0, so only the bias is left
    obtain ⟨b, hb⟩ := hI.bg k
    refine ⟨b, ?_⟩
    have hd : disP I i = 0 := dif_neg h
    unfold hbK
    rw [hd, zero_mul, zero_add, hb]

/-- on a node, the factorised layer output is the reference's -/
theorem hbK_eq_outR (I : Inp) (hI : I.Finite) (i : Fin NN) (k : Fin NH) : hbK I (padRow i) k = outR I i k := by
  choose xr hx using hI.x
  choose Wr hW using hI.Wg
  choose br hb using hI.bg
  rw [hbK_pad_coe I xr Wr br hx hW hb, outR_coe I xr Wr br hx hW hb]
  refine congrArg (fun r : ℝ => (r : EReal)) ?_
  -- over the reals: pull `dis i` into the sum
  have hs : dis I i * (∑ e ∈ Finset.univ.filter (fun e : Fin NE => I.dst e = (i.val : ℤ)),
        hReal xr Wr (I.src e) k * dis I (I.src e))
      = ∑ e ∈ Finset.univ.filter (fun e : Fin NE => I.dst e = (i.val : ℤ)),
        hReal xr Wr (I.src e) k * (dis I (I.src e) * dis I i) := by
    rw [Finset.mul_sum]
    refine Finset.sum_congr rfl ?_
    intro e _
    ring
  rw [← hs]
  ring

end Cert.Spec

end
-- ==== Proof.MathNorm.lean ====
/-
  Batch normalisation and the per-graph mean commute: from equal real layer outputs to equal normalised graph means.
-/
import proofs.«417852_j54494545052225_3_alg».proof.Proof.Spec
import Mathlib.Data.EReal.Basic
import Mathlib.Data.EReal.Operations
import Mathlib.Data.EReal.Inv
import Mathlib.Analysis.SpecialFunctions.Pow.Real
import Mathlib.Algebra.BigOperators.Ring.Finset
import Mathlib.Algebra.Order.BigOperators.Ring.Finset
import Mathlib.Tactic.Ring
import Mathlib.Tactic.FieldSimp
import Mathlib.Tactic.NormNum
import Mathlib.Tactic.Positivity

noncomputable section

open scoped BigOperators

namespace Cert.Spec

open Idealize.ShloMosaic

namespace MathNorm

/-- The inclusion of the reals into the extended reals commutes with finite sums. -/
theorem coe_sum {α : Type*} (s : Finset α) (f : α → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The guard is a positive real: the pattern has sign 0, exponent 110 and fraction 2606508. -/
theorem eps_pos : ∃ r : ℝ, 0 < r ∧ eps = (r : EReal) := by
  refine ⟨(10995116 : ℝ) * (2 : ℝ) ^ (-40 : ℤ), by positivity, ?_⟩
  simp [eps, Ideal.ofBits, Ideal.ieee, -EReal.coe_mul]

/-- A sum over the padded rows of a function vanishing beyond the nodes is the sum over the nodes. -/
theorem sum_pad {M : Type*} [AddCommMonoid M] (F : Fin NP → M)
    (hF : ∀ i : Fin NP, ¬ i.val < NN → F i = 0) :
    ∑ i : Fin NP, F i = ∑ i : Fin NN, F (padRow i) := by
  classical
  have hinj : Function.Injective padRow := by
    intro a b h
    have hv : (padRow a).val = (padRow b).val := congrArg Fin.val h
    exact Fin.ext hv
  rw [← Finset.sum_image (f := F) (g := padRow) (s := Finset.univ) (fun a _ b _ h => hinj h)]
  symm
  apply Finset.sum_subset (Finset.subset_univ _)
  intro j _ hj
  apply hF
  intro hlt
  exact hj (Finset.mem_image.mpr ⟨⟨j.val, hlt⟩, Finset.mem_univ _, Fin.ext rfl⟩)

theorem validK_pad (i : Fin NN) : validK (padRow i) = 1 := if_pos i.isLt

theorem validK_off (i : Fin NP) (h : ¬ i.val < NN) : validK i = 0 := if_neg h

theorem batP_pad (I : Inp) (i : Fin NN) : batP I (padRow i) = I.bat i := by
  unfold batP
  rw [dif_pos (show (padRow i).val < NN from i.isLt)]

end MathNorm

namespace MathNorm

section Closed
variable (I : Inp) (o : Fin NN → Fin NH → ℝ) (ho : ∀ i k, hbK I (padRow i) k = (o i k : EReal))
include ho

theorem hbmK_pad (i : Fin NN) (k : Fin NH) : hbmK I (padRow i) k = (o i k : EReal) := by
  unfold hbmK
  rw [validK_pad, mul_one, ho]

omit ho in
theorem hbmK_off (i : Fin NP) (k : Fin NH) (h : ¬ i.val < NN) : hbmK I i k = 0 := by
  unfold hbmK
  rw [validK_off i h, mul_zero]

omit ho in
theorem ohK_pad (g : Fin NG) (i : Fin NN) :
    ohK I g (padRow i) = if I.bat i = (g.val : ℤ) then 1 else 0 := by
  unfold ohK
  rw [validK_pad, mul_one, batP_pad]

omit ho in
theorem ohK_off (g : Fin NG) (i : Fin NP) (h : ¬ i.val < NN) : ohK I g i = 0 := by
  unfold ohK
  rw [validK_off i h, mul_zero]

theorem sumK_eq (k : Fin NH) : sumK I k = ((∑ i : Fin NN, o i k : ℝ) : EReal) := by
  unfold sumK
  rw [sum_pad _ (fun i h => hbmK_off I i k h), coe_sum]
  exact Finset.sum_congr rfl (fun i _ => hbmK_pad I o ho i k)

theorem sumsqK_eq (k : Fin NH) : sumsqK I k = ((∑ i : Fin NN, o i k * o i k : ℝ) : EReal) := by
  unfold sumsqK
  rw [sum_pad _ (fun i h => by rw [hbmK_off I i k h, mul_zero]), coe_sum]
  refine Finset.sum_congr rfl (fun i _ => ?_)
  rw [hbmK_pad I o ho i k, EReal.coe_mul]

theorem poolK_eq (g : Fin NG) (k : Fin NH) :
    poolK I g k
      = ((∑ i ∈ Finset.univ.filter (fun i : Fin NN => I.bat i = (g.val : ℤ)), o i k : ℝ) : EReal) := by
  unfold poolK
  rw [sum_pad _ (fun i h => by rw [ohK_off I g i h, zero_mul]), Finset.sum_filter, coe_sum]
  refine Finset.sum_congr rfl (fun i _ => ?_)
  rw [ohK_pad I g i, hbmK_pad I o ho i k]
  split_ifs
  · rw [one_mul]
  · rw [zero_mul, EReal.coe_zero]

omit ho in
theorem cntK_eq (g : Fin NG) :
    cntK I g = (((Finset.univ.filter (fun i : Fin NN => I.bat i = (g.val : ℤ))).card : ℝ) : EReal) := by
  unfold cntK
  rw [sum_pad _ (fun i h => ohK_off I g i h), ← Finset.sum_boole, coe_sum]
  refine Finset.sum_congr rfl (fun i _ => ?_)
  rw [ohK_pad I g i]
  split_ifs
  · rw [EReal.coe_one]
  · rw [EReal.coe_zero]

omit ho in
theorem cntR_eq (g : Fin NG) :
    cntR I g = (((Finset.univ.filter (fun i : Fin NN => I.bat i = (g.val : ℤ))).card : ℝ) : EReal) := by
  unfold cntR
  rw [← EReal.coe_one, ← coe_sum, Finset.sum_const, nsmul_eq_mul, mul_one]

end Closed

end MathNorm

namespace MathNorm

/-- The two-pass variance is the mean of squares minus the squared mean. -/
theorem var_identity (f : Fin NN → ℝ) :
    (∑ i : Fin NN, (f i - (∑ j : Fin NN, f j) * (1 / 100000)) * (f i - (∑ j : Fin NN, f j) * (1 / 100000)))
        * (1 / 100000)
      = (∑ i : Fin NN, f i * f i) * (1 / 100000)
        - ((∑ j : Fin NN, f j) * (1 / 100000)) * ((∑ j : Fin NN, f j) * (1 / 100000)) := by
  set S : ℝ := ∑ j : Fin NN, f j with hS
  set m : ℝ := S * (1 / 100000) with hm
  have h1 : ∀ i : Fin NN, (f i - m) * (f i - m) = f i * f i - 2 * m * f i + m * m := fun i => by ring
  have hcard : ((Finset.univ : Finset (Fin NN)).card : ℝ) = 100000 := by
    rw [Finset.card_univ, Fintype.card_fin]; norm_num
  rw [Finset.sum_congr rfl (fun i _ => h1 i), Finset.sum_add_distrib, Finset.sum_sub_distrib,
    ← Finset.mul_sum, Finset.sum_const, nsmul_eq_mul, hcard, ← hS, hm]
  ring

/-- The two-pass variance is not negative. -/
theorem var_nonneg (f : Fin NN → ℝ) (m : ℝ) :
    0 ≤ (∑ i : Fin NN, (f i - m) * (f i - m)) * (1 / 100000) :=
  mul_nonneg (Finset.sum_nonneg (fun i _ => mul_self_nonneg _)) (by norm_num)

/-- The sum of the normalised values over a set of nodes. -/
theorem sum_norm {ι : Type*} (s : Finset ι) (f : ι → ℝ) (m a c b : ℝ) :
    ∑ i ∈ s, ((f i - m) * a * c + b) = ((∑ i ∈ s, f i) - s.card * m) * a * c + s.card * b := by
  rw [Finset.sum_add_distrib, ← Finset.sum_mul, ← Finset.sum_mul, Finset.sum_sub_distrib,
    Finset.sum_const, Finset.sum_const, nsmul_eq_mul, nsmul_eq_mul]

end MathNorm

open MathNorm in
/-- If the layer output is real on every padded row and is the reference's on every node, the kernel side's normalised
    per-graph means are the reference's. -/
theorem gK_eq_gR_of (I : Inp) (hI : I.Finite)
    (hreal : ∀ (i : Fin NP) (k : Fin NH), ∃ r : ℝ, hbK I i k = (r : EReal))
    (heq : ∀ (i : Fin NN) (k : Fin NH), hbK I (padRow i) k = outR I i k) :
    gK I = gR I := by
  classical
  obtain ⟨e, he0, hee⟩ := eps_pos
  choose o' ho' using hreal
  choose γ hγ using hI.gam
  choose β hβ using hI.bet
  generalize hodef : (fun (i : Fin NN) (k : Fin NH) => o' (padRow i) k) = o
  have ho : ∀ i k, hbK I (padRow i) k = (o i k : EReal) := by
    intro i k; rw [← hodef]; exact ho' (padRow i) k
  have hoR : ∀ i k, outR I i k = (o i k : EReal) := fun i k => (heq i k).symm.trans (ho i k)
  have hn0 : (100000 : ℝ) ≠ 0 := by norm_num
  funext g k
  -- the real quantities
  set S : ℝ := ∑ i : Fin NN, o i k with hS
  set m : ℝ := S * (1 / 100000) with hm
  set v : ℝ := (∑ i : Fin NN, (o i k - m) * (o i k - m)) * (1 / 100000) with hv
  set a : ℝ := (Real.sqrt (v + e))⁻¹ with ha
  have hv0 : 0 ≤ v := var_nonneg (fun i => o i k) m
  have hvid : (∑ i : Fin NN, o i k * o i k) * (1 / 100000) - m * m = v := (var_identity (fun i => o i k)).symm
  -- the means
  have hmeanK : meanK I k = (m : EReal) := by
    unfold meanK
    rw [sumK_eq I o ho k, Ideal.div_coe hn0, ← EReal.coe_mul]
  have hmeanR : meanR I k = (m : EReal) := by
    unfold meanR
    rw [Finset.sum_congr rfl (fun i _ => hoR i k), ← coe_sum, Ideal.div_coe hn0, ← EReal.coe_mul]
  -- the variances
  have hvarK : varK I k = (v : EReal) := by
    unfold varK
    rw [sumsqK_eq I o ho k, hmeanK, Ideal.div_coe hn0, ← EReal.coe_mul, ← EReal.coe_mul, ← EReal.coe_sub, hvid]
    exact max_eq_left (EReal.coe_nonneg.mpr hv0)
  have hvarR : varR I k = (v : EReal) := by
    unfold varR
    have : ∀ i : Fin NN, (outR I i k - meanR I k) * (outR I i k - meanR I k)
        = (((o i k - m) * (o i k - m) : ℝ) : EReal) := by
      intro i
      rw [hoR, hmeanR, ← EReal.coe_sub, ← EReal.coe_mul]
    rw [Finset.sum_congr rfl (fun i _ => this i), ← coe_sum, Ideal.div_coe hn0, ← EReal.coe_mul]
  -- the reciprocal square root
  have hrs : Ideal.rsqrt ((v : EReal) + eps) = (a : EReal) := by
    have hpos : 0 < v + e := by linarith
    rw [hee, ← EReal.coe_add, Ideal.rsqrt_coe, if_neg (not_lt.mpr hpos.le), if_neg hpos.ne']
  have hinvK : invK I k = (a : EReal) := by
    unfold invK
    rw [hvarK, hrs]
  have hhnR : ∀ i : Fin NN, hnR I i k = (((o i k - m) * a * γ k + β k : ℝ) : EReal) := by
    intro i
    unfold hnR
    rw [hoR, hmeanR, hvarR, hrs, hγ, hβ, ← EReal.coe_sub, ← EReal.coe_mul, ← EReal.coe_mul, ← EReal.coe_add]
  -- the graph's nodes
  set s : Finset (Fin NN) := Finset.univ.filter (fun i : Fin NN => I.bat i = (g.val : ℤ)) with hs
  have hsR : sR I g k = ((∑ i ∈ s, ((o i k - m) * a * γ k + β k) : ℝ) : EReal) := by
    unfold sR
    rw [Finset.sum_congr rfl (fun i _ => hhnR i), ← coe_sum]
  have hcK : cntK I g = ((s.card : ℝ) : EReal) := cntK_eq I g
  have hcR : cntR I g = ((s.card : ℝ) : EReal) := cntR_eq I g
  have hpK : poolK I g k = ((∑ i ∈ s, o i k : ℝ) : EReal) := poolK_eq I o ho g k
  unfold gK gR
  rw [hcK, hcR, hsR]
  rcases Nat.eq_zero_or_pos s.card with hc | hc
  · -- an empty graph
    have hse : s = ∅ := Finset.card_eq_zero.mp hc
    rw [hc, if_neg (by simp), hse, Finset.sum_empty, Nat.cast_zero, EReal.coe_zero, max_eq_right zero_le_one,
      ← EReal.coe_one, Ideal.div_coe one_ne_zero, zero_mul]
  · -- a graph with nodes
    have hc1 : (1 : ℝ) ≤ (s.card : ℝ) := by exact_mod_cast hc
    have hcpos : (0 : ℝ) < (s.card : ℝ) := by exact_mod_cast hc
    have hc0 : (s.card : ℝ) ≠ 0 := hcpos.ne'
    have hmax : max (((s.card : ℝ) : EReal)) 1 = ((s.card : ℝ) : EReal) :=
      max_eq_left (by rw [← EReal.coe_one]; exact EReal.coe_le_coe_iff.mpr hc1)
    rw [if_pos (EReal.coe_pos.mpr hcpos), hmax, hpK, hmeanK, hinvK, hγ, hβ,
      Ideal.div_coe hc0, Ideal.div_coe hc0, ← EReal.coe_mul, ← EReal.coe_sub, ← EReal.coe_mul, ← EReal.coe_mul,
      ← EReal.coe_add, ← EReal.coe_mul, sum_norm]
    refine congrArg (fun x : ℝ => (x : EReal)) ?_
    field_simp

end Cert.Spec

end
-- ==== Proof.Math.lean ====
/-
  The two computations agree up to the dense layers' input.
-/
import proofs.«417852_j54494545052225_3_alg».proof.Proof.MathGcn
import proofs.«417852_j54494545052225_3_alg».proof.Proof.MathNorm

noncomputable section

namespace Cert.Spec

/-- For real inputs, the kernel side's normalised per-graph means are the reference's. -/
theorem gK_eq_gR (I : Inp) (hI : I.Finite) : gK I = gR I :=
  gK_eq_gR_of I hI (hbK_real I hI) (hbK_eq_outR I hI)

end Cert.Spec

end
-- ==== Proof.PreDecode.lean ====
/-
  The precondition read back. The printed predicate is a conjunction, by the one-bit "and", of twelve "all entries" tests:
  eleven say of a float argument that every entry has absolute value below +∞, the twelfth says of row 0 of the edge
  list that every word, read signed, lies in [0, 100000). A one-bit "and" is 1 only if both operands are; an "all" that
  is 1 had a 1 at every entry; an extended real whose absolute value is below +∞ is a real number; and the row, cut out
  and flattened, reads at e the edge list at (0, e).
-/
import proofs.«417852_j54494545052225_3_alg».proof.Proof.Glue
import proofs.«417852_j54494545052225_3_alg».proof.Pre_finite_inputs
import Idealize.ShloMosaic.Lib.ReduceAll
import Idealize.ShloMosaic.Lib.StableHlo.Predicate
import Idealize.ShloMosaic.Lib.ValueIdx
import Idealize.ShloMosaic.Lib.ValueLayout
import Idealize.ShloMosaic.Lib.IdealHost
import Idealize.ShloMosaic.PureOps.Ideal.Laws

noncomputable section

namespace Cert.Glue

open Idealize.ShloMosaic Idealize.ShloMosaic.ValueIdx Cert.Spec Cert.Pre_finite_inputs

/-- the scalar shape has one index -/
instance subsingleton_scalar_idx : Subsingleton S_.Idx := ⟨fun a b => funext fun d => d.elim0⟩

/-- the pattern of +∞ -/
theorem ofBits_inf_f32 : Ideal.ofBits .f32 0x7F800000#32 = ⊤ := by simp [Ideal.ofBits, Ideal.ieee]

/-- An extended real whose absolute value compares below +∞ is a real number. -/
theorem real_of_abs_lt_inf (x : EReal)
    (h : Ideal.cmp .olt (max x (-x)) (Ideal.ofBits .f32 0x7F800000#32) = 1#1) : ∃ r : ℝ, x = (r : EReal) := by
  rw [ofBits_inf_f32] at h
  unfold Ideal.cmp at h
  rw [StableHlo.Predicate.ofBool_eq_one_iff, decide_eq_true_eq] at h
  induction x using EReal.rec with
  | bot => simp at h
  | coe r => exact ⟨r, rfl⟩
  | top => simp at h

/-- A one-bit "and" of two arrays is 1 at an index exactly when both are. -/
theorem andi_apply_eq_one {s : Shape} (A B : IVec s 1) (i : s.Idx) : andi A B i = 1#1 ↔ A i = 1#1 ∧ B i = 1#1 :=
  IntOp.andi_eq_one

/-- "All entries of a have absolute value below +∞" gives a real behind every entry. -/
theorem real_of_all_finite {s : Shape} {axes : List (Fin s.rank)} (a : FVec Ideal s .f32)
    (hb : S_.BroadcastsInDim s (![] : Fin 0 → Fin s.rank)) (hr : s.ReducesTo axes S_) (hu : 0 < S_.numel)
    (e : Host.reduce IntOp.andi
        (cmpf .olt (Host.absf a) (broadcastInDim s ![] hb (constant (F := Ideal) S_ .f32 0x7F800000#32)))
        (constantI S_ 1 1#1) hr hu ix0 = 1#1)
    (i : s.Idx) : ∃ r : ℝ, a i = (r : EReal) := by
  have hi := Host.reduce_andi_all _ _ hr hu ix0 e i
  rw [cmpf_apply, broadcastInDim_scalar_apply, constant_apply] at hi
  exact real_of_abs_lt_inf _ hi

/-- A word compare of two arrays at an index compares the words there. -/
theorem cmpi_at {s : Shape} {w : Nat} (p : CmpIPredicate) (A B : IVec s w) (i : s.Idx) :
    cmpi p A B i = IntOp.cmpi p (A i) (B i) := rfl

/-- Row 0 of the edge list, cut out and flattened, reads at e the edge list at (0, e). -/
theorem row0_apply (a1 : IVec S2x1600000 32) (hs : S2x1600000.Slices ![0, 0] S1x1600000)
    (hc : S1x1600000.ShapeCasts S1600000) (e : Fin 1600000) :
    shapeCast S1600000 (extractStridedSlice S1x1600000 ![0, 0] a1 hs) hc (ix1 e) = a1 (ix2 (0 : Fin 2) e) := by
  rw [shapeCast_1a_a_apply]
  exact slice2_axis0_apply 0 a1 hs (0 : Fin 1) e (0 : Fin 2) rfl

/-- "All words of w are at least 0 and below 100000, signed" gives the two bounds at every index. -/
theorem range_of_all {axes : List (Fin S1600000.rank)} (w : IVec S1600000 32)
    (hb : S_.BroadcastsInDim S1600000 (![] : Fin 0 → Fin S1600000.rank)) (hr : S1600000.ReducesTo axes S_)
    (hu : 0 < S_.numel)
    (e : Host.reduce IntOp.andi
        (andi (cmpi .sge w (broadcastInDim S1600000 ![] hb (constantI S_ 32 0#32)))
          (cmpi .slt w (broadcastInDim S1600000 ![] hb (constantI S_ 32 100000#32))))
        (constantI S_ 1 1#1) hr hu ix0 = 1#1)
    (i : S1600000.Idx) : 0 ≤ (w i).toInt ∧ (w i).toInt < 100000 := by
  have hi := Host.reduce_andi_all _ _ hr hu ix0 e i
  rw [andi_apply_eq_one, cmpi_at, cmpi_at, broadcastInDim_scalar_apply, broadcastInDim_scalar_apply, constantI_apply,
    constantI_apply, IntOp.cmpi_sge, IntOp.cmpi_slt] at hi
  have z : (0#32 : BitVec 32).toInt = 0 := by decide
  have c : (100000#32 : BitVec 32).toInt = 100000 := by decide
  rw [z, c] at hi
  exact hi

variable [Cert.Pre_finite_inputs.Facts]

/-- Under the precondition every float the two computations read is a real number. -/
theorem finite_of_pre (a0 : FVec Ideal S100000x128 .f32) (a1 : IVec S2x1600000 32) (a2 : IVec S100000 32)
    (a3 : FVec Ideal S128x128 .f32) (a4 a5 a6 : FVec Ideal S128 .f32) (a7 : FVec Ideal S128x256 .f32)
    (a8 : FVec Ideal S256 .f32) (a9 : FVec Ideal S256x128 .f32) (a10 : FVec Ideal S128 .f32)
    (a11 : FVec Ideal S128x1 .f32) (a12 : FVec Ideal S1 .f32)
    (h : Cert.Pre_finite_inputs.fn (F := Ideal) a0 a1 a2 a3 a4 a5 a6 a7 a8 a9 a10 a11 a12 = fun _ => 1#1) :
    (inpOf a0 a1 a2 a3 a4 a5 a6).Finite := by
  have e := congrFun h ix0
  dsimp only [fn, fn_part1, fn_part2, fn_part3] at e
  simp only [andi_apply_eq_one] at e
  obtain ⟨⟨⟨⟨⟨⟨⟨⟨⟨⟨⟨h0, h3⟩, h4⟩, h5⟩, h6⟩, -⟩, -⟩, -⟩, -⟩, -⟩, -⟩, -⟩ := e
  exact
    { x := fun i j => real_of_all_finite a0 _ _ _ h0 (ix2 i j)
      Wg := fun j k => real_of_all_finite a3 _ _ _ h3 (ix2 j k)
      bg := fun k => real_of_all_finite a4 _ _ _ h4 (iv k)
      gam := fun k => real_of_all_finite a5 _ _ _ h5 (iv k)
      bet := fun k => real_of_all_finite a6 _ _ _ h6 (iv k) }

/-- Under the precondition every edge's source word names a node. -/
theorem srcOk_of_pre (a0 : FVec Ideal S100000x128 .f32) (a1 : IVec S2x1600000 32) (a2 : IVec S100000 32)
    (a3 : FVec Ideal S128x128 .f32) (a4 a5 a6 : FVec Ideal S128 .f32) (a7 : FVec Ideal S128x256 .f32)
    (a8 : FVec Ideal S256 .f32) (a9 : FVec Ideal S256x128 .f32) (a10 : FVec Ideal S128 .f32)
    (a11 : FVec Ideal S128x1 .f32) (a12 : FVec Ideal S1 .f32)
    (h : Cert.Pre_finite_inputs.fn (F := Ideal) a0 a1 a2 a3 a4 a5 a6 a7 a8 a9 a10 a11 a12 = fun _ => 1#1) :
    SrcOk a1 := by
  have e := congrFun h ix0
  dsimp only [fn, fn_part1, fn_part2, fn_part3] at e
  simp only [andi_apply_eq_one] at e
  obtain ⟨-, hidx⟩ := e
  intro ed
  have hr := range_of_all _ _ _ _ hidx (ix1 ed)
  rw [row0_apply] at hr
  exact hr

end Cert.Glue

end
-- ==== Proof.lean ====
/-
  One graph-convolution layer with its symmetric degree normalisation, batch normalisation over the nodes, the mean over
  each graph's nodes and three dense layers: the kernel program against its plain reference, over the extended reals.

  The kernel program factorises the normalisation dis[src] · dis[dst]: it scales the linear map once per node, lets the
  edges carry the scaled rows, and multiplies by dis[dst] after summing, the node's own message added as a summand; it
  takes mean and variance from one pass (sum and sum of squares, the variance clipped at 0) and applies the normalisation
  to the per-graph means instead of to every node. On real inputs whose edge sources name nodes these are the reference's
  numbers: distributivity over real sums, the identity Σ(h − mean)² = Σh² − n·mean², and the affine normalisation
  commuting with a mean. The frames of the two kernel programs are three regions each, the middle one carrying four
  accumulators across its 56 grid points; the reference's frame is its run.
-/
import proofs.«417852_j54494545052225_3_alg».proof.Defs
import proofs.«417852_j54494545052225_3_alg».proof.Proof.Gen.Kernel
import proofs.«417852_j54494545052225_3_alg».proof.Proof.Gen.KernelIdeal
import proofs.«417852_j54494545052225_3_alg».proof.Proof.Gen.ReferenceIdeal
import proofs.«417852_j54494545052225_3_alg».proof.Proof.Gen.Pre_finite_inputs
import proofs.«417852_j54494545052225_3_alg».proof.Proof.K.Run
import proofs.«417852_j54494545052225_3_alg».proof.Proof.KI.Run
import proofs.«417852_j54494545052225_3_alg».proof.Proof.KerVal
import proofs.«417852_j54494545052225_3_alg».proof.Proof.RefVal
import proofs.«417852_j54494545052225_3_alg».proof.Proof.Math
import proofs.«417852_j54494545052225_3_alg».proof.Proof.PreDecode
import Idealize.ShloMosaic.Adequacy
import Idealize.ShloMosaic.Init

set_option maxRecDepth 16384

noncomputable section

namespace Cert.Proof

open Idealize.ShloMosaic Idealize.ShloMosaic.TcCoe Idealize.ShloMosaic.ValueIdx Idealize.SL.Sem

/-- The word-level kernel program runs to the end, faults nowhere and leaves its arguments as launched. -/
theorem frame_k : Cert.frame_Kernel := fun m ρ _ => Cert.Kernel.Hand.frame m ρ

/-- So does the idealized kernel program. -/
theorem frame_ki : Cert.frame_KernelIdeal := fun m ρ _ => Cert.KernelIdeal.Hand.frame m ρ

/-- The reference's frame is its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- From memories that agree on the arguments both programs end with one result: entry r of either is the dense
    layers of the normalised per-graph means, and the two sides' means are equal on real inputs whose edge sources
    name nodes (what the precondition says). -/
theorem algebraic : Cert.algebraic_KernelIdeal_ReferenceIdeal := by
  intro m ρ m' ρ' hpre hagree
  refine ⟨fun c => Cert.KernelIdeal.Gen.V12 m (Cert.KernelIdeal.Hand.outsV m) c Cert.KernelIdeal.main_v62, ?_, ?_⟩
  · -- the kernel program: every unscoped buffer ends at the last valuation; the arguments were never written
    refine (θ_run Cert.KernelIdeal.defs _ _).mono (fun r h c => ?_) (Cert.KernelIdeal.Hand.run (F := Ideal) m ρ)
    have hc := h c
    exact ⟨hc (Proc.devRef .tc Cert.KernelIdeal.main_v62) (Finset.mem_filter.mpr ⟨StableHlo.devRef_mem_tcRefs Cert.KernelIdeal.main_v62, by decide⟩),
      (hc (Proc.devRef .tc Cert.KernelIdeal.main_arg0) (Finset.mem_filter.mpr ⟨StableHlo.devRef_mem_tcRefs Cert.KernelIdeal.main_arg0, by decide⟩)).trans (Cert.KernelIdeal.Gen.V12_main_arg0 m (Cert.KernelIdeal.Hand.outsV m) c),
      (hc (Proc.devRef .tc Cert.KernelIdeal.main_arg1) (Finset.mem_filter.mpr ⟨StableHlo.devRef_mem_tcRefs Cert.KernelIdeal.main_arg1, by decide⟩)).trans (Cert.KernelIdeal.Gen.V12_main_arg1 m (Cert.KernelIdeal.Hand.outsV m) c),
      (hc (Proc.devRef .tc Cert.KernelIdeal.main_arg2) (Finset.mem_filter.mpr ⟨StableHlo.devRef_mem_tcRefs Cert.KernelIdeal.main_arg2, by decide⟩)).trans (Cert.KernelIdeal.Gen.V12_main_arg2 m (Cert.KernelIdeal.Hand.outsV m) c),
      (hc (Proc.devRef .tc Cert.KernelIdeal.main_arg3) (Finset.mem_filter.mpr ⟨StableHlo.devRef_mem_tcRefs Cert.KernelIdeal.main_arg3, by decide⟩)).trans (Cert.KernelIdeal.Gen.V12_main_arg3 m (Cert.KernelIdeal.Hand.outsV m) c),
      (hc (Proc.devRef .tc Cert.KernelIdeal.main_arg4) (Finset.mem_filter.mpr ⟨StableHlo.devRef_mem_tcRefs Cert.KernelIdeal.main_arg4, by decide⟩)).trans (Cert.KernelIdeal.Gen.V12_main_arg4 m (Cert.KernelIdeal.Hand.outsV m) c),
      (hc (Proc.devRef .tc Cert.KernelIdeal.main_arg5) (Finset.mem_filter.mpr ⟨StableHlo.devRef_mem_tcRefs Cert.KernelIdeal.main_arg5, by decide⟩)).trans (Cert.KernelIdeal.Gen.V12_main_arg5 m (Cert.KernelIdeal.Hand.outsV m) c),
      (hc (Proc.devRef .tc Cert.KernelIdeal.main_arg6) (Finset.mem_filter.mpr ⟨StableHlo.devRef_mem_tcRefs Cert.KernelIdeal.main_arg6, by decide⟩)).trans (Cert.KernelIdeal.Gen.V12_main_arg6 m (Cert.KernelIdeal.Hand.outsV m) c),
      (hc (Proc.devRef .tc Cert.KernelIdeal.main_arg7) (Finset.mem_filter.mpr ⟨StableHlo.devRef_mem_tcRefs Cert.KernelIdeal.main_arg7, by decide⟩)).trans (Cert.KernelIdeal.Gen.V12_main_arg7 m (Cert.KernelIdeal.Hand.outsV m) c),
      (hc (Proc.devRef .tc Cert.KernelIdeal.main_arg8) (Finset.mem_filter.mpr ⟨StableHlo.devRef_mem_tcRefs Cert.KernelIdeal.main_arg8, by decide⟩)).trans (Cert.KernelIdeal.Gen.V12_main_arg8 m (Cert.KernelIdeal.Hand.outsV m) c),
      (hc (Proc.devRef .tc Cert.KernelIdeal.main_arg9) (Finset.mem_filter.mpr ⟨StableHlo.devRef_mem_tcRefs Cert.KernelIdeal.main_arg9, by decide⟩)).trans (Cert.KernelIdeal.Gen.V12_main_arg9 m (Cert.KernelIdeal.Hand.outsV m) c),
      (hc (Proc.devRef .tc Cert.KernelIdeal.main_arg10) (Finset.mem_filter.mpr ⟨StableHlo.devRef_mem_tcRefs Cert.KernelIdeal.main_arg10, by decide⟩)).trans (Cert.KernelIdeal.Gen.V12_main_arg10 m (Cert.KernelIdeal.Hand.outsV m) c),
      (hc (Proc.devRef .tc Cert.KernelIdeal.main_arg11) (Finset.mem_filter.mpr ⟨StableHlo.devRef_mem_tcRefs Cert.KernelIdeal.main_arg11, by decide⟩)).trans (Cert.KernelIdeal.Gen.V12_main_arg11 m (Cert.KernelIdeal.Hand.outsV m) c),
      (hc (Proc.devRef .tc Cert.KernelIdeal.main_arg12) (Finset.mem_filter.mpr ⟨StableHlo.devRef_mem_tcRefs Cert.KernelIdeal.main_arg12, by decide⟩)).trans (Cert.KernelIdeal.Gen.V12_main_arg12 m (Cert.KernelIdeal.Hand.outsV m) c)⟩
  · -- the reference: its run's result is its last stage, read entry by entry
    refine (θ_run Cert.ReferenceIdeal.defs _ _).mono (fun r h c => ⟨(h c).1.trans ?_, (h c).2⟩)
      (Cert.ReferenceIdeal.ValueP.run (F := Ideal) m' ρ')
    obtain ⟨e0, e1, e2, e3, e4, e5, e6, e7, e8, e9, e10, e11, e12⟩ := hagree c
    rw [Cert.ReferenceIdeal.ReadP.val_main_v99_eq, e0, e1, e2, e3, e4, e5, e6, e7, e8, e9, e10, e11, e12]
    have hs : Cert.Glue.SrcOk (m ((c.tc : Thread Cert.KernelIdeal.nD Cert.KernelIdeal.τ).loc Cert.KernelIdeal.main_arg1)) :=
      Cert.Glue.srcOk_of_pre _ _ _ _ _ _ _ _ _ _ _ _ _ (hpre c)
    have hfin : (Cert.KerVal.inpK m c).Finite := Cert.Glue.finite_of_pre _ _ _ _ _ _ _ _ _ _ _ _ _ (hpre c)
    funext j
    obtain ⟨q, z, rfl⟩ : ∃ (q : Fin 512) (z : Fin 1), j = ix2 q z := ⟨j 0, j 1, eq_ix2 j⟩
    obtain rfl : z = 0 := Subsingleton.elim _ _
    refine (Cert.RefVal.ref_result _ _ _ _ _ _ _ _ _ _ _ _ _ hs q).trans ?_
    refine Eq.trans ?_ (Cert.KerVal.ker_result m c (Cert.KernelIdeal.Hand.outsV m) (Cert.KernelIdeal.Hand.outsV_5 m c)
      (Cert.KernelIdeal.Hand.outsV_8_0 m c) (Cert.KernelIdeal.Hand.outsV_8_1 m c) (Cert.KernelIdeal.Hand.outsV_8_2 m c)
      (Cert.KernelIdeal.Hand.outsV_8_3 m c) (Cert.KernelIdeal.Hand.outsV_12 m c) hs q).symm
    show Cert.Spec.mlp (Cert.Spec.gR (Cert.KerVal.inpK m c)) _ _ _ _ _ _ q = Cert.Spec.mlp (Cert.Spec.gK (Cert.KerVal.inpK m c)) _ _ _ _ _ _ q
    rw [Cert.Spec.gK_eq_gR _ hfin]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
